-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S100000x1 : Shape := ⟨2, ![100000, 1]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S100000x1 : S_.BroadcastsInDim S100000x1 (![] : Fin 0 → Fin S100000x1.rank)
  reducesTo_S100000x1_S_d0_1 : S100000x1.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_v30 : IVec S_ 1) (main_v32 : IVec S1600000 1) : IVec S_ 1 :=
  let main_c_13 : IVec S_ 1 := constantI S_ 1 1#1
  let main_v33 : IVec S_ 1 := (fun x v => Host.reduce IntOp.andi x v reducesTo_S1600000_S_d0 h_S_) main_v32 main_c_13
  let main_v34 : IVec S_ 1 := andi main_v30 main_v33
  main_v34

def fn_part1 {F : FTy → Type} [FloatOps F] (main_arg2 : IVec S1600000 32) (main_arg3 : IVec S1600000 32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_c_6 : IVec S_ 32 := constantI S_ 32 0#32
  let main_v19 : IVec S1600000 32 := broadcastInDim S1600000 ![] bcast_S_S1600000 main_c_6
  let main_v20 : IVec S1600000 1 := cmpi .sge main_arg2 main_v19
  let main_c_7 : IVec S_ 1 := constantI S_ 1 1#1
  let main_v21 : IVec S_ 1 := (fun x v => Host.reduce IntOp.andi x v reducesTo_S1600000_S_d0 h_S_) main_v20 main_c_7
  let main_v22 : IVec S_ 1 := andi main_v18 main_v21
  let main_c_8 : IVec S_ 32 := constantI S_ 32 100000#32
  let main_v23 : IVec S1600000 32 := broadcastInDim S1600000 ![] bcast_S_S1600000 main_c_8
  let main_v24 : IVec S1600000 1 := cmpi .slt main_arg2 main_v23
  let main_c_9 : IVec S_ 1 := constantI S_ 1 1#1
  let main_v25 : IVec S_ 1 := (fun x v => Host.reduce IntOp.andi x v reducesTo_S1600000_S_d0 h_S_) main_v24 main_c_9
  let main_v26 : IVec S_ 1 := andi main_v22 main_v25
  let main_c_10 : IVec S_ 32 := constantI S_ 32 0#32
  let main_v27 : IVec S1600000 32 := broadcastInDim S1600000 ![] bcast_S_S1600000 main_c_10
  let main_v28 : IVec S1600000 1 := cmpi .sge main_arg3 main_v27
  let main_c_11 : IVec S_ 1 := constantI S_ 1 1#1
  let main_v29 : IVec S_ 1 := (fun x v => Host.reduce IntOp.andi x v reducesTo_S1600000_S_d0 h_S_) main_v28 main_c_11
  let main_v30 : IVec S_ 1 := andi main_v26 main_v29
  let main_c_12 : IVec S_ 32 := constantI S_ 32 100000#32
  let main_v31 : IVec S1600000 32 := broadcastInDim S1600000 ![] bcast_S_S1600000 main_c_12
  let main_v32 : IVec S1600000 1 := cmpi .slt main_arg3 main_v31
  fn_part2 (F := F) main_v30 main_v32

def fn {F : FTy → Type} [FloatOps F] (main_arg0 : FVec F S100000x64 .f32) (main_arg1 : FVec F S100000x1 .f32) (main_arg2 : IVec S1600000 32) (main_arg3 : IVec S1600000 32) (main_arg4 : FVec F S64x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x1 .f32 := Host.absf main_arg1
  let main_cst_0 : FVec F S_ .f32 := constant S_ .f32 0x7F800000#32
  let main_v5 : FVec F S100000x1 .f32 := broadcastInDim S100000x1 ![] bcast_S_S100000x1 main_cst_0
  let main_v6 : IVec S100000x1 1 := cmpf .olt main_v4 main_v5
  let main_c_1 : IVec S_ 1 := constantI S_ 1 1#1
  let main_v7 : IVec S_ 1 := (fun x v => Host.reduce IntOp.andi x v reducesTo_S100000x1_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg2 main_arg3 main_v13 main_v16
-- ==== Kernel.lean ====
abbrev S100000x64 : Shape := ⟨2, ![100000, 64]⟩
abbrev S100000x1 : Shape := ⟨2, ![100000, 1]⟩
abbrev S1600000 : Shape := ⟨1, ![1600000]⟩
abbrev S64x64 : Shape := ⟨2, ![64, 64]⟩
abbrev S64 : Shape := ⟨1, ![64]⟩
abbrev S_ : Shape := ⟨0, ![]⟩
abbrev S101376x64 : Shape := ⟨2, ![101376, 64]⟩
abbrev S101376x1 : Shape := ⟨2, ![101376, 1]⟩
abbrev S2304x64 : Shape := ⟨2, ![2304, 64]⟩
abbrev S2304x1 : Shape := ⟨2, ![2304, 1]⟩
abbrev S1601280 : Shape := ⟨1, ![1601280]⟩
abbrev S1601280x1 : Shape := ⟨2, ![1601280, 1]⟩
abbrev S1x1601280 : Shape := ⟨2, ![1, 1601280]⟩
abbrev S1601280x64 : Shape := ⟨2, ![1601280, 64]⟩
abbrev S1x2304 : Shape := ⟨2, ![1, 2304]⟩
abbrev S2304x2304 : Shape := ⟨2, ![2304, 2304]⟩
abbrev S1x64 : Shape := ⟨2, ![1, 64]⟩

abbrev nBuf : Space → Nat
  | .hbm => 29
  | .vmem => 38
  | .smem => 0
  | _ => 0

abbrev bufTy : (tb : Table) → Fin (tcTables nBuf tb) → BufTy
  | .hbm, ⟨0, _⟩ => ⟨S100000x64, .f32⟩
  | .hbm, ⟨1, _⟩ => ⟨S100000x1, .f32⟩
  | .hbm, ⟨2, _⟩ => ⟨S1600000, .i32⟩
  | .hbm, ⟨3, _⟩ => ⟨S1600000, .i32⟩
  | .hbm, ⟨4, _⟩ => ⟨S64x64, .f32⟩
  | .hbm, ⟨5, _⟩ => ⟨S64, .f32⟩
  | .hbm, ⟨6, _⟩ => ⟨S_, .i32⟩
  | .hbm, ⟨7, _⟩ => ⟨S_, .f32⟩
  | .hbm, ⟨8, _⟩ => ⟨S101376x64, .f32⟩
  | .hbm, ⟨9, _⟩ => ⟨S_, .i32⟩
  | .hbm, ⟨10, _⟩ => ⟨S_, .f32⟩
  | .hbm, ⟨11, _⟩ => ⟨S101376x1, .f32⟩
  | .hbm, ⟨12, _⟩ => ⟨S101376x64, .f32⟩
  | .hbm, ⟨13, _⟩ => ⟨S101376x64, .bf16⟩
  | .hbm, ⟨14, _⟩ => ⟨S_, .i32⟩
  | .hbm, ⟨15, _⟩ => ⟨S_, .i32⟩
  | .hbm, ⟨16, _⟩ => ⟨S1601280, .i32⟩
  | .hbm, ⟨17, _⟩ => ⟨S_, .i32⟩
  | .hbm, ⟨18, _⟩ => ⟨S_, .i32⟩
  | .hbm, ⟨19, _⟩ => ⟨S1601280, .i32⟩
  | .hbm, ⟨20, _⟩ => ⟨S1601280x1, .i32⟩
  | .hbm, ⟨21, _⟩ => ⟨S1601280x1, .i32⟩
  | .hbm, ⟨22, _⟩ => ⟨S1x1601280, .i32⟩
  | .hbm, ⟨23, _⟩ => ⟨S1x1601280, .i32⟩
  | .hbm, ⟨24, _⟩ => ⟨S1601280x64, .bf16⟩
  | .hbm, ⟨25, _⟩ => ⟨S1601280x64, .bf16⟩
  | .hbm, ⟨26, _⟩ => ⟨S1x64, .f32⟩
  | .hbm, ⟨27, _⟩ => ⟨S101376x64, .f32⟩
  | .hbm, ⟨28, _⟩ => ⟨S100000x64, .f32⟩
  | .local _ .vmem, ⟨0, _⟩ => ⟨S2304x64, .f32⟩
  | .local _ .vmem, ⟨1, _⟩ => ⟨S2304x64, .f32⟩
  | .local _ .vmem, ⟨2, _⟩ => ⟨S2304x1, .f32⟩
  | .local _ .vmem, ⟨3, _⟩ => ⟨S2304x1, .f32⟩
  | .local _ .vmem, ⟨4, _⟩ => ⟨S2304x64, .f32⟩
  | .local _ .vmem, ⟨5, _⟩ => ⟨S2304x64, .f32⟩
  | .local _ .vmem, ⟨6, _⟩ => ⟨S2304x64, .bf16⟩
  | .local _ .vmem, ⟨7, _⟩ => ⟨S2304x64, .bf16⟩
  | .local _ .vmem, ⟨8, _⟩ => ⟨S2304x1, .i32⟩
  | .local _ .vmem, ⟨9, _⟩ => ⟨S2304x1, .i32⟩
  | .local _ .vmem, ⟨10, _⟩ => ⟨S2304x1, .i32⟩
  | .local _ .vmem, ⟨11, _⟩ => ⟨S2304x1, .i32⟩
  | .local _ .vmem, ⟨12, _⟩ => ⟨S2304x64, .bf16⟩
  | .local _ .vmem, ⟨13, _⟩ => ⟨S2304x64, .bf16⟩
  | .local _ .vmem, ⟨14, _⟩ => ⟨S2304x64, .bf16⟩
  | .local _ .vmem, ⟨15, _⟩ => ⟨S2304x64, .bf16⟩
  | .local _ .vmem, ⟨16, _⟩ => ⟨S2304x64, .bf16⟩
  | .local _ .vmem, ⟨17, _⟩ => ⟨S2304x64, .bf16⟩
  | .local _ .vmem, ⟨18, _⟩ => ⟨S2304x64, .f32⟩
  | .local _ .vmem, ⟨19, _⟩ => ⟨S2304x64, .f32⟩
  | .local _ .vmem, ⟨20, _⟩ => ⟨S1x2304, .i32⟩
  | .local _ .vmem, ⟨21, _⟩ => ⟨S1x2304, .i32⟩
  | .local _ .vmem, ⟨22, _⟩ => ⟨S1x2304, .i32⟩
  | .local _ .vmem, ⟨23, _⟩ => ⟨S1x2304, .i32⟩
  | .local _ .vmem, ⟨24, _⟩ => ⟨S2304x64, .bf16⟩
  | .local _ .vmem, ⟨25, _⟩ => ⟨S2304x64, .bf16⟩
  | .local _ .vmem, ⟨26, _⟩ => ⟨S2304x64, .bf16⟩
  | .local _ .vmem, ⟨27, _⟩ => ⟨S2304x64, .bf16⟩
  | .local _ .vmem, ⟨28, _⟩ => ⟨S2304x64, .f32⟩
  | .local _ .vmem, ⟨29, _⟩ => ⟨S2304x64, .f32⟩
  | .local _ .vmem, ⟨30, _⟩ => ⟨S2304x1, .f32⟩
  | .local _ .vmem, ⟨31, _⟩ => ⟨S2304x1, .f32⟩
  | .local _ .vmem, ⟨32, _⟩ => ⟨S64x64, .f32⟩
  | .local _ .vmem, ⟨33, _⟩ => ⟨S1x64, .f32⟩
  | .local _ .vmem, ⟨34, _⟩ => ⟨S2304x64, .f32⟩
  | .local _ .vmem, ⟨35, _⟩ => ⟨S2304x64, .f32⟩
  | .local _ .vmem, ⟨36, _⟩ => ⟨S2304x64, .f32⟩
  | .local _ .vmem, ⟨37, _⟩ => ⟨S2304x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_c_0 : Ref sig .tc := ⟨.hbm, 9, rfl⟩
abbrev main_call1_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_c_1 : Ref sig .tc := ⟨.hbm, 14, rfl⟩
abbrev main_call2_v0 : Ref sig .tc := ⟨.hbm, 15, rfl⟩
abbrev main_v3 : Ref sig .tc := ⟨.hbm, 16, rfl⟩
abbrev main_c_2 : Ref sig .tc := ⟨.hbm, 17, rfl⟩
abbrev main_call3_v0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9_0 : Ref sig .tc := ⟨.hbm, 24, rfl⟩
abbrev main_v9_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_scratch0 : Ref sig .tc := ⟨.vmem, 18, rfl⟩
abbrev cc1_scratch1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg4_1 : Ref sig .tc := ⟨.vmem, 29, rfl⟩
abbrev cc2_stg5_0 : Ref sig .tc := ⟨.vmem, 30, rfl⟩
abbrev cc2_stg5_1 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg8_0 : Ref sig .tc := ⟨.vmem, 34, rfl⟩
abbrev cc2_stg8_1 : Ref sig .tc := ⟨.vmem, 35, rfl⟩
abbrev cc2_scratch0 : Ref sig .tc := ⟨.vmem, 36, rfl⟩
abbrev cc2_scratch1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem4_1 : DmaSem sig := 27
abbrev cc2_sem5_0 : DmaSem sig := 28
abbrev cc2_sem5_1 : DmaSem sig := 29
abbrev cc2_sem6_0 : DmaSem sig := 30
abbrev cc2_sem7_0 : DmaSem sig := 31
abbrev cc2_sem8_0 : DmaSem sig := 32
abbrev cc2_sem8_1 : DmaSem sig := 33

abbrev nD : Nat := 1
abbrev τ : Topo := Topo.v7x

variable {F : FTy → Type} [FloatOps F]

abbrev grid0 : Pipeline.Grid := ⟨1, ![44], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2304x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2304x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2304x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2304x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![695, 44], ![false, false]⟩

def k1_cond2 (i : grid1.Coords) : BitVec 1 :=
  let arg1 : BitVec 32 := BitVec.ofNat 32 (i 1).val
  let c43_i32 : BitVec 32 := 43#32
  let v37 : BitVec 1 := Scalar.cmpi .eq arg1 c43_i32
  let v38 : BitVec 32 := Scalar.extui v37
  let c0_i32_15 : BitVec 32 := 0#32
  let v39 : BitVec 1 := Scalar.cmpi .ne v38 c0_i32_15
  v39

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2304x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2304x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2304x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2304x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S2304x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![44, 695], ![false, false]⟩

def k2_cond2 (i : grid2.Coords) : BitVec 1 :=
  let arg1 : BitVec 32 := BitVec.ofNat 32 (i 1).val
  let c694_i32 : BitVec 32 := 694#32
  let v39 : BitVec 1 := Scalar.cmpi .eq arg1 c694_i32
  let v40 : BitVec 32 := Scalar.extui v39
  let c0_i32_17 : BitVec 32 := 0#32
  let v41 : BitVec 1 := Scalar.cmpi .ne v40 c0_i32_17
  v41

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1x2304 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1x2304 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2304x64 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S2304x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S2304x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S2304x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 1 → Memref sig .tc .vmem S64x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 2 → Memref sig .tc .vmem S2304x64 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, false]

class Facts₀ : Prop where
  pads_S100000x64_S101376x64_013760_000 : S100000x64.Pads (![0, 0] : Fin 2 → Nat) ![1376, 0] ![0, 0] S101376x64
  h_S_ : 0 < S_.numel
  pads_S100000x1_S101376x1_013760_000 : S100000x1.Pads (![0, 0] : Fin 2 → Nat) ![1376, 0] ![0, 0] S101376x1
  inb_S2304x64_S2304x64_0_0 : ∀ a, (![0, 0] : Fin 2 → Nat) a + S2304x64.size a ≤ S2304x64.size a
  h_S2304x64 : 0 < S2304x64.numel
  shapeCasts_S2304x64_S2304x64 : S2304x64.ShapeCasts S2304x64
  inb_S2304x1_S2304x1_0_0 : ∀ a, (![0, 0] : Fin 2 → Nat) a + S2304x1.size a ≤ S2304x1.size a
  h_S2304x1 : 0 < S2304x1.numel
  shapeCasts_S2304x1_S2304x1 : S2304x1.ShapeCasts S2304x1
  broadcasts_S2304x1_S2304x64 : S2304x1.Broadcasts S2304x64
  bitsLt_bf16_f32 : FTy.bits .bf16 < FTy.bits .f32
  packedbf16_S2304x64_S2304x64_0_0 : (Rect.unit (s := S2304x64) ![0, 0] S2304x64.size inb_S2304x64_S2304x64_0_0).PackedRows (EltTy.packing .bf16)
  pads_S1600000_S1601280_012800 : S1600000.Pads (![0] : Fin 1 → Nat) ![1280] ![0] S1601280
  shapeCasts_S1601280_S1601280x1 : S1601280.ShapeCasts S1601280x1
  shapeCasts_S1601280_S1x1601280 : S1601280.ShapeCasts S1x1601280
  iota_S1x2304_d1_w32 : S1x2304.Iotas .tc 32 [1]
  broadcasts_S2304x1_S2304x2304 : S2304x1.Broadcasts S2304x2304
  broadcasts_S1x2304_S2304x2304 : S1x2304.Broadcasts S2304x2304
  natLt_1_32 : 1 < 32
  shapeCasts_S64_S1x64 : S64.ShapeCasts S1x64
  iota_S2304x1_d0_w32 : S2304x1.Iotas .tc 32 [0]
  inb_S1x2304_S1x2304_0_0 : ∀ a, (![0, 0] : Fin 2 → Nat) a + S1x2304.size a ≤ S1x2304.size a
  h_S1x2304 : 0 < S1x2304.numel
  shapeCasts_S1x2304_S1x2304 : S1x2304.ShapeCasts S1x2304
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2304x64 : S1x64.Broadcasts S2304x64
  slices_S101376x64_S100000x64_0_0 : S101376x64.Slices ![0, 0] S100000x64
  dot_S2304x2304_S2304x64_S2304x64_1_0_0_1_n_n_wf : DotDims.WF S2304x2304 S2304x64 S2304x64 [1] [0] [0] [1] [] []
  dot_S2304x64_S64x64_S2304x64_1_0_0_1_n_n_wf : DotDims.WF S2304x64 S64x64 S2304x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2304x64.size a ≤ S101376x64.size a
  hwx0_0 : ∀ i : grid0.Coords, EltTy.bits .f32 = 32 ∨ (Rect.block (s := S101376x64) S2304x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2304x1.size a ≤ S101376x1.size a
  hwx0_1 : ∀ i : grid0.Coords, EltTy.bits .f32 = 32 ∨ (Rect.block (s := S101376x1) S2304x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2304x64.size a ≤ S101376x64.size a
  hwx0_2 : ∀ i : grid0.Coords, EltTy.bits .f32 = 32 ∨ (Rect.block (s := S101376x64) S2304x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2304x64.size a ≤ S101376x64.size a
  hwx0_3 : ∀ i : grid0.Coords, EltTy.bits .bf16 = 32 ∨ (Rect.block (s := S101376x64) S2304x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2304x1.size a ≤ S1601280x1.size a
  hwx1_0 : ∀ i : grid1.Coords, EltTy.bits .i32 = 32 ∨ (Rect.block (s := S1601280x1) S2304x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2304x1.size a ≤ S1601280x1.size a
  hwx1_1 : ∀ i : grid1.Coords, EltTy.bits .i32 = 32 ∨ (Rect.block (s := S1601280x1) S2304x1.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2304x64.size a ≤ S101376x64.size a
  hwx1_2 : ∀ i : grid1.Coords, EltTy.bits .bf16 = 32 ∨ (Rect.block (s := S101376x64) S2304x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2304x64.size a ≤ S1601280x64.size a
  hwx1_3 : ∀ i : grid1.Coords, EltTy.bits .bf16 = 32 ∨ (Rect.block (s := S1601280x64) S2304x64.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2304x64.size a ≤ S1601280x64.size a
  hwx1_4 : ∀ i : grid1.Coords, EltTy.bits .bf16 = 32 ∨ (Rect.block (s := S1601280x64) S2304x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x2304.size a ≤ S1x1601280.size a
  hwx2_0 : ∀ i : grid2.Coords, EltTy.bits .i32 = 32 ∨ (Rect.block (s := S1x1601280) S1x2304.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x2304.size a ≤ S1x1601280.size a
  hwx2_1 : ∀ i : grid2.Coords, EltTy.bits .i32 = 32 ∨ (Rect.block (s := S1x1601280) S1x2304.size (cc2_transform_1 i) (hinb2_1 i)).WholeWords (EltTy.packing .i32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2304x64.size a ≤ S1601280x64.size a
  hwx2_2 : ∀ i : grid2.Coords, EltTy.bits .bf16 = 32 ∨ (Rect.block (s := S1601280x64) S2304x64.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2304x64.size a ≤ S1601280x64.size a
  hwx2_3 : ∀ i : grid2.Coords, EltTy.bits .bf16 = 32 ∨ (Rect.block (s := S1601280x64) S2304x64.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2304x64.size a ≤ S101376x64.size a
  hwx2_4 : ∀ i : grid2.Coords, EltTy.bits .f32 = 32 ∨ (Rect.block (s := S101376x64) S2304x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2304x1.size a ≤ S101376x1.size a
  hwx2_5 : ∀ i : grid2.Coords, EltTy.bits .f32 = 32 ∨ (Rect.block (s := S101376x1) S2304x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x64.size a ≤ S64x64.size a
  hwx2_6 : ∀ i : grid2.Coords, EltTy.bits .f32 = 32 ∨ (Rect.block (s := S64x64) S64x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2304x64.size a ≤ S101376x64.size a
  hwx2_8 : ∀ i : grid2.Coords, EltTy.bits .f32 = 32 ∨ (Rect.block (s := S101376x64) S2304x64.size (cc2_transform_8 i) (hinb2_8 i)).WholeWords (EltTy.packing .f32)

variable [Facts₀]

def dot_S2304x2304_S2304x64_S2304x64_1_0_0_1_n_n : DotDims S2304x2304 S2304x64 S2304x64 where
  lhsContracting := [1]
  rhsContracting := [0]
  lhsNonContracting := [0]
  rhsNonContracting := [1]
  lhsBatch := []
  rhsBatch := []
  wf := dot_S2304x2304_S2304x64_S2304x64_1_0_0_1_n_n_wf
def dot_S2304x64_S64x64_S2304x64_1_0_0_1_n_n : DotDims S2304x64 S64x64 S2304x64 where
  lhsContracting := [1]
  rhsContracting := [0]
  lhsNonContracting := [0]
  rhsNonContracting := [1]
  lhsBatch := []
  rhsBatch := []
  wf := dot_S2304x64_S64x64_S2304x64_1_0_0_1_n_n_wf

abbrev win0_0 : Pipeline.Window sig grid0 :=
  Pipeline.Window.ofSpec (Memref.whole main_v0) S2304x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2304x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S2304x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S2304x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S2304x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S2304x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2_1) S2304x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9_0) S2304x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v9_1) S2304x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun i => !(k1_cond2 i == 1#1) | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v8) S1x2304.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S1x2304.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v9_0) S2304x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v9_1) S2304x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v2_0) S2304x64.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v1) S2304x1.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_arg4) S64x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v10) S1x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v11) S2304x64.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev idle2 : Fin 9 → grid2.Coords → Bool := fun | 0 => fun _ => false | 1 => fun _ => false | 2 => fun _ => false | 3 => fun _ => false | 4 => fun _ => false | 5 => fun _ => false | 6 => fun _ => false | 7 => fun _ => false | 8 => fun i => !(k2_cond2 i == 1#1) | ⟨_ + 9, h⟩ => absurd h (Nat.not_lt.2 (Nat.le_add_left _ _))

class Facts : Prop extends Facts₀ where

variable [Facts]
-- ==== ReferenceIdeal.lean ====
abbrev S100000x64 : Shape := ⟨2, ![100000, 64]⟩
abbrev S100000x1 : Shape := ⟨2, ![100000, 1]⟩
abbrev S1600000 : Shape := ⟨1, ![1600000]⟩
abbrev S64x64 : Shape := ⟨2, ![64, 64]⟩
abbrev S64 : Shape := ⟨1, ![64]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩

abbrev nBuf : Space → Nat
  | .hbm => 45
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S100000x1, .f32⟩
  | .hbm, ⟨2, _⟩ => ⟨S1600000, .i32⟩
  | .hbm, ⟨3, _⟩ => ⟨S1600000, .i32⟩
  | .hbm, ⟨4, _⟩ => ⟨S64x64, .f32⟩
  | .hbm, ⟨5, _⟩ => ⟨S64, .f32⟩
  | .hbm, ⟨6, _⟩ => ⟨S100000x64, .f32⟩
  | .hbm, ⟨7, _⟩ => ⟨S100000x64, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .f32⟩
  | .hbm, ⟨17, _⟩ => ⟨S_, .f32⟩
  | .hbm, ⟨18, _⟩ => ⟨S100000x64, .f32⟩
  | .hbm, ⟨19, _⟩ => ⟨S1600000x1, .i32⟩
  | .hbm, ⟨20, _⟩ => ⟨S100000x64, .f32⟩
  | .hbm, ⟨21, _⟩ => ⟨S100000x64, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x64, .f32⟩
  | .hbm, ⟨31, _⟩ => ⟨S_, .f32⟩
  | .hbm, ⟨32, _⟩ => ⟨S100000x64, .f32⟩
  | .hbm, ⟨33, _⟩ => ⟨S1600000x1, .i32⟩
  | .hbm, ⟨34, _⟩ => ⟨S100000x64, .f32⟩
  | .hbm, ⟨35, _⟩ => ⟨S100000x64, .f32⟩
  | .hbm, ⟨36, _⟩ => ⟨S100000x64, .f32⟩
  | .hbm, ⟨37, _⟩ => ⟨S100000x64, .f32⟩
  | .hbm, ⟨38, _⟩ => ⟨S100000x64, .f32⟩
  | .hbm, ⟨39, _⟩ => ⟨S1x64, .f32⟩
  | .hbm, ⟨40, _⟩ => ⟨S100000x64, .f32⟩
  | .hbm, ⟨41, _⟩ => ⟨S100000x64, .f32⟩
  | .hbm, ⟨42, _⟩ => ⟨S_, .f32⟩
  | .hbm, ⟨43, _⟩ => ⟨S100000x64, .f32⟩
  | .hbm, ⟨44, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_call0_cst : Ref sig .tc := ⟨.hbm, 42, rfl⟩
abbrev main_call0_v0 : Ref sig .tc := ⟨.hbm, 43, rfl⟩
abbrev main_v30 : Ref sig .tc := ⟨.hbm, 44, rfl⟩

abbrev nD : Nat := 1
abbrev τ : Topo := Topo.v7x

variable {F : FTy → Type} [FloatOps F]

class Facts₀ : Prop where
  bcast_S100000x1_S100000x64_0_1 : S100000x1.BroadcastsInDim S100000x64 (![0, 1] : Fin 2 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.K.Sched.lean ====
import proofs.«425878_j39771397161472_2_alg».proof.Proof.Gen.Kernel.Launch
import proofs.«425878_j39771397161472_2_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The three grids' schedules, in closed form

Grid 0 is a line of 44 points. Grid 1 has 695 × 44 points, point `t` at coordinates `(t / 44, t % 44)`; grid 2 has
44 × 695 points, point `t` at `(t / 695, t % 695)`. An output block is written back at the last point of its run. -/

theorem N_0' : cfg0.N = 44 := N_0
theorem N_1' : cfg1.N = 30580 := N_1
theorem N_2' : cfg2.N = 30580 := N_2

/-- The current staging memref of each window at a point, and the kernel body as the pipeline calls it there. -/
abbrev st0_0 (t : Fin cfg0.N) := (cfg0.win 0).stage (cfg0.slots t 0)
abbrev st0_1 (t : Fin cfg0.N) := (cfg0.win 1).stage (cfg0.slots t 1)
abbrev st0_2 (t : Fin cfg0.N) := (cfg0.win 2).stage (cfg0.slots t 2)
abbrev st0_3 (t : Fin cfg0.N) := (cfg0.win 3).stage (cfg0.slots t 3)
abbrev bodyAt0 (t : Fin cfg0.N) : Prog (TpuEff nD τ sig (Elt F) Λ₀ .tc) PUnit :=
  cc0__xnorm_kernel (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3))

abbrev st1_0 (t : Fin cfg1.N) := (cfg1.win 0).stage (cfg1.slots t 0)
abbrev st1_1 (t : Fin cfg1.N) := (cfg1.win 1).stage (cfg1.slots t 1)
abbrev st1_2 (t : Fin cfg1.N) := (cfg1.win 2).stage (cfg1.slots t 2)
abbrev st1_3 (t : Fin cfg1.N) := (cfg1.win 3).stage (cfg1.slots t 3)
abbrev st1_4 (t : Fin cfg1.N) := (cfg1.win 4).stage (cfg1.slots t 4)
abbrev bodyAt1 (t : Fin cfg1.N) : Prog (TpuEff nD τ sig (Elt F) Λ₀ .tc) PUnit :=
  cc1__gather_kernel (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (Memref.whole cc1_scratch0) (Memref.isWhole_whole _) (Memref.whole cc1_scratch1) (Memref.isWhole_whole _)

abbrev st2_0 (t : Fin cfg2.N) := (cfg2.win 0).stage (cfg2.slots t 0)
abbrev st2_1 (t : Fin cfg2.N) := (cfg2.win 1).stage (cfg2.slots t 1)
abbrev st2_2 (t : Fin cfg2.N) := (cfg2.win 2).stage (cfg2.slots t 2)
abbrev st2_3 (t : Fin cfg2.N) := (cfg2.win 3).stage (cfg2.slots t 3)
abbrev st2_4 (t : Fin cfg2.N) := (cfg2.win 4).stage (cfg2.slots t 4)
abbrev st2_5 (t : Fin cfg2.N) := (cfg2.win 5).stage (cfg2.slots t 5)
abbrev st2_6 (t : Fin cfg2.N) := (cfg2.win 6).stage (cfg2.slots t 6)
abbrev st2_7 (t : Fin cfg2.N) := (cfg2.win 7).stage (cfg2.slots t 7)
abbrev st2_8 (t : Fin cfg2.N) := (cfg2.win 8).stage (cfg2.slots t 8)
abbrev bodyAt2 (t : Fin cfg2.N) : Prog (TpuEff nD τ sig (Elt F) Λ₀ .tc) PUnit :=
  cc2__scatter_finalize_kernel (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (win2_8.stage (cfg2.slots t 8)) (hstage2_8 ((cfg2.slots t 8).cast nbuf2_8)) (Memref.whole cc2_scratch0) (Memref.isWhole_whole _) (Memref.whole cc2_scratch1) (Memref.isWhole_whole _)

/-! ## Coordinates of a point -/

/-- How many consecutive points share a coordinate, per axis. -/
private theorem stride0_0 : grid0.stride 0 = 1 := by decide
private theorem stride1_0 : grid1.stride 0 = 44 := by decide
private theorem stride1_1 : grid1.stride 1 = 1 := by decide
private theorem stride2_0 : grid2.stride 0 = 695 := by decide
private theorem stride2_1 : grid2.stride 1 = 1 := by decide

/-- A point's number is below the grid's size, as a literal. -/
private theorem lt0 (t : Fin cfg0.N) : t.val < 44 := lt_of_lt_of_eq t.isLt N_0'
private theorem lt1 (t : Fin cfg1.N) : t.val < 30580 := lt_of_lt_of_eq t.isLt N_1'
private theorem lt2 (t : Fin cfg2.N) : t.val < 30580 := lt_of_lt_of_eq t.isLt N_2'

theorem coords0_val (t : Fin cfg0.N) : ((grid0.coords t) 0).val = t.val := by
  have ht := lt0 t
  show t.val / grid0.stride 0 % 44 = t.val
  rw [stride0_0, Nat.div_one, Nat.mod_eq_of_lt ht]
theorem coords1_0_val (t : Fin cfg1.N) : ((grid1.coords t) 0).val = t.val / 44 := by
  have ht := lt1 t
  show t.val / grid1.stride 0 % 695 = t.val / 44
  rw [stride1_0, Nat.mod_eq_of_lt (by omega)]
theorem coords1_1_val (t : Fin cfg1.N) : ((grid1.coords t) 1).val = t.val % 44 := by
  show t.val / grid1.stride 1 % 44 = t.val % 44
  rw [stride1_1, Nat.div_one]
theorem coords2_0_val (t : Fin cfg2.N) : ((grid2.coords t) 0).val = t.val / 695 := by
  have ht := lt2 t
  show t.val / grid2.stride 0 % 44 = t.val / 695
  rw [stride2_0, Nat.mod_eq_of_lt (by omega)]
theorem coords2_1_val (t : Fin cfg2.N) : ((grid2.coords t) 1).val = t.val % 695 := by
  show t.val / grid2.stride 1 % 695 = t.val % 695
  rw [stride2_1, Nat.div_one]

/-! ## The bodies' two conditions -/

/-- Two 32-bit words made from naturals below 2^32 are equal exactly when the naturals are. -/
private theorem ofNat32_eq_iff {k c : Nat} (hk : k < 2 ^ 32) (hc : c < 2 ^ 32) : BitVec.ofNat 32 k = BitVec.ofNat 32 c ↔ k = c := by
  constructor
  · intro h
    have h' := congrArg BitVec.toNat h
    rw [BitVec.toNat_ofNat, BitVec.toNat_ofNat, Nat.mod_eq_of_lt hk, Nat.mod_eq_of_lt hc] at h'
    exact h'
  · intro h; rw [h]

private theorem toNat_ofNat32 {k : Nat} (hk : k < 2 ^ 32) : (BitVec.ofNat 32 k).toNat = k := by
  rw [BitVec.toNat_ofNat, Nat.mod_eq_of_lt hk]

/-- The chain "compare equal, widen to 32 bits, compare with zero" gives one exactly when the compared naturals agree. -/
private theorem word_cond {k : Nat} (m c : Nat) (hk : k = m) (hm : m < 2 ^ 32) (hc : c < 2 ^ 32) :
    Scalar.cmpi .ne (Scalar.extui (Scalar.cmpi .eq (BitVec.ofNat 32 k) (BitVec.ofNat 32 c))) 0#32 = 1#1 ↔ m = c := by
  subst hk
  by_cases h : BitVec.ofNat 32 k = BitVec.ofNat 32 c
  · have e : Scalar.cmpi .eq (BitVec.ofNat 32 k) (BitVec.ofNat 32 c) = 1#1 := IntOp.cmpi_eq.mpr h
    rw [e]
    exact ⟨fun _ => (ofNat32_eq_iff hm hc).mp h, fun _ => by decide⟩
  · have e : Scalar.cmpi .eq (BitVec.ofNat 32 k) (BitVec.ofNat 32 c) = 0#1 := by
      show BitVec.ofBool (BitVec.ofNat 32 k == BitVec.ofNat 32 c) = 0#1
      rw [beq_eq_false_iff_ne.mpr h]; rfl
    rw [e]
    exact ⟨fun hh => absurd hh (by decide), fun hh => absurd ((ofNat32_eq_iff hm hc).mpr hh) h⟩

/-- The first `scf.if` of kernel 1 (reset the accumulators): taken at the first point of each run of 44. -/
abbrev cond1_0 (i : grid1.Coords) : Prop := (Scalar.cmpi .ne (Scalar.extui (Scalar.cmpi .eq (BitVec.ofNat 32 (i 1).val) 0#32)) 0#32) = 1#1
theorem hcond1_0 (t : Fin cfg1.N) : cond1_0 (grid1.coords t) ↔ t.val % 44 = 0 := by
  exact word_cond (t.val % 44) 0 (coords1_1_val t) (by omega) (by decide)
/-- The second (store the outputs): taken at the last point of each run. -/
abbrev cond1_1 (i : grid1.Coords) : Prop := k1_cond2 i = 1#1
theorem hcond1_1 (t : Fin cfg1.N) : cond1_1 (grid1.coords t) ↔ t.val % 44 = 43 := by
  exact word_cond (t.val % 44) 43 (coords1_1_val t) (by omega) (by decide)
abbrev cond2_0 (i : grid2.Coords) : Prop := (Scalar.cmpi .ne (Scalar.extui (Scalar.cmpi .eq (BitVec.ofNat 32 (i 1).val) 0#32)) 0#32) = 1#1
theorem hcond2_0 (t : Fin cfg2.N) : cond2_0 (grid2.coords t) ↔ t.val % 695 = 0 := by
  exact word_cond (t.val % 695) 0 (coords2_1_val t) (by omega) (by decide)
abbrev cond2_1 (i : grid2.Coords) : Prop := k2_cond2 i = 1#1
theorem hcond2_1 (t : Fin cfg2.N) : cond2_1 (grid2.coords t) ↔ t.val % 695 = 694 := by
  exact word_cond (t.val % 695) 694 (coords2_1_val t) (by omega) (by decide)

/-! ## Where the outputs are written back, and where they are idle -/

/-- An output window is written back at the last point and wherever the next point's block index differs. -/
private theorem flush_iff {G : Pipeline.Grid} (w : Window sig G) (hout : w.isOut = true) (t : Fin G.N) :
    w.flush t = true ↔ (t.val + 1 = G.N ∨ ∃ h : t.val + 1 < G.N, w.index ⟨t.val + 1, h⟩ ≠ w.index t) := by
  unfold Window.flush
  rw [hout, Bool.true_and, Bool.or_eq_true, decide_eq_true_eq, decide_eq_true_eq]

/-- Two block indices with second entry zero differ exactly when their first entries do. -/
private theorem vec2_ne {a b : Nat} : (![a, 0] : Fin 2 → Nat) ≠ ![b, 0] ↔ a ≠ b := by
  constructor
  · intro h e; exact h (by rw [e])
  · intro h e; exact h (congrFun e 0)

/-- The output windows' block rows (restated below with the input windows'). -/
private theorem ix0_2 (t : Fin cfg0.N) : (cfg0.win 2).index t = ![t.val, 0] := by
  have ht := lt0 t
  show ![(BitVec.ofNat 32 ((grid0.coords t) 0).val).toNat, (0#32).toNat] = ![t.val, 0]
  rw [coords0_val, toNat_ofNat32 (k := t.val) (by omega)]
  rfl
private theorem ix0_3 (t : Fin cfg0.N) : (cfg0.win 3).index t = ![t.val, 0] := by
  have ht := lt0 t
  show ![(BitVec.ofNat 32 ((grid0.coords t) 0).val).toNat, (0#32).toNat] = ![t.val, 0]
  rw [coords0_val, toNat_ofNat32 (k := t.val) (by omega)]
  rfl
private theorem ix1_3 (t : Fin cfg1.N) : (cfg1.win 3).index t = ![t.val / 44, 0] := by
  have ht := lt1 t
  show ![(BitVec.ofNat 32 ((grid1.coords t) 0).val).toNat, (0#32).toNat] = ![t.val / 44, 0]
  rw [coords1_0_val, toNat_ofNat32 (k := t.val / 44) (by omega)]
  rfl
private theorem ix1_4 (t : Fin cfg1.N) : (cfg1.win 4).index t = ![t.val / 44, 0] := by
  have ht := lt1 t
  show ![(BitVec.ofNat 32 ((grid1.coords t) 0).val).toNat, (0#32).toNat] = ![t.val / 44, 0]
  rw [coords1_0_val, toNat_ofNat32 (k := t.val / 44) (by omega)]
  rfl
private theorem ix2_8 (t : Fin cfg2.N) : (cfg2.win 8).index t = ![t.val / 695, 0] := by
  have ht := lt2 t
  show ![(BitVec.ofNat 32 ((grid2.coords t) 0).val).toNat, (0#32).toNat] = ![t.val / 695, 0]
  rw [coords2_0_val, toNat_ofNat32 (k := t.val / 695) (by omega)]
  rfl

theorem flush0_2 (t : Fin cfg0.N) : (cfg0.win 2).flush t = true := by
  have ht := lt0 t
  rw [flush_iff (cfg0.win 2) rfl t]
  by_cases hN : t.val + 1 = 44
  · exact .inl (hN.trans N_0.symm)
  · refine .inr ⟨lt_of_lt_of_eq (by omega : t.val + 1 < 44) N_0.symm, ?_⟩
    rw [ix0_2, ix0_2]
    exact vec2_ne.mpr (by show t.val + 1 ≠ t.val; omega)
theorem flush0_3 (t : Fin cfg0.N) : (cfg0.win 3).flush t = true := by
  have ht := lt0 t
  rw [flush_iff (cfg0.win 3) rfl t]
  by_cases hN : t.val + 1 = 44
  · exact .inl (hN.trans N_0.symm)
  · refine .inr ⟨lt_of_lt_of_eq (by omega : t.val + 1 < 44) N_0.symm, ?_⟩
    rw [ix0_3, ix0_3]
    exact vec2_ne.mpr (by show t.val + 1 ≠ t.val; omega)
theorem flush1_3 (t : Fin cfg1.N) : (cfg1.win 3).flush t = true ↔ t.val % 44 = 43 := by
  have ht := lt1 t
  rw [flush_iff (cfg1.win 3) rfl t]
  constructor
  · rintro (h | ⟨h, hne⟩)
    · have h' : t.val + 1 = 30580 := h.trans N_1
      omega
    · rw [ix1_3, ix1_3] at hne
      have hq : (t.val + 1) / 44 ≠ t.val / 44 := vec2_ne.mp hne
      omega
  · intro hlast
    by_cases hN : t.val + 1 = 30580
    · exact .inl (hN.trans N_1.symm)
    · refine .inr ⟨lt_of_lt_of_eq (by omega : t.val + 1 < 30580) N_1.symm, ?_⟩
      rw [ix1_3, ix1_3]
      exact vec2_ne.mpr (by show (t.val + 1) / 44 ≠ t.val / 44; omega)
theorem flush1_4 (t : Fin cfg1.N) : (cfg1.win 4).flush t = true ↔ t.val % 44 = 43 := by
  have ht := lt1 t
  rw [flush_iff (cfg1.win 4) rfl t]
  constructor
  · rintro (h | ⟨h, hne⟩)
    · have h' : t.val + 1 = 30580 := h.trans N_1
      omega
    · rw [ix1_4, ix1_4] at hne
      have hq : (t.val + 1) / 44 ≠ t.val / 44 := vec2_ne.mp hne
      omega
  · intro hlast
    by_cases hN : t.val + 1 = 30580
    · exact .inl (hN.trans N_1.symm)
    · refine .inr ⟨lt_of_lt_of_eq (by omega : t.val + 1 < 30580) N_1.symm, ?_⟩
      rw [ix1_4, ix1_4]
      exact vec2_ne.mpr (by show (t.val + 1) / 44 ≠ t.val / 44; omega)
theorem flush2_8 (t : Fin cfg2.N) : (cfg2.win 8).flush t = true ↔ t.val % 695 = 694 := by
  have ht := lt2 t
  rw [flush_iff (cfg2.win 8) rfl t]
  constructor
  · rintro (h | ⟨h, hne⟩)
    · have h' : t.val + 1 = 30580 := h.trans N_2
      omega
    · rw [ix2_8, ix2_8] at hne
      have hq : (t.val + 1) / 695 ≠ t.val / 695 := vec2_ne.mp hne
      omega
  · intro hlast
    by_cases hN : t.val + 1 = 30580
    · exact .inl (hN.trans N_2.symm)
    · refine .inr ⟨lt_of_lt_of_eq (by omega : t.val + 1 < 30580) N_2.symm, ?_⟩
      rw [ix2_8, ix2_8]
      exact vec2_ne.mpr (by show (t.val + 1) / 695 ≠ t.val / 695; omega)

theorem idle1_in (t : Fin cfg1.N) (w : Fin cfg1.W) (hw : w.val < 3) : cfg1.idle w (grid1.coords t) = false := by
  match w, hw with
  | ⟨0, _⟩, _ => rfl
  | ⟨1, _⟩, _ => rfl
  | ⟨2, _⟩, _ => rfl
  | ⟨n + 3, _⟩, hw => exact absurd hw (by show ¬ n + 3 < 3; omega)
theorem idle1_3 (t : Fin cfg1.N) : cfg1.idle 3 (grid1.coords t) = true ↔ ¬ t.val % 44 = 43 := by
  show (!(k1_cond2 (grid1.coords t) == 1#1)) = true ↔ _
  rw [Bool.not_eq_true', beq_eq_false_iff_ne]
  exact not_congr (hcond1_1 t)
theorem idle1_4 (t : Fin cfg1.N) : cfg1.idle 4 (grid1.coords t) = true ↔ ¬ t.val % 44 = 43 := by
  show (!(k1_cond2 (grid1.coords t) == 1#1)) = true ↔ _
  rw [Bool.not_eq_true', beq_eq_false_iff_ne]
  exact not_congr (hcond1_1 t)
theorem idle2_in (t : Fin cfg2.N) (w : Fin cfg2.W) (hw : w.val < 8) : cfg2.idle w (grid2.coords t) = false := by
  match w, hw with
  | ⟨0, _⟩, _ => rfl
  | ⟨1, _⟩, _ => rfl
  | ⟨2, _⟩, _ => rfl
  | ⟨3, _⟩, _ => rfl
  | ⟨4, _⟩, _ => rfl
  | ⟨5, _⟩, _ => rfl
  | ⟨6, _⟩, _ => rfl
  | ⟨7, _⟩, _ => rfl
  | ⟨n + 8, _⟩, hw => exact absurd hw (by show ¬ n + 8 < 8; omega)
theorem idle2_8 (t : Fin cfg2.N) : cfg2.idle 8 (grid2.coords t) = true ↔ ¬ t.val % 695 = 694 := by
  show (!(k2_cond2 (grid2.coords t) == 1#1)) = true ↔ _
  rw [Bool.not_eq_true', beq_eq_false_iff_ne]
  exact not_congr (hcond2_1 t)

/-! ## The output windows' block rows -/

/-- Output windows of kernel 1 sit at block row `t / 44`; kernel 2's at `t / 695`; kernel 0's at `t`. -/
theorem index0_2 (t : Fin cfg0.N) : (cfg0.win 2).index t = ![t.val, 0] := by
  exact ix0_2 t
theorem index0_3 (t : Fin cfg0.N) : (cfg0.win 3).index t = ![t.val, 0] := by
  exact ix0_3 t
theorem index1_3 (t : Fin cfg1.N) : (cfg1.win 3).index t = ![t.val / 44, 0] := by
  exact ix1_3 t
theorem index1_4 (t : Fin cfg1.N) : (cfg1.win 4).index t = ![t.val / 44, 0] := by
  exact ix1_4 t
theorem index2_8 (t : Fin cfg2.N) : (cfg2.win 8).index t = ![t.val / 695, 0] := by
  exact ix2_8 t
/-- The input windows' block rows. -/
theorem index0_0 (t : Fin cfg0.N) : (cfg0.win 0).index t = ![t.val, 0] := by
  have ht := lt0 t
  show ![(BitVec.ofNat 32 ((grid0.coords t) 0).val).toNat, (0#32).toNat] = ![t.val, 0]
  rw [coords0_val, toNat_ofNat32 (k := t.val) (by omega)]
  rfl
theorem index0_1 (t : Fin cfg0.N) : (cfg0.win 1).index t = ![t.val, 0] := by
  have ht := lt0 t
  show ![(BitVec.ofNat 32 ((grid0.coords t) 0).val).toNat, (0#32).toNat] = ![t.val, 0]
  rw [coords0_val, toNat_ofNat32 (k := t.val) (by omega)]
  rfl
theorem index1_0 (t : Fin cfg1.N) : (cfg1.win 0).index t = ![t.val / 44, 0] := by
  have ht := lt1 t
  show ![(BitVec.ofNat 32 ((grid1.coords t) 0).val).toNat, (0#32).toNat] = ![t.val / 44, 0]
  rw [coords1_0_val, toNat_ofNat32 (k := t.val / 44) (by omega)]
  rfl
theorem index1_1 (t : Fin cfg1.N) : (cfg1.win 1).index t = ![t.val / 44, 0] := by
  have ht := lt1 t
  show ![(BitVec.ofNat 32 ((grid1.coords t) 0).val).toNat, (0#32).toNat] = ![t.val / 44, 0]
  rw [coords1_0_val, toNat_ofNat32 (k := t.val / 44) (by omega)]
  rfl
theorem index1_2 (t : Fin cfg1.N) : (cfg1.win 2).index t = ![t.val % 44, 0] := by
  have ht := lt1 t
  show ![(BitVec.ofNat 32 ((grid1.coords t) 1).val).toNat, (0#32).toNat] = ![t.val % 44, 0]
  rw [coords1_1_val, toNat_ofNat32 (k := t.val % 44) (by omega)]
  rfl
theorem index2_0 (t : Fin cfg2.N) : (cfg2.win 0).index t = ![0, t.val % 695] := by
  have ht := lt2 t
  show ![(0#32).toNat, (BitVec.ofNat 32 ((grid2.coords t) 1).val).toNat] = ![0, t.val % 695]
  rw [coords2_1_val, toNat_ofNat32 (k := t.val % 695) (by omega)]
  rfl
theorem index2_1 (t : Fin cfg2.N) : (cfg2.win 1).index t = ![0, t.val % 695] := by
  have ht := lt2 t
  show ![(0#32).toNat, (BitVec.ofNat 32 ((grid2.coords t) 1).val).toNat] = ![0, t.val % 695]
  rw [coords2_1_val, toNat_ofNat32 (k := t.val % 695) (by omega)]
  rfl
theorem index2_2 (t : Fin cfg2.N) : (cfg2.win 2).index t = ![t.val % 695, 0] := by
  have ht := lt2 t
  show ![(BitVec.ofNat 32 ((grid2.coords t) 1).val).toNat, (0#32).toNat] = ![t.val % 695, 0]
  rw [coords2_1_val, toNat_ofNat32 (k := t.val % 695) (by omega)]
  rfl
theorem index2_3 (t : Fin cfg2.N) : (cfg2.win 3).index t = ![t.val % 695, 0] := by
  have ht := lt2 t
  show ![(BitVec.ofNat 32 ((grid2.coords t) 1).val).toNat, (0#32).toNat] = ![t.val % 695, 0]
  rw [coords2_1_val, toNat_ofNat32 (k := t.val % 695) (by omega)]
  rfl
theorem index2_4 (t : Fin cfg2.N) : (cfg2.win 4).index t = ![t.val / 695, 0] := by
  have ht := lt2 t
  show ![(BitVec.ofNat 32 ((grid2.coords t) 0).val).toNat, (0#32).toNat] = ![t.val / 695, 0]
  rw [coords2_0_val, toNat_ofNat32 (k := t.val / 695) (by omega)]
  rfl
theorem index2_5 (t : Fin cfg2.N) : (cfg2.win 5).index t = ![t.val / 695, 0] := by
  have ht := lt2 t
  show ![(BitVec.ofNat 32 ((grid2.coords t) 0).val).toNat, (0#32).toNat] = ![t.val / 695, 0]
  rw [coords2_0_val, toNat_ofNat32 (k := t.val / 695) (by omega)]
  rfl
theorem index2_6 (t : Fin cfg2.N) : (cfg2.win 6).index t = ![0, 0] := by
  rfl
theorem index2_7 (t : Fin cfg2.N) : (cfg2.win 7).index t = ![0, 0] := by
  rfl

end Cert.Kernel.Hand

end
-- ==== Proof.K.Region0.lean ====
import proofs.«425878_j39771397161472_2_alg».proof.Proof.K.Sched
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Kernel 0 (rows scaled by a column), as proof data for its pipeline

Entered with buffer contents `V`. At point `t` the body multiplies row block `t` of the padded table by row block `t`
of the padded column, spread along the rows, and stores the product twice: as it is, and in the narrower format. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data of pipeline 0 on core `c`: the inputs' buffers keep their blocks, the two outputs' hold the product. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 0 t) (iblk0 V c 1 t)
    | ⟨3, _⟩ => k0_pay2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay1 (iblk0 V c 0 t) (iblk0 V c 1 t) := by dsimp only [dat0]
theorem after0_3 (c : Dev nD) (t : Fin cfg0.N) : (dat0 V c).after 3 t = k0_pay2 (iblk0 V c 0 t) (iblk0 V c 1 t) := by dsimp only [dat0]

theorem owed0 (c : Dev nD) (t : Fin (cfg0.N + 1)) : (dat0 V c).owed t = 0 := rfl

/-! ## The inputs' buffers at a point -/

/-- An input window's current staging buffer holds its block at every point, whether or not it was fetched there
    (an unfetched point has the block index of the point before it): for any proof data over the entry contents
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body's accesses: every load and store is through the whole buffer -/

/-- The zero offsets, as a constant function. -/
theorem hz0 : (![0, 0] : Fin 2 → ℕ) = fun _ => 0 := by
  funext a; match a with | 0 => rfl | 1 => rfl

/-- The one store into an output's buffer is through the whole buffer, so it covers it. -/
theorem cover0_2 (p0 : Vec F S2304x64 .f32) (y : S2304x64.Idx) :
    ∃ pc ∈ ([⟨Rect.unit (s := S2304x64) ![0, 0] S2304x64.size inb_S2304x64_S2304x64_0_0, p0⟩] : List (View.Piece (Elt F) S2304x64 .f32)), y ∈ pc.1.set :=
  View.cover_of_tiled [⟨Rect.unit (s := S2304x64) ![0, 0] S2304x64.size inb_S2304x64_S2304x64_0_0, p0⟩] S2304x64.size (by rfl) y
theorem cover0_3 (p0 : Vec F S2304x64 .bf16) (y : S2304x64.Idx) :
    ∃ pc ∈ ([⟨Rect.unit (s := S2304x64) ![0, 0] S2304x64.size inb_S2304x64_S2304x64_0_0, p0⟩] : List (View.Piece (Elt F) S2304x64 .bf16)), y ∈ pc.1.set :=
  View.cover_of_tiled [⟨Rect.unit (s := S2304x64) ![0, 0] S2304x64.size inb_S2304x64_S2304x64_0_0, p0⟩] S2304x64.size (by rfl) y

/-! ## The body's triple -/

set_option maxHeartbeats 1000000 in
/-- The body on whole staging buffers, the inputs' holding `x0` and `x1` and the outputs' anything, runs to the
    continuation with the inputs' as they were, the first output's holding the product of `x0` by `x1` spread along
    the rows and the second's that product in the narrower format: each load reads a whole buffer and each output's
    one store overwrites the whole of it. -/
theorem sound_kernel0 (c : Dev nD) (E : Set ℕ) (i : grid0.Coords)
    (arg1 : Memref sig .tc .vmem S2304x64 .f32) (harg1 : arg1.IsWhole)
    (arg2 : Memref sig .tc .vmem S2304x1 .f32) (harg2 : arg2.IsWhole)
    (arg3 : Memref sig .tc .vmem S2304x64 .f32) (harg3 : arg3.IsWhole)
    (arg4 : Memref sig .tc .vmem S2304x64 .bf16) (harg4 : arg4.IsWhole)
    (x0 : Vec F S2304x64 .f32) (x1 : Vec F S2304x1 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (k0_pay1 x0 x1) ∗ owns (c : Thread nD τ) arg4 fullShare (k0_pay2 x0 x1)) -∗ K ⟨⟩))
      ⊢ wp frame (wpE (defs₀ (F := F)) Variants.none c none) E (cc0__xnorm_kernel i arg1 harg1 arg2 harg2 arg3 harg3 arg4 harg4) K := by
  simp only [cc0__xnorm_kernel_eq_skeleton]; unfold cc0__xnorm_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover0_2 _)).trans ?_
    refine (View.canon_unit_zero hz0 _ _).trans ?_
    exact congrArg₂ k0_pay1 (View.ld_unit_zero hz0 _ _) (View.ld_unit_zero hz0 _ _)
  iexists _; isplitr
  swap; · iexact H3
  ipureintro
  refine (View.read_writes_eq_canon _ _ _ (cover0_3 _)).trans ?_
  refine (View.canon_unit_zero hz0 _ _).trans ?_
  exact congrArg₂ k0_pay2 (View.ld_unit_zero hz0 _ _) (View.ld_unit_zero hz0 _ _)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of kernel 0, at every point. -/
theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := .rfl
theorem hout0 (c : Dev nD) : (dat0 V c).Φ (Fin.last cfg0.N) ⊢ Pipeline.ΦA spec0 c := .rfl

end Cert.Kernel.Hand

end
-- ==== Proof.K.Region1.lean ====
import proofs.«425878_j39771397161472_2_alg».proof.Proof.K.Sched
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Kernel 1 (the two one-hot gathers), as proof data for its pipeline

Entered with buffer contents `V`. At point `t = 44·i + k` the body compares the two index columns of edge block `i`
against the node ids of node block `k`, multiplies the two 0/1 matrices with table block `k` and adds the products
into two accumulators kept in scratch; the accumulators restart at `k = 0` and are stored, rounded to the
table's format, into the two output blocks at `k = 43`. -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two accumulators after a point that STARTS a run: one step from zero. -/
def accReset1 (c : Dev nD) (n : ℕ) (hn : n < cfg1.N) : Vec F S2304x64 .f32 × Vec F S2304x64 .f32 :=
  (k1_pay7 (grid1.coords ⟨n, hn⟩) (iblk1 V c 0 ⟨n, hn⟩) (iblk1 V c 2 ⟨n, hn⟩) (k1_pay3 (F := F)),
   k1_pay8 (grid1.coords ⟨n, hn⟩) (iblk1 V c 1 ⟨n, hn⟩) (iblk1 V c 2 ⟨n, hn⟩) (k1_pay4 (F := F)))

/-- The two accumulators after a later point of a run, from what the point before left. -/
def accStep1 (c : Dev nD) (n : ℕ) (hn : n < cfg1.N) (p : Vec F S2304x64 .f32 × Vec F S2304x64 .f32) :
    Vec F S2304x64 .f32 × Vec F S2304x64 .f32 :=
  (k1_pay7 (grid1.coords ⟨n, hn⟩) (iblk1 V c 0 ⟨n, hn⟩) (iblk1 V c 2 ⟨n, hn⟩) p.1,
   k1_pay8 (grid1.coords ⟨n, hn⟩) (iblk1 V c 1 ⟨n, hn⟩) (iblk1 V c 2 ⟨n, hn⟩) p.2)

/-- What the two scratch accumulators hold after point `n`. -/
def accs1 (c : Dev nD) : (n : ℕ) → n < cfg1.N → Vec F S2304x64 .f32 × Vec F S2304x64 .f32
  | 0, hn => accReset1 V c 0 hn
  | n + 1, hn => if (n + 1) % 44 = 0 then accReset1 V c (n + 1) hn else accStep1 V c (n + 1) hn (accs1 c n (Nat.lt_of_succ_lt hn))

theorem accs1_reset (c : Dev nD) (n : ℕ) (hn : n < cfg1.N) (h : n % 44 = 0) : accs1 V c n hn = accReset1 V c n hn := by
  cases n with
  | zero => rfl
  | succ n => exact if_pos h

theorem accs1_step (c : Dev nD) (n : ℕ) (hn : n + 1 < cfg1.N) (h : ¬ (n + 1) % 44 = 0) :
    accs1 V c (n + 1) hn = accStep1 V c (n + 1) hn (accs1 V c n (Nat.lt_of_succ_lt hn)) := if_neg h

/-- The two scratch operands, whole. -/
abbrev scM1_0 : Memref sig .tc .vmem S2304x64 .f32 := Memref.whole cc1_scratch0
abbrev scM1_1 : Memref sig .tc .vmem S2304x64 .f32 := Memref.whole cc1_scratch1

/-- The region's invariant before position `n`: at entry the scoped rest at anything and the generator register;
    afterwards the two accumulators at what the point before left, the other scoped buffers at anything. -/
def PhiS1 (c : Dev nD) : (n : ℕ) → n ≤ cfg1.N → sProp 𝕄
  | 0, _ => Pipeline.ΦA spec1 c
  | n + 1, hn => iprop(owns (c : Thread nD τ) scM1_0 fullShare (accs1 V c n hn).1 ∗ owns (c : Thread nD τ) scM1_1 fullShare (accs1 V c n hn).2
      ∗ Pipeline.scopedRestBut (Ix := Unit) (Name := ℕ) (U := UR sig nD τ) (Lvl := ℕ) (Val := Elt F) spec1 c [cc1_scratch0, cc1_scratch1] ∗ (∃ r, prngReg c r))

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (accs1 V c t.val t.isLt).1
    | ⟨4, _⟩ => k1_pay2 (accs1 V c t.val t.isLt).2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay1 (accs1 V c t.val t.isLt).1 := by dsimp only [dat1]
theorem after1_4 (c : Dev nD) (t : Fin cfg1.N) : (dat1 V c).after 4 t = k1_pay2 (accs1 V c t.val t.isLt).2 := by dsimp only [dat1]

theorem owed1 (c : Dev nD) (t : Fin (cfg1.N + 1)) : (dat1 V c).owed t = 0 := rfl

/-! ## The body on any whole memrefs, case by case -/

/-- Zero offsets of a rank-two rectangle, however spelt. -/
theorem off2_zero : (![0, 0] : Fin 2 → Nat) = fun _ => 0 := funext fun a => by fin_cases a <;> rfl

/-- A load of a whole buffer through the full rectangle reads the contents it holds. -/
theorem readAt_unread_full {sp : Space} {S : Shape} {e : EltTy} (m : Memref sig .tc sp S e) (hm : m.IsWhole)
    {off : Fin S.rank → Nat} (h : off = fun _ => 0) (inb : ∀ a, off a + S.size a ≤ S.size a) (X : S.Idx → Elt F e) :
    m.view.readAt (Elt F) (Rect.unit off S.size inb).toLoadRect (hm.unread X) = X :=
  (View.readAt_eq_ld _ _ _).trans ((congrArg (fun Y => View.ld Y (Rect.unit off S.size inb)) (hm.read_unread X)).trans (View.ld_unit_zero h inb X))

/-- After a last store through the full rectangle the buffer reads that store's payload. -/
theorem read_writes_full {sp : Space} {S : Shape} {e : EltTy} (m : Memref sig .tc sp S e) (f : m.view.ty.Contents (Elt F))
    {off : Fin S.rank → Nat} (h : off = fun _ => 0) (inb : ∀ a, off a + S.size a ≤ S.size a) (w : S.Idx → Elt F e)
    (L : List (View.Piece (Elt F) S e)) :
    m.view.read (Elt F) (m.view.writes (Elt F) f ((⟨Rect.unit off S.size inb, w⟩ : View.Piece (Elt F) S e) :: L)) = w :=
  (View.read_writes_eq_canon _ _ _ (fun y => ⟨_, List.mem_cons_self, View.mem_set_unit_zero h inb y⟩)).trans (View.canon_cons_unit_zero h inb w L)

/-- A load through the full rectangle after a last store through it reads that store's payload. -/
theorem readCov_full {sp : Space} {S : Shape} {e : EltTy} (v : View sig .tc sp S e)
    {off : Fin S.rank → Nat} (h : off = fun _ => 0) (inb : ∀ a, off a + S.size a ≤ S.size a) (w : S.Idx → Elt F e)
    (L : List (View.Piece (Elt F) S e)) :
    v.readCov ((⟨Rect.unit off S.size inb, w⟩ : View.Piece (Elt F) S e) :: L) (Rect.unit off S.size inb).toLoadRect = w :=
  (View.readCov_eq_canon_ld _ _ _ (fun y => ⟨_, List.mem_cons_self, View.mem_set_unit_zero h inb y⟩)).trans
    ((congrArg (fun Y => View.ld Y (Rect.unit off S.size inb)) (View.canon_cons_unit_zero h inb w L)).trans (View.ld_unit_zero h inb w))

set_option maxHeartbeats 1000000 in
/-- The body at the first point of a run (the reset taken, the final store not): both accumulators end one step from zero; the outputs' buffers are untouched. -/
theorem kernel1_A (c : Dev nD) (i : grid1.Coords) (arg2 : Memref sig .tc .vmem S2304x1 .i32) (harg2 : arg2.IsWhole) (arg3 : Memref sig .tc .vmem S2304x1 .i32) (harg3 : arg3.IsWhole) (arg4 : Memref sig .tc .vmem S2304x64 .bf16) (harg4 : arg4.IsWhole) (arg5 : Memref sig .tc .vmem S2304x64 .bf16) (harg5 : arg5.IsWhole) (arg6 : Memref sig .tc .vmem S2304x64 .bf16) (harg6 : arg6.IsWhole) (arg7 : Memref sig .tc .vmem S2304x64 .f32) (harg7 : arg7.IsWhole) (arg8 : Memref sig .tc .vmem S2304x64 .f32) (harg8 : arg8.IsWhole) (hc0 : cond1_0 i) (hc1 : ¬cond1_1 i)
    (x0 x1 : Vec F S2304x1 .i32) (x2 xi3 xi4 : Vec F S2304x64 .bf16) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xi4
        ∗ (∃ a, owns (c : Thread nD τ) arg7 fullShare a) ∗ (∃ b, owns (c : Thread nD τ) arg8 fullShare b)
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xi4
            ∗ owns (c : Thread nD τ) arg7 fullShare (k1_pay7 i x0 x2 (k1_pay3 (F := F))) ∗ owns (c : Thread nD τ) arg8 fullShare (k1_pay8 i x1 x2 (k1_pay4 (F := F)))) -∗ K ⟨⟩))
      ⊢ wp frame (wpE (defs₀ (F := F)) Variants.none c none) E (cc1__gather_kernel i arg2 harg2 arg3 harg3 arg4 harg4 arg5 harg5 arg6 harg6 arg7 harg7 arg8 harg8) K := by
  simp only [cc1__gather_kernel_eq_skeleton]; unfold cc1__gather_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%a, %fs0, -, HS0⟩, ⟨%b, %fs1, -, HS1⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [HS0]
  · iexists _; isplitr
    swap; · iexact HS0
    ipureintro
    refine (read_writes_full arg7 _ off2_zero _ _ _).trans ?_
    sl_unfold_words
    rw [readAt_unread_full arg2 harg2 off2_zero, readAt_unread_full arg4 harg4 off2_zero, readCov_full arg7.view off2_zero]
  · iexists _; isplitr
    swap; · iexact HS1
    ipureintro
    refine (read_writes_full arg8 _ off2_zero _ _ _).trans ?_
    sl_unfold_words
    dsimp only
    rw [readAt_unread_full arg3 harg3 off2_zero, readAt_unread_full arg4 harg4 off2_zero, readCov_full arg8.view off2_zero]

set_option maxHeartbeats 1000000 in
/-- The body at an inner point of a run (neither the reset nor the final store taken): the accumulators advance one step; the outputs' buffers are untouched. -/
theorem kernel1_B (c : Dev nD) (i : grid1.Coords) (arg2 : Memref sig .tc .vmem S2304x1 .i32) (harg2 : arg2.IsWhole) (arg3 : Memref sig .tc .vmem S2304x1 .i32) (harg3 : arg3.IsWhole) (arg4 : Memref sig .tc .vmem S2304x64 .bf16) (harg4 : arg4.IsWhole) (arg5 : Memref sig .tc .vmem S2304x64 .bf16) (harg5 : arg5.IsWhole) (arg6 : Memref sig .tc .vmem S2304x64 .bf16) (harg6 : arg6.IsWhole) (arg7 : Memref sig .tc .vmem S2304x64 .f32) (harg7 : arg7.IsWhole) (arg8 : Memref sig .tc .vmem S2304x64 .f32) (harg8 : arg8.IsWhole) (hc0 : ¬cond1_0 i) (hc1 : ¬cond1_1 i)
    (x0 x1 : Vec F S2304x1 .i32) (x2 xi3 xi4 : Vec F S2304x64 .bf16) (a b : Vec F S2304x64 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xi4
        ∗ owns (c : Thread nD τ) arg7 fullShare a ∗ owns (c : Thread nD τ) arg8 fullShare b
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xi4
            ∗ owns (c : Thread nD τ) arg7 fullShare (k1_pay7 i x0 x2 a) ∗ owns (c : Thread nD τ) arg8 fullShare (k1_pay8 i x1 x2 b)) -∗ K ⟨⟩))
      ⊢ wp frame (wpE (defs₀ (F := F)) Variants.none c none) E (cc1__gather_kernel i arg2 harg2 arg3 harg3 arg4 harg4 arg5 harg5 arg6 harg6 arg7 harg7 arg8 harg8) K := by
  simp only [cc1__gather_kernel_eq_skeleton]; unfold cc1__gather_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg5.eq_unread hf3; obtain rfl := harg6.eq_unread hf4
  obtain rfl := harg7.eq_unread hfs0; obtain rfl := harg8.eq_unread hfs1
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [HS0]
  · iexists _; isplitr
    swap; · iexact HS0
    ipureintro
    refine (read_writes_full arg7 _ off2_zero _ _ _).trans ?_
    rw [readAt_unread_full arg2 harg2 off2_zero, readAt_unread_full arg4 harg4 off2_zero, readAt_unread_full arg7 harg7 off2_zero]
  · iexists _; isplitr
    swap; · iexact HS1
    ipureintro
    refine (read_writes_full arg8 _ off2_zero _ _ _).trans ?_
    dsimp only
    rw [readAt_unread_full arg3 harg3 off2_zero, readAt_unread_full arg4 harg4 off2_zero, readAt_unread_full arg8 harg8 off2_zero]

set_option maxHeartbeats 1000000 in
/-- The body at the last point of a run (no reset, the final store taken): the accumulators advance one step, and the two outputs' buffers end at the accumulators rounded to the table's format. -/
theorem kernel1_C (c : Dev nD) (i : grid1.Coords) (arg2 : Memref sig .tc .vmem S2304x1 .i32) (harg2 : arg2.IsWhole) (arg3 : Memref sig .tc .vmem S2304x1 .i32) (harg3 : arg3.IsWhole) (arg4 : Memref sig .tc .vmem S2304x64 .bf16) (harg4 : arg4.IsWhole) (arg5 : Memref sig .tc .vmem S2304x64 .bf16) (harg5 : arg5.IsWhole) (arg6 : Memref sig .tc .vmem S2304x64 .bf16) (harg6 : arg6.IsWhole) (arg7 : Memref sig .tc .vmem S2304x64 .f32) (harg7 : arg7.IsWhole) (arg8 : Memref sig .tc .vmem S2304x64 .f32) (harg8 : arg8.IsWhole) (hc0 : ¬cond1_0 i) (hc1 : cond1_1 i)
    (x0 x1 : Vec F S2304x1 .i32) (x2 : Vec F S2304x64 .bf16) (a b : Vec F S2304x64 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ owns (c : Thread nD τ) arg7 fullShare a ∗ owns (c : Thread nD τ) arg8 fullShare b
        ∗ (iprop(owns (c : Thread nD τ) arg2 fullShare x0 ∗ owns (c : Thread nD τ) arg3 fullShare x1 ∗ owns (c : Thread nD τ) arg4 fullShare x2
            ∗ owns (c : Thread nD τ) arg5 fullShare (k1_pay1 (k1_pay7 i x0 x2 a)) ∗ owns (c : Thread nD τ) arg6 fullShare (k1_pay2 (k1_pay8 i x1 x2 b))
            ∗ owns (c : Thread nD τ) arg7 fullShare (k1_pay7 i x0 x2 a) ∗ owns (c : Thread nD τ) arg8 fullShare (k1_pay8 i x1 x2 b)) -∗ K ⟨⟩))
      ⊢ wp frame (wpE (defs₀ (F := F)) Variants.none c none) E (cc1__gather_kernel i arg2 harg2 arg3 harg3 arg4 harg4 arg5 harg5 arg6 harg6 arg7 harg7 arg8 harg8) K := by
  simp only [cc1__gather_kernel_eq_skeleton]; unfold cc1__gather_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg7.eq_unread hfs0; obtain rfl := harg8.eq_unread hfs1
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  have e7 : k1_pay7 i (View.readAt (Elt F) arg2.view (Rect.unit ![0, 0] S2304x1.size inb_S2304x1_S2304x1_0_0).toLoadRect (harg2.unread x0))
      (View.readAt (Elt F) arg4.view (Rect.unit ![0, 0] S2304x64.size inb_S2304x64_S2304x64_0_0).toLoadRect (harg4.unread x2))
      (View.readAt (Elt F) arg7.view (Rect.unit ![0, 0] S2304x64.size inb_S2304x64_S2304x64_0_0).toLoadRect (harg7.unread a)) = k1_pay7 i x0 x2 a := by
    rw [readAt_unread_full arg2 harg2 off2_zero, readAt_unread_full arg4 harg4 off2_zero, readAt_unread_full arg7 harg7 off2_zero]
  have e8 : k1_pay8 i (View.readAt (Elt F) arg3.view (Rect.unit ![0, 0] S2304x1.size inb_S2304x1_S2304x1_0_0).toLoadRect (harg3.unread x1))
      (View.readAt (Elt F) arg4.view (Rect.unit ![0, 0] S2304x64.size inb_S2304x64_S2304x64_0_0).toLoadRect (harg4.unread x2))
      (View.readAt (Elt F) arg8.view (Rect.unit ![0, 0] S2304x64.size inb_S2304x64_S2304x64_0_0).toLoadRect (harg8.unread b)) = k1_pay8 i x1 x2 b := by
    rw [readAt_unread_full arg3 harg3 off2_zero, readAt_unread_full arg4 harg4 off2_zero, readAt_unread_full arg8 harg8 off2_zero]
  isplitl [H3]
  · iexists _; isplitr
    swap; · iexact H3
    ipureintro
    refine (read_writes_full arg5 _ off2_zero _ _ _).trans ?_
    sl_unfold_words
    rw [readCov_full arg7.view off2_zero, e7]
  isplitl [H4]
  · iexists _; isplitr
    swap; · iexact H4
    ipureintro
    refine (read_writes_full arg6 _ off2_zero _ _ _).trans ?_
    sl_unfold_words
    dsimp only
    rw [readCov_full arg8.view off2_zero, e8]
  isplitl [HS0]
  · iexists _; isplitr
    swap; · iexact HS0
    ipureintro
    refine (read_writes_full arg7 _ off2_zero _ _ _).trans ?_
    exact e7
  · iexists _; isplitr
    swap; · iexact HS1
    ipureintro
    refine (read_writes_full arg8 _ off2_zero _ _ _).trans ?_
    exact e8

/-! ## What the windows' buffers hold when the body runs -/

/-- An input's current buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## The invariant, opened -/

/-- The class invariant with the two scratch operands as whole memrefs at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1_0 fullShare (accs1 V c n hn).1 ∗ owns (c : Thread nD τ) scM1_1 fullShare (accs1 V c n hn).2
      ∗ Pipeline.scopedRestBut (Ix := Unit) (Name := ℕ) (U := UR sig nD τ) (Lvl := ℕ) (Val := Elt F) spec1 c [cc1_scratch0, cc1_scratch1] ∗ (∃ r, prngReg c r)) := rfl

theorem PhiS1_pos (c : Dev nD) (n : ℕ) (h : n ≤ cfg1.N) (hz : n ≠ 0) :
    PhiS1 V c n h = iprop(owns (c : Thread nD τ) scM1_0 fullShare (accs1 V c (n - 1) (by omega)).1 ∗ owns (c : Thread nD τ) scM1_1 fullShare (accs1 V c (n - 1) (by omega)).2
      ∗ Pipeline.scopedRestBut (Ix := Unit) (Name := ℕ) (U := UR sig nD τ) (Lvl := ℕ) (Val := Elt F) spec1 c [cc1_scratch0, cc1_scratch1] ∗ (∃ r, prngReg c r)) := by
  cases n with
  | zero => exact absurd rfl hz
  | succ n => rfl

theorem PhiS1_castSucc (c : Dev nD) (t : Fin cfg1.N) :
    (dat1 V c).Φ t.castSucc = PhiS1 V c t.val (Nat.le_of_lt t.isLt) := by
  dsimp only [dat1]; simp only [Fin.coe_castSucc]

/-- The accumulators after a point that starts a run, at the point itself. -/
theorem accs1_at_reset (c : Dev nD) (t : Fin cfg1.N) (h : t.val % 44 = 0) :
    accs1 V c t.val t.isLt = (k1_pay7 (grid1.coords t) (iblk1 V c 0 t) (iblk1 V c 2 t) (k1_pay3 (F := F)),
      k1_pay8 (grid1.coords t) (iblk1 V c 1 t) (iblk1 V c 2 t) (k1_pay4 (F := F))) := by
  obtain ⟨n, hn⟩ := t
  exact accs1_reset V c n hn h

/-- The accumulators after a later point of a run, from what the point before left. -/
theorem accs1_at_step (c : Dev nD) (t : Fin cfg1.N) (h : ¬ t.val % 44 = 0) :
    accs1 V c t.val t.isLt = (k1_pay7 (grid1.coords t) (iblk1 V c 0 t) (iblk1 V c 2 t) (accs1 V c (t.val - 1) (Nat.lt_of_le_of_lt (Nat.sub_le _ _) t.isLt)).1,
      k1_pay8 (grid1.coords t) (iblk1 V c 1 t) (iblk1 V c 2 t) (accs1 V c (t.val - 1) (Nat.lt_of_le_of_lt (Nat.sub_le _ _) t.isLt)).2) := by
  obtain ⟨n, hn⟩ := t
  cases n with
  | zero => exact absurd (Nat.zero_mod _) h
  | succ n => exact accs1_step V c n hn h

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

/-- An input window is live at every point: its buffer is left at its block. -/
theorem leaves1_0 (c : Dev nD) (t : Fin cfg1.N) : (dat1 V c).leavesExact 0 t = owns (c : Thread nD τ) (st1_0 t) fullShare (iblk1 V c 0 t) := by
  unfold Dat.leavesExact; rw [idle1_in t 0 (by decide), after1_0]
theorem leaves1_1 (c : Dev nD) (t : Fin cfg1.N) : (dat1 V c).leavesExact 1 t = owns (c : Thread nD τ) (st1_1 t) fullShare (iblk1 V c 1 t) := by
  unfold Dat.leavesExact; rw [idle1_in t 1 (by decide), after1_1]
theorem leaves1_2 (c : Dev nD) (t : Fin cfg1.N) : (dat1 V c).leavesExact 2 t = owns (c : Thread nD τ) (st1_2 t) fullShare (iblk1 V c 2 t) := by
  unfold Dat.leavesExact; rw [idle1_in t 2 (by decide), after1_2]

/-- An output window away from the last point of a run is idle and not written back: its buffer is handed back as found. -/
theorem leaves1_3_idle (c : Dev nD) (t : Fin cfg1.N) (h1 : ¬ t.val % 44 = 43) :
    (dat1 V c).leavesExact 3 t = iprop(∃ d, owns (c : Thread nD τ) (st1_3 t) fullShare ((dat1 V c).before 3 t d)) :=
  Dat.leavesExact_idle (dat1 V c) 3 t ((idle1_3 t).mpr h1) (Bool.eq_false_iff.mpr fun h => h1 ((flush1_3 t).mp h))
theorem leaves1_4_idle (c : Dev nD) (t : Fin cfg1.N) (h1 : ¬ t.val % 44 = 43) :
    (dat1 V c).leavesExact 4 t = iprop(∃ d, owns (c : Thread nD τ) (st1_4 t) fullShare ((dat1 V c).before 4 t d)) :=
  Dat.leavesExact_idle (dat1 V c) 4 t ((idle1_4 t).mpr h1) (Bool.eq_false_iff.mpr fun h => h1 ((flush1_4 t).mp h))

/-- At the last point of a run an output window is live: its buffer is left at the rounded accumulator. -/
theorem leaves1_3_live (c : Dev nD) (t : Fin cfg1.N) (h1 : t.val % 44 = 43) :
    (dat1 V c).leavesExact 3 t = owns (c : Thread nD τ) (st1_3 t) fullShare (k1_pay1 (accs1 V c t.val t.isLt).1) := by
  unfold Dat.leavesExact
  rw [show cfg1.idle 3 (grid1.coords t) = false from Bool.eq_false_iff.mpr fun h => (idle1_3 t).mp h h1, after1_3]
theorem leaves1_4_live (c : Dev nD) (t : Fin cfg1.N) (h1 : t.val % 44 = 43) :
    (dat1 V c).leavesExact 4 t = owns (c : Thread nD τ) (st1_4 t) fullShare (k1_pay2 (accs1 V c t.val t.isLt).2) := by
  unfold Dat.leavesExact
  rw [show cfg1.idle 4 (grid1.coords t) = false from Bool.eq_false_iff.mpr fun h => (idle1_4 t).mp h h1, after1_4]

set_option maxHeartbeats 4000000 in
/-- The body at any point: the inputs' buffers hold their blocks; the point's place in its run of 44 says which of the three
    cases it is in; the invariant hands the body the two accumulators (at anything before the first point, else at what the
    point before left) and takes them back at this point's contents; an output's buffer is handed back as found except at
    the last point of a run, where it ends at the rounded accumulator. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2]
  have hN : t.val < 30580 := lt_of_lt_of_eq t.isLt N_1'
  by_cases h0 : t.val % 44 = 0
  · have h1 : ¬ t.val % 44 = 43 := by omega
    rw [leaves1_3_idle V c t h1, leaves1_4_idle V c t h1, accs1_at_reset V c t h0]
    by_cases hz : t.val = 0
    · rw [PhiS1_castSucc V c t, PhiS1_zero V c _ _ hz, PhiA1_eq]
      iintro ⟨⟨⟨⟨HS0, HS1⟩, Hr⟩, Hg⟩, Ho, ⟨%d0, H0⟩, ⟨%d1, H1⟩, ⟨%d2, H2⟩, ⟨%d3, H3⟩, ⟨%d4, H4⟩⟩
      iapply (kernel1_A c (grid1.coords t) _ _ _ _ _ _ _ _ _ _ _ _ _ _ ((hcond1_0 t).mpr h0) (fun h => h1 ((hcond1_1 t).mp h)) (iblk1 V c 0 t) (iblk1 V c 1 t) (iblk1 V c 2 t) _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      isplitl [H2]; · iexact H2
      isplitl [H3]; · iexists _; iexact H3
      iexists _; iexact H4
    · rw [PhiS1_castSucc V c t, PhiS1_pos V c _ _ hz]
      iintro ⟨⟨HS0, HS1, Hr, Hg⟩, Ho, ⟨%d0, H0⟩, ⟨%d1, H1⟩, ⟨%d2, H2⟩, ⟨%d3, H3⟩, ⟨%d4, H4⟩⟩
      iapply (kernel1_A c (grid1.coords t) _ _ _ _ _ _ _ _ _ _ _ _ _ _ ((hcond1_0 t).mpr h0) (fun h => h1 ((hcond1_1 t).mp h)) (iblk1 V c 0 t) (iblk1 V c 1 t) (iblk1 V c 2 t) _ _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      iintro ⟨H0, H1, H2, H3, H4, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      isplitl [H2]; · iexact H2
      isplitl [H3]; · iexists _; iexact H3
      iexists _; iexact H4
  · have hz : t.val ≠ 0 := fun e => h0 (by rw [e])
    rw [PhiS1_castSucc V c t, PhiS1_pos V c _ _ hz, accs1_at_step V c t h0]
    by_cases h1 : t.val % 44 = 43
    · rw [leaves1_3_live V c t h1, leaves1_4_live V c t h1, accs1_at_step V c t h0]
      iintro ⟨⟨HS0, HS1, Hr, Hg⟩, Ho, ⟨%d0, H0⟩, ⟨%d1, H1⟩, ⟨%d2, H2⟩, ⟨%d3, H3⟩, ⟨%d4, H4⟩⟩
      iapply (kernel1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      isplitl [H2]; · iexact H2
      isplitl [H3]; · iexact H3
      iexact H4
    · rw [leaves1_3_idle V c t h1, leaves1_4_idle V c t h1]
      iintro ⟨⟨HS0, HS1, Hr, Hg⟩, Ho, ⟨%d0, H0⟩, ⟨%d1, H1⟩, ⟨%d2, H2⟩, ⟨%d3, H3⟩, ⟨%d4, H4⟩⟩
      iapply (kernel1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      isplitl [H2]; · iexact H2
      isplitl [H3]; · iexists _; iexact H3
      iexists _; iexact H4

/-- The body obligation of kernel 1, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the accumulators' contents are forgotten. -/
theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HS0, HS1, Hr, Hg⟩
  isplitr [Hg]
  · isplitr [Hr]
    · isplitl [HS0]
      · iexists _; iexact HS0
      iexists _; iexact HS1
    iexact Hr
  iexact Hg

/-- After the last point the invariant gives the scoped rest and the register back. -/
theorem hout1 (c : Dev nD) : (dat1 V c).Φ (Fin.last cfg1.N) ⊢ Pipeline.ΦA spec1 c :=
  Phi1_out V c _ (by rw [Fin.val_last]; have : cfg1.N = 30580 := N_1'; omega)

end Cert.Kernel.Hand

end
-- ==== Proof.K.Region2.lean ====
import proofs.«425878_j39771397161472_2_alg».proof.Proof.K.Sched
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Kernel 2 (the two one-hot segment sums and the dense layer), as proof data for its pipeline

Entered with buffer contents `V`. At point `t = 695·i + k` the body compares the node ids of node block `i` against the
two index rows of edge block `k`, multiplies the two 0/1 matrices with the two gathered blocks `k` and adds the
products into two accumulators kept in scratch; they restart at `k = 0`; at `k = 694` the output block is the
scaled sum of the table block and the two accumulators, times the weights, plus the bias, clamped at zero. -/

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The two accumulators after a point that STARTS a run: one step from zero. -/
def accReset2 (c : Dev nD) (n : ℕ) (hn : n < cfg2.N) : Vec F S2304x64 .f32 × Vec F S2304x64 .f32 :=
  (k2_pay6 (grid2.coords ⟨n, hn⟩) (iblk2 V c 0 ⟨n, hn⟩) (iblk2 V c 2 ⟨n, hn⟩) (k2_pay3 (F := F)),
   k2_pay1 (k2_pay7 (grid2.coords ⟨n, hn⟩) (iblk2 V c 1 ⟨n, hn⟩) (iblk2 V c 3 ⟨n, hn⟩) (k2_pay4 (F := F))))

/-- The two accumulators after a later point of a run, from what the point before left. -/
def accStep2 (c : Dev nD) (n : ℕ) (hn : n < cfg2.N) (p : Vec F S2304x64 .f32 × Vec F S2304x64 .f32) :
    Vec F S2304x64 .f32 × Vec F S2304x64 .f32 :=
  (k2_pay6 (grid2.coords ⟨n, hn⟩) (iblk2 V c 0 ⟨n, hn⟩) (iblk2 V c 2 ⟨n, hn⟩) p.1,
   k2_pay1 (k2_pay7 (grid2.coords ⟨n, hn⟩) (iblk2 V c 1 ⟨n, hn⟩) (iblk2 V c 3 ⟨n, hn⟩) p.2))

/-- What the two scratch accumulators hold after point `n`. -/
def accs2 (c : Dev nD) : (n : ℕ) → n < cfg2.N → Vec F S2304x64 .f32 × Vec F S2304x64 .f32
  | 0, hn => accReset2 V c 0 hn
  | n + 1, hn => if (n + 1) % 695 = 0 then accReset2 V c (n + 1) hn else accStep2 V c (n + 1) hn (accs2 c n (Nat.lt_of_succ_lt hn))

theorem accs2_reset (c : Dev nD) (n : ℕ) (hn : n < cfg2.N) (h : n % 695 = 0) : accs2 V c n hn = accReset2 V c n hn := by
  cases n with
  | zero => rfl
  | succ n => exact if_pos h

theorem accs2_step (c : Dev nD) (n : ℕ) (hn : n + 1 < cfg2.N) (h : ¬ (n + 1) % 695 = 0) :
    accs2 V c (n + 1) hn = accStep2 V c (n + 1) hn (accs2 V c n (Nat.lt_of_succ_lt hn)) := if_neg h

/-- The two scratch operands, whole. -/
abbrev scM2_0 : Memref sig .tc .vmem S2304x64 .f32 := Memref.whole cc2_scratch0
abbrev scM2_1 : Memref sig .tc .vmem S2304x64 .f32 := Memref.whole cc2_scratch1

/-- The region's invariant before position `n`: at entry the scoped rest at anything and the generator register;
    afterwards the two accumulators at what the point before left, the other scoped buffers at anything. -/
def PhiS2 (c : Dev nD) : (n : ℕ) → n ≤ cfg2.N → sProp 𝕄
  | 0, _ => Pipeline.ΦA spec2 c
  | n + 1, hn => iprop(owns (c : Thread nD τ) scM2_0 fullShare (accs2 V c n hn).1 ∗ owns (c : Thread nD τ) scM2_1 fullShare (accs2 V c n hn).2
      ∗ Pipeline.scopedRestBut (Ix := Unit) (Name := ℕ) (U := UR sig nD τ) (Lvl := ℕ) (Val := Elt F) spec2 c [cc2_scratch0, cc2_scratch1] ∗ (∃ r, prngReg c r))

/-- The proof data of pipeline 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => k2_pay2 (iblk2 V c 4 t) (accs2 V c t.val t.isLt).1 (accs2 V c t.val t.isLt).2 (iblk2 V c 5 t) (iblk2 V c 6 t) (iblk2 V c 7 t)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t
    = k2_pay2 (iblk2 V c 4 t) (accs2 V c t.val t.isLt).1 (accs2 V c t.val t.isLt).2 (iblk2 V c 5 t) (iblk2 V c 6 t) (iblk2 V c 7 t) := by
  dsimp only [dat2]

theorem owed2 (c : Dev nD) (t : Fin (cfg2.N + 1)) : (dat2 V c).owed t = 0 := rfl

/-! ## The invariant, opened

The scoped rest splits at the two accumulators, each a whole buffer owned at some contents; the other scoped buffers
stay together, unopened. -/

/-- The scoped rest of this call, split at its own two scratch buffers. -/
theorem scopedRest2_split (c : Dev nD) :
    (Pipeline.scopedRest (Ix := Unit) (Name := ℕ) (U := UR sig nD τ) (Lvl := ℕ) (Val := Elt F) spec2 c : sProp 𝕄)
      = iprop(iprop((∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f))
          ∗ Pipeline.scopedRestBut (Ix := Unit) (Name := ℕ) (U := UR sig nD τ) (Lvl := ℕ) (Val := Elt F) spec2 c [cc2_scratch0, cc2_scratch1]) :=
  Pipeline.scopedRest_split_of_list spec2 c [cc2_scratch0, cc2_scratch1] (by decide) (by decide)

/-- The entry invariant with the two accumulators as memrefs owned at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

theorem PhiS2_zero (c : Dev nD) (n : ℕ) (h : n ≤ cfg2.N) (hz : n = 0) : PhiS2 V c n h = Pipeline.ΦA spec2 c := by
  subst hz; rfl

/-- After point `n`: the accumulators at that point's values. -/
theorem PhiS2_succ (c : Dev nD) (n : ℕ) (hn : n < cfg2.N) :
    PhiS2 V c (n + 1) hn = iprop(owns (c : Thread nD τ) scM2_0 fullShare (accs2 V c n hn).1 ∗ owns (c : Thread nD τ) scM2_1 fullShare (accs2 V c n hn).2
      ∗ Pipeline.scopedRestBut (Ix := Unit) (Name := ℕ) (U := UR sig nD τ) (Lvl := ℕ) (Val := Elt F) spec2 c [cc2_scratch0, cc2_scratch1] ∗ (∃ r, prngReg c r)) := rfl

/-- Before a point that is not the first: the accumulators at what the point before left. -/
theorem PhiS2_pos (c : Dev nD) (n : ℕ) (h : n ≤ cfg2.N) (hz : n ≠ 0) :
    PhiS2 V c n h = iprop(owns (c : Thread nD τ) scM2_0 fullShare (accs2 V c (n - 1) (by omega)).1 ∗ owns (c : Thread nD τ) scM2_1 fullShare (accs2 V c (n - 1) (by omega)).2
      ∗ Pipeline.scopedRestBut (Ix := Unit) (Name := ℕ) (U := UR sig nD τ) (Lvl := ℕ) (Val := Elt F) spec2 c [cc2_scratch0, cc2_scratch1] ∗ (∃ r, prngReg c r)) := by
  cases n with
  | zero => exact absurd rfl hz
  | succ n => rfl

theorem PhiS2_castSucc (c : Dev nD) (t : Fin cfg2.N) :
    (dat2 V c).Φ t.castSucc = PhiS2 V c t.val (Nat.le_of_lt t.isLt) := by
  dsimp only [dat2]; simp only [Fin.coe_castSucc]

/-- The accumulators at a point that does not start a run: one step from the point before. -/
theorem accs2_pos (c : Dev nD) (t : Fin cfg2.N) (h : ¬ t.val % 695 = 0) :
    accs2 V c t.val t.isLt = accStep2 V c t.val t.isLt (accs2 V c (t.val - 1) (Nat.lt_of_le_of_lt (Nat.sub_le _ _) t.isLt)) := by
  obtain ⟨n, hn⟩ := t
  cases n with
  | zero => exact absurd (Nat.zero_mod _) h
  | succ n => exact accs2_step V c n hn h

/-! ## The input windows' buffers hold their blocks, fetched at the point or not -/

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl) (fun t => by rw [after2_5]; unfold Dat.blockOf iblk2; rw [A_eq2]; try rfl) t d).trans
    (by unfold Dat.fetched Dat.blockOf iblk2; rw [A_eq2]; try rfl)
theorem before2_6 (c : Dev nD) (t : Fin cfg2.N) (d) : (dat2 V c).before 6 t d = iblk2 V c 6 t :=
  ((dat2 V c).before_in_eq_fetched 6 rfl (fun _ => rfl) (fun _ _ _ => rfl) (fun t => by rw [after2_6]; unfold Dat.blockOf iblk2; rw [A_eq2]; try rfl) t d).trans
    (by unfold Dat.fetched Dat.blockOf iblk2; rw [A_eq2]; try rfl)
theorem before2_7 (c : Dev nD) (t : Fin cfg2.N) (d) : (dat2 V c).before 7 t d = iblk2 V c 7 t :=
  ((dat2 V c).before_in_eq_fetched 7 rfl (fun _ => rfl) (fun _ _ _ => rfl) (fun t => by rw [after2_7]; unfold Dat.blockOf iblk2; rw [A_eq2]; try rfl) t d).trans
    (by unfold Dat.fetched Dat.blockOf iblk2; rw [A_eq2]; try rfl)

/-! ## The body on whole memrefs at variable contents, case by case

The first conditional (the column coordinate is 0) resets the two accumulators to zero; the second (it is 694) stores
the output. A whole buffer stored through and loaded back reads the stored value, so in each case the two accumulators
end at one step of the segment sums from where they started (from zero after a reset), and the output, where stored,
is the dense layer of those. -/

/-- The two-axis zero offsets, however spelt. -/
theorem off00_k2 : (![0, 0] : Fin 2 → ℕ) = fun _ => 0 := by funext a; fin_cases a <;> rfl

/-- A load of a whole memref through the whole-shape rectangle at zero offsets reads its contents. -/
theorem readAt_unread_unit_k2 {sp : Space} {S : Shape} {e : EltTy} {m : Memref sig .tc sp S e} (hm : m.IsWhole)
    {off : Fin S.rank → ℕ} (h : off = fun _ => 0) (inb : ∀ a, off a + S.size a ≤ S.size a) (X : S.Idx → Elt F e) :
    View.readAt (Elt F) m.view (Rect.unit off S.size inb).toLoadRect (hm.unread X) = X :=
  (View.readAt_eq_ld m.view (hm.unread X) (Rect.unit off S.size inb)).trans
    ((congrArg (fun Y => View.ld Y (Rect.unit off S.size inb)) (hm.read_unread X)).trans (View.ld_unit_zero h inb X))

/-- A store through that rectangle, last, over any contents and any earlier stores, reads back as its payload. -/
theorem read_writes_cons_unit_k2 {sp : Space} {S : Shape} {e : EltTy} (v : View sig .tc sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self .., View.mem_set_unit_zero h inb y⟩)).trans
    (View.canon_cons_unit_zero h inb w L)

set_option maxHeartbeats 1000000 in
/-- The column coordinate is 0 and not 694: the accumulators restart, whatever they held; the output is untouched. -/
theorem kernel2_A (c : Dev nD) (i : grid2.Coords) (arg2 : Memref sig .tc .vmem S1x2304 .i32) (harg2 : arg2.IsWhole) (arg3 : Memref sig .tc .vmem S1x2304 .i32) (harg3 : arg3.IsWhole) (arg4 : Memref sig .tc .vmem S2304x64 .bf16) (harg4 : arg4.IsWhole) (arg5 : Memref sig .tc .vmem S2304x64 .bf16) (harg5 : arg5.IsWhole) (arg6 : Memref sig .tc .vmem S2304x64 .f32) (harg6 : arg6.IsWhole) (arg7 : Memref sig .tc .vmem S2304x1 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S2304x64 .f32) (harg10 : arg10.IsWhole) (arg11 : Memref sig .tc .vmem S2304x64 .f32) (harg11 : arg11.IsWhole) (arg12 : Memref sig .tc .vmem S2304x64 .f32) (harg12 : arg12.IsWhole)
    (hc0 : cond2_0 i) (hc1 : ¬cond2_1 i) (x0 : Vec F S1x2304 .i32) (x1 : Vec F S1x2304 .i32) (x2 : Vec F S2304x64 .bf16) (x3 : Vec F S2304x64 .bf16) (x4 : Vec F S2304x64 .f32) (x5 : Vec F S2304x1 .f32) (x6 : Vec F S64x64 .f32) (x7 : Vec F S1x64 .f32) (xo a b : Vec F S2304x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo ∗ owns (c : Thread nD τ) arg11 fullShare a ∗ owns (c : Thread nD τ) arg12 fullShare b
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo
            ∗ owns (c : Thread nD τ) arg11 fullShare (k2_pay6 i x0 x2 (k2_pay3 (F := F))) ∗ owns (c : Thread nD τ) arg12 fullShare (k2_pay1 (k2_pay7 i x1 x3 (k2_pay4 (F := F))))) -∗ K ⟨⟩))
      ⊢ wp frame (wpE (defs₀ (F := F)) Variants.none c none) E (cc2__scatter_finalize_kernel i arg2 harg2 arg3 harg3 arg4 harg4 arg5 harg5 arg6 harg6 arg7 harg7 arg8 harg8 arg9 harg9 arg10 harg10 arg11 harg11 arg12 harg12) K := by
  simp only [cc2__scatter_finalize_kernel_eq_skeleton]; unfold cc2__scatter_finalize_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fo, %hfo, HO⟩, ⟨%fa, %hfa, HA⟩, ⟨%fb, %hfb, HB⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg10.eq_unread hfo; obtain rfl := harg11.eq_unread hfa; obtain rfl := harg12.eq_unread hfb
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [HO]
  · iexists _; isplitr; · ipureintro; exact harg10.read_unread _
    iexact HO
  isplitl [HA]
  · iexists _; isplitr
    swap; · iexact HA
    ipureintro
    sl_unfold_run_names
    refine (read_writes_cons_unit_k2 _ _ off00_k2 _ _ _).trans ?_
    rw [readAt_unread_unit_k2 harg2 off00_k2, readAt_unread_unit_k2 harg4 off00_k2, View.readCov_cons_toLoadRect]
  · iexists _; isplitr
    swap; · iexact HB
    ipureintro
    sl_unfold_run_names
    refine (read_writes_cons_unit_k2 _ _ off00_k2 _ _ _).trans ?_
    rw [readAt_unread_unit_k2 harg3 off00_k2, readAt_unread_unit_k2 harg5 off00_k2, View.readCov_cons_toLoadRect]

set_option maxHeartbeats 1000000 in
/-- The column coordinate is neither 0 nor 694: the accumulators step from `(a, b)`; the output is untouched. -/
theorem kernel2_B (c : Dev nD) (i : grid2.Coords) (arg2 : Memref sig .tc .vmem S1x2304 .i32) (harg2 : arg2.IsWhole) (arg3 : Memref sig .tc .vmem S1x2304 .i32) (harg3 : arg3.IsWhole) (arg4 : Memref sig .tc .vmem S2304x64 .bf16) (harg4 : arg4.IsWhole) (arg5 : Memref sig .tc .vmem S2304x64 .bf16) (harg5 : arg5.IsWhole) (arg6 : Memref sig .tc .vmem S2304x64 .f32) (harg6 : arg6.IsWhole) (arg7 : Memref sig .tc .vmem S2304x1 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S2304x64 .f32) (harg10 : arg10.IsWhole) (arg11 : Memref sig .tc .vmem S2304x64 .f32) (harg11 : arg11.IsWhole) (arg12 : Memref sig .tc .vmem S2304x64 .f32) (harg12 : arg12.IsWhole)
    (hc0 : ¬cond2_0 i) (hc1 : ¬cond2_1 i) (x0 : Vec F S1x2304 .i32) (x1 : Vec F S1x2304 .i32) (x2 : Vec F S2304x64 .bf16) (x3 : Vec F S2304x64 .bf16) (x4 : Vec F S2304x64 .f32) (x5 : Vec F S2304x1 .f32) (x6 : Vec F S64x64 .f32) (x7 : Vec F S1x64 .f32) (xo a b : Vec F S2304x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo ∗ owns (c : Thread nD τ) arg11 fullShare a ∗ owns (c : Thread nD τ) arg12 fullShare b
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo
            ∗ owns (c : Thread nD τ) arg11 fullShare (k2_pay6 i x0 x2 a) ∗ owns (c : Thread nD τ) arg12 fullShare (k2_pay1 (k2_pay7 i x1 x3 b))) -∗ K ⟨⟩))
      ⊢ wp frame (wpE (defs₀ (F := F)) Variants.none c none) E (cc2__scatter_finalize_kernel i arg2 harg2 arg3 harg3 arg4 harg4 arg5 harg5 arg6 harg6 arg7 harg7 arg8 harg8 arg9 harg9 arg10 harg10 arg11 harg11 arg12 harg12) K := by
  simp only [cc2__scatter_finalize_kernel_eq_skeleton]; unfold cc2__scatter_finalize_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fo, %hfo, HO⟩, ⟨%fa, %hfa, HA⟩, ⟨%fb, %hfb, HB⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg10.eq_unread hfo; obtain rfl := harg11.eq_unread hfa; obtain rfl := harg12.eq_unread hfb
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [HO]
  · iexists _; isplitr; · ipureintro; exact harg10.read_unread _
    iexact HO
  isplitl [HA]
  · iexists _; isplitr
    swap; · iexact HA
    ipureintro
    refine (read_writes_cons_unit_k2 _ _ off00_k2 _ _ _).trans ?_
    rw [readAt_unread_unit_k2 harg2 off00_k2, readAt_unread_unit_k2 harg4 off00_k2, readAt_unread_unit_k2 harg11 off00_k2]
  · iexists _; isplitr
    swap; · iexact HB
    ipureintro
    refine (read_writes_cons_unit_k2 _ _ off00_k2 _ _ _).trans ?_
    rw [readAt_unread_unit_k2 harg3 off00_k2, readAt_unread_unit_k2 harg5 off00_k2, readAt_unread_unit_k2 harg12 off00_k2]

set_option maxHeartbeats 1000000 in
/-- The column coordinate is 694 and not 0: the accumulators step from `(a, b)`, and the output is stored from them. -/
theorem kernel2_C (c : Dev nD) (i : grid2.Coords) (arg2 : Memref sig .tc .vmem S1x2304 .i32) (harg2 : arg2.IsWhole) (arg3 : Memref sig .tc .vmem S1x2304 .i32) (harg3 : arg3.IsWhole) (arg4 : Memref sig .tc .vmem S2304x64 .bf16) (harg4 : arg4.IsWhole) (arg5 : Memref sig .tc .vmem S2304x64 .bf16) (harg5 : arg5.IsWhole) (arg6 : Memref sig .tc .vmem S2304x64 .f32) (harg6 : arg6.IsWhole) (arg7 : Memref sig .tc .vmem S2304x1 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S2304x64 .f32) (harg10 : arg10.IsWhole) (arg11 : Memref sig .tc .vmem S2304x64 .f32) (harg11 : arg11.IsWhole) (arg12 : Memref sig .tc .vmem S2304x64 .f32) (harg12 : arg12.IsWhole)
    (hc0 : ¬cond2_0 i) (hc1 : cond2_1 i) (x0 : Vec F S1x2304 .i32) (x1 : Vec F S1x2304 .i32) (x2 : Vec F S2304x64 .bf16) (x3 : Vec F S2304x64 .bf16) (x4 : Vec F S2304x64 .f32) (x5 : Vec F S2304x1 .f32) (x6 : Vec F S64x64 .f32) (x7 : Vec F S1x64 .f32) (xo a b : Vec F S2304x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo ∗ owns (c : Thread nD τ) arg11 fullShare a ∗ owns (c : Thread nD τ) arg12 fullShare b
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (k2_pay2 x4 (k2_pay6 i x0 x2 a) (k2_pay1 (k2_pay7 i x1 x3 b)) x5 x6 x7)
            ∗ owns (c : Thread nD τ) arg11 fullShare (k2_pay6 i x0 x2 a) ∗ owns (c : Thread nD τ) arg12 fullShare (k2_pay1 (k2_pay7 i x1 x3 b))) -∗ K ⟨⟩))
      ⊢ wp frame (wpE (defs₀ (F := F)) Variants.none c none) E (cc2__scatter_finalize_kernel i arg2 harg2 arg3 harg3 arg4 harg4 arg5 harg5 arg6 harg6 arg7 harg7 arg8 harg8 arg9 harg9 arg10 harg10 arg11 harg11 arg12 harg12) K := by
  simp only [cc2__scatter_finalize_kernel_eq_skeleton]; unfold cc2__scatter_finalize_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fo, %hfo, HO⟩, ⟨%fa, %hfa, HA⟩, ⟨%fb, %hfb, HB⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg10.eq_unread hfo; obtain rfl := harg11.eq_unread hfa; obtain rfl := harg12.eq_unread hfb
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [HO]
  · iexists _; isplitr
    swap; · iexact HO
    ipureintro
    sl_unfold_run_names
    refine (read_writes_cons_unit_k2 _ _ off00_k2 _ _ _).trans ?_
    rw [View.readCov_cons_toLoadRect, View.readCov_cons_toLoadRect]
    rw [readAt_unread_unit_k2 harg2 off00_k2, readAt_unread_unit_k2 harg4 off00_k2, readAt_unread_unit_k2 harg11 off00_k2,
      readAt_unread_unit_k2 harg3 off00_k2, readAt_unread_unit_k2 harg5 off00_k2, readAt_unread_unit_k2 harg12 off00_k2,
      readAt_unread_unit_k2 harg6 off00_k2, readAt_unread_unit_k2 harg7 off00_k2, readAt_unread_unit_k2 harg8 off00_k2, readAt_unread_unit_k2 harg9 off00_k2]
  isplitl [HA]
  · iexists _; isplitr
    swap; · iexact HA
    ipureintro
    sl_unfold_run_names
    refine (read_writes_cons_unit_k2 _ _ off00_k2 _ _ _).trans ?_
    rw [readAt_unread_unit_k2 harg2 off00_k2, readAt_unread_unit_k2 harg4 off00_k2, readAt_unread_unit_k2 harg11 off00_k2]
  · iexists _; isplitr
    swap; · iexact HB
    ipureintro
    sl_unfold_run_names
    refine (read_writes_cons_unit_k2 _ _ off00_k2 _ _ _).trans ?_
    rw [readAt_unread_unit_k2 harg3 off00_k2, readAt_unread_unit_k2 harg5 off00_k2, readAt_unread_unit_k2 harg12 off00_k2]

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns: the inputs as found, the output as the pipeline asks of an output idle off the last column. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ (dat2 V c).leavesExact 8 t)

set_option maxHeartbeats 4800000 in
/-- The body at any point. The inputs' memrefs hold their blocks; the closed forms of the two conditions say which case
    the point is in; the invariant hands the body the accumulators at what the point before left (at anything at the
    first point) and takes them back at this point's values; off the last column the output's buffer goes back as
    found, on it the buffer holds the layer's block. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).owesAt () t.succ = (dat2 V c).owesAt () t.castSucc from rfl]
  rw [show (dat2 V c).Φ t.succ = PhiS2 V c (t.val + 1) t.isLt from rfl, PhiS2_succ]
  rw [after2_0, after2_1, after2_2, after2_3, after2_4, after2_5, after2_6, after2_7]
  have hN : t.val < 30580 := lt_of_lt_of_eq t.isLt N_2'
  by_cases h0 : t.val % 695 = 0
  · have h1 : ¬ t.val % 695 = 694 := by omega
    rw [Dat.leavesExact_idle (dat2 V c) 8 t ((idle2_8 t).mpr h1) (Bool.eq_false_iff.mpr (fun h => h1 ((flush2_8 t).mp h)))]
    rw [accs2_reset V c t.val t.isLt h0]; unfold accReset2; (try dsimp only)
    by_cases hz : t.val = 0
    · rw [PhiS2_castSucc V c t, PhiS2_zero V c _ _ hz, PhiA2_eq]
      iintro ⟨⟨⟨⟨⟨%a, HS0⟩, ⟨%b, HS1⟩⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (kernel2_A c (grid2.coords t) _ _ _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) _ a b Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      iintro ⟨H0, H1, H2, H3, H4, H5, H6, H7, H8, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
    · rw [PhiS2_castSucc V c t, PhiS2_pos V c _ _ hz]
      iintro ⟨⟨HS0, HS1, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (kernel2_A c (grid2.coords t) _ _ _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      iintro ⟨H0, H1, H2, H3, H4, H5, H6, H7, H8, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
  · have hz : t.val ≠ 0 := fun e => h0 (by rw [e])
    rw [PhiS2_castSucc V c t, PhiS2_pos V c _ _ hz]
    by_cases h1 : t.val % 695 = 694
    · rw [show (dat2 V c).leavesExact 8 t = owns (c : Thread nD τ) (st2_8 t) fullShare ((dat2 V c).after 8 t) from by
        unfold Dat.leavesExact; rw [show cfg2.idle 8 (cfg2.grid.coords t) = false from Bool.eq_false_iff.mpr (fun h => (idle2_8 t).mp h h1)], after2_8]
      rw [accs2_pos V c t h0]; unfold accStep2; (try dsimp only)
      iintro ⟨⟨HS0, HS1, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (kernel2_C c (grid2.coords t) _ _ _ _ _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      iintro ⟨H0, H1, H2, H3, H4, H5, H6, H7, H8, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · rw [Dat.leavesExact_idle (dat2 V c) 8 t ((idle2_8 t).mpr h1) (Bool.eq_false_iff.mpr (fun h => h1 ((flush2_8 t).mp h)))]
      rw [accs2_pos V c t h0]; unfold accStep2; (try dsimp only)
      iintro ⟨⟨HS0, HS1, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (kernel2_B c (grid2.coords t) _ _ _ _ _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      iintro ⟨H0, H1, H2, H3, H4, H5, H6, H7, H8, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The body obligation of kernel 2, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the entry invariant back: the accumulators' values are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨HS0, HS1, Hr, Hg⟩
  isplitl [HS0 HS1 Hr]
  · isplitl [HS0 HS1]
    · isplitl [HS0]
      · iexists _; iexact HS0
      · iexists _; iexact HS1
    · iexact Hr
  · iexact Hg

/-- After the last point the invariant gives the scoped rest and the register back. -/
theorem hout2 (c : Dev nD) : (dat2 V c).Φ (Fin.last cfg2.N) ⊢ Pipeline.ΦA spec2 c :=
  Phi_out2 V c _ (by rw [Fin.val_last]; have : cfg2.N = 30580 := N_2'; omega)

end Cert.Kernel.Hand

end
-- ==== Proof.K.Outs.lean ====
import proofs.«425878_j39771397161472_2_alg».proof.Proof.Gen.Kernel.Regions
import proofs.«425878_j39771397161472_2_alg».proof.Proof.K.Region0
import proofs.«425878_j39771397161472_2_alg».proof.Proof.K.Region1
import proofs.«425878_j39771397161472_2_alg».proof.Proof.K.Region2

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # What the three kernels leave, and the buffer contents each kernel is entered with

The contents of every unscoped buffer between two items of the main function: the launch memory, then each stretch
of host operations applied, then what a kernel's write-backs leave in its output arrays. -/

variable (m : (ℓ : Loc nD τ sig) → Buf (Elt F) ℓ)

/-- A table of contents to start from (never read where it is not overwritten below). -/
def outsBase : Outs (F := F) := fun _ r c => m ((c : Thread nD τ).loc r)

/-- What kernel 0 is entered with: the launch memory after the four host stretches before it. -/
abbrev Vent0 : (c : Dev nD) → (b : Ref sig .tc) → Buf (Elt F) ((c : Thread nD τ).loc b) := fun c b => V4 m c b

/-- Kernel 0's two output arrays after its run. -/
def outsA : Outs (F := F) := fun n =>
  if n = 5 then
    Function.update (Function.update (outsBase m n) main_v2_0 (fun c => (dat0 (Vent0 m) c).arrAt 2 cfg0.N))
      main_v2_1 (fun c => (dat0 (Vent0 m) c).arrAt 3 cfg0.N)
  else outsBase m n

/-- What kernel 1 is entered with. -/
abbrev Vent1 : (c : Dev nD) → (b : Ref sig .tc) → Buf (Elt F) ((c : Thread nD τ).loc b) := fun c b => V10 m (outsA m) c b

/-- Kernel 1's two output arrays after its run. -/
def outsB : Outs (F := F) := fun n =>
  if n = 11 then
    Function.update (Function.update (outsA m n) main_v9_0 (fun c => (dat1 (Vent1 m) c).arrAt 3 cfg1.N))
      main_v9_1 (fun c => (dat1 (Vent1 m) c).arrAt 4 cfg1.N)
  else outsA m n

/-- What kernel 2 is entered with. -/
abbrev Vent2 : (c : Dev nD) → (b : Ref sig .tc) → Buf (Elt F) ((c : Thread nD τ).loc b) := fun c b => V12 m (outsB m) c b

/-- Kernel 2's output array after its run: the table every item's contents are read from. -/
def outs : Outs (F := F) := fun n =>
  if n = 13 then Function.update (outsB m n) main_v11 (fun c => (dat2 (Vent2 m) c).arrAt 8 cfg2.N)
  else outsB m n

/-- Below item 13 the final table is the one kernel 1 leaves; below item 11, the one kernel 0 leaves. -/
theorem outs_eq_outsB {n : ℕ} (h : n ≠ 13) : outs m n = outsB m n := by
  unfold outs; exact if_neg h
theorem outsB_eq_outsA {n : ℕ} (h : n ≠ 11) : outsB m n = outsA m n := by
  unfold outsB; exact if_neg h
theorem outsA_5 : outsA m 5
    = Function.update (Function.update (outsBase m 5) main_v2_0 (fun c => (dat0 (Vent0 m) c).arrAt 2 cfg0.N))
        main_v2_1 (fun c => (dat0 (Vent0 m) c).arrAt 3 cfg0.N) := by
  unfold outsA; exact if_pos rfl
theorem outsB_11 : outsB m 11
    = Function.update (Function.update (outsA m 11) main_v9_0 (fun c => (dat1 (Vent1 m) c).arrAt 3 cfg1.N))
        main_v9_1 (fun c => (dat1 (Vent1 m) c).arrAt 4 cfg1.N) := by
  unfold outsB; exact if_pos rfl
theorem outs_13 : outs m 13
    = Function.update (outsB m 13) main_v11 (fun c => (dat2 (Vent2 m) c).arrAt 8 cfg2.N) := by
  unfold outs; exact if_pos rfl

theorem outs_5_v2_0 (c : Dev nD) : outs m 5 main_v2_0 c = (dat0 (Vent0 m) c).arrAt 2 cfg0.N := by
  rw [outs_eq_outsB m (by decide), outsB_eq_outsA m (by decide), outsA_5,
    Function.update_of_ne (by decide), Function.update_self]
theorem outs_5_v2_1 (c : Dev nD) : outs m 5 main_v2_1 c = (dat0 (Vent0 m) c).arrAt 3 cfg0.N := by
  rw [outs_eq_outsB m (by decide), outsB_eq_outsA m (by decide), outsA_5, Function.update_self]
theorem outs_11_v9_0 (c : Dev nD) : outs m 11 main_v9_0 c = (dat1 (Vent1 m) c).arrAt 3 cfg1.N := by
  rw [outs_eq_outsB m (by decide), outsB_11, Function.update_of_ne (by decide), Function.update_self]
theorem outs_11_v9_1 (c : Dev nD) : outs m 11 main_v9_1 c = (dat1 (Vent1 m) c).arrAt 4 cfg1.N := by
  rw [outs_eq_outsB m (by decide), outsB_11, Function.update_self]
theorem outs_13_v11 (c : Dev nD) : outs m 13 main_v11 c = (dat2 (Vent2 m) c).arrAt 8 cfg2.N := by
  rw [outs_13, Function.update_self]

/-- A valuation up to item 10 reads its table at item 5 only. -/
theorem V10_congr (o o' : Outs (F := F)) (h : o 5 = o' 5) (c : Dev nD) : V10 m o c = V10 m o' c := by
  have h5 : V5 m o c = V5 m o' c := by unfold V5; rw [h]
  unfold V10 V9 V8 V7 V6; rw [h5]
/-- A valuation up to item 12 reads its table at items 5 and 11 only. -/
theorem V12_congr (o o' : Outs (F := F)) (h : o 5 = o' 5) (h' : o 11 = o' 11) (c : Dev nD) : V12 m o c = V12 m o' c := by
  have h11 : V11 m o c = V11 m o' c := by unfold V11; rw [V10_congr m o o' h c, h']
  unfold V12; rw [h11]

/-- The tables agree where the valuations read them: the valuation kernel 1 is entered with, read off the final table. -/
theorem V10_outs (c : Dev nD) : V10 m (outs m) c = V10 m (outsA m) c :=
  V10_congr m _ _ ((outs_eq_outsB m (by decide)).trans (outsB_eq_outsA m (by decide))) c
theorem V12_outs (c : Dev nD) : V12 m (outs m) c = V12 m (outsB m) c :=
  V12_congr m _ _ (outs_eq_outsB m (by decide)) (outs_eq_outsB m (by decide)) c

end Cert.Kernel.Hand

end
-- ==== Proof.K.Run.lean ====
import proofs.«425878_j39771397161472_2_alg».proof.Proof.K.Outs
import proofs.«425878_j39771397161472_2_alg».proof.Proof.K.RunCond
import Idealize.ShloMosaic.Lib.Pipeline.RegionsLoop

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

/-! # The run of the main function

The main function is fourteen items: stretches of host operations and the three kernels. Each kernel, entered with
every unscoped buffer at the contents the items before it left, leaves its output arrays at what its write-backs
fold to and everything else unscoped as it was; so at the end every unscoped buffer holds the last valuation. -/

variable (m : (ℓ : Loc nD τ sig) → Buf (Elt F) ℓ) (ρ : Dev nD → PrngReg)

/-! ## The kernels' proof data and what rides beside the buffers -/

/-- Every kernel's proof data, each at the contents its kernel is entered with. -/
def pdats : (p : Fin 3) → (c : Dev nD) → Dat τ (Elt F) Unit ℕ (UR sig nD τ) ℕ (cfgs p) c
  | ⟨0, _⟩ => fun c => dat0 (Vent0 m) c
  | ⟨1, _⟩ => fun c => dat1 (Vent1 m) c
  | ⟨2, _⟩ => fun c => dat2 (Vent2 m) c

/-- No core owes another anything: no level is assigned. -/
abbrev L0 : GSem nD τ sig → Finset Unit := fun _ => ∅
abbrev lv0 : GSem nD τ sig → Unit → ℕ := fun _ _ => 0

/-- What rides beside the buffers through every item: the core's generator register at some state and the core
    owing nothing. -/
abbrev Rest (c : Dev nD) : sProp 𝕄 := iprop((∃ r, prngReg c r) ∗ ∃ W, owes (c : Thread nD τ) (0 : CellTallies nD τ sig Unit) W)

/-! ## Where a kernel's arrays sit in the valuation after it -/

theorem V5_v2_0 (o : Outs (F := F)) (c : Dev nD) : V5 m o c main_v2_0 = o 5 main_v2_0 c := by
  unfold V5
  rw [Function.update_of_ne (StableHlo.devRef_ne_of_ne (by decide) : (Proc.devRef .tc main_v2_0 : DevRef τ sig) ≠ Proc.devRef .tc main_v2_1),
    Function.update_self]
theorem V5_v2_1 (o : Outs (F := F)) (c : Dev nD) : V5 m o c main_v2_1 = o 5 main_v2_1 c := by
  unfold V5; rw [Function.update_self]
theorem V11_v9_0 (o : Outs (F := F)) (c : Dev nD) : V11 m o c main_v9_0 = o 11 main_v9_0 c := by
  unfold V11
  rw [Function.update_of_ne (StableHlo.devRef_ne_of_ne (by decide) : (Proc.devRef .tc main_v9_0 : DevRef τ sig) ≠ Proc.devRef .tc main_v9_1),
    Function.update_self]
theorem V11_v9_1 (o : Outs (F := F)) (c : Dev nD) : V11 m o c main_v9_1 = o 11 main_v9_1 c := by
  unfold V11; rw [Function.update_self]
theorem V13_v11 (o : Outs (F := F)) (c : Dev nD) : V13 m o c main_v11 = o 13 main_v11 c := by
  unfold V13; rw [Function.update_self]

/-- After kernel 0 each of its arrays holds what the pipeline leaves there: an input what it held at entry, an output
    the fold of its write-backs. -/
theorem hF0 (c : Dev nD) (w : Fin cfg0.W) :
    (dat0 (Vent0 m) c).arrAt w cfg0.N = V5 m (outs m) c (Pipeline.arrRef spec0 w) := by
  match w with
  | ⟨0, _⟩ => exact (((dat0 (Vent0 m) c).arrAt_in 0 rfl _).trans (A_eq0 (Vent0 m) c 0)).trans (V5_of m (outs m) c main_v0 (by decide)).symm
  | ⟨1, _⟩ => exact (((dat0 (Vent0 m) c).arrAt_in 1 rfl _).trans (A_eq0 (Vent0 m) c 1)).trans (V5_of m (outs m) c main_v1 (by decide)).symm
  | ⟨2, _⟩ => exact (outs_5_v2_0 m c).symm.trans (V5_v2_0 m (outs m) c).symm
  | ⟨3, _⟩ => exact (outs_5_v2_1 m c).symm.trans (V5_v2_1 m (outs m) c).symm
/-- and every other buffer what it held at entry. -/
theorem hrest0 (c : Dev nD) (b : Ref sig .tc) (hb : b ∉ Finset.univ.image (Pipeline.arrRef spec0)) :
    V5 m (outs m) c b = Vent0 m c b :=
  V5_of m (outs m) c b fun h => by
    rcases List.mem_cons.mp h with h | h
    · exact hb (Finset.mem_image.mpr ⟨2, Finset.mem_univ _, h.symm⟩)
    · exact hb (Finset.mem_image.mpr ⟨3, Finset.mem_univ _, (List.mem_singleton.mp h).symm⟩)

theorem hF1 (c : Dev nD) (w : Fin cfg1.W) :
    (dat1 (Vent1 m) c).arrAt w cfg1.N = V11 m (outs m) c (Pipeline.arrRef spec1 w) := by
  match w with
  | ⟨0, _⟩ => exact (((dat1 (Vent1 m) c).arrAt_in 0 rfl _).trans (A_eq1 (Vent1 m) c 0)).trans ((congrFun (V10_outs m c) _).symm.trans (V11_of m (outs m) c main_v5 (by decide)).symm)
  | ⟨1, _⟩ => exact (((dat1 (Vent1 m) c).arrAt_in 1 rfl _).trans (A_eq1 (Vent1 m) c 1)).trans ((congrFun (V10_outs m c) _).symm.trans (V11_of m (outs m) c main_v6 (by decide)).symm)
  | ⟨2, _⟩ => exact (((dat1 (Vent1 m) c).arrAt_in 2 rfl _).trans (A_eq1 (Vent1 m) c 2)).trans ((congrFun (V10_outs m c) _).symm.trans (V11_of m (outs m) c main_v2_1 (by decide)).symm)
  | ⟨3, _⟩ => exact (outs_11_v9_0 m c).symm.trans (V11_v9_0 m (outs m) c).symm
  | ⟨4, _⟩ => exact (outs_11_v9_1 m c).symm.trans (V11_v9_1 m (outs m) c).symm
theorem hrest1 (c : Dev nD) (b : Ref sig .tc) (hb : b ∉ Finset.univ.image (Pipeline.arrRef spec1)) :
    V11 m (outs m) c b = Vent1 m c b :=
  (V11_of m (outs m) c b fun h => by
    rcases List.mem_cons.mp h with h | h
    · exact hb (Finset.mem_image.mpr ⟨3, Finset.mem_univ _, h.symm⟩)
    · exact hb (Finset.mem_image.mpr ⟨4, Finset.mem_univ _, (List.mem_singleton.mp h).symm⟩)).trans (congrFun (V10_outs m c) _)

theorem hF2 (c : Dev nD) (w : Fin cfg2.W) :
    (dat2 (Vent2 m) c).arrAt w cfg2.N = V13 m (outs m) c (Pipeline.arrRef spec2 w) := by
  match w with
  | ⟨0, _⟩ => exact (((dat2 (Vent2 m) c).arrAt_in 0 rfl _).trans (A_eq2 (Vent2 m) c 0)).trans ((congrFun (V12_outs m c) _).symm.trans (V13_of m (outs m) c main_v8 (by decide)).symm)
  | ⟨1, _⟩ => exact (((dat2 (Vent2 m) c).arrAt_in 1 rfl _).trans (A_eq2 (Vent2 m) c 1)).trans ((congrFun (V12_outs m c) _).symm.trans (V13_of m (outs m) c main_v7 (by decide)).symm)
  | ⟨2, _⟩ => exact (((dat2 (Vent2 m) c).arrAt_in 2 rfl _).trans (A_eq2 (Vent2 m) c 2)).trans ((congrFun (V12_outs m c) _).symm.trans (V13_of m (outs m) c main_v9_0 (by decide)).symm)
  | ⟨3, _⟩ => exact (((dat2 (Vent2 m) c).arrAt_in 3 rfl _).trans (A_eq2 (Vent2 m) c 3)).trans ((congrFun (V12_outs m c) _).symm.trans (V13_of m (outs m) c main_v9_1 (by decide)).symm)
  | ⟨4, _⟩ => exact (((dat2 (Vent2 m) c).arrAt_in 4 rfl _).trans (A_eq2 (Vent2 m) c 4)).trans ((congrFun (V12_outs m c) _).symm.trans (V13_of m (outs m) c main_v2_0 (by decide)).symm)
  | ⟨5, _⟩ => exact (((dat2 (Vent2 m) c).arrAt_in 5 rfl _).trans (A_eq2 (Vent2 m) c 5)).trans ((congrFun (V12_outs m c) _).symm.trans (V13_of m (outs m) c main_v1 (by decide)).symm)
  | ⟨6, _⟩ => exact (((dat2 (Vent2 m) c).arrAt_in 6 rfl _).trans (A_eq2 (Vent2 m) c 6)).trans ((congrFun (V12_outs m c) _).symm.trans (V13_of m (outs m) c main_arg4 (by decide)).symm)
  | ⟨7, _⟩ => exact (((dat2 (Vent2 m) c).arrAt_in 7 rfl _).trans (A_eq2 (Vent2 m) c 7)).trans ((congrFun (V12_outs m c) _).symm.trans (V13_of m (outs m) c main_v10 (by decide)).symm)
  | ⟨8, _⟩ => exact (outs_13_v11 m c).symm.trans (V13_v11 m (outs m) c).symm
theorem hrest2 (c : Dev nD) (b : Ref sig .tc) (hb : b ∉ Finset.univ.image (Pipeline.arrRef spec2)) :
    V13 m (outs m) c b = Vent2 m c b :=
  (V13_of m (outs m) c b fun h =>
    hb (Finset.mem_image.mpr ⟨8, Finset.mem_univ _, (List.mem_singleton.mp h).symm⟩)).trans (congrFun (V12_outs m c) _)

/-! ## The kernels as items of the main function -/

set_option backward.isDefEq.respectTransparency.types false in
/-- KERNEL 0 over the thread state: entered from every unscoped buffer at the valuation before it, left at the one
    after it. Its arrays split out of the unscoped buffers and put back at what the pipeline leaves; the generator
    register into the region's invariant and out; nothing owed; no semaphore of the kernel's own. -/
def reg0 : Pipeline.RegionSeg (pcfgs (F := F)) adm (pdats m) () defs₀ Variants.none L0 lv0 0 where
  win := launch0.win.to₀
  block_pos := launch0.block_pos
  stage_whole := launch0.stage_whole
  K := PEmpty
  osem k := k.elim
  ho := Pipeline.OwnSemFacts.none _
  hbody c := (body_obligation0 (Vent0 m) c).loose
  hwaits := Pipeline.hwaits_of_owed_zero _ _ _ _ L0 lv0 0 fun _ _ => rfl
  pre c := iprop(StableHlo.held (c : Thread nD τ) (Pipeline.ucRefs τ sig) (V4 m c) ∗ Rest c)
  post c := iprop(StableHlo.held (c : Thread nD τ) (Pipeline.ucRefs τ sig) (V5 m (outs m) c) ∗ Rest c)
  X c := iprop(∃ r, prngReg c r)
  Y c := iprop(∃ r, prngReg c r)
  Z c := Pipeline.unscopedRest (Ix := Unit) (Name := ℕ) (U := UR sig nD τ) (Lvl := ℕ) spec0 c (Vent0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Vent0 m) c)
    unfold Pipeline.ΦA
    iintro ⟨Hp, -, Hr⟩
    isplitl [Hr]; · iexact Hr
    iexact Hp
  hout c := by
    rw [Pipeline.ownSems0_none]
    refine BIBase.Entails.trans (hout0 (Vent0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vent0 m c) (fun b => V5 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- KERNEL 1 over the thread state: entered from every unscoped buffer at the valuation before it, left at the one
    after it. Its arrays split out of the unscoped buffers and put back at what the pipeline leaves; the generator
    register into the region's invariant and out; nothing owed; no semaphore of the kernel's own. -/
def reg1 : Pipeline.RegionSeg (pcfgs (F := F)) adm (pdats m) () defs₀ Variants.none L0 lv0 1 where
  win := launch1.win.to₀
  block_pos := launch1.block_pos
  stage_whole := launch1.stage_whole
  K := PEmpty
  osem k := k.elim
  ho := Pipeline.OwnSemFacts.none _
  hbody c := (body_obligation1 (Vent1 m) c).loose
  hwaits := Pipeline.hwaits_of_owed_zero _ _ _ _ L0 lv0 1 fun _ _ => rfl
  pre c := iprop(StableHlo.held (c : Thread nD τ) (Pipeline.ucRefs τ sig) (V10 m (outs m) c) ∗ Rest c)
  post c := iprop(StableHlo.held (c : Thread nD τ) (Pipeline.ucRefs τ sig) (V11 m (outs m) c) ∗ Rest c)
  X c := iprop(∃ r, prngReg c r)
  Y c := iprop(∃ r, prngReg c r)
  Z c := Pipeline.unscopedRest (Ix := Unit) (Name := ℕ) (U := UR sig nD τ) (Lvl := ℕ) spec1 c (Vent1 m c)
  hentry c := by
    rw [Pipeline.ownSems0_none, V10_outs m c]
    have hsplit := Pipeline.arrays_of_unscopedBufs (p := 1) (pcfgs (F := F)) adm (pdats m) launch1.win launch1.arr_whole c
      ((pdats m 1 c).share_full fun _ => rfl) (Vent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vent1 m) c)
    unfold Pipeline.ΦA
    iintro ⟨Hp, -, Hr⟩
    isplitl [Hr]; · iexact Hr
    iexact Hp
  hout c := by
    rw [Pipeline.ownSems0_none]
    refine BIBase.Entails.trans (hout1 (Vent1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vent1 m c) (fun b => V11 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- KERNEL 2 over the thread state: entered from every unscoped buffer at the valuation before it, left at the one
    after it. Its arrays split out of the unscoped buffers and put back at what the pipeline leaves; the generator
    register into the region's invariant and out; nothing owed; no semaphore of the kernel's own. -/
def reg2 : Pipeline.RegionSeg (pcfgs (F := F)) adm (pdats m) () defs₀ Variants.none L0 lv0 2 where
  win := launch2.win.to₀
  block_pos := launch2.block_pos
  stage_whole := launch2.stage_whole
  K := PEmpty
  osem k := k.elim
  ho := Pipeline.OwnSemFacts.none _
  hbody c := (body_obligation2 (Vent2 m) c).loose
  hwaits := Pipeline.hwaits_of_owed_zero _ _ _ _ L0 lv0 2 fun _ _ => rfl
  pre c := iprop(StableHlo.held (c : Thread nD τ) (Pipeline.ucRefs τ sig) (V12 m (outs m) c) ∗ Rest c)
  post c := iprop(StableHlo.held (c : Thread nD τ) (Pipeline.ucRefs τ sig) (V13 m (outs m) c) ∗ Rest c)
  X c := iprop(∃ r, prngReg c r)
  Y c := iprop(∃ r, prngReg c r)
  Z c := Pipeline.unscopedRest (Ix := Unit) (Name := ℕ) (U := UR sig nD τ) (Lvl := ℕ) spec2 c (Vent2 m c)
  hentry c := by
    rw [Pipeline.ownSems0_none, V12_outs m c]
    have hsplit := Pipeline.arrays_of_unscopedBufs (p := 2) (pcfgs (F := F)) adm (pdats m) launch2.win launch2.arr_whole c
      ((pdats m 2 c).share_full fun _ => rfl) (Vent2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (Vent2 m) c)
    unfold Pipeline.ΦA
    iintro ⟨Hp, -, Hr⟩
    isplitl [Hr]; · iexact Hr
    iexact Hp
  hout c := by
    rw [Pipeline.ownSems0_none]
    refine BIBase.Entails.trans (hout2 (Vent2 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vent2 m c) (fun b => V13 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- THE RUN, NAMED. Every weakly fair execution of the main function terminates, nothing faulting; the result
    buffer ends at the last valuation's contents and the six arguments end as launched. -/
theorem run_named : θ_run defs (onTc (τ := τ) (main (F := F))) ⟨m, fun _ => 0, ρ⟩ (fun r => ∀ c : Dev nD,
      r.2.mem ((c.tc : Thread nD τ).loc main_v12) = V14 m (outs m) c main_v12
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_cond m emb₁ () Variants.none L0 lv0 (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ => Rest)
    (by
      refine Pipeline.initEach L0 lv0 fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun _ => .rfl) (fun _ => .rfl)
    (reg1 m) (fun _ => .rfl) (fun _ => .rfl)
    (reg2 m) (fun _ => .rfl) (fun _ => .rfl)

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_named m ρ)

end Cert.Kernel.Hand

end
-- ==== Proof.KI.Sched.lean ====
import proofs.«425878_j39771397161472_2_alg».proof.Proof.Gen.KernelIdeal.Launch
import proofs.«425878_j39771397161472_2_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The three grids' schedules, in closed form

Grid 0 is a line of 44 points. Grid 1 has 695 × 44 points, point `t` at coordinates `(t / 44, t % 44)`; grid 2 has
44 × 695 points, point `t` at `(t / 695, t % 695)`. An output block is written back at the last point of its run. -/

theorem N_0' : cfg0.N = 44 := N_0
theorem N_1' : cfg1.N = 30580 := N_1
theorem N_2' : cfg2.N = 30580 := N_2

/-- The current staging memref of each window at a point, and the kernel body as the pipeline calls it there. -/
abbrev st0_0 (t : Fin cfg0.N) := (cfg0.win 0).stage (cfg0.slots t 0)
abbrev st0_1 (t : Fin cfg0.N) := (cfg0.win 1).stage (cfg0.slots t 1)
abbrev st0_2 (t : Fin cfg0.N) := (cfg0.win 2).stage (cfg0.slots t 2)
abbrev st0_3 (t : Fin cfg0.N) := (cfg0.win 3).stage (cfg0.slots t 3)
abbrev bodyAt0 (t : Fin cfg0.N) : Prog (TpuEff nD τ sig (Elt F) Λ₀ .tc) PUnit :=
  cc0__xnorm_kernel (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3))

abbrev st1_0 (t : Fin cfg1.N) := (cfg1.win 0).stage (cfg1.slots t 0)
abbrev st1_1 (t : Fin cfg1.N) := (cfg1.win 1).stage (cfg1.slots t 1)
abbrev st1_2 (t : Fin cfg1.N) := (cfg1.win 2).stage (cfg1.slots t 2)
abbrev st1_3 (t : Fin cfg1.N) := (cfg1.win 3).stage (cfg1.slots t 3)
abbrev st1_4 (t : Fin cfg1.N) := (cfg1.win 4).stage (cfg1.slots t 4)
abbrev bodyAt1 (t : Fin cfg1.N) : Prog (TpuEff nD τ sig (Elt F) Λ₀ .tc) PUnit :=
  cc1__gather_kernel (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (Memref.whole cc1_scratch0) (Memref.isWhole_whole _) (Memref.whole cc1_scratch1) (Memref.isWhole_whole _)

abbrev st2_0 (t : Fin cfg2.N) := (cfg2.win 0).stage (cfg2.slots t 0)
abbrev st2_1 (t : Fin cfg2.N) := (cfg2.win 1).stage (cfg2.slots t 1)
abbrev st2_2 (t : Fin cfg2.N) := (cfg2.win 2).stage (cfg2.slots t 2)
abbrev st2_3 (t : Fin cfg2.N) := (cfg2.win 3).stage (cfg2.slots t 3)
abbrev st2_4 (t : Fin cfg2.N) := (cfg2.win 4).stage (cfg2.slots t 4)
abbrev st2_5 (t : Fin cfg2.N) := (cfg2.win 5).stage (cfg2.slots t 5)
abbrev st2_6 (t : Fin cfg2.N) := (cfg2.win 6).stage (cfg2.slots t 6)
abbrev st2_7 (t : Fin cfg2.N) := (cfg2.win 7).stage (cfg2.slots t 7)
abbrev st2_8 (t : Fin cfg2.N) := (cfg2.win 8).stage (cfg2.slots t 8)
abbrev bodyAt2 (t : Fin cfg2.N) : Prog (TpuEff nD τ sig (Elt F) Λ₀ .tc) PUnit :=
  cc2__scatter_finalize_kernel (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (win2_8.stage (cfg2.slots t 8)) (hstage2_8 ((cfg2.slots t 8).cast nbuf2_8)) (Memref.whole cc2_scratch0) (Memref.isWhole_whole _) (Memref.whole cc2_scratch1) (Memref.isWhole_whole _)

/-! ## Coordinates of a point -/

/-- How many consecutive points share a coordinate, per axis. -/
private theorem stride0_0 : grid0.stride 0 = 1 := by decide
private theorem stride1_0 : grid1.stride 0 = 44 := by decide
private theorem stride1_1 : grid1.stride 1 = 1 := by decide
private theorem stride2_0 : grid2.stride 0 = 695 := by decide
private theorem stride2_1 : grid2.stride 1 = 1 := by decide

/-- A point's number is below the grid's size, as a literal. -/
private theorem lt0 (t : Fin cfg0.N) : t.val < 44 := lt_of_lt_of_eq t.isLt N_0'
private theorem lt1 (t : Fin cfg1.N) : t.val < 30580 := lt_of_lt_of_eq t.isLt N_1'
private theorem lt2 (t : Fin cfg2.N) : t.val < 30580 := lt_of_lt_of_eq t.isLt N_2'

theorem coords0_val (t : Fin cfg0.N) : ((grid0.coords t) 0).val = t.val := by
  have ht := lt0 t
  show t.val / grid0.stride 0 % 44 = t.val
  rw [stride0_0, Nat.div_one, Nat.mod_eq_of_lt ht]
theorem coords1_0_val (t : Fin cfg1.N) : ((grid1.coords t) 0).val = t.val / 44 := by
  have ht := lt1 t
  show t.val / grid1.stride 0 % 695 = t.val / 44
  rw [stride1_0, Nat.mod_eq_of_lt (by omega)]
theorem coords1_1_val (t : Fin cfg1.N) : ((grid1.coords t) 1).val = t.val % 44 := by
  show t.val / grid1.stride 1 % 44 = t.val % 44
  rw [stride1_1, Nat.div_one]
theorem coords2_0_val (t : Fin cfg2.N) : ((grid2.coords t) 0).val = t.val / 695 := by
  have ht := lt2 t
  show t.val / grid2.stride 0 % 44 = t.val / 695
  rw [stride2_0, Nat.mod_eq_of_lt (by omega)]
theorem coords2_1_val (t : Fin cfg2.N) : ((grid2.coords t) 1).val = t.val % 695 := by
  show t.val / grid2.stride 1 % 695 = t.val % 695
  rw [stride2_1, Nat.div_one]

/-! ## The bodies' two conditions -/

/-- Two 32-bit words made from naturals below 2^32 are equal exactly when the naturals are. -/
private theorem ofNat32_eq_iff {k c : Nat} (hk : k < 2 ^ 32) (hc : c < 2 ^ 32) : BitVec.ofNat 32 k = BitVec.ofNat 32 c ↔ k = c := by
  constructor
  · intro h
    have h' := congrArg BitVec.toNat h
    rw [BitVec.toNat_ofNat, BitVec.toNat_ofNat, Nat.mod_eq_of_lt hk, Nat.mod_eq_of_lt hc] at h'
    exact h'
  · intro h; rw [h]

private theorem toNat_ofNat32 {k : Nat} (hk : k < 2 ^ 32) : (BitVec.ofNat 32 k).toNat = k := by
  rw [BitVec.toNat_ofNat, Nat.mod_eq_of_lt hk]

/-- The chain "compare equal, widen to 32 bits, compare with zero" gives one exactly when the compared naturals agree. -/
private theorem word_cond {k : Nat} (m c : Nat) (hk : k = m) (hm : m < 2 ^ 32) (hc : c < 2 ^ 32) :
    Scalar.cmpi .ne (Scalar.extui (Scalar.cmpi .eq (BitVec.ofNat 32 k) (BitVec.ofNat 32 c))) 0#32 = 1#1 ↔ m = c := by
  subst hk
  by_cases h : BitVec.ofNat 32 k = BitVec.ofNat 32 c
  · have e : Scalar.cmpi .eq (BitVec.ofNat 32 k) (BitVec.ofNat 32 c) = 1#1 := IntOp.cmpi_eq.mpr h
    rw [e]
    exact ⟨fun _ => (ofNat32_eq_iff hm hc).mp h, fun _ => by decide⟩
  · have e : Scalar.cmpi .eq (BitVec.ofNat 32 k) (BitVec.ofNat 32 c) = 0#1 := by
      show BitVec.ofBool (BitVec.ofNat 32 k == BitVec.ofNat 32 c) = 0#1
      rw [beq_eq_false_iff_ne.mpr h]; rfl
    rw [e]
    exact ⟨fun hh => absurd hh (by decide), fun hh => absurd ((ofNat32_eq_iff hm hc).mpr hh) h⟩

/-- The first `scf.if` of kernel 1 (reset the accumulators): taken at the first point of each run of 44. -/
abbrev cond1_0 (i : grid1.Coords) : Prop := (Scalar.cmpi .ne (Scalar.extui (Scalar.cmpi .eq (BitVec.ofNat 32 (i 1).val) 0#32)) 0#32) = 1#1
theorem hcond1_0 (t : Fin cfg1.N) : cond1_0 (grid1.coords t) ↔ t.val % 44 = 0 := by
  exact word_cond (t.val % 44) 0 (coords1_1_val t) (by omega) (by decide)
/-- The second (store the outputs): taken at the last point of each run. -/
abbrev cond1_1 (i : grid1.Coords) : Prop := k1_cond2 i = 1#1
theorem hcond1_1 (t : Fin cfg1.N) : cond1_1 (grid1.coords t) ↔ t.val % 44 = 43 := by
  exact word_cond (t.val % 44) 43 (coords1_1_val t) (by omega) (by decide)
abbrev cond2_0 (i : grid2.Coords) : Prop := (Scalar.cmpi .ne (Scalar.extui (Scalar.cmpi .eq (BitVec.ofNat 32 (i 1).val) 0#32)) 0#32) = 1#1
theorem hcond2_0 (t : Fin cfg2.N) : cond2_0 (grid2.coords t) ↔ t.val % 695 = 0 := by
  exact word_cond (t.val % 695) 0 (coords2_1_val t) (by omega) (by decide)
abbrev cond2_1 (i : grid2.Coords) : Prop := k2_cond2 i = 1#1
theorem hcond2_1 (t : Fin cfg2.N) : cond2_1 (grid2.coords t) ↔ t.val % 695 = 694 := by
  exact word_cond (t.val % 695) 694 (coords2_1_val t) (by omega) (by decide)

/-! ## Where the outputs are written back, and where they are idle -/

/-- An output window is written back at the last point and wherever the next point's block index differs. -/
private theorem flush_iff {G : Pipeline.Grid} (w : Window sig G) (hout : w.isOut = true) (t : Fin G.N) :
    w.flush t = true ↔ (t.val + 1 = G.N ∨ ∃ h : t.val + 1 < G.N, w.index ⟨t.val + 1, h⟩ ≠ w.index t) := by
  unfold Window.flush
  rw [hout, Bool.true_and, Bool.or_eq_true, decide_eq_true_eq, decide_eq_true_eq]

/-- Two block indices with second entry zero differ exactly when their first entries do. -/
private theorem vec2_ne {a b : Nat} : (![a, 0] : Fin 2 → Nat) ≠ ![b, 0] ↔ a ≠ b := by
  constructor
  · intro h e; exact h (by rw [e])
  · intro h e; exact h (congrFun e 0)

/-- The output windows' block rows (restated below with the input windows'). -/
private theorem ix0_2 (t : Fin cfg0.N) : (cfg0.win 2).index t = ![t.val, 0] := by
  have ht := lt0 t
  show ![(BitVec.ofNat 32 ((grid0.coords t) 0).val).toNat, (0#32).toNat] = ![t.val, 0]
  rw [coords0_val, toNat_ofNat32 (k := t.val) (by omega)]
  rfl
private theorem ix0_3 (t : Fin cfg0.N) : (cfg0.win 3).index t = ![t.val, 0] := by
  have ht := lt0 t
  show ![(BitVec.ofNat 32 ((grid0.coords t) 0).val).toNat, (0#32).toNat] = ![t.val, 0]
  rw [coords0_val, toNat_ofNat32 (k := t.val) (by omega)]
  rfl
private theorem ix1_3 (t : Fin cfg1.N) : (cfg1.win 3).index t = ![t.val / 44, 0] := by
  have ht := lt1 t
  show ![(BitVec.ofNat 32 ((grid1.coords t) 0).val).toNat, (0#32).toNat] = ![t.val / 44, 0]
  rw [coords1_0_val, toNat_ofNat32 (k := t.val / 44) (by omega)]
  rfl
private theorem ix1_4 (t : Fin cfg1.N) : (cfg1.win 4).index t = ![t.val / 44, 0] := by
  have ht := lt1 t
  show ![(BitVec.ofNat 32 ((grid1.coords t) 0).val).toNat, (0#32).toNat] = ![t.val / 44, 0]
  rw [coords1_0_val, toNat_ofNat32 (k := t.val / 44) (by omega)]
  rfl
private theorem ix2_8 (t : Fin cfg2.N) : (cfg2.win 8).index t = ![t.val / 695, 0] := by
  have ht := lt2 t
  show ![(BitVec.ofNat 32 ((grid2.coords t) 0).val).toNat, (0#32).toNat] = ![t.val / 695, 0]
  rw [coords2_0_val, toNat_ofNat32 (k := t.val / 695) (by omega)]
  rfl

theorem flush0_2 (t : Fin cfg0.N) : (cfg0.win 2).flush t = true := by
  have ht := lt0 t
  rw [flush_iff (cfg0.win 2) rfl t]
  by_cases hN : t.val + 1 = 44
  · exact .inl (hN.trans N_0.symm)
  · refine .inr ⟨lt_of_lt_of_eq (by omega : t.val + 1 < 44) N_0.symm, ?_⟩
    rw [ix0_2, ix0_2]
    exact vec2_ne.mpr (by show t.val + 1 ≠ t.val; omega)
theorem flush0_3 (t : Fin cfg0.N) : (cfg0.win 3).flush t = true := by
  have ht := lt0 t
  rw [flush_iff (cfg0.win 3) rfl t]
  by_cases hN : t.val + 1 = 44
  · exact .inl (hN.trans N_0.symm)
  · refine .inr ⟨lt_of_lt_of_eq (by omega : t.val + 1 < 44) N_0.symm, ?_⟩
    rw [ix0_3, ix0_3]
    exact vec2_ne.mpr (by show t.val + 1 ≠ t.val; omega)
theorem flush1_3 (t : Fin cfg1.N) : (cfg1.win 3).flush t = true ↔ t.val % 44 = 43 := by
  have ht := lt1 t
  rw [flush_iff (cfg1.win 3) rfl t]
  constructor
  · rintro (h | ⟨h, hne⟩)
    · have h' : t.val + 1 = 30580 := h.trans N_1
      omega
    · rw [ix1_3, ix1_3] at hne
      have hq : (t.val + 1) / 44 ≠ t.val / 44 := vec2_ne.mp hne
      omega
  · intro hlast
    by_cases hN : t.val + 1 = 30580
    · exact .inl (hN.trans N_1.symm)
    · refine .inr ⟨lt_of_lt_of_eq (by omega : t.val + 1 < 30580) N_1.symm, ?_⟩
      rw [ix1_3, ix1_3]
      exact vec2_ne.mpr (by show (t.val + 1) / 44 ≠ t.val / 44; omega)
theorem flush1_4 (t : Fin cfg1.N) : (cfg1.win 4).flush t = true ↔ t.val % 44 = 43 := by
  have ht := lt1 t
  rw [flush_iff (cfg1.win 4) rfl t]
  constructor
  · rintro (h | ⟨h, hne⟩)
    · have h' : t.val + 1 = 30580 := h.trans N_1
      omega
    · rw [ix1_4, ix1_4] at hne
      have hq : (t.val + 1) / 44 ≠ t.val / 44 := vec2_ne.mp hne
      omega
  · intro hlast
    by_cases hN : t.val + 1 = 30580
    · exact .inl (hN.trans N_1.symm)
    · refine .inr ⟨lt_of_lt_of_eq (by omega : t.val + 1 < 30580) N_1.symm, ?_⟩
      rw [ix1_4, ix1_4]
      exact vec2_ne.mpr (by show (t.val + 1) / 44 ≠ t.val / 44; omega)
theorem flush2_8 (t : Fin cfg2.N) : (cfg2.win 8).flush t = true ↔ t.val % 695 = 694 := by
  have ht := lt2 t
  rw [flush_iff (cfg2.win 8) rfl t]
  constructor
  · rintro (h | ⟨h, hne⟩)
    · have h' : t.val + 1 = 30580 := h.trans N_2
      omega
    · rw [ix2_8, ix2_8] at hne
      have hq : (t.val + 1) / 695 ≠ t.val / 695 := vec2_ne.mp hne
      omega
  · intro hlast
    by_cases hN : t.val + 1 = 30580
    · exact .inl (hN.trans N_2.symm)
    · refine .inr ⟨lt_of_lt_of_eq (by omega : t.val + 1 < 30580) N_2.symm, ?_⟩
      rw [ix2_8, ix2_8]
      exact vec2_ne.mpr (by show (t.val + 1) / 695 ≠ t.val / 695; omega)

theorem idle1_in (t : Fin cfg1.N) (w : Fin cfg1.W) (hw : w.val < 3) : cfg1.idle w (grid1.coords t) = false := by
  match w, hw with
  | ⟨0, _⟩, _ => rfl
  | ⟨1, _⟩, _ => rfl
  | ⟨2, _⟩, _ => rfl
  | ⟨n + 3, _⟩, hw => exact absurd hw (by show ¬ n + 3 < 3; omega)
theorem idle1_3 (t : Fin cfg1.N) : cfg1.idle 3 (grid1.coords t) = true ↔ ¬ t.val % 44 = 43 := by
  show (!(k1_cond2 (grid1.coords t) == 1#1)) = true ↔ _
  rw [Bool.not_eq_true', beq_eq_false_iff_ne]
  exact not_congr (hcond1_1 t)
theorem idle1_4 (t : Fin cfg1.N) : cfg1.idle 4 (grid1.coords t) = true ↔ ¬ t.val % 44 = 43 := by
  show (!(k1_cond2 (grid1.coords t) == 1#1)) = true ↔ _
  rw [Bool.not_eq_true', beq_eq_false_iff_ne]
  exact not_congr (hcond1_1 t)
theorem idle2_in (t : Fin cfg2.N) (w : Fin cfg2.W) (hw : w.val < 8) : cfg2.idle w (grid2.coords t) = false := by
  match w, hw with
  | ⟨0, _⟩, _ => rfl
  | ⟨1, _⟩, _ => rfl
  | ⟨2, _⟩, _ => rfl
  | ⟨3, _⟩, _ => rfl
  | ⟨4, _⟩, _ => rfl
  | ⟨5, _⟩, _ => rfl
  | ⟨6, _⟩, _ => rfl
  | ⟨7, _⟩, _ => rfl
  | ⟨n + 8, _⟩, hw => exact absurd hw (by show ¬ n + 8 < 8; omega)
theorem idle2_8 (t : Fin cfg2.N) : cfg2.idle 8 (grid2.coords t) = true ↔ ¬ t.val % 695 = 694 := by
  show (!(k2_cond2 (grid2.coords t) == 1#1)) = true ↔ _
  rw [Bool.not_eq_true', beq_eq_false_iff_ne]
  exact not_congr (hcond2_1 t)

/-! ## The output windows' block rows -/

/-- Output windows of kernel 1 sit at block row `t / 44`; kernel 2's at `t / 695`; kernel 0's at `t`. -/
theorem index0_2 (t : Fin cfg0.N) : (cfg0.win 2).index t = ![t.val, 0] := by
  exact ix0_2 t
theorem index0_3 (t : Fin cfg0.N) : (cfg0.win 3).index t = ![t.val, 0] := by
  exact ix0_3 t
theorem index1_3 (t : Fin cfg1.N) : (cfg1.win 3).index t = ![t.val / 44, 0] := by
  exact ix1_3 t
theorem index1_4 (t : Fin cfg1.N) : (cfg1.win 4).index t = ![t.val / 44, 0] := by
  exact ix1_4 t
theorem index2_8 (t : Fin cfg2.N) : (cfg2.win 8).index t = ![t.val / 695, 0] := by
  exact ix2_8 t
/-- The input windows' block rows. -/
theorem index0_0 (t : Fin cfg0.N) : (cfg0.win 0).index t = ![t.val, 0] := by
  have ht := lt0 t
  show ![(BitVec.ofNat 32 ((grid0.coords t) 0).val).toNat, (0#32).toNat] = ![t.val, 0]
  rw [coords0_val, toNat_ofNat32 (k := t.val) (by omega)]
  rfl
theorem index0_1 (t : Fin cfg0.N) : (cfg0.win 1).index t = ![t.val, 0] := by
  have ht := lt0 t
  show ![(BitVec.ofNat 32 ((grid0.coords t) 0).val).toNat, (0#32).toNat] = ![t.val, 0]
  rw [coords0_val, toNat_ofNat32 (k := t.val) (by omega)]
  rfl
theorem index1_0 (t : Fin cfg1.N) : (cfg1.win 0).index t = ![t.val / 44, 0] := by
  have ht := lt1 t
  show ![(BitVec.ofNat 32 ((grid1.coords t) 0).val).toNat, (0#32).toNat] = ![t.val / 44, 0]
  rw [coords1_0_val, toNat_ofNat32 (k := t.val / 44) (by omega)]
  rfl
theorem index1_1 (t : Fin cfg1.N) : (cfg1.win 1).index t = ![t.val / 44, 0] := by
  have ht := lt1 t
  show ![(BitVec.ofNat 32 ((grid1.coords t) 0).val).toNat, (0#32).toNat] = ![t.val / 44, 0]
  rw [coords1_0_val, toNat_ofNat32 (k := t.val / 44) (by omega)]
  rfl
theorem index1_2 (t : Fin cfg1.N) : (cfg1.win 2).index t = ![t.val % 44, 0] := by
  have ht := lt1 t
  show ![(BitVec.ofNat 32 ((grid1.coords t) 1).val).toNat, (0#32).toNat] = ![t.val % 44, 0]
  rw [coords1_1_val, toNat_ofNat32 (k := t.val % 44) (by omega)]
  rfl
theorem index2_0 (t : Fin cfg2.N) : (cfg2.win 0).index t = ![0, t.val % 695] := by
  have ht := lt2 t
  show ![(0#32).toNat, (BitVec.ofNat 32 ((grid2.coords t) 1).val).toNat] = ![0, t.val % 695]
  rw [coords2_1_val, toNat_ofNat32 (k := t.val % 695) (by omega)]
  rfl
theorem index2_1 (t : Fin cfg2.N) : (cfg2.win 1).index t = ![0, t.val % 695] := by
  have ht := lt2 t
  show ![(0#32).toNat, (BitVec.ofNat 32 ((grid2.coords t) 1).val).toNat] = ![0, t.val % 695]
  rw [coords2_1_val, toNat_ofNat32 (k := t.val % 695) (by omega)]
  rfl
theorem index2_2 (t : Fin cfg2.N) : (cfg2.win 2).index t = ![t.val % 695, 0] := by
  have ht := lt2 t
  show ![(BitVec.ofNat 32 ((grid2.coords t) 1).val).toNat, (0#32).toNat] = ![t.val % 695, 0]
  rw [coords2_1_val, toNat_ofNat32 (k := t.val % 695) (by omega)]
  rfl
theorem index2_3 (t : Fin cfg2.N) : (cfg2.win 3).index t = ![t.val % 695, 0] := by
  have ht := lt2 t
  show ![(BitVec.ofNat 32 ((grid2.coords t) 1).val).toNat, (0#32).toNat] = ![t.val % 695, 0]
  rw [coords2_1_val, toNat_ofNat32 (k := t.val % 695) (by omega)]
  rfl
theorem index2_4 (t : Fin cfg2.N) : (cfg2.win 4).index t = ![t.val / 695, 0] := by
  have ht := lt2 t
  show ![(BitVec.ofNat 32 ((grid2.coords t) 0).val).toNat, (0#32).toNat] = ![t.val / 695, 0]
  rw [coords2_0_val, toNat_ofNat32 (k := t.val / 695) (by omega)]
  rfl
theorem index2_5 (t : Fin cfg2.N) : (cfg2.win 5).index t = ![t.val / 695, 0] := by
  have ht := lt2 t
  show ![(BitVec.ofNat 32 ((grid2.coords t) 0).val).toNat, (0#32).toNat] = ![t.val / 695, 0]
  rw [coords2_0_val, toNat_ofNat32 (k := t.val / 695) (by omega)]
  rfl
theorem index2_6 (t : Fin cfg2.N) : (cfg2.win 6).index t = ![0, 0] := by
  rfl
theorem index2_7 (t : Fin cfg2.N) : (cfg2.win 7).index t = ![0, 0] := by
  rfl

end Cert.KernelIdeal.Hand

end
-- ==== Proof.KI.Region0.lean ====
import proofs.«425878_j39771397161472_2_alg».proof.Proof.KI.Sched
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Kernel 0 (rows scaled by a column), as proof data for its pipeline

Entered with buffer contents `V`. At point `t` the body multiplies row block `t` of the padded table by row block `t`
of the padded column, spread along the rows, and stores the product twice: as it is, and in the narrower format. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data of pipeline 0 on core `c`: the inputs' buffers keep their blocks, the two outputs' hold the product. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 0 t) (iblk0 V c 1 t)
    | ⟨3, _⟩ => k0_pay2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay1 (iblk0 V c 0 t) (iblk0 V c 1 t) := by dsimp only [dat0]
theorem after0_3 (c : Dev nD) (t : Fin cfg0.N) : (dat0 V c).after 3 t = k0_pay2 (iblk0 V c 0 t) (iblk0 V c 1 t) := by dsimp only [dat0]

theorem owed0 (c : Dev nD) (t : Fin (cfg0.N + 1)) : (dat0 V c).owed t = 0 := rfl

/-! ## The inputs' buffers at a point -/

/-- An input window's current staging buffer holds its block at every point, whether or not it was fetched there
    (an unfetched point has the block index of the point before it): for any proof data over the entry contents
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body's accesses: every load and store is through the whole buffer -/

/-- The zero offsets, as a constant function. -/
theorem hz0 : (![0, 0] : Fin 2 → ℕ) = fun _ => 0 := by
  funext a; match a with | 0 => rfl | 1 => rfl

/-- The one store into an output's buffer is through the whole buffer, so it covers it. -/
theorem cover0_2 (p0 : Vec F S2304x64 .f32) (y : S2304x64.Idx) :
    ∃ pc ∈ ([⟨Rect.unit (s := S2304x64) ![0, 0] S2304x64.size inb_S2304x64_S2304x64_0_0, p0⟩] : List (View.Piece (Elt F) S2304x64 .f32)), y ∈ pc.1.set :=
  View.cover_of_tiled [⟨Rect.unit (s := S2304x64) ![0, 0] S2304x64.size inb_S2304x64_S2304x64_0_0, p0⟩] S2304x64.size (by rfl) y
theorem cover0_3 (p0 : Vec F S2304x64 .bf16) (y : S2304x64.Idx) :
    ∃ pc ∈ ([⟨Rect.unit (s := S2304x64) ![0, 0] S2304x64.size inb_S2304x64_S2304x64_0_0, p0⟩] : List (View.Piece (Elt F) S2304x64 .bf16)), y ∈ pc.1.set :=
  View.cover_of_tiled [⟨Rect.unit (s := S2304x64) ![0, 0] S2304x64.size inb_S2304x64_S2304x64_0_0, p0⟩] S2304x64.size (by rfl) y

/-! ## The body's triple -/

set_option maxHeartbeats 1000000 in
/-- The body on whole staging buffers, the inputs' holding `x0` and `x1` and the outputs' anything, runs to the
    continuation with the inputs' as they were, the first output's holding the product of `x0` by `x1` spread along
    the rows and the second's that product in the narrower format: each load reads a whole buffer and each output's
    one store overwrites the whole of it. -/
theorem sound_kernel0 (c : Dev nD) (E : Set ℕ) (i : grid0.Coords)
    (arg1 : Memref sig .tc .vmem S2304x64 .f32) (harg1 : arg1.IsWhole)
    (arg2 : Memref sig .tc .vmem S2304x1 .f32) (harg2 : arg2.IsWhole)
    (arg3 : Memref sig .tc .vmem S2304x64 .f32) (harg3 : arg3.IsWhole)
    (arg4 : Memref sig .tc .vmem S2304x64 .bf16) (harg4 : arg4.IsWhole)
    (x0 : Vec F S2304x64 .f32) (x1 : Vec F S2304x1 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (k0_pay1 x0 x1) ∗ owns (c : Thread nD τ) arg4 fullShare (k0_pay2 x0 x1)) -∗ K ⟨⟩))
      ⊢ wp frame (wpE (defs₀ (F := F)) Variants.none c none) E (cc0__xnorm_kernel i arg1 harg1 arg2 harg2 arg3 harg3 arg4 harg4) K := by
  simp only [cc0__xnorm_kernel_eq_skeleton]; unfold cc0__xnorm_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover0_2 _)).trans ?_
    refine (View.canon_unit_zero hz0 _ _).trans ?_
    exact congrArg₂ k0_pay1 (View.ld_unit_zero hz0 _ _) (View.ld_unit_zero hz0 _ _)
  iexists _; isplitr
  swap; · iexact H3
  ipureintro
  refine (View.read_writes_eq_canon _ _ _ (cover0_3 _)).trans ?_
  refine (View.canon_unit_zero hz0 _ _).trans ?_
  exact congrArg₂ k0_pay2 (View.ld_unit_zero hz0 _ _) (View.ld_unit_zero hz0 _ _)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of kernel 0, at every point. -/
theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := .rfl
theorem hout0 (c : Dev nD) : (dat0 V c).Φ (Fin.last cfg0.N) ⊢ Pipeline.ΦA spec0 c := .rfl

end Cert.KernelIdeal.Hand

end
-- ==== Proof.KI.Region1.lean ====
import proofs.«425878_j39771397161472_2_alg».proof.Proof.KI.Sched
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Kernel 1 (the two one-hot gathers), as proof data for its pipeline

Entered with buffer contents `V`. At point `t = 44·i + k` the body compares the two index columns of edge block `i`
against the node ids of node block `k`, multiplies the two 0/1 matrices with table block `k` and adds the products
into two accumulators kept in scratch; the accumulators restart at `k = 0` and are stored, rounded to the
table's format, into the two output blocks at `k = 43`. -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two accumulators after a point that STARTS a run: one step from zero. -/
def accReset1 (c : Dev nD) (n : ℕ) (hn : n < cfg1.N) : Vec F S2304x64 .f32 × Vec F S2304x64 .f32 :=
  (k1_pay7 (grid1.coords ⟨n, hn⟩) (iblk1 V c 0 ⟨n, hn⟩) (iblk1 V c 2 ⟨n, hn⟩) (k1_pay3 (F := F)),
   k1_pay8 (grid1.coords ⟨n, hn⟩) (iblk1 V c 1 ⟨n, hn⟩) (iblk1 V c 2 ⟨n, hn⟩) (k1_pay4 (F := F)))

/-- The two accumulators after a later point of a run, from what the point before left. -/
def accStep1 (c : Dev nD) (n : ℕ) (hn : n < cfg1.N) (p : Vec F S2304x64 .f32 × Vec F S2304x64 .f32) :
    Vec F S2304x64 .f32 × Vec F S2304x64 .f32 :=
  (k1_pay7 (grid1.coords ⟨n, hn⟩) (iblk1 V c 0 ⟨n, hn⟩) (iblk1 V c 2 ⟨n, hn⟩) p.1,
   k1_pay8 (grid1.coords ⟨n, hn⟩) (iblk1 V c 1 ⟨n, hn⟩) (iblk1 V c 2 ⟨n, hn⟩) p.2)

/-- What the two scratch accumulators hold after point `n`. -/
def accs1 (c : Dev nD) : (n : ℕ) → n < cfg1.N → Vec F S2304x64 .f32 × Vec F S2304x64 .f32
  | 0, hn => accReset1 V c 0 hn
  | n + 1, hn => if (n + 1) % 44 = 0 then accReset1 V c (n + 1) hn else accStep1 V c (n + 1) hn (accs1 c n (Nat.lt_of_succ_lt hn))

theorem accs1_reset (c : Dev nD) (n : ℕ) (hn : n < cfg1.N) (h : n % 44 = 0) : accs1 V c n hn = accReset1 V c n hn := by
  cases n with
  | zero => rfl
  | succ n => exact if_pos h

theorem accs1_step (c : Dev nD) (n : ℕ) (hn : n + 1 < cfg1.N) (h : ¬ (n + 1) % 44 = 0) :
    accs1 V c (n + 1) hn = accStep1 V c (n + 1) hn (accs1 V c n (Nat.lt_of_succ_lt hn)) := if_neg h

/-- The two scratch operands, whole. -/
abbrev scM1_0 : Memref sig .tc .vmem S2304x64 .f32 := Memref.whole cc1_scratch0
abbrev scM1_1 : Memref sig .tc .vmem S2304x64 .f32 := Memref.whole cc1_scratch1

/-- The region's invariant before position `n`: at entry the scoped rest at anything and the generator register;
    afterwards the two accumulators at what the point before left, the other scoped buffers at anything. -/
def PhiS1 (c : Dev nD) : (n : ℕ) → n ≤ cfg1.N → sProp 𝕄
  | 0, _ => Pipeline.ΦA spec1 c
  | n + 1, hn => iprop(owns (c : Thread nD τ) scM1_0 fullShare (accs1 V c n hn).1 ∗ owns (c : Thread nD τ) scM1_1 fullShare (accs1 V c n hn).2
      ∗ Pipeline.scopedRestBut (Ix := Unit) (Name := ℕ) (U := UR sig nD τ) (Lvl := ℕ) (Val := Elt F) spec1 c [cc1_scratch0, cc1_scratch1] ∗ (∃ r, prngReg c r))

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (accs1 V c t.val t.isLt).1
    | ⟨4, _⟩ => k1_pay2 (accs1 V c t.val t.isLt).2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay1 (accs1 V c t.val t.isLt).1 := by dsimp only [dat1]
theorem after1_4 (c : Dev nD) (t : Fin cfg1.N) : (dat1 V c).after 4 t = k1_pay2 (accs1 V c t.val t.isLt).2 := by dsimp only [dat1]

theorem owed1 (c : Dev nD) (t : Fin (cfg1.N + 1)) : (dat1 V c).owed t = 0 := rfl

/-! ## The body on any whole memrefs, case by case -/

/-- Zero offsets of a rank-two rectangle, however spelt. -/
theorem off2_zero : (![0, 0] : Fin 2 → Nat) = fun _ => 0 := funext fun a => by fin_cases a <;> rfl

/-- A load of a whole buffer through the full rectangle reads the contents it holds. -/
theorem readAt_unread_full {sp : Space} {S : Shape} {e : EltTy} (m : Memref sig .tc sp S e) (hm : m.IsWhole)
    {off : Fin S.rank → Nat} (h : off = fun _ => 0) (inb : ∀ a, off a + S.size a ≤ S.size a) (X : S.Idx → Elt F e) :
    m.view.readAt (Elt F) (Rect.unit off S.size inb).toLoadRect (hm.unread X) = X :=
  (View.readAt_eq_ld _ _ _).trans ((congrArg (fun Y => View.ld Y (Rect.unit off S.size inb)) (hm.read_unread X)).trans (View.ld_unit_zero h inb X))

/-- After a last store through the full rectangle the buffer reads that store's payload. -/
theorem read_writes_full {sp : Space} {S : Shape} {e : EltTy} (m : Memref sig .tc sp S e) (f : m.view.ty.Contents (Elt F))
    {off : Fin S.rank → Nat} (h : off = fun _ => 0) (inb : ∀ a, off a + S.size a ≤ S.size a) (w : S.Idx → Elt F e)
    (L : List (View.Piece (Elt F) S e)) :
    m.view.read (Elt F) (m.view.writes (Elt F) f ((⟨Rect.unit off S.size inb, w⟩ : View.Piece (Elt F) S e) :: L)) = w :=
  (View.read_writes_eq_canon _ _ _ (fun y => ⟨_, List.mem_cons_self, View.mem_set_unit_zero h inb y⟩)).trans (View.canon_cons_unit_zero h inb w L)

/-- A load through the full rectangle after a last store through it reads that store's payload. -/
theorem readCov_full {sp : Space} {S : Shape} {e : EltTy} (v : View sig .tc sp S e)
    {off : Fin S.rank → Nat} (h : off = fun _ => 0) (inb : ∀ a, off a + S.size a ≤ S.size a) (w : S.Idx → Elt F e)
    (L : List (View.Piece (Elt F) S e)) :
    v.readCov ((⟨Rect.unit off S.size inb, w⟩ : View.Piece (Elt F) S e) :: L) (Rect.unit off S.size inb).toLoadRect = w :=
  (View.readCov_eq_canon_ld _ _ _ (fun y => ⟨_, List.mem_cons_self, View.mem_set_unit_zero h inb y⟩)).trans
    ((congrArg (fun Y => View.ld Y (Rect.unit off S.size inb)) (View.canon_cons_unit_zero h inb w L)).trans (View.ld_unit_zero h inb w))

set_option maxHeartbeats 1000000 in
/-- The body at the first point of a run (the reset taken, the final store not): both accumulators end one step from zero; the outputs' buffers are untouched. -/
theorem kernel1_A (c : Dev nD) (i : grid1.Coords) (arg2 : Memref sig .tc .vmem S2304x1 .i32) (harg2 : arg2.IsWhole) (arg3 : Memref sig .tc .vmem S2304x1 .i32) (harg3 : arg3.IsWhole) (arg4 : Memref sig .tc .vmem S2304x64 .bf16) (harg4 : arg4.IsWhole) (arg5 : Memref sig .tc .vmem S2304x64 .bf16) (harg5 : arg5.IsWhole) (arg6 : Memref sig .tc .vmem S2304x64 .bf16) (harg6 : arg6.IsWhole) (arg7 : Memref sig .tc .vmem S2304x64 .f32) (harg7 : arg7.IsWhole) (arg8 : Memref sig .tc .vmem S2304x64 .f32) (harg8 : arg8.IsWhole) (hc0 : cond1_0 i) (hc1 : ¬cond1_1 i)
    (x0 x1 : Vec F S2304x1 .i32) (x2 xi3 xi4 : Vec F S2304x64 .bf16) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xi4
        ∗ (∃ a, owns (c : Thread nD τ) arg7 fullShare a) ∗ (∃ b, owns (c : Thread nD τ) arg8 fullShare b)
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xi4
            ∗ owns (c : Thread nD τ) arg7 fullShare (k1_pay7 i x0 x2 (k1_pay3 (F := F))) ∗ owns (c : Thread nD τ) arg8 fullShare (k1_pay8 i x1 x2 (k1_pay4 (F := F)))) -∗ K ⟨⟩))
      ⊢ wp frame (wpE (defs₀ (F := F)) Variants.none c none) E (cc1__gather_kernel i arg2 harg2 arg3 harg3 arg4 harg4 arg5 harg5 arg6 harg6 arg7 harg7 arg8 harg8) K := by
  simp only [cc1__gather_kernel_eq_skeleton]; unfold cc1__gather_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%a, %fs0, -, HS0⟩, ⟨%b, %fs1, -, HS1⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [HS0]
  · iexists _; isplitr
    swap; · iexact HS0
    ipureintro
    refine (read_writes_full arg7 _ off2_zero _ _ _).trans ?_
    sl_unfold_words
    rw [readAt_unread_full arg2 harg2 off2_zero, readAt_unread_full arg4 harg4 off2_zero, readCov_full arg7.view off2_zero]
  · iexists _; isplitr
    swap; · iexact HS1
    ipureintro
    refine (read_writes_full arg8 _ off2_zero _ _ _).trans ?_
    sl_unfold_words
    dsimp only
    rw [readAt_unread_full arg3 harg3 off2_zero, readAt_unread_full arg4 harg4 off2_zero, readCov_full arg8.view off2_zero]

set_option maxHeartbeats 1000000 in
/-- The body at an inner point of a run (neither the reset nor the final store taken): the accumulators advance one step; the outputs' buffers are untouched. -/
theorem kernel1_B (c : Dev nD) (i : grid1.Coords) (arg2 : Memref sig .tc .vmem S2304x1 .i32) (harg2 : arg2.IsWhole) (arg3 : Memref sig .tc .vmem S2304x1 .i32) (harg3 : arg3.IsWhole) (arg4 : Memref sig .tc .vmem S2304x64 .bf16) (harg4 : arg4.IsWhole) (arg5 : Memref sig .tc .vmem S2304x64 .bf16) (harg5 : arg5.IsWhole) (arg6 : Memref sig .tc .vmem S2304x64 .bf16) (harg6 : arg6.IsWhole) (arg7 : Memref sig .tc .vmem S2304x64 .f32) (harg7 : arg7.IsWhole) (arg8 : Memref sig .tc .vmem S2304x64 .f32) (harg8 : arg8.IsWhole) (hc0 : ¬cond1_0 i) (hc1 : ¬cond1_1 i)
    (x0 x1 : Vec F S2304x1 .i32) (x2 xi3 xi4 : Vec F S2304x64 .bf16) (a b : Vec F S2304x64 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xi4
        ∗ owns (c : Thread nD τ) arg7 fullShare a ∗ owns (c : Thread nD τ) arg8 fullShare b
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xi4
            ∗ owns (c : Thread nD τ) arg7 fullShare (k1_pay7 i x0 x2 a) ∗ owns (c : Thread nD τ) arg8 fullShare (k1_pay8 i x1 x2 b)) -∗ K ⟨⟩))
      ⊢ wp frame (wpE (defs₀ (F := F)) Variants.none c none) E (cc1__gather_kernel i arg2 harg2 arg3 harg3 arg4 harg4 arg5 harg5 arg6 harg6 arg7 harg7 arg8 harg8) K := by
  simp only [cc1__gather_kernel_eq_skeleton]; unfold cc1__gather_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg5.eq_unread hf3; obtain rfl := harg6.eq_unread hf4
  obtain rfl := harg7.eq_unread hfs0; obtain rfl := harg8.eq_unread hfs1
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [HS0]
  · iexists _; isplitr
    swap; · iexact HS0
    ipureintro
    refine (read_writes_full arg7 _ off2_zero _ _ _).trans ?_
    rw [readAt_unread_full arg2 harg2 off2_zero, readAt_unread_full arg4 harg4 off2_zero, readAt_unread_full arg7 harg7 off2_zero]
  · iexists _; isplitr
    swap; · iexact HS1
    ipureintro
    refine (read_writes_full arg8 _ off2_zero _ _ _).trans ?_
    dsimp only
    rw [readAt_unread_full arg3 harg3 off2_zero, readAt_unread_full arg4 harg4 off2_zero, readAt_unread_full arg8 harg8 off2_zero]

set_option maxHeartbeats 1000000 in
/-- The body at the last point of a run (no reset, the final store taken): the accumulators advance one step, and the two outputs' buffers end at the accumulators rounded to the table's format. -/
theorem kernel1_C (c : Dev nD) (i : grid1.Coords) (arg2 : Memref sig .tc .vmem S2304x1 .i32) (harg2 : arg2.IsWhole) (arg3 : Memref sig .tc .vmem S2304x1 .i32) (harg3 : arg3.IsWhole) (arg4 : Memref sig .tc .vmem S2304x64 .bf16) (harg4 : arg4.IsWhole) (arg5 : Memref sig .tc .vmem S2304x64 .bf16) (harg5 : arg5.IsWhole) (arg6 : Memref sig .tc .vmem S2304x64 .bf16) (harg6 : arg6.IsWhole) (arg7 : Memref sig .tc .vmem S2304x64 .f32) (harg7 : arg7.IsWhole) (arg8 : Memref sig .tc .vmem S2304x64 .f32) (harg8 : arg8.IsWhole) (hc0 : ¬cond1_0 i) (hc1 : cond1_1 i)
    (x0 x1 : Vec F S2304x1 .i32) (x2 : Vec F S2304x64 .bf16) (a b : Vec F S2304x64 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ owns (c : Thread nD τ) arg7 fullShare a ∗ owns (c : Thread nD τ) arg8 fullShare b
        ∗ (iprop(owns (c : Thread nD τ) arg2 fullShare x0 ∗ owns (c : Thread nD τ) arg3 fullShare x1 ∗ owns (c : Thread nD τ) arg4 fullShare x2
            ∗ owns (c : Thread nD τ) arg5 fullShare (k1_pay1 (k1_pay7 i x0 x2 a)) ∗ owns (c : Thread nD τ) arg6 fullShare (k1_pay2 (k1_pay8 i x1 x2 b))
            ∗ owns (c : Thread nD τ) arg7 fullShare (k1_pay7 i x0 x2 a) ∗ owns (c : Thread nD τ) arg8 fullShare (k1_pay8 i x1 x2 b)) -∗ K ⟨⟩))
      ⊢ wp frame (wpE (defs₀ (F := F)) Variants.none c none) E (cc1__gather_kernel i arg2 harg2 arg3 harg3 arg4 harg4 arg5 harg5 arg6 harg6 arg7 harg7 arg8 harg8) K := by
  simp only [cc1__gather_kernel_eq_skeleton]; unfold cc1__gather_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg7.eq_unread hfs0; obtain rfl := harg8.eq_unread hfs1
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  have e7 : k1_pay7 i (View.readAt (Elt F) arg2.view (Rect.unit ![0, 0] S2304x1.size inb_S2304x1_S2304x1_0_0).toLoadRect (harg2.unread x0))
      (View.readAt (Elt F) arg4.view (Rect.unit ![0, 0] S2304x64.size inb_S2304x64_S2304x64_0_0).toLoadRect (harg4.unread x2))
      (View.readAt (Elt F) arg7.view (Rect.unit ![0, 0] S2304x64.size inb_S2304x64_S2304x64_0_0).toLoadRect (harg7.unread a)) = k1_pay7 i x0 x2 a := by
    rw [readAt_unread_full arg2 harg2 off2_zero, readAt_unread_full arg4 harg4 off2_zero, readAt_unread_full arg7 harg7 off2_zero]
  have e8 : k1_pay8 i (View.readAt (Elt F) arg3.view (Rect.unit ![0, 0] S2304x1.size inb_S2304x1_S2304x1_0_0).toLoadRect (harg3.unread x1))
      (View.readAt (Elt F) arg4.view (Rect.unit ![0, 0] S2304x64.size inb_S2304x64_S2304x64_0_0).toLoadRect (harg4.unread x2))
      (View.readAt (Elt F) arg8.view (Rect.unit ![0, 0] S2304x64.size inb_S2304x64_S2304x64_0_0).toLoadRect (harg8.unread b)) = k1_pay8 i x1 x2 b := by
    rw [readAt_unread_full arg3 harg3 off2_zero, readAt_unread_full arg4 harg4 off2_zero, readAt_unread_full arg8 harg8 off2_zero]
  isplitl [H3]
  · iexists _; isplitr
    swap; · iexact H3
    ipureintro
    refine (read_writes_full arg5 _ off2_zero _ _ _).trans ?_
    sl_unfold_words
    rw [readCov_full arg7.view off2_zero, e7]
  isplitl [H4]
  · iexists _; isplitr
    swap; · iexact H4
    ipureintro
    refine (read_writes_full arg6 _ off2_zero _ _ _).trans ?_
    sl_unfold_words
    dsimp only
    rw [readCov_full arg8.view off2_zero, e8]
  isplitl [HS0]
  · iexists _; isplitr
    swap; · iexact HS0
    ipureintro
    refine (read_writes_full arg7 _ off2_zero _ _ _).trans ?_
    exact e7
  · iexists _; isplitr
    swap; · iexact HS1
    ipureintro
    refine (read_writes_full arg8 _ off2_zero _ _ _).trans ?_
    exact e8

/-! ## What the windows' buffers hold when the body runs -/

/-- An input's current buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## The invariant, opened -/

/-- The class invariant with the two scratch operands as whole memrefs at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1_0 fullShare (accs1 V c n hn).1 ∗ owns (c : Thread nD τ) scM1_1 fullShare (accs1 V c n hn).2
      ∗ Pipeline.scopedRestBut (Ix := Unit) (Name := ℕ) (U := UR sig nD τ) (Lvl := ℕ) (Val := Elt F) spec1 c [cc1_scratch0, cc1_scratch1] ∗ (∃ r, prngReg c r)) := rfl

theorem PhiS1_pos (c : Dev nD) (n : ℕ) (h : n ≤ cfg1.N) (hz : n ≠ 0) :
    PhiS1 V c n h = iprop(owns (c : Thread nD τ) scM1_0 fullShare (accs1 V c (n - 1) (by omega)).1 ∗ owns (c : Thread nD τ) scM1_1 fullShare (accs1 V c (n - 1) (by omega)).2
      ∗ Pipeline.scopedRestBut (Ix := Unit) (Name := ℕ) (U := UR sig nD τ) (Lvl := ℕ) (Val := Elt F) spec1 c [cc1_scratch0, cc1_scratch1] ∗ (∃ r, prngReg c r)) := by
  cases n with
  | zero => exact absurd rfl hz
  | succ n => rfl

theorem PhiS1_castSucc (c : Dev nD) (t : Fin cfg1.N) :
    (dat1 V c).Φ t.castSucc = PhiS1 V c t.val (Nat.le_of_lt t.isLt) := by
  dsimp only [dat1]; simp only [Fin.coe_castSucc]

/-- The accumulators after a point that starts a run, at the point itself. -/
theorem accs1_at_reset (c : Dev nD) (t : Fin cfg1.N) (h : t.val % 44 = 0) :
    accs1 V c t.val t.isLt = (k1_pay7 (grid1.coords t) (iblk1 V c 0 t) (iblk1 V c 2 t) (k1_pay3 (F := F)),
      k1_pay8 (grid1.coords t) (iblk1 V c 1 t) (iblk1 V c 2 t) (k1_pay4 (F := F))) := by
  obtain ⟨n, hn⟩ := t
  exact accs1_reset V c n hn h

/-- The accumulators after a later point of a run, from what the point before left. -/
theorem accs1_at_step (c : Dev nD) (t : Fin cfg1.N) (h : ¬ t.val % 44 = 0) :
    accs1 V c t.val t.isLt = (k1_pay7 (grid1.coords t) (iblk1 V c 0 t) (iblk1 V c 2 t) (accs1 V c (t.val - 1) (Nat.lt_of_le_of_lt (Nat.sub_le _ _) t.isLt)).1,
      k1_pay8 (grid1.coords t) (iblk1 V c 1 t) (iblk1 V c 2 t) (accs1 V c (t.val - 1) (Nat.lt_of_le_of_lt (Nat.sub_le _ _) t.isLt)).2) := by
  obtain ⟨n, hn⟩ := t
  cases n with
  | zero => exact absurd (Nat.zero_mod _) h
  | succ n => exact accs1_step V c n hn h

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

/-- An input window is live at every point: its buffer is left at its block. -/
theorem leaves1_0 (c : Dev nD) (t : Fin cfg1.N) : (dat1 V c).leavesExact 0 t = owns (c : Thread nD τ) (st1_0 t) fullShare (iblk1 V c 0 t) := by
  unfold Dat.leavesExact; rw [idle1_in t 0 (by decide), after1_0]
theorem leaves1_1 (c : Dev nD) (t : Fin cfg1.N) : (dat1 V c).leavesExact 1 t = owns (c : Thread nD τ) (st1_1 t) fullShare (iblk1 V c 1 t) := by
  unfold Dat.leavesExact; rw [idle1_in t 1 (by decide), after1_1]
theorem leaves1_2 (c : Dev nD) (t : Fin cfg1.N) : (dat1 V c).leavesExact 2 t = owns (c : Thread nD τ) (st1_2 t) fullShare (iblk1 V c 2 t) := by
  unfold Dat.leavesExact; rw [idle1_in t 2 (by decide), after1_2]

/-- An output window away from the last point of a run is idle and not written back: its buffer is handed back as found. -/
theorem leaves1_3_idle (c : Dev nD) (t : Fin cfg1.N) (h1 : ¬ t.val % 44 = 43) :
    (dat1 V c).leavesExact 3 t = iprop(∃ d, owns (c : Thread nD τ) (st1_3 t) fullShare ((dat1 V c).before 3 t d)) :=
  Dat.leavesExact_idle (dat1 V c) 3 t ((idle1_3 t).mpr h1) (Bool.eq_false_iff.mpr fun h => h1 ((flush1_3 t).mp h))
theorem leaves1_4_idle (c : Dev nD) (t : Fin cfg1.N) (h1 : ¬ t.val % 44 = 43) :
    (dat1 V c).leavesExact 4 t = iprop(∃ d, owns (c : Thread nD τ) (st1_4 t) fullShare ((dat1 V c).before 4 t d)) :=
  Dat.leavesExact_idle (dat1 V c) 4 t ((idle1_4 t).mpr h1) (Bool.eq_false_iff.mpr fun h => h1 ((flush1_4 t).mp h))

/-- At the last point of a run an output window is live: its buffer is left at the rounded accumulator. -/
theorem leaves1_3_live (c : Dev nD) (t : Fin cfg1.N) (h1 : t.val % 44 = 43) :
    (dat1 V c).leavesExact 3 t = owns (c : Thread nD τ) (st1_3 t) fullShare (k1_pay1 (accs1 V c t.val t.isLt).1) := by
  unfold Dat.leavesExact
  rw [show cfg1.idle 3 (grid1.coords t) = false from Bool.eq_false_iff.mpr fun h => (idle1_3 t).mp h h1, after1_3]
theorem leaves1_4_live (c : Dev nD) (t : Fin cfg1.N) (h1 : t.val % 44 = 43) :
    (dat1 V c).leavesExact 4 t = owns (c : Thread nD τ) (st1_4 t) fullShare (k1_pay2 (accs1 V c t.val t.isLt).2) := by
  unfold Dat.leavesExact
  rw [show cfg1.idle 4 (grid1.coords t) = false from Bool.eq_false_iff.mpr fun h => (idle1_4 t).mp h h1, after1_4]

set_option maxHeartbeats 4000000 in
/-- The body at any point: the inputs' buffers hold their blocks; the point's place in its run of 44 says which of the three
    cases it is in; the invariant hands the body the two accumulators (at anything before the first point, else at what the
    point before left) and takes them back at this point's contents; an output's buffer is handed back as found except at
    the last point of a run, where it ends at the rounded accumulator. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2]
  have hN : t.val < 30580 := lt_of_lt_of_eq t.isLt N_1'
  by_cases h0 : t.val % 44 = 0
  · have h1 : ¬ t.val % 44 = 43 := by omega
    rw [leaves1_3_idle V c t h1, leaves1_4_idle V c t h1, accs1_at_reset V c t h0]
    by_cases hz : t.val = 0
    · rw [PhiS1_castSucc V c t, PhiS1_zero V c _ _ hz, PhiA1_eq]
      iintro ⟨⟨⟨⟨HS0, HS1⟩, Hr⟩, Hg⟩, Ho, ⟨%d0, H0⟩, ⟨%d1, H1⟩, ⟨%d2, H2⟩, ⟨%d3, H3⟩, ⟨%d4, H4⟩⟩
      iapply (kernel1_A c (grid1.coords t) _ _ _ _ _ _ _ _ _ _ _ _ _ _ ((hcond1_0 t).mpr h0) (fun h => h1 ((hcond1_1 t).mp h)) (iblk1 V c 0 t) (iblk1 V c 1 t) (iblk1 V c 2 t) _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      isplitl [H2]; · iexact H2
      isplitl [H3]; · iexists _; iexact H3
      iexists _; iexact H4
    · rw [PhiS1_castSucc V c t, PhiS1_pos V c _ _ hz]
      iintro ⟨⟨HS0, HS1, Hr, Hg⟩, Ho, ⟨%d0, H0⟩, ⟨%d1, H1⟩, ⟨%d2, H2⟩, ⟨%d3, H3⟩, ⟨%d4, H4⟩⟩
      iapply (kernel1_A c (grid1.coords t) _ _ _ _ _ _ _ _ _ _ _ _ _ _ ((hcond1_0 t).mpr h0) (fun h => h1 ((hcond1_1 t).mp h)) (iblk1 V c 0 t) (iblk1 V c 1 t) (iblk1 V c 2 t) _ _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      iintro ⟨H0, H1, H2, H3, H4, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      isplitl [H2]; · iexact H2
      isplitl [H3]; · iexists _; iexact H3
      iexists _; iexact H4
  · have hz : t.val ≠ 0 := fun e => h0 (by rw [e])
    rw [PhiS1_castSucc V c t, PhiS1_pos V c _ _ hz, accs1_at_step V c t h0]
    by_cases h1 : t.val % 44 = 43
    · rw [leaves1_3_live V c t h1, leaves1_4_live V c t h1, accs1_at_step V c t h0]
      iintro ⟨⟨HS0, HS1, Hr, Hg⟩, Ho, ⟨%d0, H0⟩, ⟨%d1, H1⟩, ⟨%d2, H2⟩, ⟨%d3, H3⟩, ⟨%d4, H4⟩⟩
      iapply (kernel1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      isplitl [H2]; · iexact H2
      isplitl [H3]; · iexact H3
      iexact H4
    · rw [leaves1_3_idle V c t h1, leaves1_4_idle V c t h1]
      iintro ⟨⟨HS0, HS1, Hr, Hg⟩, Ho, ⟨%d0, H0⟩, ⟨%d1, H1⟩, ⟨%d2, H2⟩, ⟨%d3, H3⟩, ⟨%d4, H4⟩⟩
      iapply (kernel1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      isplitl [H2]; · iexact H2
      isplitl [H3]; · iexists _; iexact H3
      iexists _; iexact H4

/-- The body obligation of kernel 1, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the accumulators' contents are forgotten. -/
theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HS0, HS1, Hr, Hg⟩
  isplitr [Hg]
  · isplitr [Hr]
    · isplitl [HS0]
      · iexists _; iexact HS0
      iexists _; iexact HS1
    iexact Hr
  iexact Hg

/-- After the last point the invariant gives the scoped rest and the register back. -/
theorem hout1 (c : Dev nD) : (dat1 V c).Φ (Fin.last cfg1.N) ⊢ Pipeline.ΦA spec1 c :=
  Phi1_out V c _ (by rw [Fin.val_last]; have : cfg1.N = 30580 := N_1'; omega)

end Cert.KernelIdeal.Hand

end
-- ==== Proof.KI.Region2.lean ====
import proofs.«425878_j39771397161472_2_alg».proof.Proof.KI.Sched
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Kernel 2 (the two one-hot segment sums and the dense layer), as proof data for its pipeline

Entered with buffer contents `V`. At point `t = 695·i + k` the body compares the node ids of node block `i` against the
two index rows of edge block `k`, multiplies the two 0/1 matrices with the two gathered blocks `k` and adds the
products into two accumulators kept in scratch; they restart at `k = 0`; at `k = 694` the output block is the
scaled sum of the table block and the two accumulators, times the weights, plus the bias, clamped at zero. -/

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The two accumulators after a point that STARTS a run: one step from zero. -/
def accReset2 (c : Dev nD) (n : ℕ) (hn : n < cfg2.N) : Vec F S2304x64 .f32 × Vec F S2304x64 .f32 :=
  (k2_pay6 (grid2.coords ⟨n, hn⟩) (iblk2 V c 0 ⟨n, hn⟩) (iblk2 V c 2 ⟨n, hn⟩) (k2_pay3 (F := F)),
   k2_pay1 (k2_pay7 (grid2.coords ⟨n, hn⟩) (iblk2 V c 1 ⟨n, hn⟩) (iblk2 V c 3 ⟨n, hn⟩) (k2_pay4 (F := F))))

/-- The two accumulators after a later point of a run, from what the point before left. -/
def accStep2 (c : Dev nD) (n : ℕ) (hn : n < cfg2.N) (p : Vec F S2304x64 .f32 × Vec F S2304x64 .f32) :
    Vec F S2304x64 .f32 × Vec F S2304x64 .f32 :=
  (k2_pay6 (grid2.coords ⟨n, hn⟩) (iblk2 V c 0 ⟨n, hn⟩) (iblk2 V c 2 ⟨n, hn⟩) p.1,
   k2_pay1 (k2_pay7 (grid2.coords ⟨n, hn⟩) (iblk2 V c 1 ⟨n, hn⟩) (iblk2 V c 3 ⟨n, hn⟩) p.2))

/-- What the two scratch accumulators hold after point `n`. -/
def accs2 (c : Dev nD) : (n : ℕ) → n < cfg2.N → Vec F S2304x64 .f32 × Vec F S2304x64 .f32
  | 0, hn => accReset2 V c 0 hn
  | n + 1, hn => if (n + 1) % 695 = 0 then accReset2 V c (n + 1) hn else accStep2 V c (n + 1) hn (accs2 c n (Nat.lt_of_succ_lt hn))

theorem accs2_reset (c : Dev nD) (n : ℕ) (hn : n < cfg2.N) (h : n % 695 = 0) : accs2 V c n hn = accReset2 V c n hn := by
  cases n with
  | zero => rfl
  | succ n => exact if_pos h

theorem accs2_step (c : Dev nD) (n : ℕ) (hn : n + 1 < cfg2.N) (h : ¬ (n + 1) % 695 = 0) :
    accs2 V c (n + 1) hn = accStep2 V c (n + 1) hn (accs2 V c n (Nat.lt_of_succ_lt hn)) := if_neg h

/-- The two scratch operands, whole. -/
abbrev scM2_0 : Memref sig .tc .vmem S2304x64 .f32 := Memref.whole cc2_scratch0
abbrev scM2_1 : Memref sig .tc .vmem S2304x64 .f32 := Memref.whole cc2_scratch1

/-- The region's invariant before position `n`: at entry the scoped rest at anything and the generator register;
    afterwards the two accumulators at what the point before left, the other scoped buffers at anything. -/
def PhiS2 (c : Dev nD) : (n : ℕ) → n ≤ cfg2.N → sProp 𝕄
  | 0, _ => Pipeline.ΦA spec2 c
  | n + 1, hn => iprop(owns (c : Thread nD τ) scM2_0 fullShare (accs2 V c n hn).1 ∗ owns (c : Thread nD τ) scM2_1 fullShare (accs2 V c n hn).2
      ∗ Pipeline.scopedRestBut (Ix := Unit) (Name := ℕ) (U := UR sig nD τ) (Lvl := ℕ) (Val := Elt F) spec2 c [cc2_scratch0, cc2_scratch1] ∗ (∃ r, prngReg c r))

/-- The proof data of pipeline 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => k2_pay2 (iblk2 V c 4 t) (accs2 V c t.val t.isLt).1 (accs2 V c t.val t.isLt).2 (iblk2 V c 5 t) (iblk2 V c 6 t) (iblk2 V c 7 t)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t
    = k2_pay2 (iblk2 V c 4 t) (accs2 V c t.val t.isLt).1 (accs2 V c t.val t.isLt).2 (iblk2 V c 5 t) (iblk2 V c 6 t) (iblk2 V c 7 t) := by
  dsimp only [dat2]

theorem owed2 (c : Dev nD) (t : Fin (cfg2.N + 1)) : (dat2 V c).owed t = 0 := rfl

/-! ## The invariant, opened

The scoped rest splits at the two accumulators, each a whole buffer owned at some contents; the other scoped buffers
stay together, unopened. -/

/-- The scoped rest of this call, split at its own two scratch buffers. -/
theorem scopedRest2_split (c : Dev nD) :
    (Pipeline.scopedRest (Ix := Unit) (Name := ℕ) (U := UR sig nD τ) (Lvl := ℕ) (Val := Elt F) spec2 c : sProp 𝕄)
      = iprop(iprop((∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f))
          ∗ Pipeline.scopedRestBut (Ix := Unit) (Name := ℕ) (U := UR sig nD τ) (Lvl := ℕ) (Val := Elt F) spec2 c [cc2_scratch0, cc2_scratch1]) :=
  Pipeline.scopedRest_split_of_list spec2 c [cc2_scratch0, cc2_scratch1] (by decide) (by decide)

/-- The entry invariant with the two accumulators as memrefs owned at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

theorem PhiS2_zero (c : Dev nD) (n : ℕ) (h : n ≤ cfg2.N) (hz : n = 0) : PhiS2 V c n h = Pipeline.ΦA spec2 c := by
  subst hz; rfl

/-- After point `n`: the accumulators at that point's values. -/
theorem PhiS2_succ (c : Dev nD) (n : ℕ) (hn : n < cfg2.N) :
    PhiS2 V c (n + 1) hn = iprop(owns (c : Thread nD τ) scM2_0 fullShare (accs2 V c n hn).1 ∗ owns (c : Thread nD τ) scM2_1 fullShare (accs2 V c n hn).2
      ∗ Pipeline.scopedRestBut (Ix := Unit) (Name := ℕ) (U := UR sig nD τ) (Lvl := ℕ) (Val := Elt F) spec2 c [cc2_scratch0, cc2_scratch1] ∗ (∃ r, prngReg c r)) := rfl

/-- Before a point that is not the first: the accumulators at what the point before left. -/
theorem PhiS2_pos (c : Dev nD) (n : ℕ) (h : n ≤ cfg2.N) (hz : n ≠ 0) :
    PhiS2 V c n h = iprop(owns (c : Thread nD τ) scM2_0 fullShare (accs2 V c (n - 1) (by omega)).1 ∗ owns (c : Thread nD τ) scM2_1 fullShare (accs2 V c (n - 1) (by omega)).2
      ∗ Pipeline.scopedRestBut (Ix := Unit) (Name := ℕ) (U := UR sig nD τ) (Lvl := ℕ) (Val := Elt F) spec2 c [cc2_scratch0, cc2_scratch1] ∗ (∃ r, prngReg c r)) := by
  cases n with
  | zero => exact absurd rfl hz
  | succ n => rfl

theorem PhiS2_castSucc (c : Dev nD) (t : Fin cfg2.N) :
    (dat2 V c).Φ t.castSucc = PhiS2 V c t.val (Nat.le_of_lt t.isLt) := by
  dsimp only [dat2]; simp only [Fin.coe_castSucc]

/-- The accumulators at a point that does not start a run: one step from the point before. -/
theorem accs2_pos (c : Dev nD) (t : Fin cfg2.N) (h : ¬ t.val % 695 = 0) :
    accs2 V c t.val t.isLt = accStep2 V c t.val t.isLt (accs2 V c (t.val - 1) (Nat.lt_of_le_of_lt (Nat.sub_le _ _) t.isLt)) := by
  obtain ⟨n, hn⟩ := t
  cases n with
  | zero => exact absurd (Nat.zero_mod _) h
  | succ n => exact accs2_step V c n hn h

/-! ## The input windows' buffers hold their blocks, fetched at the point or not -/

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl) (fun t => by rw [after2_5]; unfold Dat.blockOf iblk2; rw [A_eq2]; try rfl) t d).trans
    (by unfold Dat.fetched Dat.blockOf iblk2; rw [A_eq2]; try rfl)
theorem before2_6 (c : Dev nD) (t : Fin cfg2.N) (d) : (dat2 V c).before 6 t d = iblk2 V c 6 t :=
  ((dat2 V c).before_in_eq_fetched 6 rfl (fun _ => rfl) (fun _ _ _ => rfl) (fun t => by rw [after2_6]; unfold Dat.blockOf iblk2; rw [A_eq2]; try rfl) t d).trans
    (by unfold Dat.fetched Dat.blockOf iblk2; rw [A_eq2]; try rfl)
theorem before2_7 (c : Dev nD) (t : Fin cfg2.N) (d) : (dat2 V c).before 7 t d = iblk2 V c 7 t :=
  ((dat2 V c).before_in_eq_fetched 7 rfl (fun _ => rfl) (fun _ _ _ => rfl) (fun t => by rw [after2_7]; unfold Dat.blockOf iblk2; rw [A_eq2]; try rfl) t d).trans
    (by unfold Dat.fetched Dat.blockOf iblk2; rw [A_eq2]; try rfl)

/-! ## The body on whole memrefs at variable contents, case by case

The first conditional (the column coordinate is 0) resets the two accumulators to zero; the second (it is 694) stores
the output. A whole buffer stored through and loaded back reads the stored value, so in each case the two accumulators
end at one step of the segment sums from where they started (from zero after a reset), and the output, where stored,
is the dense layer of those. -/

/-- The two-axis zero offsets, however spelt. -/
theorem off00_k2 : (![0, 0] : Fin 2 → ℕ) = fun _ => 0 := by funext a; fin_cases a <;> rfl

/-- A load of a whole memref through the whole-shape rectangle at zero offsets reads its contents. -/
theorem readAt_unread_unit_k2 {sp : Space} {S : Shape} {e : EltTy} {m : Memref sig .tc sp S e} (hm : m.IsWhole)
    {off : Fin S.rank → ℕ} (h : off = fun _ => 0) (inb : ∀ a, off a + S.size a ≤ S.size a) (X : S.Idx → Elt F e) :
    View.readAt (Elt F) m.view (Rect.unit off S.size inb).toLoadRect (hm.unread X) = X :=
  (View.readAt_eq_ld m.view (hm.unread X) (Rect.unit off S.size inb)).trans
    ((congrArg (fun Y => View.ld Y (Rect.unit off S.size inb)) (hm.read_unread X)).trans (View.ld_unit_zero h inb X))

/-- A store through that rectangle, last, over any contents and any earlier stores, reads back as its payload. -/
theorem read_writes_cons_unit_k2 {sp : Space} {S : Shape} {e : EltTy} (v : View sig .tc sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self .., View.mem_set_unit_zero h inb y⟩)).trans
    (View.canon_cons_unit_zero h inb w L)

set_option maxHeartbeats 1000000 in
/-- The column coordinate is 0 and not 694: the accumulators restart, whatever they held; the output is untouched. -/
theorem kernel2_A (c : Dev nD) (i : grid2.Coords) (arg2 : Memref sig .tc .vmem S1x2304 .i32) (harg2 : arg2.IsWhole) (arg3 : Memref sig .tc .vmem S1x2304 .i32) (harg3 : arg3.IsWhole) (arg4 : Memref sig .tc .vmem S2304x64 .bf16) (harg4 : arg4.IsWhole) (arg5 : Memref sig .tc .vmem S2304x64 .bf16) (harg5 : arg5.IsWhole) (arg6 : Memref sig .tc .vmem S2304x64 .f32) (harg6 : arg6.IsWhole) (arg7 : Memref sig .tc .vmem S2304x1 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S2304x64 .f32) (harg10 : arg10.IsWhole) (arg11 : Memref sig .tc .vmem S2304x64 .f32) (harg11 : arg11.IsWhole) (arg12 : Memref sig .tc .vmem S2304x64 .f32) (harg12 : arg12.IsWhole)
    (hc0 : cond2_0 i) (hc1 : ¬cond2_1 i) (x0 : Vec F S1x2304 .i32) (x1 : Vec F S1x2304 .i32) (x2 : Vec F S2304x64 .bf16) (x3 : Vec F S2304x64 .bf16) (x4 : Vec F S2304x64 .f32) (x5 : Vec F S2304x1 .f32) (x6 : Vec F S64x64 .f32) (x7 : Vec F S1x64 .f32) (xo a b : Vec F S2304x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo ∗ owns (c : Thread nD τ) arg11 fullShare a ∗ owns (c : Thread nD τ) arg12 fullShare b
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo
            ∗ owns (c : Thread nD τ) arg11 fullShare (k2_pay6 i x0 x2 (k2_pay3 (F := F))) ∗ owns (c : Thread nD τ) arg12 fullShare (k2_pay1 (k2_pay7 i x1 x3 (k2_pay4 (F := F))))) -∗ K ⟨⟩))
      ⊢ wp frame (wpE (defs₀ (F := F)) Variants.none c none) E (cc2__scatter_finalize_kernel i arg2 harg2 arg3 harg3 arg4 harg4 arg5 harg5 arg6 harg6 arg7 harg7 arg8 harg8 arg9 harg9 arg10 harg10 arg11 harg11 arg12 harg12) K := by
  simp only [cc2__scatter_finalize_kernel_eq_skeleton]; unfold cc2__scatter_finalize_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fo, %hfo, HO⟩, ⟨%fa, %hfa, HA⟩, ⟨%fb, %hfb, HB⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg10.eq_unread hfo; obtain rfl := harg11.eq_unread hfa; obtain rfl := harg12.eq_unread hfb
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [HO]
  · iexists _; isplitr; · ipureintro; exact harg10.read_unread _
    iexact HO
  isplitl [HA]
  · iexists _; isplitr
    swap; · iexact HA
    ipureintro
    sl_unfold_run_names
    refine (read_writes_cons_unit_k2 _ _ off00_k2 _ _ _).trans ?_
    rw [readAt_unread_unit_k2 harg2 off00_k2, readAt_unread_unit_k2 harg4 off00_k2, View.readCov_cons_toLoadRect]
  · iexists _; isplitr
    swap; · iexact HB
    ipureintro
    sl_unfold_run_names
    refine (read_writes_cons_unit_k2 _ _ off00_k2 _ _ _).trans ?_
    rw [readAt_unread_unit_k2 harg3 off00_k2, readAt_unread_unit_k2 harg5 off00_k2, View.readCov_cons_toLoadRect]

set_option maxHeartbeats 1000000 in
/-- The column coordinate is neither 0 nor 694: the accumulators step from `(a, b)`; the output is untouched. -/
theorem kernel2_B (c : Dev nD) (i : grid2.Coords) (arg2 : Memref sig .tc .vmem S1x2304 .i32) (harg2 : arg2.IsWhole) (arg3 : Memref sig .tc .vmem S1x2304 .i32) (harg3 : arg3.IsWhole) (arg4 : Memref sig .tc .vmem S2304x64 .bf16) (harg4 : arg4.IsWhole) (arg5 : Memref sig .tc .vmem S2304x64 .bf16) (harg5 : arg5.IsWhole) (arg6 : Memref sig .tc .vmem S2304x64 .f32) (harg6 : arg6.IsWhole) (arg7 : Memref sig .tc .vmem S2304x1 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S2304x64 .f32) (harg10 : arg10.IsWhole) (arg11 : Memref sig .tc .vmem S2304x64 .f32) (harg11 : arg11.IsWhole) (arg12 : Memref sig .tc .vmem S2304x64 .f32) (harg12 : arg12.IsWhole)
    (hc0 : ¬cond2_0 i) (hc1 : ¬cond2_1 i) (x0 : Vec F S1x2304 .i32) (x1 : Vec F S1x2304 .i32) (x2 : Vec F S2304x64 .bf16) (x3 : Vec F S2304x64 .bf16) (x4 : Vec F S2304x64 .f32) (x5 : Vec F S2304x1 .f32) (x6 : Vec F S64x64 .f32) (x7 : Vec F S1x64 .f32) (xo a b : Vec F S2304x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo ∗ owns (c : Thread nD τ) arg11 fullShare a ∗ owns (c : Thread nD τ) arg12 fullShare b
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo
            ∗ owns (c : Thread nD τ) arg11 fullShare (k2_pay6 i x0 x2 a) ∗ owns (c : Thread nD τ) arg12 fullShare (k2_pay1 (k2_pay7 i x1 x3 b))) -∗ K ⟨⟩))
      ⊢ wp frame (wpE (defs₀ (F := F)) Variants.none c none) E (cc2__scatter_finalize_kernel i arg2 harg2 arg3 harg3 arg4 harg4 arg5 harg5 arg6 harg6 arg7 harg7 arg8 harg8 arg9 harg9 arg10 harg10 arg11 harg11 arg12 harg12) K := by
  simp only [cc2__scatter_finalize_kernel_eq_skeleton]; unfold cc2__scatter_finalize_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fo, %hfo, HO⟩, ⟨%fa, %hfa, HA⟩, ⟨%fb, %hfb, HB⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg10.eq_unread hfo; obtain rfl := harg11.eq_unread hfa; obtain rfl := harg12.eq_unread hfb
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [HO]
  · iexists _; isplitr; · ipureintro; exact harg10.read_unread _
    iexact HO
  isplitl [HA]
  · iexists _; isplitr
    swap; · iexact HA
    ipureintro
    refine (read_writes_cons_unit_k2 _ _ off00_k2 _ _ _).trans ?_
    rw [readAt_unread_unit_k2 harg2 off00_k2, readAt_unread_unit_k2 harg4 off00_k2, readAt_unread_unit_k2 harg11 off00_k2]
  · iexists _; isplitr
    swap; · iexact HB
    ipureintro
    refine (read_writes_cons_unit_k2 _ _ off00_k2 _ _ _).trans ?_
    rw [readAt_unread_unit_k2 harg3 off00_k2, readAt_unread_unit_k2 harg5 off00_k2, readAt_unread_unit_k2 harg12 off00_k2]

set_option maxHeartbeats 1000000 in
/-- The column coordinate is 694 and not 0: the accumulators step from `(a, b)`, and the output is stored from them. -/
theorem kernel2_C (c : Dev nD) (i : grid2.Coords) (arg2 : Memref sig .tc .vmem S1x2304 .i32) (harg2 : arg2.IsWhole) (arg3 : Memref sig .tc .vmem S1x2304 .i32) (harg3 : arg3.IsWhole) (arg4 : Memref sig .tc .vmem S2304x64 .bf16) (harg4 : arg4.IsWhole) (arg5 : Memref sig .tc .vmem S2304x64 .bf16) (harg5 : arg5.IsWhole) (arg6 : Memref sig .tc .vmem S2304x64 .f32) (harg6 : arg6.IsWhole) (arg7 : Memref sig .tc .vmem S2304x1 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S2304x64 .f32) (harg10 : arg10.IsWhole) (arg11 : Memref sig .tc .vmem S2304x64 .f32) (harg11 : arg11.IsWhole) (arg12 : Memref sig .tc .vmem S2304x64 .f32) (harg12 : arg12.IsWhole)
    (hc0 : ¬cond2_0 i) (hc1 : cond2_1 i) (x0 : Vec F S1x2304 .i32) (x1 : Vec F S1x2304 .i32) (x2 : Vec F S2304x64 .bf16) (x3 : Vec F S2304x64 .bf16) (x4 : Vec F S2304x64 .f32) (x5 : Vec F S2304x1 .f32) (x6 : Vec F S64x64 .f32) (x7 : Vec F S1x64 .f32) (xo a b : Vec F S2304x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo ∗ owns (c : Thread nD τ) arg11 fullShare a ∗ owns (c : Thread nD τ) arg12 fullShare b
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (k2_pay2 x4 (k2_pay6 i x0 x2 a) (k2_pay1 (k2_pay7 i x1 x3 b)) x5 x6 x7)
            ∗ owns (c : Thread nD τ) arg11 fullShare (k2_pay6 i x0 x2 a) ∗ owns (c : Thread nD τ) arg12 fullShare (k2_pay1 (k2_pay7 i x1 x3 b))) -∗ K ⟨⟩))
      ⊢ wp frame (wpE (defs₀ (F := F)) Variants.none c none) E (cc2__scatter_finalize_kernel i arg2 harg2 arg3 harg3 arg4 harg4 arg5 harg5 arg6 harg6 arg7 harg7 arg8 harg8 arg9 harg9 arg10 harg10 arg11 harg11 arg12 harg12) K := by
  simp only [cc2__scatter_finalize_kernel_eq_skeleton]; unfold cc2__scatter_finalize_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fo, %hfo, HO⟩, ⟨%fa, %hfa, HA⟩, ⟨%fb, %hfb, HB⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg10.eq_unread hfo; obtain rfl := harg11.eq_unread hfa; obtain rfl := harg12.eq_unread hfb
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [HO]
  · iexists _; isplitr
    swap; · iexact HO
    ipureintro
    sl_unfold_run_names
    refine (read_writes_cons_unit_k2 _ _ off00_k2 _ _ _).trans ?_
    rw [View.readCov_cons_toLoadRect, View.readCov_cons_toLoadRect]
    rw [readAt_unread_unit_k2 harg2 off00_k2, readAt_unread_unit_k2 harg4 off00_k2, readAt_unread_unit_k2 harg11 off00_k2,
      readAt_unread_unit_k2 harg3 off00_k2, readAt_unread_unit_k2 harg5 off00_k2, readAt_unread_unit_k2 harg12 off00_k2,
      readAt_unread_unit_k2 harg6 off00_k2, readAt_unread_unit_k2 harg7 off00_k2, readAt_unread_unit_k2 harg8 off00_k2, readAt_unread_unit_k2 harg9 off00_k2]
  isplitl [HA]
  · iexists _; isplitr
    swap; · iexact HA
    ipureintro
    sl_unfold_run_names
    refine (read_writes_cons_unit_k2 _ _ off00_k2 _ _ _).trans ?_
    rw [readAt_unread_unit_k2 harg2 off00_k2, readAt_unread_unit_k2 harg4 off00_k2, readAt_unread_unit_k2 harg11 off00_k2]
  · iexists _; isplitr
    swap; · iexact HB
    ipureintro
    sl_unfold_run_names
    refine (read_writes_cons_unit_k2 _ _ off00_k2 _ _ _).trans ?_
    rw [readAt_unread_unit_k2 harg3 off00_k2, readAt_unread_unit_k2 harg5 off00_k2, readAt_unread_unit_k2 harg12 off00_k2]

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns: the inputs as found, the output as the pipeline asks of an output idle off the last column. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ (dat2 V c).leavesExact 8 t)

set_option maxHeartbeats 4800000 in
/-- The body at any point. The inputs' memrefs hold their blocks; the closed forms of the two conditions say which case
    the point is in; the invariant hands the body the accumulators at what the point before left (at anything at the
    first point) and takes them back at this point's values; off the last column the output's buffer goes back as
    found, on it the buffer holds the layer's block. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).owesAt () t.succ = (dat2 V c).owesAt () t.castSucc from rfl]
  rw [show (dat2 V c).Φ t.succ = PhiS2 V c (t.val + 1) t.isLt from rfl, PhiS2_succ]
  rw [after2_0, after2_1, after2_2, after2_3, after2_4, after2_5, after2_6, after2_7]
  have hN : t.val < 30580 := lt_of_lt_of_eq t.isLt N_2'
  by_cases h0 : t.val % 695 = 0
  · have h1 : ¬ t.val % 695 = 694 := by omega
    rw [Dat.leavesExact_idle (dat2 V c) 8 t ((idle2_8 t).mpr h1) (Bool.eq_false_iff.mpr (fun h => h1 ((flush2_8 t).mp h)))]
    rw [accs2_reset V c t.val t.isLt h0]; unfold accReset2; (try dsimp only)
    by_cases hz : t.val = 0
    · rw [PhiS2_castSucc V c t, PhiS2_zero V c _ _ hz, PhiA2_eq]
      iintro ⟨⟨⟨⟨⟨%a, HS0⟩, ⟨%b, HS1⟩⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (kernel2_A c (grid2.coords t) _ _ _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) _ a b Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      iintro ⟨H0, H1, H2, H3, H4, H5, H6, H7, H8, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
    · rw [PhiS2_castSucc V c t, PhiS2_pos V c _ _ hz]
      iintro ⟨⟨HS0, HS1, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (kernel2_A c (grid2.coords t) _ _ _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      iintro ⟨H0, H1, H2, H3, H4, H5, H6, H7, H8, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
  · have hz : t.val ≠ 0 := fun e => h0 (by rw [e])
    rw [PhiS2_castSucc V c t, PhiS2_pos V c _ _ hz]
    by_cases h1 : t.val % 695 = 694
    · rw [show (dat2 V c).leavesExact 8 t = owns (c : Thread nD τ) (st2_8 t) fullShare ((dat2 V c).after 8 t) from by
        unfold Dat.leavesExact; rw [show cfg2.idle 8 (cfg2.grid.coords t) = false from Bool.eq_false_iff.mpr (fun h => (idle2_8 t).mp h h1)], after2_8]
      rw [accs2_pos V c t h0]; unfold accStep2; (try dsimp only)
      iintro ⟨⟨HS0, HS1, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (kernel2_C c (grid2.coords t) _ _ _ _ _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      iintro ⟨H0, H1, H2, H3, H4, H5, H6, H7, H8, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · rw [Dat.leavesExact_idle (dat2 V c) 8 t ((idle2_8 t).mpr h1) (Bool.eq_false_iff.mpr (fun h => h1 ((flush2_8 t).mp h)))]
      rw [accs2_pos V c t h0]; unfold accStep2; (try dsimp only)
      iintro ⟨⟨HS0, HS1, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (kernel2_B c (grid2.coords t) _ _ _ _ _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      iintro ⟨H0, H1, H2, H3, H4, H5, H6, H7, H8, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The body obligation of kernel 2, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the entry invariant back: the accumulators' values are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨HS0, HS1, Hr, Hg⟩
  isplitl [HS0 HS1 Hr]
  · isplitl [HS0 HS1]
    · isplitl [HS0]
      · iexists _; iexact HS0
      · iexists _; iexact HS1
    · iexact Hr
  · iexact Hg

/-- After the last point the invariant gives the scoped rest and the register back. -/
theorem hout2 (c : Dev nD) : (dat2 V c).Φ (Fin.last cfg2.N) ⊢ Pipeline.ΦA spec2 c :=
  Phi_out2 V c _ (by rw [Fin.val_last]; have : cfg2.N = 30580 := N_2'; omega)

end Cert.KernelIdeal.Hand

end
-- ==== Proof.KI.Outs.lean ====
import proofs.«425878_j39771397161472_2_alg».proof.Proof.Gen.KernelIdeal.Regions
import proofs.«425878_j39771397161472_2_alg».proof.Proof.KI.Region0
import proofs.«425878_j39771397161472_2_alg».proof.Proof.KI.Region1
import proofs.«425878_j39771397161472_2_alg».proof.Proof.KI.Region2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # What the three kernels leave, and the buffer contents each kernel is entered with

The contents of every unscoped buffer between two items of the main function: the launch memory, then each stretch
of host operations applied, then what a kernel's write-backs leave in its output arrays. -/

variable (m : (ℓ : Loc nD τ sig) → Buf (Elt F) ℓ)

/-- A table of contents to start from (never read where it is not overwritten below). -/
def outsBase : Outs (F := F) := fun _ r c => m ((c : Thread nD τ).loc r)

/-- What kernel 0 is entered with: the launch memory after the four host stretches before it. -/
abbrev Vent0 : (c : Dev nD) → (b : Ref sig .tc) → Buf (Elt F) ((c : Thread nD τ).loc b) := fun c b => V4 m c b

/-- Kernel 0's two output arrays after its run. -/
def outsA : Outs (F := F) := fun n =>
  if n = 5 then
    Function.update (Function.update (outsBase m n) main_v2_0 (fun c => (dat0 (Vent0 m) c).arrAt 2 cfg0.N))
      main_v2_1 (fun c => (dat0 (Vent0 m) c).arrAt 3 cfg0.N)
  else outsBase m n

/-- What kernel 1 is entered with. -/
abbrev Vent1 : (c : Dev nD) → (b : Ref sig .tc) → Buf (Elt F) ((c : Thread nD τ).loc b) := fun c b => V10 m (outsA m) c b

/-- Kernel 1's two output arrays after its run. -/
def outsB : Outs (F := F) := fun n =>
  if n = 11 then
    Function.update (Function.update (outsA m n) main_v9_0 (fun c => (dat1 (Vent1 m) c).arrAt 3 cfg1.N))
      main_v9_1 (fun c => (dat1 (Vent1 m) c).arrAt 4 cfg1.N)
  else outsA m n

/-- What kernel 2 is entered with. -/
abbrev Vent2 : (c : Dev nD) → (b : Ref sig .tc) → Buf (Elt F) ((c : Thread nD τ).loc b) := fun c b => V12 m (outsB m) c b

/-- Kernel 2's output array after its run: the table every item's contents are read from. -/
def outs : Outs (F := F) := fun n =>
  if n = 13 then Function.update (outsB m n) main_v11 (fun c => (dat2 (Vent2 m) c).arrAt 8 cfg2.N)
  else outsB m n

/-- Below item 13 the final table is the one kernel 1 leaves; below item 11, the one kernel 0 leaves. -/
theorem outs_eq_outsB {n : ℕ} (h : n ≠ 13) : outs m n = outsB m n := by
  unfold outs; exact if_neg h
theorem outsB_eq_outsA {n : ℕ} (h : n ≠ 11) : outsB m n = outsA m n := by
  unfold outsB; exact if_neg h
theorem outsA_5 : outsA m 5
    = Function.update (Function.update (outsBase m 5) main_v2_0 (fun c => (dat0 (Vent0 m) c).arrAt 2 cfg0.N))
        main_v2_1 (fun c => (dat0 (Vent0 m) c).arrAt 3 cfg0.N) := by
  unfold outsA; exact if_pos rfl
theorem outsB_11 : outsB m 11
    = Function.update (Function.update (outsA m 11) main_v9_0 (fun c => (dat1 (Vent1 m) c).arrAt 3 cfg1.N))
        main_v9_1 (fun c => (dat1 (Vent1 m) c).arrAt 4 cfg1.N) := by
  unfold outsB; exact if_pos rfl
theorem outs_13 : outs m 13
    = Function.update (outsB m 13) main_v11 (fun c => (dat2 (Vent2 m) c).arrAt 8 cfg2.N) := by
  unfold outs; exact if_pos rfl

theorem outs_5_v2_0 (c : Dev nD) : outs m 5 main_v2_0 c = (dat0 (Vent0 m) c).arrAt 2 cfg0.N := by
  rw [outs_eq_outsB m (by decide), outsB_eq_outsA m (by decide), outsA_5,
    Function.update_of_ne (by decide), Function.update_self]
theorem outs_5_v2_1 (c : Dev nD) : outs m 5 main_v2_1 c = (dat0 (Vent0 m) c).arrAt 3 cfg0.N := by
  rw [outs_eq_outsB m (by decide), outsB_eq_outsA m (by decide), outsA_5, Function.update_self]
theorem outs_11_v9_0 (c : Dev nD) : outs m 11 main_v9_0 c = (dat1 (Vent1 m) c).arrAt 3 cfg1.N := by
  rw [outs_eq_outsB m (by decide), outsB_11, Function.update_of_ne (by decide), Function.update_self]
theorem outs_11_v9_1 (c : Dev nD) : outs m 11 main_v9_1 c = (dat1 (Vent1 m) c).arrAt 4 cfg1.N := by
  rw [outs_eq_outsB m (by decide), outsB_11, Function.update_self]
theorem outs_13_v11 (c : Dev nD) : outs m 13 main_v11 c = (dat2 (Vent2 m) c).arrAt 8 cfg2.N := by
  rw [outs_13, Function.update_self]

/-- A valuation up to item 10 reads its table at item 5 only. -/
theorem V10_congr (o o' : Outs (F := F)) (h : o 5 = o' 5) (c : Dev nD) : V10 m o c = V10 m o' c := by
  have h5 : V5 m o c = V5 m o' c := by unfold V5; rw [h]
  unfold V10 V9 V8 V7 V6; rw [h5]
/-- A valuation up to item 12 reads its table at items 5 and 11 only. -/
theorem V12_congr (o o' : Outs (F := F)) (h : o 5 = o' 5) (h' : o 11 = o' 11) (c : Dev nD) : V12 m o c = V12 m o' c := by
  have h11 : V11 m o c = V11 m o' c := by unfold V11; rw [V10_congr m o o' h c, h']
  unfold V12; rw [h11]

/-- The tables agree where the valuations read them: the valuation kernel 1 is entered with, read off the final table. -/
theorem V10_outs (c : Dev nD) : V10 m (outs m) c = V10 m (outsA m) c :=
  V10_congr m _ _ ((outs_eq_outsB m (by decide)).trans (outsB_eq_outsA m (by decide))) c
theorem V12_outs (c : Dev nD) : V12 m (outs m) c = V12 m (outsB m) c :=
  V12_congr m _ _ (outs_eq_outsB m (by decide)) (outs_eq_outsB m (by decide)) c

end Cert.KernelIdeal.Hand

end
-- ==== Proof.KI.Run.lean ====
import proofs.«425878_j39771397161472_2_alg».proof.Proof.KI.Outs
import proofs.«425878_j39771397161472_2_alg».proof.Proof.KI.RunCond
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

/-! # The run of the main function

The main function is fourteen items: stretches of host operations and the three kernels. Each kernel, entered with
every unscoped buffer at the contents the items before it left, leaves its output arrays at what its write-backs
fold to and everything else unscoped as it was; so at the end every unscoped buffer holds the last valuation. -/

variable (m : (ℓ : Loc nD τ sig) → Buf (Elt F) ℓ) (ρ : Dev nD → PrngReg)

/-! ## The kernels' proof data and what rides beside the buffers -/

/-- Every kernel's proof data, each at the contents its kernel is entered with. -/
def pdats : (p : Fin 3) → (c : Dev nD) → Dat τ (Elt F) Unit ℕ (UR sig nD τ) ℕ (cfgs p) c
  | ⟨0, _⟩ => fun c => dat0 (Vent0 m) c
  | ⟨1, _⟩ => fun c => dat1 (Vent1 m) c
  | ⟨2, _⟩ => fun c => dat2 (Vent2 m) c

/-- No core owes another anything: no level is assigned. -/
abbrev L0 : GSem nD τ sig → Finset Unit := fun _ => ∅
abbrev lv0 : GSem nD τ sig → Unit → ℕ := fun _ _ => 0

/-- What rides beside the buffers through every item: the core's generator register at some state and the core
    owing nothing. -/
abbrev Rest (c : Dev nD) : sProp 𝕄 := iprop((∃ r, prngReg c r) ∗ ∃ W, owes (c : Thread nD τ) (0 : CellTallies nD τ sig Unit) W)

/-! ## Where a kernel's arrays sit in the valuation after it -/

theorem V5_v2_0 (o : Outs (F := F)) (c : Dev nD) : V5 m o c main_v2_0 = o 5 main_v2_0 c := by
  unfold V5
  rw [Function.update_of_ne (StableHlo.devRef_ne_of_ne (by decide) : (Proc.devRef .tc main_v2_0 : DevRef τ sig) ≠ Proc.devRef .tc main_v2_1),
    Function.update_self]
theorem V5_v2_1 (o : Outs (F := F)) (c : Dev nD) : V5 m o c main_v2_1 = o 5 main_v2_1 c := by
  unfold V5; rw [Function.update_self]
theorem V11_v9_0 (o : Outs (F := F)) (c : Dev nD) : V11 m o c main_v9_0 = o 11 main_v9_0 c := by
  unfold V11
  rw [Function.update_of_ne (StableHlo.devRef_ne_of_ne (by decide) : (Proc.devRef .tc main_v9_0 : DevRef τ sig) ≠ Proc.devRef .tc main_v9_1),
    Function.update_self]
theorem V11_v9_1 (o : Outs (F := F)) (c : Dev nD) : V11 m o c main_v9_1 = o 11 main_v9_1 c := by
  unfold V11; rw [Function.update_self]
theorem V13_v11 (o : Outs (F := F)) (c : Dev nD) : V13 m o c main_v11 = o 13 main_v11 c := by
  unfold V13; rw [Function.update_self]

/-- After kernel 0 each of its arrays holds what the pipeline leaves there: an input what it held at entry, an output
    the fold of its write-backs. -/
theorem hF0 (c : Dev nD) (w : Fin cfg0.W) :
    (dat0 (Vent0 m) c).arrAt w cfg0.N = V5 m (outs m) c (Pipeline.arrRef spec0 w) := by
  match w with
  | ⟨0, _⟩ => exact (((dat0 (Vent0 m) c).arrAt_in 0 rfl _).trans (A_eq0 (Vent0 m) c 0)).trans (V5_of m (outs m) c main_v0 (by decide)).symm
  | ⟨1, _⟩ => exact (((dat0 (Vent0 m) c).arrAt_in 1 rfl _).trans (A_eq0 (Vent0 m) c 1)).trans (V5_of m (outs m) c main_v1 (by decide)).symm
  | ⟨2, _⟩ => exact (outs_5_v2_0 m c).symm.trans (V5_v2_0 m (outs m) c).symm
  | ⟨3, _⟩ => exact (outs_5_v2_1 m c).symm.trans (V5_v2_1 m (outs m) c).symm
/-- and every other buffer what it held at entry. -/
theorem hrest0 (c : Dev nD) (b : Ref sig .tc) (hb : b ∉ Finset.univ.image (Pipeline.arrRef spec0)) :
    V5 m (outs m) c b = Vent0 m c b :=
  V5_of m (outs m) c b fun h => by
    rcases List.mem_cons.mp h with h | h
    · exact hb (Finset.mem_image.mpr ⟨2, Finset.mem_univ _, h.symm⟩)
    · exact hb (Finset.mem_image.mpr ⟨3, Finset.mem_univ _, (List.mem_singleton.mp h).symm⟩)

theorem hF1 (c : Dev nD) (w : Fin cfg1.W) :
    (dat1 (Vent1 m) c).arrAt w cfg1.N = V11 m (outs m) c (Pipeline.arrRef spec1 w) := by
  match w with
  | ⟨0, _⟩ => exact (((dat1 (Vent1 m) c).arrAt_in 0 rfl _).trans (A_eq1 (Vent1 m) c 0)).trans ((congrFun (V10_outs m c) _).symm.trans (V11_of m (outs m) c main_v5 (by decide)).symm)
  | ⟨1, _⟩ => exact (((dat1 (Vent1 m) c).arrAt_in 1 rfl _).trans (A_eq1 (Vent1 m) c 1)).trans ((congrFun (V10_outs m c) _).symm.trans (V11_of m (outs m) c main_v6 (by decide)).symm)
  | ⟨2, _⟩ => exact (((dat1 (Vent1 m) c).arrAt_in 2 rfl _).trans (A_eq1 (Vent1 m) c 2)).trans ((congrFun (V10_outs m c) _).symm.trans (V11_of m (outs m) c main_v2_1 (by decide)).symm)
  | ⟨3, _⟩ => exact (outs_11_v9_0 m c).symm.trans (V11_v9_0 m (outs m) c).symm
  | ⟨4, _⟩ => exact (outs_11_v9_1 m c).symm.trans (V11_v9_1 m (outs m) c).symm
theorem hrest1 (c : Dev nD) (b : Ref sig .tc) (hb : b ∉ Finset.univ.image (Pipeline.arrRef spec1)) :
    V11 m (outs m) c b = Vent1 m c b :=
  (V11_of m (outs m) c b fun h => by
    rcases List.mem_cons.mp h with h | h
    · exact hb (Finset.mem_image.mpr ⟨3, Finset.mem_univ _, h.symm⟩)
    · exact hb (Finset.mem_image.mpr ⟨4, Finset.mem_univ _, (List.mem_singleton.mp h).symm⟩)).trans (congrFun (V10_outs m c) _)

theorem hF2 (c : Dev nD) (w : Fin cfg2.W) :
    (dat2 (Vent2 m) c).arrAt w cfg2.N = V13 m (outs m) c (Pipeline.arrRef spec2 w) := by
  match w with
  | ⟨0, _⟩ => exact (((dat2 (Vent2 m) c).arrAt_in 0 rfl _).trans (A_eq2 (Vent2 m) c 0)).trans ((congrFun (V12_outs m c) _).symm.trans (V13_of m (outs m) c main_v8 (by decide)).symm)
  | ⟨1, _⟩ => exact (((dat2 (Vent2 m) c).arrAt_in 1 rfl _).trans (A_eq2 (Vent2 m) c 1)).trans ((congrFun (V12_outs m c) _).symm.trans (V13_of m (outs m) c main_v7 (by decide)).symm)
  | ⟨2, _⟩ => exact (((dat2 (Vent2 m) c).arrAt_in 2 rfl _).trans (A_eq2 (Vent2 m) c 2)).trans ((congrFun (V12_outs m c) _).symm.trans (V13_of m (outs m) c main_v9_0 (by decide)).symm)
  | ⟨3, _⟩ => exact (((dat2 (Vent2 m) c).arrAt_in 3 rfl _).trans (A_eq2 (Vent2 m) c 3)).trans ((congrFun (V12_outs m c) _).symm.trans (V13_of m (outs m) c main_v9_1 (by decide)).symm)
  | ⟨4, _⟩ => exact (((dat2 (Vent2 m) c).arrAt_in 4 rfl _).trans (A_eq2 (Vent2 m) c 4)).trans ((congrFun (V12_outs m c) _).symm.trans (V13_of m (outs m) c main_v2_0 (by decide)).symm)
  | ⟨5, _⟩ => exact (((dat2 (Vent2 m) c).arrAt_in 5 rfl _).trans (A_eq2 (Vent2 m) c 5)).trans ((congrFun (V12_outs m c) _).symm.trans (V13_of m (outs m) c main_v1 (by decide)).symm)
  | ⟨6, _⟩ => exact (((dat2 (Vent2 m) c).arrAt_in 6 rfl _).trans (A_eq2 (Vent2 m) c 6)).trans ((congrFun (V12_outs m c) _).symm.trans (V13_of m (outs m) c main_arg4 (by decide)).symm)
  | ⟨7, _⟩ => exact (((dat2 (Vent2 m) c).arrAt_in 7 rfl _).trans (A_eq2 (Vent2 m) c 7)).trans ((congrFun (V12_outs m c) _).symm.trans (V13_of m (outs m) c main_v10 (by decide)).symm)
  | ⟨8, _⟩ => exact (outs_13_v11 m c).symm.trans (V13_v11 m (outs m) c).symm
theorem hrest2 (c : Dev nD) (b : Ref sig .tc) (hb : b ∉ Finset.univ.image (Pipeline.arrRef spec2)) :
    V13 m (outs m) c b = Vent2 m c b :=
  (V13_of m (outs m) c b fun h =>
    hb (Finset.mem_image.mpr ⟨8, Finset.mem_univ _, (List.mem_singleton.mp h).symm⟩)).trans (congrFun (V12_outs m c) _)

/-! ## The kernels as items of the main function -/

set_option backward.isDefEq.respectTransparency.types false in
/-- KERNEL 0 over the thread state: entered from every unscoped buffer at the valuation before it, left at the one
    after it. Its arrays split out of the unscoped buffers and put back at what the pipeline leaves; the generator
    register into the region's invariant and out; nothing owed; no semaphore of the kernel's own. -/
def reg0 : Pipeline.RegionSeg (pcfgs (F := F)) adm (pdats m) () defs₀ Variants.none L0 lv0 0 where
  win := launch0.win.to₀
  block_pos := launch0.block_pos
  stage_whole := launch0.stage_whole
  K := PEmpty
  osem k := k.elim
  ho := Pipeline.OwnSemFacts.none _
  hbody c := (body_obligation0 (Vent0 m) c).loose
  hwaits := Pipeline.hwaits_of_owed_zero _ _ _ _ L0 lv0 0 fun _ _ => rfl
  pre c := iprop(StableHlo.held (c : Thread nD τ) (Pipeline.ucRefs τ sig) (V4 m c) ∗ Rest c)
  post c := iprop(StableHlo.held (c : Thread nD τ) (Pipeline.ucRefs τ sig) (V5 m (outs m) c) ∗ Rest c)
  X c := iprop(∃ r, prngReg c r)
  Y c := iprop(∃ r, prngReg c r)
  Z c := Pipeline.unscopedRest (Ix := Unit) (Name := ℕ) (U := UR sig nD τ) (Lvl := ℕ) spec0 c (Vent0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Vent0 m) c)
    unfold Pipeline.ΦA
    iintro ⟨Hp, -, Hr⟩
    isplitl [Hr]; · iexact Hr
    iexact Hp
  hout c := by
    rw [Pipeline.ownSems0_none]
    refine BIBase.Entails.trans (hout0 (Vent0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vent0 m c) (fun b => V5 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- KERNEL 1 over the thread state: entered from every unscoped buffer at the valuation before it, left at the one
    after it. Its arrays split out of the unscoped buffers and put back at what the pipeline leaves; the generator
    register into the region's invariant and out; nothing owed; no semaphore of the kernel's own. -/
def reg1 : Pipeline.RegionSeg (pcfgs (F := F)) adm (pdats m) () defs₀ Variants.none L0 lv0 1 where
  win := launch1.win.to₀
  block_pos := launch1.block_pos
  stage_whole := launch1.stage_whole
  K := PEmpty
  osem k := k.elim
  ho := Pipeline.OwnSemFacts.none _
  hbody c := (body_obligation1 (Vent1 m) c).loose
  hwaits := Pipeline.hwaits_of_owed_zero _ _ _ _ L0 lv0 1 fun _ _ => rfl
  pre c := iprop(StableHlo.held (c : Thread nD τ) (Pipeline.ucRefs τ sig) (V10 m (outs m) c) ∗ Rest c)
  post c := iprop(StableHlo.held (c : Thread nD τ) (Pipeline.ucRefs τ sig) (V11 m (outs m) c) ∗ Rest c)
  X c := iprop(∃ r, prngReg c r)
  Y c := iprop(∃ r, prngReg c r)
  Z c := Pipeline.unscopedRest (Ix := Unit) (Name := ℕ) (U := UR sig nD τ) (Lvl := ℕ) spec1 c (Vent1 m c)
  hentry c := by
    rw [Pipeline.ownSems0_none, V10_outs m c]
    have hsplit := Pipeline.arrays_of_unscopedBufs (p := 1) (pcfgs (F := F)) adm (pdats m) launch1.win launch1.arr_whole c
      ((pdats m 1 c).share_full fun _ => rfl) (Vent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vent1 m) c)
    unfold Pipeline.ΦA
    iintro ⟨Hp, -, Hr⟩
    isplitl [Hr]; · iexact Hr
    iexact Hp
  hout c := by
    rw [Pipeline.ownSems0_none]
    refine BIBase.Entails.trans (hout1 (Vent1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vent1 m c) (fun b => V11 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- KERNEL 2 over the thread state: entered from every unscoped buffer at the valuation before it, left at the one
    after it. Its arrays split out of the unscoped buffers and put back at what the pipeline leaves; the generator
    register into the region's invariant and out; nothing owed; no semaphore of the kernel's own. -/
def reg2 : Pipeline.RegionSeg (pcfgs (F := F)) adm (pdats m) () defs₀ Variants.none L0 lv0 2 where
  win := launch2.win.to₀
  block_pos := launch2.block_pos
  stage_whole := launch2.stage_whole
  K := PEmpty
  osem k := k.elim
  ho := Pipeline.OwnSemFacts.none _
  hbody c := (body_obligation2 (Vent2 m) c).loose
  hwaits := Pipeline.hwaits_of_owed_zero _ _ _ _ L0 lv0 2 fun _ _ => rfl
  pre c := iprop(StableHlo.held (c : Thread nD τ) (Pipeline.ucRefs τ sig) (V12 m (outs m) c) ∗ Rest c)
  post c := iprop(StableHlo.held (c : Thread nD τ) (Pipeline.ucRefs τ sig) (V13 m (outs m) c) ∗ Rest c)
  X c := iprop(∃ r, prngReg c r)
  Y c := iprop(∃ r, prngReg c r)
  Z c := Pipeline.unscopedRest (Ix := Unit) (Name := ℕ) (U := UR sig nD τ) (Lvl := ℕ) spec2 c (Vent2 m c)
  hentry c := by
    rw [Pipeline.ownSems0_none, V12_outs m c]
    have hsplit := Pipeline.arrays_of_unscopedBufs (p := 2) (pcfgs (F := F)) adm (pdats m) launch2.win launch2.arr_whole c
      ((pdats m 2 c).share_full fun _ => rfl) (Vent2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (Vent2 m) c)
    unfold Pipeline.ΦA
    iintro ⟨Hp, -, Hr⟩
    isplitl [Hr]; · iexact Hr
    iexact Hp
  hout c := by
    rw [Pipeline.ownSems0_none]
    refine BIBase.Entails.trans (hout2 (Vent2 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vent2 m c) (fun b => V13 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- THE RUN, NAMED. Every weakly fair execution of the main function terminates, nothing faulting; the result
    buffer ends at the last valuation's contents and the six arguments end as launched. -/
theorem run_named : θ_run defs (onTc (τ := τ) (main (F := F))) ⟨m, fun _ => 0, ρ⟩ (fun r => ∀ c : Dev nD,
      r.2.mem ((c.tc : Thread nD τ).loc main_v12) = V14 m (outs m) c main_v12
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_cond m emb₁ () Variants.none L0 lv0 (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ => Rest)
    (by
      refine Pipeline.initEach L0 lv0 fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun _ => .rfl) (fun _ => .rfl)
    (reg1 m) (fun _ => .rfl) (fun _ => .rfl)
    (reg2 m) (fun _ => .rfl) (fun _ => .rfl)

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_named m ρ)

end Cert.KernelIdeal.Hand

end
-- ==== Proof.Spec.lean ====
import Idealize.ShloMosaic.PureOps.Ideal
import Idealize.ShloMosaic.Lib.ValueIdx

noncomputable section

open scoped BigOperators

/-! # The layer, as functions of index words and extended reals

One graph-convolution layer over `n` nodes with `d` features and `e` edges `(a_q, b_q)`: scale the rows of the
table by a column, add to each row the scaled rows of its neighbours in both directions, scale again, multiply by the
weights, add the bias, clamp at zero. The pieces are stated for any sizes; an index word names the row whose number it
is when read unsigned. -/

namespace Cert.Spec

open Idealize.ShloMosaic Idealize.ShloMosaic.ValueIdx

/-- The rows of `x` scaled by the column `s`. -/
def scaleRows {n d : Nat} (x : (⟨2, ![n, d]⟩ : Shape).Idx → EReal) (s : (⟨2, ![n, 1]⟩ : Shape).Idx → EReal) :
    (⟨2, ![n, d]⟩ : Shape).Idx → EReal :=
  fun i => x i * s (ix2 (⟨(i 0).val, idx2_lt0 i⟩ : Fin n) (0 : Fin 1))

/-- Row `q` of the result is the table's row named by word `idx q`, or zero when the word names no row. -/
def gatherRows {n e d : Nat} (tbl : (⟨2, ![n, d]⟩ : Shape).Idx → EReal) (idx : Fin e → BitVec 32) :
    (⟨2, ![e, d]⟩ : Shape).Idx → EReal :=
  fun i => if h : (idx ⟨(i 0).val, idx2_lt0 i⟩).toNat < n then tbl (ix2 (⟨_, h⟩ : Fin n) (⟨(i 1).val, idx2_lt1 i⟩ : Fin d)) else 0

/-- Row `r` of the result is the sum of the update rows `q` whose word `idx q` names `r`. -/
def segSum {n e d : Nat} (idx : Fin e → BitVec 32) (upd : (⟨2, ![e, d]⟩ : Shape).Idx → EReal) :
    (⟨2, ![n, d]⟩ : Shape).Idx → EReal :=
  fun i => ∑ q : Fin e, if (idx q).toNat = (i 0).val then upd (ix2 q (⟨(i 1).val, idx2_lt1 i⟩ : Fin d)) else 0

/-- The dense layer on the scaled rows of `agg`: weights, bias, clamp at zero. -/
def dense {n d u : Nat} (agg : (⟨2, ![n, d]⟩ : Shape).Idx → EReal) (s : (⟨2, ![n, 1]⟩ : Shape).Idx → EReal)
    (W : (⟨2, ![d, u]⟩ : Shape).Idx → EReal) (b : Fin u → EReal) : (⟨2, ![n, u]⟩ : Shape).Idx → EReal :=
  fun i => max ((∑ k : Fin d, (agg (ix2 (⟨(i 0).val, idx2_lt0 i⟩ : Fin n) k) * s (ix2 (⟨(i 0).val, idx2_lt0 i⟩ : Fin n) (0 : Fin 1)))
      * W (ix2 k (⟨(i 1).val, idx2_lt1 i⟩ : Fin u))) + b ⟨(i 1).val, idx2_lt1 i⟩) 0

/-- The aggregate: each row plus the two neighbour sums. -/
def aggregate {n e d : Nat} (xn : (⟨2, ![n, d]⟩ : Shape).Idx → EReal) (ia ib : Fin e → BitVec 32)
    (ga gb : (⟨2, ![e, d]⟩ : Shape).Idx → EReal) : (⟨2, ![n, d]⟩ : Shape).Idx → EReal :=
  fun i => (xn i + segSum ib ga i) + segSum ia gb i

/-- THE LAYER over `n` nodes and `e` edges. -/
def layer {n e d u : Nat} (x : (⟨2, ![n, d]⟩ : Shape).Idx → EReal) (s : (⟨2, ![n, 1]⟩ : Shape).Idx → EReal)
    (ia ib : Fin e → BitVec 32) (W : (⟨2, ![d, u]⟩ : Shape).Idx → EReal) (b : Fin u → EReal) :
    (⟨2, ![n, u]⟩ : Shape).Idx → EReal :=
  dense (aggregate (scaleRows x s) ia ib (gatherRows (scaleRows x s) ia) (gatherRows (scaleRows x s) ib)) s W b

/-- Rows past the first `n` filled with zero. -/
def padRows {n n' d : Nat} (x : (⟨2, ![n, d]⟩ : Shape).Idx → EReal) : (⟨2, ![n', d]⟩ : Shape).Idx → EReal :=
  fun i => if h : (i 0).val < n then x (ix2 (⟨_, h⟩ : Fin n) (⟨(i 1).val, idx2_lt1 i⟩ : Fin d)) else 0

/-- Index words past the first `e` filled with the word `v`. -/
def padWords {e e' : Nat} (idx : Fin e → BitVec 32) (v : BitVec 32) : Fin e' → BitVec 32 :=
  fun q => if h : q.val < e then idx ⟨_, h⟩ else v

/-- The first `n` rows. -/
def takeRows {n n' d : Nat} (hn : n ≤ n') (x : (⟨2, ![n', d]⟩ : Shape).Idx → EReal) : (⟨2, ![n, d]⟩ : Shape).Idx → EReal :=
  fun i => x (ix2 (⟨(i 0).val, Nat.lt_of_lt_of_le (idx2_lt0 i) hn⟩ : Fin n') (⟨(i 1).val, idx2_lt1 i⟩ : Fin d))

/-! ## Padding commutes with every piece -/

/-- A sum over `e'` terms that vanish past the first `e` is the sum of the first `e`. -/
theorem sum_padded {M : Type*} [AddCommMonoid M] {e e' : Nat} (he : e ≤ e') (f : Fin e → M) :
    (∑ q : Fin e', if h : q.val < e then f ⟨q.val, h⟩ else 0) = ∑ q : Fin e, f q := by
  obtain ⟨m, rfl⟩ := Nat.exists_eq_add_of_le he
  rw [Fin.sum_univ_add]
  have h1 : ∀ q : Fin e, (if h : (Fin.castAdd m q).val < e then f ⟨(Fin.castAdd m q).val, h⟩ else 0) = f q := by
    intro q
    rw [dif_pos (show (Fin.castAdd m q).val < e from q.isLt)]
    rfl
  have h2 : ∀ q : Fin m, (if h : (Fin.natAdd e q).val < e then f ⟨(Fin.natAdd e q).val, h⟩ else 0) = 0 := by
    intro q
    rw [dif_neg (show ¬ (Fin.natAdd e q).val < e from Nat.not_lt.mpr (Nat.le_add_right e q.val))]
  simp only [h1, h2, Finset.sum_const_zero, add_zero]

/-- Scaling the padded rows by the padded column is padding the scaled rows. -/
theorem scaleRows_pad {n n' d : Nat} (x : (⟨2, ![n, d]⟩ : Shape).Idx → EReal) (s : (⟨2, ![n, 1]⟩ : Shape).Idx → EReal) :
    scaleRows (padRows (n' := n') x) (padRows (n' := n') s) = padRows (n' := n') (scaleRows x s) := by
  funext i
  by_cases h : (i 0).val < n
  · have e1 : padRows (n' := n') x i = x (ix2 (⟨_, h⟩ : Fin n) (⟨(i 1).val, idx2_lt1 i⟩ : Fin d)) := dif_pos h
    have e2 : padRows (n' := n') s (ix2 (⟨(i 0).val, idx2_lt0 i⟩ : Fin n') (0 : Fin 1))
        = s (ix2 (⟨(i 0).val, h⟩ : Fin n) (0 : Fin 1)) := dif_pos h
    have e3 : padRows (n' := n') (scaleRows x s) i = scaleRows x s (ix2 (⟨_, h⟩ : Fin n) (⟨(i 1).val, idx2_lt1 i⟩ : Fin d)) :=
      dif_pos h
    rw [e3]
    show padRows (n' := n') x i * padRows (n' := n') s (ix2 (⟨(i 0).val, idx2_lt0 i⟩ : Fin n') (0 : Fin 1)) = _
    rw [e1, e2]
    rfl
  · have e1 : padRows (n' := n') x i = 0 := dif_neg h
    have e3 : padRows (n' := n') (scaleRows x s) i = 0 := dif_neg h
    rw [e3]
    show padRows (n' := n') x i * _ = _
    rw [e1, zero_mul]

/-- Gathering from the padded table at the padded words is padding the gathered rows: a real word names a row below
    `n`, where the padded table is the table; the filling word names no row. -/
theorem gatherRows_pad {n n' e e' d : Nat} (hn : n ≤ n') (t : (⟨2, ![n, d]⟩ : Shape).Idx → EReal)
    (idx : Fin e → BitVec 32) (v : BitVec 32) (hv : n' ≤ v.toNat) (hidx : ∀ q, (idx q).toNat < n) :
    gatherRows (padRows (n' := n') t) (padWords (e' := e') idx v) = padRows (n' := e') (gatherRows t idx) := by
  funext i
  by_cases h : (i 0).val < e
  · have hw : padWords (e' := e') idx v ⟨(i 0).val, idx2_lt0 i⟩ = idx ⟨(i 0).val, h⟩ := dif_pos h
    have hlt : (padWords (e' := e') idx v ⟨(i 0).val, idx2_lt0 i⟩).toNat < n := by rw [hw]; exact hidx _
    have hlt' : (padWords (e' := e') idx v ⟨(i 0).val, idx2_lt0 i⟩).toNat < n' := Nat.lt_of_lt_of_le hlt hn
    have e1 : gatherRows (padRows (n' := n') t) (padWords (e' := e') idx v) i
        = padRows (n' := n') t (ix2 (⟨_, hlt'⟩ : Fin n') (⟨(i 1).val, idx2_lt1 i⟩ : Fin d)) := dif_pos hlt'
    have e2 : padRows (n' := n') t (ix2 (⟨_, hlt'⟩ : Fin n') (⟨(i 1).val, idx2_lt1 i⟩ : Fin d))
        = t (ix2 (⟨_, hlt⟩ : Fin n) (⟨(i 1).val, idx2_lt1 i⟩ : Fin d)) := dif_pos hlt
    have e3 : padRows (n' := e') (gatherRows t idx) i
        = gatherRows t idx (ix2 (⟨_, h⟩ : Fin e) (⟨(i 1).val, idx2_lt1 i⟩ : Fin d)) := dif_pos h
    have e4 : gatherRows t idx (ix2 (⟨_, h⟩ : Fin e) (⟨(i 1).val, idx2_lt1 i⟩ : Fin d))
        = t (ix2 (⟨(idx ⟨(i 0).val, h⟩).toNat, hidx _⟩ : Fin n) (⟨(i 1).val, idx2_lt1 i⟩ : Fin d)) := dif_pos (hidx _)
    have e5 : (⟨(padWords (e' := e') idx v ⟨(i 0).val, idx2_lt0 i⟩).toNat, hlt⟩ : Fin n)
        = ⟨(idx ⟨(i 0).val, h⟩).toNat, hidx _⟩ := Fin.ext (congrArg BitVec.toNat hw)
    rw [e1, e2, e3, e4, e5]
  · have hw : padWords (e' := e') idx v ⟨(i 0).val, idx2_lt0 i⟩ = v := dif_neg h
    have hge : ¬ (padWords (e' := e') idx v ⟨(i 0).val, idx2_lt0 i⟩).toNat < n' := by rw [hw]; exact Nat.not_lt.mpr hv
    have e1 : gatherRows (padRows (n' := n') t) (padWords (e' := e') idx v) i = 0 := dif_neg hge
    have e3 : padRows (n' := e') (gatherRows t idx) i = 0 := dif_neg h
    rw [e1, e3]

/-- The neighbour sum over the padded words of padded update rows is the neighbour sum of what was padded: the update
    rows past `e` are zero. It reads its row only through the two coordinates. -/
theorem segSum_pad {n n' e e' d : Nat} (he : e ≤ e') (idx : Fin e → BitVec 32) (v : BitVec 32)
    (g : (⟨2, ![e, d]⟩ : Shape).Idx → EReal) (i' : (⟨2, ![n', d]⟩ : Shape).Idx) (i : (⟨2, ![n, d]⟩ : Shape).Idx)
    (h0 : (i' 0).val = (i 0).val) (h1 : (i' 1).val = (i 1).val) :
    segSum (padWords (e' := e') idx v) (padRows (n' := e') g) i' = segSum idx g i := by
  unfold segSum
  rw [← sum_padded he]
  refine Finset.sum_congr rfl fun q _ => ?_
  by_cases h : q.val < e
  · have hw : padWords (e' := e') idx v q = idx ⟨q.val, h⟩ := dif_pos h
    have e1 : padRows (n' := e') g (ix2 q (⟨(i' 1).val, idx2_lt1 i'⟩ : Fin d))
        = g (ix2 (⟨q.val, h⟩ : Fin e) (⟨(i' 1).val, idx2_lt1 i'⟩ : Fin d)) := dif_pos h
    have e2 : (⟨(i' 1).val, idx2_lt1 i'⟩ : Fin d) = ⟨(i 1).val, idx2_lt1 i⟩ := Fin.ext h1
    rw [dif_pos h, hw, e1, e2, h0]
  · have e1 : padRows (n' := e') g (ix2 q (⟨(i' 1).val, idx2_lt1 i'⟩ : Fin d)) = 0 := dif_neg h
    rw [dif_neg h, e1, ite_self]

/-- THE PADDING IS INVISIBLE. The layer over `n'` nodes and `e'` edges on the padded table, column and index words —
    the words past `e` naming no row at all, the first `e` naming rows below `n` —, cut back to `n` rows, is the
    layer on what was padded. -/
theorem layer_pad {n n' e e' d u : Nat} (hn : n ≤ n') (he : e ≤ e') (x : (⟨2, ![n, d]⟩ : Shape).Idx → EReal)
    (s : (⟨2, ![n, 1]⟩ : Shape).Idx → EReal) (ia ib : Fin e → BitVec 32) (W : (⟨2, ![d, u]⟩ : Shape).Idx → EReal)
    (b : Fin u → EReal) (v : BitVec 32) (hv : n' ≤ v.toNat)
    (ha : ∀ q, (ia q).toNat < n) (hb : ∀ q, (ib q).toNat < n) :
    takeRows hn (layer (n := n') (e := e') (padRows x) (padRows s) (padWords ia v) (padWords ib v) W b)
      = layer x s ia ib W b := by
  funext i
  have hr : (i 0).val < n := idx2_lt0 i
  have hr' : (i 0).val < n' := Nat.lt_of_lt_of_le hr hn
  unfold takeRows layer
  rw [scaleRows_pad, gatherRows_pad hn _ ia v hv ha, gatherRows_pad hn _ ib v hv hb]
  -- the aggregate at a row below `n`: the padded rows are the rows, the two neighbour sums lose their zero terms
  have hA : ∀ k : Fin d,
      aggregate (padRows (n' := n') (scaleRows x s)) (padWords (e' := e') ia v) (padWords (e' := e') ib v)
        (padRows (n' := e') (gatherRows (scaleRows x s) ia)) (padRows (n' := e') (gatherRows (scaleRows x s) ib))
        (ix2 (⟨(i 0).val, hr'⟩ : Fin n') k)
      = aggregate (scaleRows x s) ia ib (gatherRows (scaleRows x s) ia) (gatherRows (scaleRows x s) ib)
        (ix2 (⟨(i 0).val, hr⟩ : Fin n) k) := by
    intro k
    unfold aggregate
    rw [segSum_pad he ib v _ (ix2 (⟨(i 0).val, hr'⟩ : Fin n') k) (ix2 (⟨(i 0).val, hr⟩ : Fin n) k) rfl rfl,
      segSum_pad he ia v _ (ix2 (⟨(i 0).val, hr'⟩ : Fin n') k) (ix2 (⟨(i 0).val, hr⟩ : Fin n) k) rfl rfl]
    have e1 : padRows (n' := n') (scaleRows x s) (ix2 (⟨(i 0).val, hr'⟩ : Fin n') k)
        = scaleRows x s (ix2 (⟨(i 0).val, hr⟩ : Fin n) k) := dif_pos hr
    rw [e1]
  -- the padded column at a row below `n`
  have hB : padRows (n' := n') s (ix2 (⟨(i 0).val, hr'⟩ : Fin n') (0 : Fin 1))
      = s (ix2 (⟨(i 0).val, hr⟩ : Fin n) (0 : Fin 1)) := dif_pos hr
  show max ((∑ k : Fin d, (aggregate _ _ _ _ _ (ix2 (⟨(i 0).val, hr'⟩ : Fin n') k)
      * padRows (n' := n') s (ix2 (⟨(i 0).val, hr'⟩ : Fin n') (0 : Fin 1)))
      * W (ix2 k (⟨(i 1).val, idx2_lt1 i⟩ : Fin u))) + b ⟨(i 1).val, idx2_lt1 i⟩) 0 = _
  rw [hB]
  simp only [hA]
  rfl

end Cert.Spec

end
-- ==== Proof.KI.ValueHost.lean ====
import proofs.«425878_j39771397161472_2_alg».proof.Proof.KI.Outs
import proofs.«425878_j39771397161472_2_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.KernelVsHost

set_option maxRecDepth 16384

noncomputable section

namespace Cert.KernelIdeal.HandValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

/-! # The host operations between the kernels, read at an index

The table and the column are padded with zero rows to 101376 rows; the two index vectors are padded to 1601280 words
with the word 101376 and laid out as a column and as a row; the bias is laid out as a row; the result is the first
100000 rows of what the last kernel leaves. Every other buffer a kernel reads is what an earlier kernel left. -/

variable (m : (ℓ : Loc nD τ sig) → Buf (Elt Ideal) ℓ)

/-! ## The padding operations read at an index -/

/-- Zero-padding a table's rows at the end is `padRows`: rows below the table's count read the table, the rest the
    padding value. -/
theorem padRows_of_pad {n n' d hi : Nat} (x : (⟨2, ![n, d]⟩ : Shape).Idx → EReal) {u : Shape} (v : u.Idx → EReal)
    (h : (⟨2, ![n, d]⟩ : Shape).Pads ![0, 0] ![hi, 0] ![0, 0] ⟨2, ![n', d]⟩) (hu : 0 < u.numel) (hv : v (Shape.Idx.first hu) = 0) :
    pad (⟨2, ![n', d]⟩ : Shape) ![0, 0] ![hi, 0] ![0, 0] x v h hu = Cert.Spec.padRows x := by
  funext i
  unfold Cert.Spec.padRows
  split
  · next hlt =>
    refine pad_apply_of_inside _ _ _ x v h hu i _ fun a => ?_
    match a with
    | ⟨0, _⟩ => show (i 0).val = 0 + (i 0).val * (0 + 1); omega
    | ⟨1, _⟩ => show (i 1).val = 0 + (i 1).val * (0 + 1); omega
  · next hge =>
    refine (pad_apply_of_not_inside _ _ _ x v h hu i 0 fun hin => hge ?_).trans hv
    have h3 : ((i 0).val - 0) / (0 + 1) < n := hin.2.2
    omega

/-- Padding a vector of words at the end with the word `w` is `padWords`. -/
theorem padWords_of_pad {e e' hi : Nat} (x : (⟨1, ![e]⟩ : Shape).Idx → BitVec 32) {u : Shape} (v : u.Idx → BitVec 32) (w : BitVec 32)
    (h : (⟨1, ![e]⟩ : Shape).Pads ![0] ![hi] ![0] ⟨1, ![e']⟩) (hu : 0 < u.numel) (hv : v (Shape.Idx.first hu) = w) (q : Fin e') :
    pad (⟨1, ![e']⟩ : Shape) ![0] ![hi] ![0] x v h hu (ix1 q) = Cert.Spec.padWords (fun q : Fin e => x (ix1 q)) w q := by
  unfold Cert.Spec.padWords
  split
  · next hlt =>
    refine pad_apply_of_inside _ _ _ x v h hu (ix1 q) (ix1 ⟨q.val, hlt⟩) fun a => ?_
    match a with
    | ⟨0, _⟩ => show q.val = 0 + q.val * (0 + 1); omega
  · next hge =>
    refine (pad_apply_of_not_inside _ _ _ x v h hu (ix1 q) 0 fun hin => hge ?_).trans hv
    have h3 : (q.val - 0) / (0 + 1) < e := hin.2.2
    omega

/-- The signed integer zero is the real zero. -/
theorem sitofp_zero : Scalar.sitofp (F := Ideal) FTy.f32 (0#32) = 0 := by
  rw [Ideal.scalar_sitofp_def]
  simp

/-! ## The arguments reach every kernel as launched -/

variable (o : Outs (F := Ideal))

theorem v4_arg (c : Dev nD) (r : Ref sig .tc) (h0 : r ∉ (hostOps0_W : List (Ref sig .tc))) (h1 : r ∉ (hostOps0_1_W : List (Ref sig .tc)))
    (h2 : r ∉ (hostOps0_2_W : List (Ref sig .tc))) (h3 : r ∉ (hostOps0_3_W : List (Ref sig .tc))) :
    V4 m c r = m ((c : Thread nD τ).loc r) :=
  (V4_of m c r h3).trans <| (V3_of m c r h2).trans <| (V2_of m c r h1).trans <| (V1_of m c r h0).trans rfl

theorem v5_arg2 (c : Dev nD) : V5 m o c main_arg2 = m ((c : Thread nD τ).loc main_arg2) :=
  (V5_of m o c main_arg2 (by decide)).trans (v4_arg m c main_arg2 (by decide) (by decide) (by decide) (by decide))
theorem v5_arg3 (c : Dev nD) : V5 m o c main_arg3 = m ((c : Thread nD τ).loc main_arg3) :=
  (V5_of m o c main_arg3 (by decide)).trans (v4_arg m c main_arg3 (by decide) (by decide) (by decide) (by decide))

/-! ## The two index vectors, padded and laid out as a column and as a row -/

theorem v10_v5 (c : Dev nD) (q : Fin 1601280) : (V10 m o c main_v5 : S1601280x1.Idx → BitVec 32) (ix2 q (0 : Fin 1)) = Cert.Spec.padWords (fun q : Fin 1600000 => ((m ((c : Thread nD τ).loc main_arg2)) : S1600000.Idx → BitVec 32) (ix1 q)) 101376#32 q := by
  dsimp only [V10, V9, V8, V7, V6, hostOps1, hostOps1_1, hostOps1_2, hostOps1_3, hostOps1_4]
  after_results
  show shapeCast S1601280x1 (pad S1601280 ![0] ![1280] ![0] (V5 m o c main_arg2) (constantI S_ 32 101376#32) pads_S1600000_S1601280_012800 h_S_) shapeCasts_S1601280_S1601280x1 (ix2 q (0 : Fin 1)) = _
  rw [v5_arg2]
  refine (shapeCast_apply _ _ (ix2 q (0 : Fin 1)) (ix1 q) ?_).trans (padWords_of_pad _ _ _ _ _ rfl q)
  rw [Shape.rowMajor_val_one, Shape.rowMajor_val_two]
  show q.val = q.val * 1 + 0
  omega

theorem v10_v6 (c : Dev nD) (q : Fin 1601280) : (V10 m o c main_v6 : S1601280x1.Idx → BitVec 32) (ix2 q (0 : Fin 1)) = Cert.Spec.padWords (fun q : Fin 1600000 => ((m ((c : Thread nD τ).loc main_arg3)) : S1600000.Idx → BitVec 32) (ix1 q)) 101376#32 q := by
  dsimp only [V10, V9, V8, V7, V6, hostOps1, hostOps1_1, hostOps1_2, hostOps1_3, hostOps1_4]
  after_results
  show shapeCast S1601280x1 (pad S1601280 ![0] ![1280] ![0] (V5 m o c main_arg3) (constantI S_ 32 101376#32) pads_S1600000_S1601280_012800 h_S_) shapeCasts_S1601280_S1601280x1 (ix2 q (0 : Fin 1)) = _
  rw [v5_arg3]
  refine (shapeCast_apply _ _ (ix2 q (0 : Fin 1)) (ix1 q) ?_).trans (padWords_of_pad _ _ _ _ _ rfl q)
  rw [Shape.rowMajor_val_one, Shape.rowMajor_val_two]
  show q.val = q.val * 1 + 0
  omega

theorem v10_v7 (c : Dev nD) (q : Fin 1601280) : (V10 m o c main_v7 : S1x1601280.Idx → BitVec 32) (ix2 (0 : Fin 1) q) = Cert.Spec.padWords (fun q : Fin 1600000 => ((m ((c : Thread nD τ).loc main_arg2)) : S1600000.Idx → BitVec 32) (ix1 q)) 101376#32 q := by
  dsimp only [V10, V9, V8, V7, V6, hostOps1, hostOps1_1, hostOps1_2, hostOps1_3, hostOps1_4]
  after_results
  show shapeCast S1x1601280 (pad S1601280 ![0] ![1280] ![0] (V5 m o c main_arg2) (constantI S_ 32 101376#32) pads_S1600000_S1601280_012800 h_S_) shapeCasts_S1601280_S1x1601280 (ix2 (0 : Fin 1) q) = _
  rw [v5_arg2]
  refine (shapeCast_apply _ _ (ix2 (0 : Fin 1) q) (ix1 q) ?_).trans (padWords_of_pad _ _ _ _ _ rfl q)
  rw [Shape.rowMajor_val_one, Shape.rowMajor_val_two]
  show q.val = 0 * 1601280 + q.val
  omega

theorem v10_v8 (c : Dev nD) (q : Fin 1601280) : (V10 m o c main_v8 : S1x1601280.Idx → BitVec 32) (ix2 (0 : Fin 1) q) = Cert.Spec.padWords (fun q : Fin 1600000 => ((m ((c : Thread nD τ).loc main_arg3)) : S1600000.Idx → BitVec 32) (ix1 q)) 101376#32 q := by
  dsimp only [V10, V9, V8, V7, V6, hostOps1, hostOps1_1, hostOps1_2, hostOps1_3, hostOps1_4]
  after_results
  show shapeCast S1x1601280 (pad S1601280 ![0] ![1280] ![0] (V5 m o c main_arg3) (constantI S_ 32 101376#32) pads_S1600000_S1601280_012800 h_S_) shapeCasts_S1601280_S1x1601280 (ix2 (0 : Fin 1) q) = _
  rw [v5_arg3]
  refine (shapeCast_apply _ _ (ix2 (0 : Fin 1) q) (ix1 q) ?_).trans (padWords_of_pad _ _ _ _ _ rfl q)
  rw [Shape.rowMajor_val_one, Shape.rowMajor_val_two]
  show q.val = 0 * 1601280 + q.val
  omega

/-! ## What each kernel is entered with -/

theorem vent0_v0 (c : Dev nD) : (Vent0 m c main_v0 : S101376x64.Idx → EReal) = Cert.Spec.padRows ((m ((c : Thread nD τ).loc main_arg0)) : S100000x64.Idx → EReal) := by
  dsimp only [Vent0, V4, V3, V2, V1, V0, hostOps0, hostOps0_1, hostOps0_2, hostOps0_3]
  after_results
  show pad S101376x64 ![0, 0] ![1376, 0] ![0, 0] (m (c.tc.loc main_arg0)) (sitofp (F := Ideal) FTy.f32 (constantI S_ 32 0#32)) pads_S100000x64_S101376x64_013760_000 h_S_ = _
  exact padRows_of_pad _ _ _ _ sitofp_zero

theorem vent0_v1 (c : Dev nD) : (Vent0 m c main_v1 : S101376x1.Idx → EReal) = Cert.Spec.padRows ((m ((c : Thread nD τ).loc main_arg1)) : S100000x1.Idx → EReal) := by
  dsimp only [Vent0, V4, V3, V2, V1, V0, hostOps0, hostOps0_1, hostOps0_2, hostOps0_3]
  after_results
  show pad S101376x1 ![0, 0] ![1376, 0] ![0, 0] (m (c.tc.loc main_arg1)) (sitofp (F := Ideal) FTy.f32 (constantI S_ 32 0#32)) pads_S100000x1_S101376x1_013760_000 h_S_ = _
  exact padRows_of_pad _ _ _ _ sitofp_zero

theorem vent1_v5 (c : Dev nD) (q : Fin 1601280) : (Vent1 m c main_v5 : S1601280x1.Idx → BitVec 32) (ix2 q (0 : Fin 1)) = Cert.Spec.padWords (fun q : Fin 1600000 => ((m ((c : Thread nD τ).loc main_arg2)) : S1600000.Idx → BitVec 32) (ix1 q)) 101376#32 q :=
  v10_v5 m (outsA m) c q
theorem vent1_v6 (c : Dev nD) (q : Fin 1601280) : (Vent1 m c main_v6 : S1601280x1.Idx → BitVec 32) (ix2 q (0 : Fin 1)) = Cert.Spec.padWords (fun q : Fin 1600000 => ((m ((c : Thread nD τ).loc main_arg3)) : S1600000.Idx → BitVec 32) (ix1 q)) 101376#32 q :=
  v10_v6 m (outsA m) c q

/-- A buffer no host operation between kernel 0 and kernel 1 writes. -/
theorem v10_of_v5 (c : Dev nD) (r : Ref sig .tc) (h1 : r ∉ (hostOps1_W : List (Ref sig .tc))) (h2 : r ∉ (hostOps1_1_W : List (Ref sig .tc)))
    (h3 : r ∉ (hostOps1_2_W : List (Ref sig .tc))) (h4 : r ∉ (hostOps1_3_W : List (Ref sig .tc))) (h5 : r ∉ (hostOps1_4_W : List (Ref sig .tc))) :
    V10 m o c r = V5 m o c r :=
  (V10_of m o c r h5).trans <| (V9_of m o c r h4).trans <| (V8_of m o c r h3).trans <| (V7_of m o c r h2).trans (V6_of m o c r h1)

theorem vent1_v2_1 (c : Dev nD) : Vent1 m c main_v2_1 = (dat0 (Vent0 m) c).arrAt 3 cfg0.N := by
  refine (v10_of_v5 m (outsA m) c main_v2_1 (by decide) (by decide) (by decide) (by decide) (by decide)).trans ?_
  dsimp only [V5]
  rw [Function.update_self]
  unfold outsA
  rw [if_pos rfl, Function.update_self]

/-- A buffer neither kernel 1 nor the host operation after it writes. -/
theorem v12_of_v10 (c : Dev nD) (r : Ref sig .tc) (h1 : r ∉ ([main_v9_0, main_v9_1] : List (Ref sig .tc))) (h2 : r ∉ (hostOps2_W : List (Ref sig .tc))) :
    V12 m o c r = V10 m o c r :=
  (V12_of m o c r h2).trans (V11_of m o c r h1)

theorem vent2_v7 (c : Dev nD) (q : Fin 1601280) : (Vent2 m c main_v7 : S1x1601280.Idx → BitVec 32) (ix2 (0 : Fin 1) q) = Cert.Spec.padWords (fun q : Fin 1600000 => ((m ((c : Thread nD τ).loc main_arg2)) : S1600000.Idx → BitVec 32) (ix1 q)) 101376#32 q :=
  (congrFun (v12_of_v10 m (outsB m) c main_v7 (by decide) (by decide)) _).trans (v10_v7 m (outsB m) c q)
theorem vent2_v8 (c : Dev nD) (q : Fin 1601280) : (Vent2 m c main_v8 : S1x1601280.Idx → BitVec 32) (ix2 (0 : Fin 1) q) = Cert.Spec.padWords (fun q : Fin 1600000 => ((m ((c : Thread nD τ).loc main_arg3)) : S1600000.Idx → BitVec 32) (ix1 q)) 101376#32 q :=
  (congrFun (v12_of_v10 m (outsB m) c main_v8 (by decide) (by decide)) _).trans (v10_v8 m (outsB m) c q)

theorem vent2_v9_0 (c : Dev nD) : Vent2 m c main_v9_0 = (dat1 (Vent1 m) c).arrAt 3 cfg1.N := by
  refine (V12_of m (outsB m) c main_v9_0 (by decide)).trans ?_
  dsimp only [V11]
  rw [Function.update_of_ne (StableHlo.devRef_ne_of_ne (by decide : (main_v9_0 : Ref sig .tc) ≠ main_v9_1)), Function.update_self]
  unfold outsB
  rw [if_pos rfl, Function.update_of_ne (by decide : (main_v9_0 : Ref sig .tc) ≠ main_v9_1), Function.update_self]

theorem vent2_v9_1 (c : Dev nD) : Vent2 m c main_v9_1 = (dat1 (Vent1 m) c).arrAt 4 cfg1.N := by
  refine (V12_of m (outsB m) c main_v9_1 (by decide)).trans ?_
  dsimp only [V11]
  rw [Function.update_self]
  unfold outsB
  rw [if_pos rfl, Function.update_self]

theorem vent2_v2_0 (c : Dev nD) : Vent2 m c main_v2_0 = (dat0 (Vent0 m) c).arrAt 2 cfg0.N := by
  refine (v12_of_v10 m (outsB m) c main_v2_0 (by decide) (by decide)).trans ?_
  refine (v10_of_v5 m (outsB m) c main_v2_0 (by decide) (by decide) (by decide) (by decide) (by decide)).trans ?_
  dsimp only [V5]
  rw [Function.update_of_ne (StableHlo.devRef_ne_of_ne (by decide : (main_v2_0 : Ref sig .tc) ≠ main_v2_1)), Function.update_self]
  unfold outsB
  rw [if_neg (by decide)]
  unfold outsA
  rw [if_pos rfl, Function.update_of_ne (by decide : (main_v2_0 : Ref sig .tc) ≠ main_v2_1), Function.update_self]

theorem vent2_v1 (c : Dev nD) : Vent2 m c main_v1 = Vent0 m c main_v1 :=
  (v12_of_v10 m (outsB m) c main_v1 (by decide) (by decide)).trans <|
    (v10_of_v5 m (outsB m) c main_v1 (by decide) (by decide) (by decide) (by decide) (by decide)).trans (V5_of m (outsB m) c main_v1 (by decide))

theorem vent2_arg4 (c : Dev nD) : Vent2 m c main_arg4 = (m ((c : Thread nD τ).loc main_arg4)) :=
  (v12_of_v10 m (outsB m) c main_arg4 (by decide) (by decide)).trans <|
    (v10_of_v5 m (outsB m) c main_arg4 (by decide) (by decide) (by decide) (by decide) (by decide)).trans <|
    (V5_of m (outsB m) c main_arg4 (by decide)).trans (v4_arg m c main_arg4 (by decide) (by decide) (by decide) (by decide))

theorem v11_arg5 (c : Dev nD) : V11 m o c main_arg5 = m ((c : Thread nD τ).loc main_arg5) :=
  (V11_of m o c main_arg5 (by decide)).trans <|
    (v10_of_v5 m o c main_arg5 (by decide) (by decide) (by decide) (by decide) (by decide)).trans <|
    (V5_of m o c main_arg5 (by decide)).trans (v4_arg m c main_arg5 (by decide) (by decide) (by decide) (by decide))

theorem vent2_v10 (c : Dev nD) (j : Fin 64) : (Vent2 m c main_v10 : S1x64.Idx → EReal) (ix2 (0 : Fin 1) j) = ((m ((c : Thread nD τ).loc main_arg5)) : S64.Idx → EReal) (ix1 j) := by
  dsimp only [Vent2, V12, hostOps2]
  after_results
  show shapeCast S1x64 (V11 m (outsB m) c main_arg5) shapeCasts_S64_S1x64 (ix2 (0 : Fin 1) j) = _
  rw [v11_arg5]
  refine shapeCast_apply _ _ (ix2 (0 : Fin 1) j) (ix1 j) ?_
  rw [Shape.rowMajor_val_one, Shape.rowMajor_val_two]
  show j.val = 0 * 64 + j.val
  omega

theorem v14_v12 (c : Dev nD) : (V14 m (outs m) c main_v12 : S100000x64.Idx → EReal)
    = Cert.Spec.takeRows (n := 100000) (n' := 101376) (by decide) ((dat2 (Vent2 m) c).arrAt 8 cfg2.N : S101376x64.Idx → EReal) := by
  dsimp only [V14, hostOps3]
  after_results
  show extractStridedSlice S100000x64 ![0, 0] (V13 m (outs m) c main_v11) slices_S101376x64_S100000x64_0_0 = _
  dsimp only [V13]
  rw [Function.update_self, outs_13_v11]
  funext i
  unfold Cert.Spec.takeRows
  refine extractStridedSlice_apply _ _ _ i _ fun a => ?_
  match a with
  | ⟨0, _⟩ => show (i 0).val = 0 + (i 0).val; omega
  | ⟨1, _⟩ => show (i 1).val = 0 + (i 1).val; omega

end Cert.KernelIdeal.HandValue

end
-- ==== Proof.KI.Value0.lean ====
import proofs.«425878_j39771397161472_2_alg».proof.Proof.KI.Region0
import proofs.«425878_j39771397161472_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue.V0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

/-! # What kernel 0 leaves in its two output arrays, at the exact values

Block `t` of either output is block `t` of the table times block `t` of the column spread along the rows; the 44
blocks tile the 101376 rows, so each output array ends as the whole table with its rows scaled by the column. -/

variable (V : (c : Dev nD) → (b : Ref sig .tc) → Buf (Elt Ideal) ((c : Thread nD τ).loc b))

/-! ## The product at one entry of a block -/

/-- Entry `(p, q)` of the product block: the table block's entry times the column block's entry of row `p`. -/
theorem pay1_apply (x0 : Vec Ideal S2304x64 .f32) (x1 : Vec Ideal S2304x1 .f32) (p : Fin 2304) (q : Fin 64) :
    (k0_pay1 x0 x1 : S2304x64.Idx → EReal) (ix2 p q) = x0 (ix2 p q) * x1 (ix2 p (0 : Fin 1)) := by
  unfold k0_pay1
  rw [mulf_apply, shapeCast_self, shapeCast_self]
  refine congrArg (x0 (ix2 p q) * ·) ?_
  refine broadcastTo_apply _ _ _ _ fun a => ?_
  match a with
  | ⟨0, _⟩ => rfl
  | ⟨1, _⟩ => rfl

/-- The narrower copy has the same entries: at the exact values a change of format is the identity. -/
theorem pay2_apply (x0 : Vec Ideal S2304x64 .f32) (x1 : Vec Ideal S2304x1 .f32) (p : Fin 2304) (q : Fin 64) :
    (k0_pay2 x0 x1 : S2304x64.Idx → EReal) (ix2 p q) = x0 (ix2 p q) * x1 (ix2 p (0 : Fin 1)) := by
  unfold k0_pay2
  rw [truncf_apply]
  exact pay1_apply x0 x1 p q

/-! ## The input blocks as rows of their arrays -/

/-- Entry `(p, q)` of the table's block at point `t` is entry `(2304 t + p, q)` of the table. -/
theorem iblk0_0_apply (c : Dev nD) (t : Fin cfg0.N) (p : Fin 2304) (q : Fin 64) (k : S101376x64.Idx)
    (hk0 : (k 0).val = t.val * 2304 + p.val) (hk1 : (k 1).val = q.val) :
    (iblk0 V c 0 t : Vec Ideal S2304x64 .f32) (ix2 p q) = (V c main_v0 : S101376x64.Idx → EReal) k := by
  unfold iblk0
  rw [View.read_apply]
  show V c main_v0 _ = V c main_v0 _
  congr 1
  funext a
  apply Fin.ext
  have hi := index0_0 t
  match a with
  | ⟨0, _⟩ =>
    show (cfg0.win 0).index t 0 * 2304 + 1 * p.val = (k 0).val
    rw [hi, hk0]; show t.val * 2304 + 1 * p.val = _; omega
  | ⟨1, _⟩ =>
    show (cfg0.win 0).index t 1 * 64 + 1 * q.val = (k 1).val
    rw [hi, hk1]; show 0 * 64 + 1 * q.val = _; omega

/-- Entry `(p, 0)` of the column's block at point `t` is entry `(2304 t + p, 0)` of the column. -/
theorem iblk0_1_apply (c : Dev nD) (t : Fin cfg0.N) (p : Fin 2304) (k : S101376x1.Idx)
    (hk0 : (k 0).val = t.val * 2304 + p.val) :
    (iblk0 V c 1 t : Vec Ideal S2304x1 .f32) (ix2 p (0 : Fin 1)) = (V c main_v1 : S101376x1.Idx → EReal) k := by
  unfold iblk0
  rw [View.read_apply]
  show V c main_v1 _ = V c main_v1 _
  congr 1
  funext a
  apply Fin.ext
  have hi := index0_1 t
  match a with
  | ⟨0, _⟩ =>
    show (cfg0.win 1).index t 0 * 2304 + 1 * p.val = (k 0).val
    rw [hi, hk0]; show t.val * 2304 + 1 * p.val = _; omega
  | ⟨1, _⟩ =>
    show (cfg0.win 1).index t 1 * 1 + 1 * (0 : Fin 1).val = (k 1).val
    have h1 : (k 1).val < 1 := (k 1).isLt
    rw [hi]; show 0 * 1 + 1 * 0 = _; omega

/-- The scaled table at an entry, the column read at any index of the entry's row. -/
theorem scaleRows_apply {n d : Nat} (x : (⟨2, ![n, d]⟩ : Shape).Idx → EReal) (s : (⟨2, ![n, 1]⟩ : Shape).Idx → EReal)
    (i : (⟨2, ![n, d]⟩ : Shape).Idx) (k : (⟨2, ![n, 1]⟩ : Shape).Idx) (hk : (k 0).val = (i 0).val) :
    Cert.Spec.scaleRows x s i = x i * s k := by
  unfold Cert.Spec.scaleRows
  refine congrArg (x i * s ·) ?_
  funext a
  apply Fin.ext
  match a with
  | ⟨0, _⟩ => exact hk.symm
  | ⟨1, _⟩ => have h1 : (k 1).val < 1 := (k 1).isLt; show 0 = (k 1).val; omega

/-! ## What each point writes back -/

/-- Point `t` writes back, to the first output, block `t` of the scaled table. -/
theorem flushed0_2_eq (c : Dev nD) (t : Fin cfg0.N) :
    (dat0 V c).flushed 2 t = ((cfg0.win 2).blk t).view.read (Elt Ideal) (Cert.Spec.scaleRows (V c main_v0) (V c main_v1)) := by
  show (cfg0.win 2).cut (grid0.coords t) ((dat0 V c).after 2 t) = _
  rw [after0_2]
  funext j
  obtain ⟨p, q, rfl⟩ : ∃ (p : Fin 2304) (q : Fin 64), j = ix2 p q := ⟨j 0, j 1, eq_ix2 j⟩
  rw [View.read_apply]
  have hi := index0_2 t
  have e0 : ((((cfg0.win 2).blk t).view.emb (ix2 p q)) 0).val = t.val * 2304 + p.val := by
    show (cfg0.win 2).index t 0 * 2304 + 1 * p.val = _
    rw [hi]; show t.val * 2304 + 1 * p.val = _; omega
  have e1 : ((((cfg0.win 2).blk t).view.emb (ix2 p q)) 1).val = q.val := by
    show (cfg0.win 2).index t 1 * 64 + 1 * q.val = _
    rw [hi]; show 0 * 64 + 1 * q.val = _; omega
  have hlt : t.val * 2304 + p.val < 101376 := by
    have h1 : t.val < 44 := lt_of_lt_of_eq t.isLt N_0'
    have h2 := p.isLt
    omega
  refine (pay1_apply _ _ p q).trans ?_
  refine Eq.trans ?_ (scaleRows_apply (n := 101376) (d := 64) _ _ _ (ix2 (⟨_, hlt⟩ : Fin 101376) (0 : Fin 1)) e0.symm).symm
  exact congrArg₂ (fun a b : EReal => a * b) (iblk0_0_apply V c t p q _ e0 e1) (iblk0_1_apply V c t p _ rfl)

/-- Point `t` writes back, to the second output, block `t` of the scaled table. -/
theorem flushed0_3_eq (c : Dev nD) (t : Fin cfg0.N) :
    (dat0 V c).flushed 3 t = ((cfg0.win 3).blk t).view.read (Elt Ideal) (Cert.Spec.scaleRows (V c main_v0) (V c main_v1)) := by
  show (cfg0.win 3).cut (grid0.coords t) ((dat0 V c).after 3 t) = _
  rw [after0_3]
  funext j
  obtain ⟨p, q, rfl⟩ : ∃ (p : Fin 2304) (q : Fin 64), j = ix2 p q := ⟨j 0, j 1, eq_ix2 j⟩
  rw [View.read_apply]
  have hi := index0_3 t
  have e0 : ((((cfg0.win 3).blk t).view.emb (ix2 p q)) 0).val = t.val * 2304 + p.val := by
    show (cfg0.win 3).index t 0 * 2304 + 1 * p.val = _
    rw [hi]; show t.val * 2304 + 1 * p.val = _; omega
  have e1 : ((((cfg0.win 3).blk t).view.emb (ix2 p q)) 1).val = q.val := by
    show (cfg0.win 3).index t 1 * 64 + 1 * q.val = _
    rw [hi]; show 0 * 64 + 1 * q.val = _; omega
  have hlt : t.val * 2304 + p.val < 101376 := by
    have h1 : t.val < 44 := lt_of_lt_of_eq t.isLt N_0'
    have h2 := p.isLt
    omega
  refine (pay2_apply _ _ p q).trans ?_
  refine Eq.trans ?_ (scaleRows_apply (n := 101376) (d := 64) _ _ _ (ix2 (⟨_, hlt⟩ : Fin 101376) (0 : Fin 1)) e0.symm).symm
  exact congrArg₂ (fun a b : EReal => a * b) (iblk0_0_apply V c t p q _ e0 e1) (iblk0_1_apply V c t p _ rfl)

/-! ## The blocks tile the rows -/

/-- An entry is in point `t`'s block of the first output iff each coordinate is in the block's range on its axis. -/
theorem mem_blk0_2 (t : Fin cfg0.N) (i : S101376x64.Idx) :
    i ∈ ((cfg0.win 2).blk t).view.set ↔ ∀ a : Fin 2, win0_2.index t a * S2304x64.size a ≤ (i a).val ∧ (i a).val < win0_2.index t a * S2304x64.size a + S2304x64.size a := by
  show i ∈ ((View.whole main_v2_0).slice (win0_2.rect t)).set ↔ _
  rw [View.set_slice_whole, Rect.mem_set_unit]
  exact Iff.rfl

/-- The same for the second output. -/
theorem mem_blk0_3 (t : Fin cfg0.N) (i : S101376x64.Idx) :
    i ∈ ((cfg0.win 3).blk t).view.set ↔ ∀ a : Fin 2, win0_3.index t a * S2304x64.size a ≤ (i a).val ∧ (i a).val < win0_3.index t a * S2304x64.size a + S2304x64.size a := by
  show i ∈ ((View.whole main_v2_1).slice (win0_3.rect t)).set ↔ _
  rw [View.set_slice_whole, Rect.mem_set_unit]
  exact Iff.rfl

/-- Row `r` of the first output lies in the block of point `r / 2304`, which writes back. -/
theorem cover0_2 (i : S101376x64.Idx) : ∃ t : Fin cfg0.N, (cfg0.win 2).flush t = true ∧ i ∈ ((cfg0.win 2).blk t).view.set := by
  have hi0 : (i 0).val < 101376 := (i 0).isLt
  have hi1 : (i 1).val < 64 := (i 1).isLt
  have hN : cfg0.N = 44 := N_0'
  refine ⟨⟨(i 0).val / 2304, by rw [hN]; omega⟩, flush0_2 _, ?_⟩
  rw [mem_blk0_2]
  have hx := index0_2 ⟨(i 0).val / 2304, by rw [hN]; omega⟩
  intro a
  match a with
  | ⟨0, _⟩ =>
    show win0_2.index _ 0 * 2304 ≤ (i 0).val ∧ (i 0).val < win0_2.index _ 0 * 2304 + 2304
    have h0 := congrFun hx 0
    rw [h0]; show (i 0).val / 2304 * 2304 ≤ (i 0).val ∧ (i 0).val < (i 0).val / 2304 * 2304 + 2304; omega
  | ⟨1, _⟩ =>
    show win0_2.index _ 1 * 64 ≤ (i 1).val ∧ (i 1).val < win0_2.index _ 1 * 64 + 64
    have h1 := congrFun hx 1
    rw [h1]; show 0 * 64 ≤ (i 1).val ∧ (i 1).val < 0 * 64 + 64; omega

/-- Row `r` of the second output lies in the block of point `r / 2304`, which writes back. -/
theorem cover0_3 (i : S101376x64.Idx) : ∃ t : Fin cfg0.N, (cfg0.win 3).flush t = true ∧ i ∈ ((cfg0.win 3).blk t).view.set := by
  have hi0 : (i 0).val < 101376 := (i 0).isLt
  have hi1 : (i 1).val < 64 := (i 1).isLt
  have hN : cfg0.N = 44 := N_0'
  refine ⟨⟨(i 0).val / 2304, by rw [hN]; omega⟩, flush0_3 _, ?_⟩
  rw [mem_blk0_3]
  have hx := index0_3 ⟨(i 0).val / 2304, by rw [hN]; omega⟩
  intro a
  match a with
  | ⟨0, _⟩ =>
    show win0_3.index _ 0 * 2304 ≤ (i 0).val ∧ (i 0).val < win0_3.index _ 0 * 2304 + 2304
    have h0 := congrFun hx 0
    rw [h0]; show (i 0).val / 2304 * 2304 ≤ (i 0).val ∧ (i 0).val < (i 0).val / 2304 * 2304 + 2304; omega
  | ⟨1, _⟩ =>
    show win0_3.index _ 1 * 64 ≤ (i 1).val ∧ (i 1).val < win0_3.index _ 1 * 64 + 64
    have h1 := congrFun hx 1
    rw [h1]; show 0 * 64 ≤ (i 1).val ∧ (i 1).val < 0 * 64 + 64; omega

/-! ## The two arrays after the run -/

theorem final0_2 (c : Dev nD) :
    ((dat0 V c).arrAt 2 cfg0.N : S101376x64.Idx → EReal) = Cert.Spec.scaleRows (V c main_v0) (V c main_v1) :=
  (dat0 V c).arrAt_eq_of_cover 2 _ (fun t _ => flushed0_2_eq V c t) cover0_2

theorem final0_3 (c : Dev nD) :
    ((dat0 V c).arrAt 3 cfg0.N : S101376x64.Idx → EReal) = Cert.Spec.scaleRows (V c main_v0) (V c main_v1) :=
  (dat0 V c).arrAt_eq_of_cover 3 _ (fun t _ => flushed0_3_eq V c t) cover0_3

end Cert.KernelIdeal.HandValue.V0

end
-- ==== Proof.KI.Value1.lean ====
import proofs.«425878_j39771397161472_2_alg».proof.Proof.KI.Region1
import proofs.«425878_j39771397161472_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue.V1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

/-! # What kernel 1 leaves in its two output arrays, at the exact values

Over the 44 points of run `i` the accumulator adds, block by block of 2304 nodes, the product of a 0/1 matrix —
entry `(q, n)` set when edge `q`'s index word is node `n`'s number — with the table's block: in all, row `q` receives the
table's row named by the word, once, or nothing when the word names no row. The 695 runs tile the 1601280 edges. -/

variable (V : (c : Dev nD) → (b : Ref sig .tc) → Buf (Elt Ideal) ((c : Thread nD τ).loc b))

/-! ## Kernel 1's step at one element, at the exact values -/

/-- A word compared for equality, widened and converted: one or zero. -/
theorem oneHot_val (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  by_cases h : a = b
  · rw [if_pos h]; subst h
    have : IntOp.cmpi .eq a a = 1#1 := by simp [IntOp.cmpi]
    rw [this]; norm_num
  · rw [if_neg h]
    have : IntOp.cmpi .eq a b = 0#1 := by
      show BitVec.ofBool (a == b) = 0#1
      rw [show (a == b) = false from beq_eq_false_iff_ne.mpr h]; rfl
    rw [this]; norm_num

/-- The node numbers of block `k`, as the kernel counts them: entry `n` is the word of `k * 2304 + n`. -/
theorem pay5_apply (i : grid1.Coords) (z : Fin 1) (n : Fin 2304) :
    k1_pay5 i (ix2 z n) = BitVec.ofNat 32 (i 1).val * 2304#32 + BitVec.ofNat 32 n.val := by
  unfold k1_pay5
  show IntOp.addi (broadcast S1x2304 (Scalar.muli (BitVec.ofNat 32 (i 1).val) 2304#32) (ix2 z n)) (iota .tc S1x2304 32 [1] iota_S1x2304_d1_w32 (ix2 z n)) = _
  rw [iota_single_apply]
  rfl

theorem lhs_k1_0 (i : S2304x64.Idx) (q : dot_S2304x2304_S2304x64_S2304x64_1_0_0_1_n_n.contr.Idx) :
    (dot_S2304x2304_S2304x64_S2304x64_1_0_0_1_n_n.lhsIdx i q 0).val = (i 0).val := by
  unfold DotDims.lhsIdx
  rw [dif_neg (show ¬(0 : Fin S2304x2304.rank) ∈ dot_S2304x2304_S2304x64_S2304x64_1_0_0_1_n_n.lhsBatch by decide), dif_pos (show (0 : Fin S2304x2304.rank) ∈ dot_S2304x2304_S2304x64_S2304x64_1_0_0_1_n_n.lhsNonContracting by decide)]
  rfl
theorem lhs_k1_1 (i : S2304x64.Idx) (q : dot_S2304x2304_S2304x64_S2304x64_1_0_0_1_n_n.contr.Idx) :
    (dot_S2304x2304_S2304x64_S2304x64_1_0_0_1_n_n.lhsIdx i q 1).val = (q ⟨0, by decide⟩).val :=
  dot_S2304x2304_S2304x64_S2304x64_1_0_0_1_n_n.lhsIdx_val_of_single rfl i q
theorem rhs_k1_0 (i : S2304x64.Idx) (q : dot_S2304x2304_S2304x64_S2304x64_1_0_0_1_n_n.contr.Idx) :
    (dot_S2304x2304_S2304x64_S2304x64_1_0_0_1_n_n.rhsIdx i q 0).val = (q ⟨0, by decide⟩).val :=
  dot_S2304x2304_S2304x64_S2304x64_1_0_0_1_n_n.rhsIdx_val_of_single rfl i q
theorem rhs_k1_1 (i : S2304x64.Idx) (q : dot_S2304x2304_S2304x64_S2304x64_1_0_0_1_n_n.contr.Idx) :
    (dot_S2304x2304_S2304x64_S2304x64_1_0_0_1_n_n.rhsIdx i q 1).val = (i 1).val := by
  unfold DotDims.rhsIdx
  rw [dif_neg (show ¬(1 : Fin S2304x64.rank) ∈ dot_S2304x2304_S2304x64_S2304x64_1_0_0_1_n_n.rhsBatch by decide), dif_pos (show (1 : Fin S2304x64.rank) ∈ dot_S2304x2304_S2304x64_S2304x64_1_0_0_1_n_n.rhsNonContracting by decide)]
  rfl

/-- The product into the zero splat, at an element: row `p` of the left times column `q` of the right. -/
theorem matmul_k1_apply (lhs : FVec Ideal S2304x2304 .bf16) (rhs : FVec Ideal S2304x64 .bf16) (p : Fin 2304) (q : Fin 64) :
    matmul dot_S2304x2304_S2304x64_S2304x64_1_0_0_1_n_n none lhs rhs (constant (F := Ideal) S2304x64 .f32 0x00000000#32) (ix2 p q)
      = ∑ n : Fin 2304, lhs (ix2 p n) * rhs (ix2 n q) := by
  refine (Ideal.matmul_constant_zero_apply dot_S2304x2304_S2304x64_S2304x64_1_0_0_1_n_n none lhs rhs (ix2 p q)).trans ?_
  rw [← Equiv.sum_comp (ValueIdx.contrEquiv1 dot_S2304x2304_S2304x64_S2304x64_1_0_0_1_n_n 2304 rfl rfl).symm]
  refine Finset.sum_congr rfl fun k _ => ?_
  have hk := ValueIdx.contrEquiv1_symm_val dot_S2304x2304_S2304x64_S2304x64_1_0_0_1_n_n 2304 rfl rfl k
  have el : dot_S2304x2304_S2304x64_S2304x64_1_0_0_1_n_n.lhsIdx (ix2 p q) ((ValueIdx.contrEquiv1 dot_S2304x2304_S2304x64_S2304x64_1_0_0_1_n_n 2304 rfl rfl).symm k) = ix2 p k := funext fun a => Fin.ext (by
    match a with
    | ⟨0, _⟩ => exact lhs_k1_0 _ _
    | ⟨1, _⟩ => exact (lhs_k1_1 _ _).trans hk)
  have er : dot_S2304x2304_S2304x64_S2304x64_1_0_0_1_n_n.rhsIdx (ix2 p q) ((ValueIdx.contrEquiv1 dot_S2304x2304_S2304x64_S2304x64_1_0_0_1_n_n 2304 rfl rfl).symm k) = ix2 k q := funext fun a => Fin.ext (by
    match a with
    | ⟨0, _⟩ => exact (rhs_k1_0 _ _).trans hk
    | ⟨1, _⟩ => exact rhs_k1_1 _ _)
  rw [el, er]

/-- ONE STEP of the first accumulator at element `(p, q)`: what it held plus, over the block's 2304 nodes, the table
    block's row `n` at column `q` when the edge's word is node `n`'s number. -/
theorem pay7_apply (i : grid1.Coords) (x0 : Vec Ideal S2304x1 .i32) (x2 : Vec Ideal S2304x64 .bf16) (acc : Vec Ideal S2304x64 .f32)
    (p : Fin 2304) (q : Fin 64) :
    (k1_pay7 (F := Ideal) i x0 x2 acc (ix2 p q) : EReal)
      = (acc (ix2 p q) : EReal) + ∑ n : Fin 2304,
          (if x0 (ix2 p (0 : Fin 1)) = BitVec.ofNat 32 (i 1).val * 2304#32 + BitVec.ofNat 32 n.val then (1 : EReal) else 0) * (x2 (ix2 n q) : EReal) := by
  unfold k1_pay7 k1_pay6
  simp only [shapeCast_self]
  refine (addf_apply _ _ _).trans ?_
  refine congrArg (fun z : EReal => (acc (ix2 p q) : EReal) + z) ?_
  refine (matmul_k1_apply _ _ p q).trans ?_
  refine Finset.sum_congr rfl fun n _ => ?_
  refine congrArg (fun z : EReal => z * (x2 (ix2 n q) : EReal)) ?_
  show (FloatOps.sitofp (F := Ideal) .f32 ((IntOp.cmpi .eq (broadcastTo S2304x2304 x0 broadcasts_S2304x1_S2304x2304 (ix2 p n)) (broadcastTo S2304x2304 (k1_pay5 i) broadcasts_S1x2304_S2304x2304 (ix2 p n))).setWidth 32) : EReal) = _
  rw [broadcastTo_apply x0 broadcasts_S2304x1_S2304x2304 (ix2 p n) (ix2 p (0 : Fin 1)) (fun a => by
        match a with
        | ⟨0, _⟩ => show p.val = if (2304 : Nat) = 1 then 0 else p.val; rw [if_neg (by decide)]
        | ⟨1, _⟩ => show 0 = if (1 : Nat) = 1 then 0 else n.val; rw [if_pos rfl]),
      broadcastTo_apply (k1_pay5 i) broadcasts_S1x2304_S2304x2304 (ix2 p n) (ix2 (0 : Fin 1) n) (fun a => by
        match a with
        | ⟨0, _⟩ => show 0 = if (1 : Nat) = 1 then 0 else p.val; rw [if_pos rfl]
        | ⟨1, _⟩ => show n.val = if (2304 : Nat) = 1 then 0 else n.val; rw [if_neg (by decide)]),
      pay5_apply]
  exact oneHot_val _ _

/-! ## The 0/1 sums over a whole run -/

/-- Among the numbers `2304·s + m` (`s` below 44, `m` below 2304) exactly one is `W` when `W` is below 101376, and
    none otherwise: the sum that keeps `T` at `W` only is `T W` or zero. -/
theorem sum_blocks_single {M : Type*} [AddCommMonoid M] (W : ℕ) (T : ℕ → M) :
    (∑ s ∈ Finset.range 44, ∑ m : Fin 2304, (if W = 2304 * s + m.val then T (2304 * s + m.val) else 0))
      = if W < 101376 then T W else 0 := by
  by_cases hW : W < 101376
  · rw [if_pos hW, Finset.sum_eq_single (W / 2304)]
    · rw [Finset.sum_eq_single (⟨W % 2304, Nat.mod_lt _ (by decide)⟩ : Fin 2304)]
      · rw [if_pos (by show W = 2304 * (W / 2304) + W % 2304; omega)]
        exact congrArg T (by show 2304 * (W / 2304) + W % 2304 = W; omega)
      · intro m _ hm
        rw [if_neg]
        intro e
        exact hm (Fin.ext (by show m.val = W % 2304; omega))
      · intro h; exact absurd (Finset.mem_univ _) h
    · intro s _ hs
      refine Finset.sum_eq_zero fun m _ => ?_
      rw [if_neg]
      intro e
      have := m.isLt
      exact hs (by omega)
    · intro h
      exact absurd (Finset.mem_range.mpr (by omega)) h
  · rw [if_neg hW]
    refine Finset.sum_eq_zero fun s hs => Finset.sum_eq_zero fun m _ => ?_
    rw [if_neg]
    have := m.isLt
    have := Finset.mem_range.mp hs
    omega

/-- A 32-bit word is the word of a number below 2^32 exactly when that number is its value. -/
theorem eq_ofNat_iff (w : BitVec 32) (r : ℕ) (hr : r < 4294967296) : w = BitVec.ofNat 32 r ↔ w.toNat = r := by
  constructor
  · rintro rfl
    rw [BitVec.toNat_ofNat]
    exact Nat.mod_eq_of_lt hr
  · intro h
    apply BitVec.eq_of_toNat_eq
    rw [BitVec.toNat_ofNat, h]
    exact (Nat.mod_eq_of_lt hr).symm

/-- The kernel's node number of block `k`, entry `n`, is the word of `2304·k + n`: nothing wraps. -/
theorem blockWord (k n : ℕ) (hk : k < 44) (hn : n < 2304) :
    BitVec.ofNat 32 k * 2304#32 + BitVec.ofNat 32 n = BitVec.ofNat 32 (2304 * k + n) := by
  apply BitVec.eq_of_toNat_eq
  rw [BitVec.toNat_add, BitVec.toNat_mul, BitVec.toNat_ofNat, BitVec.toNat_ofNat, BitVec.toNat_ofNat]
  show (k % 2 ^ 32 * 2304 % 2 ^ 32 + n % 2 ^ 32) % 2 ^ 32 = (2304 * k + n) % 2 ^ 32
  omega

/-! ## Blocks of the arrays, and one step in terms of the arrays -/

/-- Row `r`'s index word, as a number (zero past the column's end). -/
def rowWord (idx : S1601280x1.Idx → BitVec 32) (r : ℕ) : ℕ :=
  if h : r < 1601280 then (idx (ix2 (⟨r, h⟩ : Fin 1601280) (0 : Fin 1))).toNat else 0

/-- The table's entry at row number `r`, column `q` (zero past the table's end). -/
def tblAt (tbl : S101376x64.Idx → EReal) (q : Fin 64) (r : ℕ) : EReal :=
  if h : r < 101376 then tbl (ix2 (⟨r, h⟩ : Fin 101376) q) else 0

/-- What point `n` adds to element `(p, q)` of an accumulator: over node block `n % 44`, the table's row when edge
    `2304·(n / 44) + p`'s word is the node's number. -/
def addend (idx : S1601280x1.Idx → BitVec 32) (tbl : S101376x64.Idx → EReal) (n : ℕ) (p : Fin 2304) (q : Fin 64) : EReal :=
  ∑ m : Fin 2304, if rowWord idx (2304 * (n / 44) + p.val) = 2304 * (n % 44) + m.val then tblAt tbl q (2304 * (n % 44) + m.val) else 0

/-- The first index column's block at point `t` is rows `2304·(t / 44) …` of the column. -/
theorem iblk1_0_apply (c : Dev nD) (t : Fin cfg1.N) (p : Fin 2304) (z : Fin 1) (h : 2304 * (t.val / 44) + p.val < 1601280) :
    (iblk1 V c 0 t : Vec Ideal S2304x1 .i32) (ix2 p z)
      = (V c main_v5 : S1601280x1.Idx → BitVec 32) (ix2 (⟨2304 * (t.val / 44) + p.val, h⟩ : Fin 1601280) z) := by
  unfold iblk1
  rw [View.read_apply]
  show (V c main_v5 : S1601280x1.Idx → BitVec 32) _ = (V c main_v5 : S1601280x1.Idx → BitVec 32) _
  congr 1
  funext a
  apply Fin.ext
  match a with
  | ⟨0, _⟩ =>
    show (cfg1.win 0).index t 0 * 2304 + 1 * p.val = 2304 * (t.val / 44) + p.val
    rw [show (cfg1.win 0).index t 0 = t.val / 44 from congrFun (index1_0 t) 0]; omega
  | ⟨1, _⟩ =>
    show (cfg1.win 0).index t 1 * 1 + 1 * z.val = z.val
    rw [show (cfg1.win 0).index t 1 = 0 from congrFun (index1_0 t) 1]; omega

/-- The table's block at point `t` is rows `2304·(t % 44) …` of the table. -/
theorem iblk1_2_apply (c : Dev nD) (t : Fin cfg1.N) (m : Fin 2304) (q : Fin 64) (h : 2304 * (t.val % 44) + m.val < 101376) :
    (iblk1 V c 2 t : Vec Ideal S2304x64 .bf16) (ix2 m q)
      = (V c main_v2_1 : S101376x64.Idx → EReal) (ix2 (⟨2304 * (t.val % 44) + m.val, h⟩ : Fin 101376) q) := by
  unfold iblk1
  rw [View.read_apply]
  show (V c main_v2_1 : S101376x64.Idx → EReal) _ = (V c main_v2_1 : S101376x64.Idx → EReal) _
  congr 1
  funext a
  apply Fin.ext
  match a with
  | ⟨0, _⟩ =>
    show (cfg1.win 2).index t 0 * 2304 + 1 * m.val = 2304 * (t.val % 44) + m.val
    rw [show (cfg1.win 2).index t 0 = t.val % 44 from congrFun (index1_2 t) 0]; omega
  | ⟨1, _⟩ =>
    show (cfg1.win 2).index t 1 * 64 + 1 * q.val = q.val
    rw [show (cfg1.win 2).index t 1 = 0 from congrFun (index1_2 t) 1]; omega

/-- The second index column's block at point `t` is rows `2304·(t / 44) …` of that column. -/
theorem iblk1_1_apply (c : Dev nD) (t : Fin cfg1.N) (p : Fin 2304) (z : Fin 1) (h : 2304 * (t.val / 44) + p.val < 1601280) :
    (iblk1 V c 1 t : Vec Ideal S2304x1 .i32) (ix2 p z)
      = (V c main_v6 : S1601280x1.Idx → BitVec 32) (ix2 (⟨2304 * (t.val / 44) + p.val, h⟩ : Fin 1601280) z) := by
  unfold iblk1
  rw [View.read_apply]
  show (V c main_v6 : S1601280x1.Idx → BitVec 32) _ = (V c main_v6 : S1601280x1.Idx → BitVec 32) _
  congr 1
  funext a
  apply Fin.ext
  match a with
  | ⟨0, _⟩ =>
    show (cfg1.win 1).index t 0 * 2304 + 1 * p.val = 2304 * (t.val / 44) + p.val
    rw [show (cfg1.win 1).index t 0 = t.val / 44 from congrFun (index1_1 t) 0]; omega
  | ⟨1, _⟩ =>
    show (cfg1.win 1).index t 1 * 1 + 1 * z.val = z.val
    rw [show (cfg1.win 1).index t 1 = 0 from congrFun (index1_1 t) 1]; omega

/-! ## One step, the fold over a run, and the run's sum -/

/-- The reset value of an accumulator is zero everywhere. -/
theorem pay3_apply (i : S2304x64.Idx) : (k1_pay3 (F := Ideal) i : EReal) = 0 := by
  unfold k1_pay3
  simp only [shapeCast_self]
  show Ideal.ofBits .f32 0x00000000#32 = 0
  exact Ideal.ofBits_zero_f32

/-- ONE STEP of an accumulator in terms of the arrays, for an index block `x0` that is rows `2304·(n / 44) …` of the
    column `idx`: point `n` adds its addend. -/
theorem step_apply (c : Dev nD) (n : ℕ) (hn : n < cfg1.N) (x0 : Vec Ideal S2304x1 .i32) (idx : S1601280x1.Idx → BitVec 32)
    (hx0 : ∀ (p : Fin 2304) (h : 2304 * (n / 44) + p.val < 1601280),
      x0 (ix2 p (0 : Fin 1)) = idx (ix2 (⟨2304 * (n / 44) + p.val, h⟩ : Fin 1601280) (0 : Fin 1)))
    (acc : Vec Ideal S2304x64 .f32) (p : Fin 2304) (q : Fin 64) :
    (k1_pay7 (F := Ideal) (grid1.coords ⟨n, hn⟩) x0 (iblk1 V c 2 ⟨n, hn⟩) acc (ix2 p q) : EReal)
      = (acc (ix2 p q) : EReal) + addend idx (V c main_v2_1) n p q := by
  have hN : cfg1.N = 30580 := N_1'
  have hk : ((grid1.coords ⟨n, hn⟩) 1).val = n % 44 := coords1_1_val ⟨n, hn⟩
  have hrow : 2304 * (n / 44) + p.val < 1601280 := by have := p.isLt; omega
  refine (pay7_apply (grid1.coords ⟨n, hn⟩) x0 (iblk1 V c 2 ⟨n, hn⟩) acc p q).trans ?_
  refine congrArg (fun z : EReal => (acc (ix2 p q) : EReal) + z) ?_
  unfold addend
  refine Finset.sum_congr rfl fun m _ => ?_
  have hm : 2304 * (n % 44) + m.val < 101376 := by have := m.isLt; omega
  rw [hx0 p hrow, iblk1_2_apply V c ⟨n, hn⟩ m q hm, hk, blockWord (n % 44) m.val (by omega) m.isLt]
  unfold rowWord tblAt
  rw [dif_pos hrow, dif_pos hm]
  dsimp only
  have key := eq_ofNat_iff (idx (ix2 (⟨2304 * (n / 44) + p.val, hrow⟩ : Fin 1601280) (0 : Fin 1))) (2304 * (n % 44) + m.val) (by omega)
  by_cases hA : idx (ix2 (⟨2304 * (n / 44) + p.val, hrow⟩ : Fin 1601280) (0 : Fin 1)) = BitVec.ofNat 32 (2304 * (n % 44) + m.val)
  · rw [if_pos hA, if_pos (key.mp hA), one_mul]
  · rw [if_neg hA, if_neg (fun e => hA (key.mpr e)), zero_mul]

/-- The run's addends sum to the table's row named by the edge's word, or to nothing. -/
theorem run_sum (idx : S1601280x1.Idx → BitVec 32) (tbl : S101376x64.Idx → EReal) (i : ℕ) (p : Fin 2304) (q : Fin 64) :
    (∑ s ∈ Finset.range 44, addend idx tbl (44 * i + s) p q)
      = if rowWord idx (2304 * i + p.val) < 101376 then tblAt tbl q (rowWord idx (2304 * i + p.val)) else 0 := by
  rw [← sum_blocks_single (rowWord idx (2304 * i + p.val)) (tblAt tbl q)]
  refine Finset.sum_congr rfl fun s hs => ?_
  have hs' := Finset.mem_range.mp hs
  unfold addend
  rw [show (44 * i + s) / 44 = i by omega, show (44 * i + s) % 44 = s by omega]

/-- That is the gathered array at row `r`. -/
theorem gather_eq (idx : S1601280x1.Idx → BitVec 32) (tbl : S101376x64.Idx → EReal) (r : Fin 1601280) (q : Fin 64) :
    Cert.Spec.gatherRows tbl (fun e : Fin 1601280 => idx (ix2 e (0 : Fin 1))) (ix2 r q)
      = if rowWord idx r.val < 101376 then tblAt tbl q (rowWord idx r.val) else 0 := by
  unfold Cert.Spec.gatherRows rowWord tblAt
  rw [dif_pos r.isLt]
  show (if h : (idx (ix2 r (0 : Fin 1))).toNat < 101376 then tbl (ix2 ⟨_, h⟩ q) else 0) = _
  by_cases h : (idx (ix2 r (0 : Fin 1))).toNat < 101376
  · rw [dif_pos h, if_pos h]
  · rw [dif_neg h, if_neg h]

/-- A point-indexed block that restarts at the multiples of 44 with the point's addend and adds the point's addend at
    every other point holds, after the LAST point of a run, the gathered rows of that run's edges. -/
theorem run_gathers (idx : S1601280x1.Idx → BitVec 32) (tbl : S101376x64.Idx → EReal)
    (f : (n : ℕ) → n < cfg1.N → S2304x64.Idx → EReal) (a : (n : ℕ) → n < cfg1.N → S2304x64.Idx → EReal)
    (g : (n : ℕ) → n < cfg1.N → (S2304x64.Idx → EReal) → S2304x64.Idx → EReal)
    (h0 : ∀ (n : ℕ) (h : n < cfg1.N), n % 44 = 0 → f n h = a n h)
    (hs : ∀ (n : ℕ) (h : n + 1 < cfg1.N), ¬(n + 1) % 44 = 0 → f (n + 1) h = g (n + 1) h (f n (Nat.lt_of_succ_lt h)))
    (ha : ∀ (n : ℕ) (h : n < cfg1.N) (p : Fin 2304) (q : Fin 64), a n h (ix2 p q) = addend idx tbl n p q)
    (hg : ∀ (n : ℕ) (h : n < cfg1.N) (acc : S2304x64.Idx → EReal) (p : Fin 2304) (q : Fin 64),
      g n h acc (ix2 p q) = acc (ix2 p q) + addend idx tbl n p q)
    (t : ℕ) (ht : t < cfg1.N) (h43 : t % 44 = 43) (p : Fin 2304) (q : Fin 64) (hrow : 2304 * (t / 44) + p.val < 1601280) :
    f t ht (ix2 p q)
      = Cert.Spec.gatherRows tbl (fun e : Fin 1601280 => idx (ix2 e (0 : Fin 1))) (ix2 (⟨2304 * (t / 44) + p.val, hrow⟩ : Fin 1601280) q) := by
  have hN : cfg1.N = 30580 := N_1'
  have h' : 44 * (t / 44) + t % 44 < cfg1.N := by omega
  refine (congrFun (Pipeline.eq_accAt_of_mod (N := cfg1.N) f 44 a g h0 hs (by decide) t ht h') (ix2 p q)).trans ?_
  refine (Pipeline.accAt_add_apply (N := cfg1.N) (ι := S2304x64.Idx) (β := EReal) a g (fun _ => 0)
    (fun n i => addend idx tbl n ⟨(i 0).val, idx2_lt0 i⟩ ⟨(i 1).val, idx2_lt1 i⟩) (44 * (t / 44)) 43
    (fun h i => by
      obtain ⟨p', q', rfl⟩ : ∃ (p' : Fin 2304) (q' : Fin 64), i = ix2 p' q' := ⟨i 0, i 1, eq_ix2 i⟩
      exact (ha _ h p' q').trans (zero_add _).symm)
    (fun n h acc i _ _ => by
      obtain ⟨p', q', rfl⟩ : ∃ (p' : Fin 2304) (q' : Fin 64), i = ix2 p' q' := ⟨i 0, i 1, eq_ix2 i⟩
      exact hg n h acc p' q')
    (t % 44) (by omega) h' (ix2 p q)).trans ?_
  rw [h43, zero_add]
  refine (run_sum idx tbl (t / 44) p q).trans ?_
  exact (gather_eq idx tbl ⟨_, hrow⟩ q).symm

/-- After the last point of a run the first accumulator holds the gathered rows of the run's edges, by the first column. -/
theorem acc1_run (c : Dev nD) (t : ℕ) (ht : t < cfg1.N) (h43 : t % 44 = 43) (p : Fin 2304) (q : Fin 64)
    (hrow : 2304 * (t / 44) + p.val < 1601280) :
    ((accs1 V c t ht).1 (ix2 p q) : EReal)
      = Cert.Spec.gatherRows (V c main_v2_1 : S101376x64.Idx → EReal) (fun e : Fin 1601280 => (V c main_v5 : S1601280x1.Idx → BitVec 32) (ix2 e (0 : Fin 1)))
          (ix2 (⟨2304 * (t / 44) + p.val, hrow⟩ : Fin 1601280) q) :=
  run_gathers (V c main_v5) (V c main_v2_1) (fun n h => (accs1 V c n h).1) (fun n h => (accReset1 V c n h).1)
    (fun n h acc => k1_pay7 (F := Ideal) (grid1.coords ⟨n, h⟩) (iblk1 V c 0 ⟨n, h⟩) (iblk1 V c 2 ⟨n, h⟩) acc)
    (fun n h hm => congrArg Prod.fst (accs1_reset V c n h hm))
    (fun n h hm => congrArg Prod.fst (accs1_step V c n h hm))
    (fun n h p' q' => by
      refine (step_apply V c n h (iblk1 V c 0 ⟨n, h⟩) (V c main_v5) (fun p'' h'' => iblk1_0_apply V c ⟨n, h⟩ p'' 0 h'') (k1_pay3 (F := Ideal)) p' q').trans ?_
      rw [pay3_apply, zero_add])
    (fun n h acc p' q' => step_apply V c n h (iblk1 V c 0 ⟨n, h⟩) (V c main_v5) (fun p'' h'' => iblk1_0_apply V c ⟨n, h⟩ p'' 0 h'') acc p' q')
    t ht h43 p q hrow

/-- Likewise the second accumulator, by the second column. -/
theorem acc2_run (c : Dev nD) (t : ℕ) (ht : t < cfg1.N) (h43 : t % 44 = 43) (p : Fin 2304) (q : Fin 64)
    (hrow : 2304 * (t / 44) + p.val < 1601280) :
    ((accs1 V c t ht).2 (ix2 p q) : EReal)
      = Cert.Spec.gatherRows (V c main_v2_1 : S101376x64.Idx → EReal) (fun e : Fin 1601280 => (V c main_v6 : S1601280x1.Idx → BitVec 32) (ix2 e (0 : Fin 1)))
          (ix2 (⟨2304 * (t / 44) + p.val, hrow⟩ : Fin 1601280) q) :=
  run_gathers (V c main_v6) (V c main_v2_1) (fun n h => (accs1 V c n h).2) (fun n h => (accReset1 V c n h).2)
    (fun n h acc => k1_pay8 (F := Ideal) (grid1.coords ⟨n, h⟩) (iblk1 V c 1 ⟨n, h⟩) (iblk1 V c 2 ⟨n, h⟩) acc)
    (fun n h hm => congrArg Prod.snd (accs1_reset V c n h hm))
    (fun n h hm => congrArg Prod.snd (accs1_step V c n h hm))
    (fun n h p' q' => by
      refine (step_apply V c n h (iblk1 V c 1 ⟨n, h⟩) (V c main_v6) (fun p'' h'' => iblk1_1_apply V c ⟨n, h⟩ p'' 0 h'') (k1_pay3 (F := Ideal)) p' q').trans ?_
      rw [pay3_apply, zero_add])
    (fun n h acc p' q' => step_apply V c n h (iblk1 V c 1 ⟨n, h⟩) (V c main_v6) (fun p'' h'' => iblk1_1_apply V c ⟨n, h⟩ p'' 0 h'') acc p' q')
    t ht h43 p q hrow

/-! ## From the blocks to the two output arrays -/

/-- What kernel 1's first output ends holding: the table's rows gathered by the first index column. -/
abbrev gathered3 (c : Dev nD) : S1601280x64.Idx → EReal :=
  Cert.Spec.gatherRows (V c main_v2_1 : S101376x64.Idx → EReal)
    (fun e : Fin 1601280 => (V c main_v5 : S1601280x1.Idx → BitVec 32) (ix2 e (0 : Fin 1)))

/-- What the last point of a run writes back is that run's block of the gathered array. -/
theorem flushed1_3 (c : Dev nD) (t : Fin cfg1.N) (hf : (cfg1.win 3).flush t = true) :
    (dat1 V c).flushed 3 t = ((cfg1.win 3).blk t).view.read (Elt Ideal) (gathered3 V c) := by
  have hN : cfg1.N = 30580 := N_1'
  have h43 : t.val % 44 = 43 := (flush1_3 t).mp hf
  show (cfg1.win 3).cut (grid1.coords t) ((dat1 V c).after 3 t) = _
  rw [after1_3]
  funext y
  obtain ⟨p, q, rfl⟩ : ∃ (p : Fin 2304) (q : Fin 64), y = ix2 p q := ⟨y 0, y 1, eq_ix2 y⟩
  have hrow : 2304 * (t.val / 44) + p.val < 1601280 := by have := p.isLt; have := t.isLt; omega
  rw [View.read_apply]
  show ((accs1 V c t.val t.isLt).1 (ix2 p q) : EReal) = gathered3 V c (((cfg1.win 3).blk t).view.emb (ix2 p q))
  have hemb : ((cfg1.win 3).blk t).view.emb (ix2 p q) = ix2 (⟨2304 * (t.val / 44) + p.val, hrow⟩ : Fin 1601280) q := by
    funext a
    apply Fin.ext
    match a with
    | ⟨0, _⟩ =>
      show (cfg1.win 3).index t 0 * 2304 + 1 * p.val = 2304 * (t.val / 44) + p.val
      rw [show (cfg1.win 3).index t 0 = t.val / 44 from congrFun (index1_3 t) 0]; omega
    | ⟨1, _⟩ =>
      show (cfg1.win 3).index t 1 * 64 + 1 * q.val = q.val
      rw [show (cfg1.win 3).index t 1 = 0 from congrFun (index1_3 t) 1]; omega
  rw [hemb]
  exact acc1_run V c t.val t.isLt h43 p q hrow

/-- Row `r` of the output lies in the block written back at the last point of run `r / 2304`. -/
theorem cover1_3 (i : S1601280x64.Idx) :
    ∃ t : Fin cfg1.N, (cfg1.win 3).flush t = true ∧ i ∈ ((cfg1.win 3).blk t).view.set := by
  have hN : cfg1.N = 30580 := N_1'
  have h0 : (i 0).val < 1601280 := idx2_lt0 i
  have h1 : (i 1).val < 64 := idx2_lt1 i
  have ht : 44 * ((i 0).val / 2304) + 43 < cfg1.N := by omega
  refine ⟨⟨44 * ((i 0).val / 2304) + 43, ht⟩, (flush1_3 _).mpr (by show (44 * ((i 0).val / 2304) + 43) % 44 = 43; omega), ?_⟩
  show i ∈ ((View.whole main_v9_0).slice (win1_3.rect ⟨_, ht⟩)).set
  rw [View.set_slice_whole, Rect.mem_set_unit]
  intro a
  match a with
  | ⟨0, _⟩ =>
    show win1_3.index ⟨_, ht⟩ 0 * 2304 ≤ (i 0).val ∧ (i 0).val < win1_3.index ⟨_, ht⟩ 0 * 2304 + 2304
    rw [show win1_3.index ⟨_, ht⟩ 0 = (44 * ((i 0).val / 2304) + 43) / 44 from congrFun (index1_3 ⟨_, ht⟩) 0]; omega
  | ⟨1, _⟩ =>
    show win1_3.index ⟨_, ht⟩ 1 * 64 ≤ (i 1).val ∧ (i 1).val < win1_3.index ⟨_, ht⟩ 1 * 64 + 64
    rw [show win1_3.index ⟨_, ht⟩ 1 = 0 from congrFun (index1_3 ⟨_, ht⟩) 1]; omega

/-- What kernel 1's second output ends holding: the table's rows gathered by the second index column. -/
abbrev gathered4 (c : Dev nD) : S1601280x64.Idx → EReal :=
  Cert.Spec.gatherRows (V c main_v2_1 : S101376x64.Idx → EReal)
    (fun e : Fin 1601280 => (V c main_v6 : S1601280x1.Idx → BitVec 32) (ix2 e (0 : Fin 1)))

/-- What the last point of a run writes back is that run's block of the gathered array. -/
theorem flushed1_4 (c : Dev nD) (t : Fin cfg1.N) (hf : (cfg1.win 4).flush t = true) :
    (dat1 V c).flushed 4 t = ((cfg1.win 4).blk t).view.read (Elt Ideal) (gathered4 V c) := by
  have hN : cfg1.N = 30580 := N_1'
  have h43 : t.val % 44 = 43 := (flush1_4 t).mp hf
  show (cfg1.win 4).cut (grid1.coords t) ((dat1 V c).after 4 t) = _
  rw [after1_4]
  funext y
  obtain ⟨p, q, rfl⟩ : ∃ (p : Fin 2304) (q : Fin 64), y = ix2 p q := ⟨y 0, y 1, eq_ix2 y⟩
  have hrow : 2304 * (t.val / 44) + p.val < 1601280 := by have := p.isLt; have := t.isLt; omega
  rw [View.read_apply]
  show ((accs1 V c t.val t.isLt).2 (ix2 p q) : EReal) = gathered4 V c (((cfg1.win 4).blk t).view.emb (ix2 p q))
  have hemb : ((cfg1.win 4).blk t).view.emb (ix2 p q) = ix2 (⟨2304 * (t.val / 44) + p.val, hrow⟩ : Fin 1601280) q := by
    funext a
    apply Fin.ext
    match a with
    | ⟨0, _⟩ =>
      show (cfg1.win 4).index t 0 * 2304 + 1 * p.val = 2304 * (t.val / 44) + p.val
      rw [show (cfg1.win 4).index t 0 = t.val / 44 from congrFun (index1_4 t) 0]; omega
    | ⟨1, _⟩ =>
      show (cfg1.win 4).index t 1 * 64 + 1 * q.val = q.val
      rw [show (cfg1.win 4).index t 1 = 0 from congrFun (index1_4 t) 1]; omega
  rw [hemb]
  exact acc2_run V c t.val t.isLt h43 p q hrow

/-- Row `r` of the output lies in the block written back at the last point of run `r / 2304`. -/
theorem cover1_4 (i : S1601280x64.Idx) :
    ∃ t : Fin cfg1.N, (cfg1.win 4).flush t = true ∧ i ∈ ((cfg1.win 4).blk t).view.set := by
  have hN : cfg1.N = 30580 := N_1'
  have h0 : (i 0).val < 1601280 := idx2_lt0 i
  have h1 : (i 1).val < 64 := idx2_lt1 i
  have ht : 44 * ((i 0).val / 2304) + 43 < cfg1.N := by omega
  refine ⟨⟨44 * ((i 0).val / 2304) + 43, ht⟩, (flush1_4 _).mpr (by show (44 * ((i 0).val / 2304) + 43) % 44 = 43; omega), ?_⟩
  show i ∈ ((View.whole main_v9_1).slice (win1_4.rect ⟨_, ht⟩)).set
  rw [View.set_slice_whole, Rect.mem_set_unit]
  intro a
  match a with
  | ⟨0, _⟩ =>
    show win1_4.index ⟨_, ht⟩ 0 * 2304 ≤ (i 0).val ∧ (i 0).val < win1_4.index ⟨_, ht⟩ 0 * 2304 + 2304
    rw [show win1_4.index ⟨_, ht⟩ 0 = (44 * ((i 0).val / 2304) + 43) / 44 from congrFun (index1_4 ⟨_, ht⟩) 0]; omega
  | ⟨1, _⟩ =>
    show win1_4.index ⟨_, ht⟩ 1 * 64 ≤ (i 1).val ∧ (i 1).val < win1_4.index ⟨_, ht⟩ 1 * 64 + 64
    rw [show win1_4.index ⟨_, ht⟩ 1 = 0 from congrFun (index1_4 ⟨_, ht⟩) 1]; omega

theorem final1_3 (c : Dev nD) :
    ((dat1 V c).arrAt 3 cfg1.N : S1601280x64.Idx → EReal)
      = Cert.Spec.gatherRows (V c main_v2_1 : S101376x64.Idx → EReal) (fun q : Fin 1601280 => (V c main_v5 : S1601280x1.Idx → BitVec 32) (ix2 q (0 : Fin 1))) := by
  exact (dat1 V c).arrAt_eq_of_cover 3 (gathered3 V c) (flushed1_3 V c) cover1_3

theorem final1_4 (c : Dev nD) :
    ((dat1 V c).arrAt 4 cfg1.N : S1601280x64.Idx → EReal)
      = Cert.Spec.gatherRows (V c main_v2_1 : S101376x64.Idx → EReal) (fun q : Fin 1601280 => (V c main_v6 : S1601280x1.Idx → BitVec 32) (ix2 q (0 : Fin 1))) := by
  exact (dat1 V c).arrAt_eq_of_cover 4 (gathered4 V c) (flushed1_4 V c) cover1_4

end Cert.KernelIdeal.HandValue.V1

end
-- ==== Proof.KI.Value2a.lean ====
import proofs.«425878_j39771397161472_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Idealize.ShloMosaic Idealize.ShloMosaic.TcCoe Idealize.ShloMosaic.ValueIdx
open Idealize.SL Idealize.SL.Sem
open Cert.KernelIdeal Cert.KernelIdeal.Gen
open scoped BigOperators

/-! # Kernel 2's payloads read at an element, at the exact values

The node id of row `p` of node block `i 0` is the word of `2304·(i 0) + p`. Each accumulating step adds to the
accumulator, at `(p, j)`, the sum over the block's 2304 edges of the 0/1 entry "the edge's word is that node id" times
the gathered row's entry; the restart values are zero; the last point's value is the clamped affine image of the
scaled sum of the table block and the two accumulators. -/

/-- The node id of row `p` of node block `i 0`. -/
theorem pay5_apply (i : grid2.Coords) (p : Fin 2304) (z : Fin 1) :
    k2_pay5 i (ix2 p z) = BitVec.ofNat 32 (2304 * (i 0).val + p.val) := by
  unfold k2_pay5
  show IntOp.addi (IntOp.muli (BitVec.ofNat 32 (i 0).val) 2304#32) (iota .tc S2304x1 32 [0] iota_S2304x1_d0_w32 (ix2 p z)) = _
  rw [iota_single_apply]
  show BitVec.ofNat 32 (i 0).val * 2304#32 + BitVec.ofNat 32 p.val = _
  rw [Nat.mul_comm, BitVec.ofNat_add, BitVec.ofNat_mul]

/-- A column broadcast over many columns reads, at `(p, c)`, the column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The comparison bit of two words, widened and converted, is 1 when they are equal and 0 otherwise. -/
theorem onehot_val (x y : BitVec 32) :
    (FloatOps.sitofp (F := Ideal) .f32 ((IntOp.cmpi .eq x y).setWidth 32) : EReal) = if x = y then 1 else 0 := by
  show ((((BitVec.ofBool (x == y)).setWidth 32).toInt : ℝ) : EReal) = _
  by_cases h : x = y
  · have e : ((BitVec.ofBool true).setWidth 32).toInt = 1 := by decide
    rw [if_pos h, beq_iff_eq.mpr h, e, Int.cast_one, EReal.coe_one]
  · have e : ((BitVec.ofBool false).setWidth 32).toInt = 0 := by decide
    rw [if_neg h, beq_eq_false_iff_ne.mpr h, e, Int.cast_zero, EReal.coe_zero]

/-! ## The two products' operand indices, axis by axis -/

theorem lhsA_0 (i : S2304x64.Idx) (q : dot_S2304x2304_S2304x64_S2304x64_1_0_0_1_n_n.contr.Idx) :
    (dot_S2304x2304_S2304x64_S2304x64_1_0_0_1_n_n.lhsIdx i q 0).val = (i 0).val := by
  unfold DotDims.lhsIdx
  rw [dif_neg (show ¬(0 : Fin S2304x2304.rank) ∈ dot_S2304x2304_S2304x64_S2304x64_1_0_0_1_n_n.lhsBatch by decide), dif_pos (show (0 : Fin S2304x2304.rank) ∈ dot_S2304x2304_S2304x64_S2304x64_1_0_0_1_n_n.lhsNonContracting by decide)]
  rfl
theorem lhsA_1 (i : S2304x64.Idx) (q : dot_S2304x2304_S2304x64_S2304x64_1_0_0_1_n_n.contr.Idx) :
    (dot_S2304x2304_S2304x64_S2304x64_1_0_0_1_n_n.lhsIdx i q 1).val = (q ⟨0, by decide⟩).val :=
  dot_S2304x2304_S2304x64_S2304x64_1_0_0_1_n_n.lhsIdx_val_of_single rfl i q
theorem rhsA_0 (i : S2304x64.Idx) (q : dot_S2304x2304_S2304x64_S2304x64_1_0_0_1_n_n.contr.Idx) :
    (dot_S2304x2304_S2304x64_S2304x64_1_0_0_1_n_n.rhsIdx i q 0).val = (q ⟨0, by decide⟩).val :=
  dot_S2304x2304_S2304x64_S2304x64_1_0_0_1_n_n.rhsIdx_val_of_single rfl i q
theorem rhsA_1 (i : S2304x64.Idx) (q : dot_S2304x2304_S2304x64_S2304x64_1_0_0_1_n_n.contr.Idx) :
    (dot_S2304x2304_S2304x64_S2304x64_1_0_0_1_n_n.rhsIdx i q 1).val = (i 1).val := by
  unfold DotDims.rhsIdx
  rw [dif_neg (show ¬(1 : Fin S2304x64.rank) ∈ dot_S2304x2304_S2304x64_S2304x64_1_0_0_1_n_n.rhsBatch by decide), dif_pos (show (1 : Fin S2304x64.rank) ∈ dot_S2304x2304_S2304x64_S2304x64_1_0_0_1_n_n.rhsNonContracting by decide)]
  rfl

theorem lhsB_0 (i : S2304x64.Idx) (q : dot_S2304x64_S64x64_S2304x64_1_0_0_1_n_n.contr.Idx) :
    (dot_S2304x64_S64x64_S2304x64_1_0_0_1_n_n.lhsIdx i q 0).val = (i 0).val := by
  unfold DotDims.lhsIdx
  rw [dif_neg (show ¬(0 : Fin S2304x64.rank) ∈ dot_S2304x64_S64x64_S2304x64_1_0_0_1_n_n.lhsBatch by decide), dif_pos (show (0 : Fin S2304x64.rank) ∈ dot_S2304x64_S64x64_S2304x64_1_0_0_1_n_n.lhsNonContracting by decide)]
  rfl
theorem lhsB_1 (i : S2304x64.Idx) (q : dot_S2304x64_S64x64_S2304x64_1_0_0_1_n_n.contr.Idx) :
    (dot_S2304x64_S64x64_S2304x64_1_0_0_1_n_n.lhsIdx i q 1).val = (q ⟨0, by decide⟩).val :=
  dot_S2304x64_S64x64_S2304x64_1_0_0_1_n_n.lhsIdx_val_of_single rfl i q
theorem rhsB_0 (i : S2304x64.Idx) (q : dot_S2304x64_S64x64_S2304x64_1_0_0_1_n_n.contr.Idx) :
    (dot_S2304x64_S64x64_S2304x64_1_0_0_1_n_n.rhsIdx i q 0).val = (q ⟨0, by decide⟩).val :=
  dot_S2304x64_S64x64_S2304x64_1_0_0_1_n_n.rhsIdx_val_of_single rfl i q
theorem rhsB_1 (i : S2304x64.Idx) (q : dot_S2304x64_S64x64_S2304x64_1_0_0_1_n_n.contr.Idx) :
    (dot_S2304x64_S64x64_S2304x64_1_0_0_1_n_n.rhsIdx i q 1).val = (i 1).val := by
  unfold DotDims.rhsIdx
  rw [dif_neg (show ¬(1 : Fin S64x64.rank) ∈ dot_S2304x64_S64x64_S2304x64_1_0_0_1_n_n.rhsBatch by decide), dif_pos (show (1 : Fin S64x64.rank) ∈ dot_S2304x64_S64x64_S2304x64_1_0_0_1_n_n.rhsNonContracting by decide)]
  rfl

/-- The left operand of the 0/1 product at output `(p, j)` and contraction position `n` is read at `(p, n)`. -/
theorem lidxA (p : Fin 2304) (j : Fin 64) (n : Fin 2304) :
    dot_S2304x2304_S2304x64_S2304x64_1_0_0_1_n_n.lhsIdx (ix2 p j) ((contrEquiv1 dot_S2304x2304_S2304x64_S2304x64_1_0_0_1_n_n 2304 rfl rfl).symm n) = ix2 p n :=
  funext fun a => Fin.ext (by
    have hk := contrEquiv1_symm_val dot_S2304x2304_S2304x64_S2304x64_1_0_0_1_n_n 2304 rfl rfl n
    match a with
    | ⟨0, _⟩ => exact lhsA_0 _ _
    | ⟨1, _⟩ => exact (lhsA_1 _ _).trans hk)
/-- The right operand there is read at `(n, j)`. -/
theorem ridxA (p : Fin 2304) (j : Fin 64) (n : Fin 2304) :
    dot_S2304x2304_S2304x64_S2304x64_1_0_0_1_n_n.rhsIdx (ix2 p j) ((contrEquiv1 dot_S2304x2304_S2304x64_S2304x64_1_0_0_1_n_n 2304 rfl rfl).symm n) = ix2 n j :=
  funext fun a => Fin.ext (by
    have hk := contrEquiv1_symm_val dot_S2304x2304_S2304x64_S2304x64_1_0_0_1_n_n 2304 rfl rfl n
    match a with
    | ⟨0, _⟩ => exact (rhsA_0 _ _).trans hk
    | ⟨1, _⟩ => exact rhsA_1 _ _)
theorem lidxB (p : Fin 2304) (j : Fin 64) (n : Fin 64) :
    dot_S2304x64_S64x64_S2304x64_1_0_0_1_n_n.lhsIdx (ix2 p j) ((contrEquiv1 dot_S2304x64_S64x64_S2304x64_1_0_0_1_n_n 64 rfl rfl).symm n) = ix2 p n :=
  funext fun a => Fin.ext (by
    have hk := contrEquiv1_symm_val dot_S2304x64_S64x64_S2304x64_1_0_0_1_n_n 64 rfl rfl n
    match a with
    | ⟨0, _⟩ => exact lhsB_0 _ _
    | ⟨1, _⟩ => exact (lhsB_1 _ _).trans hk)
theorem ridxB (p : Fin 2304) (j : Fin 64) (n : Fin 64) :
    dot_S2304x64_S64x64_S2304x64_1_0_0_1_n_n.rhsIdx (ix2 p j) ((contrEquiv1 dot_S2304x64_S64x64_S2304x64_1_0_0_1_n_n 64 rfl rfl).symm n) = ix2 n j :=
  funext fun a => Fin.ext (by
    have hk := contrEquiv1_symm_val dot_S2304x64_S64x64_S2304x64_1_0_0_1_n_n 64 rfl rfl n
    match a with
    | ⟨0, _⟩ => exact (rhsB_0 _ _).trans hk
    | ⟨1, _⟩ => exact rhsB_1 _ _)

theorem pay6_apply (i : grid2.Coords) (x0 : Vec Ideal S1x2304 .i32) (x2 : Vec Ideal S2304x64 .bf16) (acc : Vec Ideal S2304x64 .f32)
    (p : Fin 2304) (j : Fin 64) :
    k2_pay6 i x0 x2 acc (ix2 p j) = acc (ix2 p j)
      + ∑ n : Fin 2304, (if BitVec.ofNat 32 (2304 * (i 0).val + p.val) = x0 (ix2 (0 : Fin 1) n) then (1 : EReal) else 0) * x2 (ix2 n j) := by
  simp only [k2_pay6, shapeCast_self]
  rw [addf_apply]
  refine congrArg (acc (ix2 p j) + ·) ?_
  simp only [matmul]
  rw [Ideal.matmul_constant_zero_apply, ← Equiv.sum_comp (contrEquiv1 dot_S2304x2304_S2304x64_S2304x64_1_0_0_1_n_n 2304 rfl rfl).symm]
  refine Finset.sum_congr rfl fun n _ => ?_
  rw [lidxA, ridxA]
  refine congrArg (· * x2 (ix2 n j)) ?_
  show FloatOps.sitofp (F := Ideal) .f32 ((IntOp.cmpi .eq (broadcastTo S2304x2304 (k2_pay5 i) broadcasts_S2304x1_S2304x2304 (ix2 p n)) (broadcastTo S2304x2304 x0 broadcasts_S1x2304_S2304x2304 (ix2 p n))).setWidth 32) = _
  rw [broadcastTo_a1_ab_apply, broadcastTo_1b_ab_apply, pay5_apply, onehot_val]

theorem pay7_apply (i : grid2.Coords) (x1 : Vec Ideal S1x2304 .i32) (x3 : Vec Ideal S2304x64 .bf16) (acc : Vec Ideal S2304x64 .f32)
    (p : Fin 2304) (j : Fin 64) :
    k2_pay7 i x1 x3 acc (ix2 p j) = acc (ix2 p j)
      + ∑ n : Fin 2304, (if BitVec.ofNat 32 (2304 * (i 0).val + p.val) = x1 (ix2 (0 : Fin 1) n) then (1 : EReal) else 0) * x3 (ix2 n j) := by
  simp only [k2_pay7, shapeCast_self]
  rw [addf_apply]
  refine congrArg (acc (ix2 p j) + ·) ?_
  simp only [matmul]
  rw [Ideal.matmul_constant_zero_apply, ← Equiv.sum_comp (contrEquiv1 dot_S2304x2304_S2304x64_S2304x64_1_0_0_1_n_n 2304 rfl rfl).symm]
  refine Finset.sum_congr rfl fun n _ => ?_
  rw [lidxA, ridxA]
  refine congrArg (· * x3 (ix2 n j)) ?_
  show FloatOps.sitofp (F := Ideal) .f32 ((IntOp.cmpi .eq (broadcastTo S2304x2304 (k2_pay5 i) broadcasts_S2304x1_S2304x2304 (ix2 p n)) (broadcastTo S2304x2304 x1 broadcasts_S1x2304_S2304x2304 (ix2 p n))).setWidth 32) = _
  rw [broadcastTo_a1_ab_apply, broadcastTo_1b_ab_apply, pay5_apply, onehot_val]

/-- The cast of the second accumulator to its own shape changes nothing. -/
theorem pay1_eq (v : FVec Ideal S2304x64 .f32) : k2_pay1 v = v := by
  simp only [k2_pay1, shapeCast_self]

/-- The two accumulators restart at zero. -/
theorem pay3_apply (y : S2304x64.Idx) : k2_pay3 (F := Ideal) y = 0 := by
  simp only [k2_pay3, shapeCast_self]
  exact Ideal.ofBits_zero_f32
theorem pay4_apply (y : S2304x64.Idx) : k2_pay4 (F := Ideal) y = 0 := by
  simp only [k2_pay4, shapeCast_self]
  exact Ideal.ofBits_zero_f32

theorem pay2_apply (x4 A B : Vec Ideal S2304x64 .f32) (x5 : Vec Ideal S2304x1 .f32) (x6 : Vec Ideal S64x64 .f32) (x7 : Vec Ideal S1x64 .f32)
    (p : Fin 2304) (j : Fin 64) :
    k2_pay2 x4 A B x5 x6 x7 (ix2 p j)
      = max ((∑ d : Fin 64, ((x4 (ix2 p d) + A (ix2 p d) + B (ix2 p d)) * x5 (ix2 p (0 : Fin 1))) * x6 (ix2 d j)) + x7 (ix2 (0 : Fin 1) j)) 0 := by
  simp only [k2_pay2, shapeCast_self]
  rw [maximumf_apply, addf_apply, broadcastTo_1b_ab_apply]
  show max (_ + _) (Ideal.ofBits .f32 0x00000000#32) = _
  rw [Ideal.ofBits_zero_f32]
  refine congrArg (fun z => max (z + x7 (ix2 (0 : Fin 1) j)) 0) ?_
  simp only [matmul]
  rw [Ideal.matmul_constant_zero_apply, ← Equiv.sum_comp (contrEquiv1 dot_S2304x64_S64x64_S2304x64_1_0_0_1_n_n 64 rfl rfl).symm]
  refine Finset.sum_congr rfl fun d _ => ?_
  rw [lidxB, ridxB]
  refine congrArg (· * x6 (ix2 d j)) ?_
  show ((x4 (ix2 p d) + A (ix2 p d) + B (ix2 p d)) * broadcastTo S2304x64 x5 broadcasts_S2304x1_S2304x64 (ix2 p d) : EReal) = _
  rw [broadcastTo_a1_ab_apply]

end Cert.KernelIdeal.HandValue

end
-- ==== Proof.KI.Value2.lean ====
import proofs.«425878_j39771397161472_2_alg».proof.Proof.KI.Region2
import proofs.«425878_j39771397161472_2_alg».proof.Proof.Spec
import proofs.«425878_j39771397161472_2_alg».proof.Proof.KI.Value2a
import Idealize.ShloMosaic.Lib.Pipeline.Value
import Idealize.ShloMosaic.Lib.ValueIdx
import Idealize.ShloMosaic.Lib.ValueLayout
import Idealize.ShloMosaic.PureOps.Ideal.Laws
import Mathlib.Logic.Equiv.Fin.Basic
import Mathlib.Algebra.BigOperators.Fin

set_option maxRecDepth 16384

noncomputable section

namespace Cert.KernelIdeal.HandValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand
open scoped BigOperators

/-! # What kernel 2 leaves in its output array, at the exact values

Over the 695 points of run `i` each accumulator adds, block by block of 2304 edges, the product of a 0/1 matrix —
entry `(n, q)` set when edge `q`'s index word is node `n`'s number — with a block of gathered rows: in all, row `n`
receives the sum of the gathered rows of the edges whose word names it. The last point of the run adds the table's
block and the two sums, scales by the column, multiplies by the weights, adds the bias and clamps at zero. The 44
runs tile the 101376 rows. -/

/-! ## The accumulators over a run -/

/-- A word is the word of a number below `2^32` exactly when it reads that number; so the 0/1 entry times a value is the
    value when the word reads the number and zero otherwise. -/
theorem onehot_mul (r : ℕ) (hr : r < 2 ^ 32) (w : BitVec 32) (u : EReal) :
    (if BitVec.ofNat 32 r = w then (1 : EReal) else 0) * u = if w.toNat = r then u else 0 := by
  by_cases h : w.toNat = r
  · have e : BitVec.ofNat 32 r = w := by rw [← h, BitVec.ofNat_toNat, BitVec.setWidth_eq]
    rw [if_pos h, if_pos e, one_mul]
  · have e : ¬ BitVec.ofNat 32 r = w := fun e => h (by rw [← e, BitVec.toNat_ofNat]; exact Nat.mod_eq_of_lt hr)
    rw [if_neg h, if_neg e, zero_mul]

/-- The 1601280 edges, block by block of 2304. -/
theorem sum_edges {β : Type*} [AddCommMonoid β] (f : Fin 1601280 → β) :
    ∑ q : Fin 1601280, f q = ∑ s : Fin 695, ∑ m : Fin 2304, f ⟨2304 * s.val + m.val, by omega⟩ := by
  rw [← Equiv.sum_comp (finProdFinEquiv (m := 695) (n := 2304)) f, Fintype.sum_prod_type]
  refine Finset.sum_congr rfl fun s _ => Finset.sum_congr rfl fun m _ => congrArg f (Fin.ext ?_)
  show m.val + 2304 * s.val = 2304 * s.val + m.val
  omega

/-- One edge's contribution to node number `r`, column `j`: the update's entry when the edge's word is `r`'s. -/
def oneTerm (idx : Fin 1601280 → BitVec 32) (upd : S1601280x64.Idx → EReal) (r : ℕ) (j : Fin 64) (q : Fin 1601280) : EReal :=
  (if BitVec.ofNat 32 r = idx q then (1 : EReal) else 0) * upd (ix2 q j)

/-- What a step adds at node number `r`, column `j`, at a point whose edge block is `s % 695`. -/
def blockSum (idx : Fin 1601280 → BitVec 32) (upd : S1601280x64.Idx → EReal) (r s : ℕ) (j : Fin 64) : EReal :=
  ∑ m : Fin 2304, oneTerm idx upd r j ⟨2304 * (s % 695) + m.val, by have := Nat.mod_lt s (by decide : 0 < 695); omega⟩

/-- A quantity that restarts from `z = 0` at the multiples of 695 and otherwise steps from the point before by adding the
    point's addend is, at any point, the sum of the addends of its run so far. -/
theorem fold_run {N : ℕ} (f : (n : ℕ) → n < N → S2304x64.Idx → EReal)
    (stp : (n : ℕ) → n < N → (S2304x64.Idx → EReal) → S2304x64.Idx → EReal) (z : S2304x64.Idx → EReal)
    (M : ℕ → S2304x64.Idx → EReal) (hz : ∀ y, z y = 0)
    (h0 : ∀ (n : ℕ) (h : n < N), n % 695 = 0 → f n h = stp n h z)
    (hs : ∀ (n : ℕ) (h : n + 1 < N), ¬ (n + 1) % 695 = 0 → f (n + 1) h = stp (n + 1) h (f n (Nat.lt_of_succ_lt h)))
    (hstp : ∀ (n : ℕ) (h : n < N) (acc : S2304x64.Idx → EReal) (y : S2304x64.Idx), stp n h acc y = acc y + M n y)
    (t : ℕ) (ht : t < N) (y : S2304x64.Idx) :
    f t ht y = ∑ s ∈ Finset.range (t % 695 + 1), M (695 * (t / 695) + s) y := by
  have h' : 695 * (t / 695) + t % 695 < N := by rw [Nat.div_add_mod]; exact ht
  rw [Pipeline.eq_accAt_of_mod f 695 (fun n h => stp n h z) stp h0 hs (by decide) t ht h']
  rw [Pipeline.accAt_add_apply (fun n h => stp n h z) stp (fun _ => 0) M (695 * (t / 695)) (t % 695)
    (fun h i => by rw [hstp, hz]) (fun n h acc i _ _ => hstp n h acc i) (t % 695) le_rfl h' y, zero_add]

/-- The addends of a whole run, over all its edge blocks, are the segment sum. -/
theorem run_sum (idx : Fin 1601280 → BitVec 32) (upd : S1601280x64.Idx → EReal) (k : ℕ) (hk : k < 44) (p : Fin 2304) (j : Fin 64) :
    ∑ s ∈ Finset.range 695, blockSum idx upd (2304 * ((695 * k + s) / 695) + p.val) (695 * k + s) j
      = Cert.Spec.segSum (n := 101376) idx upd (ix2 (⟨2304 * k + p.val, by omega⟩ : Fin 101376) j) := by
  rw [Finset.sum_range]
  unfold Cert.Spec.segSum
  rw [sum_edges]
  refine Finset.sum_congr rfl fun s _ => ?_
  unfold blockSum
  refine Finset.sum_congr rfl fun m _ => ?_
  have e1 : (695 * k + s.val) / 695 = k := by have := s.isLt; omega
  have e2 : (695 * k + s.val) % 695 = s.val := by have := s.isLt; omega
  rw [e1]
  refine (congrArg (oneTerm idx upd _ j) (Fin.ext ?_ : _ = (⟨2304 * s.val + m.val, by omega⟩ : Fin 1601280))).trans ?_
  · show 2304 * ((695 * k + s.val) % 695) + m.val = 2304 * s.val + m.val
    rw [e2]
  · unfold oneTerm
    rw [onehot_mul _ (by omega)]

variable (V : (c : Dev nD) → (b : Ref sig .tc) → Buf (Elt Ideal) ((c : Thread nD τ).loc b))

/-! ## The blocks the windows read, element by element -/

theorem iblk2_0_apply (c : Dev nD) (t : Fin cfg2.N) (m : Fin 2304) :
    (iblk2 V c 0 t : S1x2304.Idx → BitVec 32) (ix2 (0 : Fin 1) m)
      = (V c main_v8 : _ → BitVec 32) (ix2 (0 : Fin 1) (⟨2304 * (t.val % 695) + m.val, by have := Nat.mod_lt t.val (by decide : 0 < 695); omega⟩ : Fin 1601280)) := by
  have hN := N_2'
  unfold iblk2
  rw [View.read_apply]
  show V c main_v8 _ = _
  congr 1
  funext a; apply Fin.ext
  have h0 : win2_0.index t 0 = _ := congrFun (index2_0 t) 0
  have h1 : win2_0.index t 1 = _ := congrFun (index2_0 t) 1
  match a with
  | ⟨0, _⟩ => show win2_0.index t 0 * 1 + 1 * 0 = 0; rw [h0]; rfl
  | ⟨1, _⟩ => show win2_0.index t 1 * 2304 + 1 * m.val = 2304 * (t.val % 695) + m.val; rw [h1]; show t.val % 695 * 2304 + 1 * m.val = _; omega

theorem iblk2_1_apply (c : Dev nD) (t : Fin cfg2.N) (m : Fin 2304) :
    (iblk2 V c 1 t : S1x2304.Idx → BitVec 32) (ix2 (0 : Fin 1) m)
      = (V c main_v7 : _ → BitVec 32) (ix2 (0 : Fin 1) (⟨2304 * (t.val % 695) + m.val, by have := Nat.mod_lt t.val (by decide : 0 < 695); omega⟩ : Fin 1601280)) := by
  have hN := N_2'
  unfold iblk2
  rw [View.read_apply]
  show V c main_v7 _ = _
  congr 1
  funext a; apply Fin.ext
  have h0 : win2_1.index t 0 = _ := congrFun (index2_1 t) 0
  have h1 : win2_1.index t 1 = _ := congrFun (index2_1 t) 1
  match a with
  | ⟨0, _⟩ => show win2_1.index t 0 * 1 + 1 * 0 = 0; rw [h0]; rfl
  | ⟨1, _⟩ => show win2_1.index t 1 * 2304 + 1 * m.val = 2304 * (t.val % 695) + m.val; rw [h1]; show t.val % 695 * 2304 + 1 * m.val = _; omega

theorem iblk2_2_apply (c : Dev nD) (t : Fin cfg2.N) (m : Fin 2304) (j : Fin 64) :
    (iblk2 V c 2 t : S2304x64.Idx → EReal) (ix2 m j)
      = (V c main_v9_0 : _ → EReal) (ix2 (⟨2304 * (t.val % 695) + m.val, by have := Nat.mod_lt t.val (by decide : 0 < 695); omega⟩ : Fin 1601280) j) := by
  have hN := N_2'
  unfold iblk2
  rw [View.read_apply]
  show V c main_v9_0 _ = _
  congr 1
  funext a; apply Fin.ext
  have h0 : win2_2.index t 0 = _ := congrFun (index2_2 t) 0
  have h1 : win2_2.index t 1 = _ := congrFun (index2_2 t) 1
  match a with
  | ⟨0, _⟩ => show win2_2.index t 0 * 2304 + 1 * m.val = 2304 * (t.val % 695) + m.val; rw [h0]; show t.val % 695 * 2304 + 1 * m.val = _; omega
  | ⟨1, _⟩ => show win2_2.index t 1 * 64 + 1 * j.val = j.val; rw [h1]; show 0 * 64 + 1 * j.val = _; omega

theorem iblk2_3_apply (c : Dev nD) (t : Fin cfg2.N) (m : Fin 2304) (j : Fin 64) :
    (iblk2 V c 3 t : S2304x64.Idx → EReal) (ix2 m j)
      = (V c main_v9_1 : _ → EReal) (ix2 (⟨2304 * (t.val % 695) + m.val, by have := Nat.mod_lt t.val (by decide : 0 < 695); omega⟩ : Fin 1601280) j) := by
  have hN := N_2'
  unfold iblk2
  rw [View.read_apply]
  show V c main_v9_1 _ = _
  congr 1
  funext a; apply Fin.ext
  have h0 : win2_3.index t 0 = _ := congrFun (index2_3 t) 0
  have h1 : win2_3.index t 1 = _ := congrFun (index2_3 t) 1
  match a with
  | ⟨0, _⟩ => show win2_3.index t 0 * 2304 + 1 * m.val = 2304 * (t.val % 695) + m.val; rw [h0]; show t.val % 695 * 2304 + 1 * m.val = _; omega
  | ⟨1, _⟩ => show win2_3.index t 1 * 64 + 1 * j.val = j.val; rw [h1]; show 0 * 64 + 1 * j.val = _; omega

theorem iblk2_4_apply (c : Dev nD) (t : Fin cfg2.N) (p : Fin 2304) (j : Fin 64) :
    (iblk2 V c 4 t : S2304x64.Idx → EReal) (ix2 p j)
      = (V c main_v2_0 : _ → EReal) (ix2 (⟨2304 * (t.val / 695) + p.val, by have hN := N_2'; have := t.isLt; omega⟩ : Fin 101376) j) := by
  have hN := N_2'
  unfold iblk2
  rw [View.read_apply]
  show V c main_v2_0 _ = _
  congr 1
  funext a; apply Fin.ext
  have h0 : win2_4.index t 0 = _ := congrFun (index2_4 t) 0
  have h1 : win2_4.index t 1 = _ := congrFun (index2_4 t) 1
  match a with
  | ⟨0, _⟩ => show win2_4.index t 0 * 2304 + 1 * p.val = 2304 * (t.val / 695) + p.val; rw [h0]; show t.val / 695 * 2304 + 1 * p.val = _; omega
  | ⟨1, _⟩ => show win2_4.index t 1 * 64 + 1 * j.val = j.val; rw [h1]; show 0 * 64 + 1 * j.val = _; omega

theorem iblk2_5_apply (c : Dev nD) (t : Fin cfg2.N) (p : Fin 2304) :
    (iblk2 V c 5 t : S2304x1.Idx → EReal) (ix2 p (0 : Fin 1))
      = (V c main_v1 : _ → EReal) (ix2 (⟨2304 * (t.val / 695) + p.val, by have hN := N_2'; have := t.isLt; omega⟩ : Fin 101376) (0 : Fin 1)) := by
  have hN := N_2'
  unfold iblk2
  rw [View.read_apply]
  show V c main_v1 _ = _
  congr 1
  funext a; apply Fin.ext
  have h0 : win2_5.index t 0 = _ := congrFun (index2_5 t) 0
  have h1 : win2_5.index t 1 = _ := congrFun (index2_5 t) 1
  match a with
  | ⟨0, _⟩ => show win2_5.index t 0 * 2304 + 1 * p.val = 2304 * (t.val / 695) + p.val; rw [h0]; show t.val / 695 * 2304 + 1 * p.val = _; omega
  | ⟨1, _⟩ => show win2_5.index t 1 * 1 + 1 * 0 = 0; rw [h1]; rfl

theorem iblk2_6_apply (c : Dev nD) (t : Fin cfg2.N) (d : Fin 64) (j : Fin 64) :
    (iblk2 V c 6 t : S64x64.Idx → EReal) (ix2 d j)
      = (V c main_arg4 : _ → EReal) (ix2 d j) := by
  have hN := N_2'
  unfold iblk2
  rw [View.read_apply]
  show V c main_arg4 _ = _
  congr 1
  funext a; apply Fin.ext
  have h0 : win2_6.index t 0 = _ := congrFun (index2_6 t) 0
  have h1 : win2_6.index t 1 = _ := congrFun (index2_6 t) 1
  match a with
  | ⟨0, _⟩ => show win2_6.index t 0 * 64 + 1 * d.val = d.val; rw [h0]; show 0 * 64 + 1 * d.val = _; omega
  | ⟨1, _⟩ => show win2_6.index t 1 * 64 + 1 * j.val = j.val; rw [h1]; show 0 * 64 + 1 * j.val = _; omega

theorem iblk2_7_apply (c : Dev nD) (t : Fin cfg2.N) (j : Fin 64) :
    (iblk2 V c 7 t : S1x64.Idx → EReal) (ix2 (0 : Fin 1) j)
      = (V c main_v10 : _ → EReal) (ix2 (0 : Fin 1) j) := by
  have hN := N_2'
  unfold iblk2
  rw [View.read_apply]
  show V c main_v10 _ = _
  congr 1
  funext a; apply Fin.ext
  have h0 : win2_7.index t 0 = _ := congrFun (index2_7 t) 0
  have h1 : win2_7.index t 1 = _ := congrFun (index2_7 t) 1
  match a with
  | ⟨0, _⟩ => show win2_7.index t 0 * 1 + 1 * 0 = 0; rw [h0]; rfl
  | ⟨1, _⟩ => show win2_7.index t 1 * 64 + 1 * j.val = j.val; rw [h1]; show 0 * 64 + 1 * j.val = _; omega

/-! ## The two accumulators at the last point of a run -/

/-- The two index rows, edge by edge. -/
abbrev idxA (c : Dev nD) : Fin 1601280 → BitVec 32 := fun q => (V c main_v7 : S1x1601280.Idx → BitVec 32) (ix2 (0 : Fin 1) q)
abbrev idxB (c : Dev nD) : Fin 1601280 → BitVec 32 := fun q => (V c main_v8 : S1x1601280.Idx → BitVec 32) (ix2 (0 : Fin 1) q)

theorem step1_apply (c : Dev nD) (n : ℕ) (hn : n < cfg2.N) (acc : Vec Ideal S2304x64 .f32) (y : S2304x64.Idx) :
    k2_pay6 (grid2.coords ⟨n, hn⟩) (iblk2 V c 0 ⟨n, hn⟩) (iblk2 V c 2 ⟨n, hn⟩) acc y
      = acc y + blockSum (idxB V c) (V c main_v9_0) (2304 * (n / 695) + (y 0).val) n ⟨(y 1).val, idx2_lt1 y⟩ := by
  obtain ⟨p, j, rfl⟩ : ∃ (p : Fin 2304) (j : Fin 64), y = ix2 p j := ⟨y 0, y 1, eq_ix2 y⟩
  rw [pay6_apply, coords2_0_val]
  refine congrArg (acc (ix2 p j) + ·) (Finset.sum_congr rfl fun m _ => ?_)
  rw [iblk2_0_apply, iblk2_2_apply]
  rfl

theorem step2_apply (c : Dev nD) (n : ℕ) (hn : n < cfg2.N) (acc : Vec Ideal S2304x64 .f32) (y : S2304x64.Idx) :
    k2_pay1 (k2_pay7 (grid2.coords ⟨n, hn⟩) (iblk2 V c 1 ⟨n, hn⟩) (iblk2 V c 3 ⟨n, hn⟩) acc) y
      = acc y + blockSum (idxA V c) (V c main_v9_1) (2304 * (n / 695) + (y 0).val) n ⟨(y 1).val, idx2_lt1 y⟩ := by
  obtain ⟨p, j, rfl⟩ : ∃ (p : Fin 2304) (j : Fin 64), y = ix2 p j := ⟨y 0, y 1, eq_ix2 y⟩
  rw [pay1_eq, pay7_apply, coords2_0_val]
  refine congrArg (acc (ix2 p j) + ·) (Finset.sum_congr rfl fun m _ => ?_)
  rw [iblk2_1_apply, iblk2_3_apply]
  rfl

theorem acc1_apply (c : Dev nD) (t : Fin cfg2.N) (ht : t.val % 695 = 694) (p : Fin 2304) (j : Fin 64) :
    (accs2 V c t.val t.isLt).1 (ix2 p j)
      = Cert.Spec.segSum (n := 101376) (idxB V c) (V c main_v9_0)
          (ix2 (⟨2304 * (t.val / 695) + p.val, by have hN := N_2'; have := t.isLt; omega⟩ : Fin 101376) j) := by
  have hN := N_2'
  refine (fold_run (fun n h => (accs2 V c n h).1) (fun n h acc => k2_pay6 (grid2.coords ⟨n, h⟩) (iblk2 V c 0 ⟨n, h⟩) (iblk2 V c 2 ⟨n, h⟩) acc) (k2_pay3 (F := Ideal))
    (fun n y => blockSum (idxB V c) (V c main_v9_0) (2304 * (n / 695) + (y 0).val) n ⟨(y 1).val, idx2_lt1 y⟩)
    pay3_apply (fun n h hm => congrArg Prod.fst (accs2_reset V c n h hm)) (fun n h hm => congrArg Prod.fst (accs2_step V c n h hm))
    (step1_apply V c) t.val t.isLt (ix2 p j)).trans ?_
  rw [ht]
  exact run_sum (idxB V c) (V c main_v9_0) (t.val / 695) (by have := t.isLt; omega) p j

theorem acc2_apply (c : Dev nD) (t : Fin cfg2.N) (ht : t.val % 695 = 694) (p : Fin 2304) (j : Fin 64) :
    (accs2 V c t.val t.isLt).2 (ix2 p j)
      = Cert.Spec.segSum (n := 101376) (idxA V c) (V c main_v9_1)
          (ix2 (⟨2304 * (t.val / 695) + p.val, by have hN := N_2'; have := t.isLt; omega⟩ : Fin 101376) j) := by
  have hN := N_2'
  refine (fold_run (fun n h => (accs2 V c n h).2) (fun n h acc => k2_pay1 (k2_pay7 (grid2.coords ⟨n, h⟩) (iblk2 V c 1 ⟨n, h⟩) (iblk2 V c 3 ⟨n, h⟩) acc)) (k2_pay4 (F := Ideal))
    (fun n y => blockSum (idxA V c) (V c main_v9_1) (2304 * (n / 695) + (y 0).val) n ⟨(y 1).val, idx2_lt1 y⟩)
    pay4_apply (fun n h hm => congrArg Prod.snd (accs2_reset V c n h hm)) (fun n h hm => congrArg Prod.snd (accs2_step V c n h hm))
    (step2_apply V c) t.val t.isLt (ix2 p j)).trans ?_
  rw [ht]
  exact run_sum (idxA V c) (V c main_v9_1) (t.val / 695) (by have := t.isLt; omega) p j

/-! ## From blocks to the array -/

/-- What kernel 2's output array ends holding. -/
abbrev G8 (c : Dev nD) : S101376x64.Idx → EReal :=
  Cert.Spec.dense
    (Cert.Spec.aggregate (V c main_v2_0 : S101376x64.Idx → EReal) (idxA V c) (idxB V c)
      (V c main_v9_0 : S1601280x64.Idx → EReal) (V c main_v9_1 : S1601280x64.Idx → EReal))
    (V c main_v1 : S101376x1.Idx → EReal) (V c main_arg4 : S64x64.Idx → EReal)
    (fun j : Fin 64 => (V c main_v10 : S1x64.Idx → EReal) (ix2 (0 : Fin 1) j))

/-- Where row `p`, column `j` of the output block at point `t` sits in the array. -/
theorem emb2_8 (t : Fin cfg2.N) (p : Fin 2304) (j : Fin 64) :
    ((cfg2.win 8).blk t).view.emb (ix2 p j)
      = (ix2 (⟨2304 * (t.val / 695) + p.val, by have hN := N_2'; have := t.isLt; omega⟩ : Fin 101376) j : S101376x64.Idx) := by
  funext a; apply Fin.ext
  have h0 : win2_8.index t 0 = _ := congrFun (index2_8 t) 0
  have h1 : win2_8.index t 1 = _ := congrFun (index2_8 t) 1
  match a with
  | ⟨0, _⟩ => show win2_8.index t 0 * 2304 + 1 * p.val = 2304 * (t.val / 695) + p.val; rw [h0]; show t.val / 695 * 2304 + 1 * p.val = _; omega
  | ⟨1, _⟩ => show win2_8.index t 1 * 64 + 1 * j.val = j.val; rw [h1]; show 0 * 64 + 1 * j.val = _; omega

/-- The last point of a run writes back its block of that array. -/
theorem flushed2_8_eq (c : Dev nD) (t : Fin cfg2.N) (hf : (cfg2.win 8).flush t = true) :
    (dat2 V c).flushed 8 t = ((cfg2.win 8).blk t).view.read (Elt Ideal) (G8 V c) := by
  have ht : t.val % 695 = 694 := (flush2_8 t).mp hf
  show (cfg2.win 8).cut (grid2.coords t) ((dat2 V c).after 8 t) = _
  rw [after2_8]
  funext y
  obtain ⟨p, j, rfl⟩ : ∃ (p : Fin 2304) (j : Fin 64), y = ix2 p j := ⟨y 0, y 1, eq_ix2 y⟩
  rw [View.read_apply]
  show k2_pay2 (F := Ideal) _ _ _ _ _ _ (ix2 p j) = G8 V c (((cfg2.win 8).blk t).view.emb (ix2 p j))
  rw [emb2_8, pay2_apply, iblk2_7_apply]
  unfold G8 Cert.Spec.dense Cert.Spec.aggregate
  refine congrArg (fun z => max (z + (V c main_v10 : S1x64.Idx → EReal) (ix2 (0 : Fin 1) j)) 0) (Finset.sum_congr rfl fun d _ => ?_)
  rw [iblk2_4_apply, iblk2_5_apply, iblk2_6_apply, acc1_apply V c t ht, acc2_apply V c t ht]

/-- Every row of the array lies in the block of the last point of its run. -/
theorem cover2_8 (i : S101376x64.Idx) :
    ∃ t : Fin cfg2.N, (cfg2.win 8).flush t = true ∧ i ∈ ((cfg2.win 8).blk t).view.set := by
  have hN := N_2'
  have hi0 : (i 0).val < 101376 := idx2_lt0 i
  have hi1 : (i 1).val < 64 := idx2_lt1 i
  have hlt : 695 * ((i 0).val / 2304) + 694 < cfg2.N := by omega
  have hmod : (695 * ((i 0).val / 2304) + 694) % 695 = 694 := by omega
  have hdiv : (695 * ((i 0).val / 2304) + 694) / 695 = (i 0).val / 2304 := by omega
  refine ⟨⟨695 * ((i 0).val / 2304) + 694, hlt⟩, (flush2_8 _).mpr hmod, ?_⟩
  show i ∈ ((View.whole main_v11).slice (win2_8.rect ⟨695 * ((i 0).val / 2304) + 694, hlt⟩)).set
  rw [View.set_slice_whole, Rect.mem_set_unit]
  intro a
  have h0 : win2_8.index ⟨695 * ((i 0).val / 2304) + 694, hlt⟩ 0 = (695 * ((i 0).val / 2304) + 694) / 695 := congrFun (index2_8 _) 0
  have h1 : win2_8.index ⟨695 * ((i 0).val / 2304) + 694, hlt⟩ 1 = 0 := congrFun (index2_8 _) 1
  match a with
  | ⟨0, _⟩ =>
    show win2_8.index ⟨695 * ((i 0).val / 2304) + 694, hlt⟩ 0 * 2304 ≤ (i 0).val ∧ (i 0).val < win2_8.index ⟨695 * ((i 0).val / 2304) + 694, hlt⟩ 0 * 2304 + 2304
    rw [h0, hdiv]; omega
  | ⟨1, _⟩ =>
    show win2_8.index ⟨695 * ((i 0).val / 2304) + 694, hlt⟩ 1 * 64 ≤ (i 1).val ∧ (i 1).val < win2_8.index ⟨695 * ((i 0).val / 2304) + 694, hlt⟩ 1 * 64 + 64
    rw [h1]; omega

theorem final2_8 (c : Dev nD) :
    ((dat2 V c).arrAt 8 cfg2.N : S101376x64.Idx → EReal)
      = Cert.Spec.dense
          (Cert.Spec.aggregate (V c main_v2_0 : S101376x64.Idx → EReal)
            (fun q : Fin 1601280 => (V c main_v7 : S1x1601280.Idx → BitVec 32) (ix2 (0 : Fin 1) q))
            (fun q : Fin 1601280 => (V c main_v8 : S1x1601280.Idx → BitVec 32) (ix2 (0 : Fin 1) q))
            (V c main_v9_0 : S1601280x64.Idx → EReal) (V c main_v9_1 : S1601280x64.Idx → EReal))
          (V c main_v1 : S101376x1.Idx → EReal) (V c main_arg4 : S64x64.Idx → EReal)
          (fun j : Fin 64 => (V c main_v10 : S1x64.Idx → EReal) (ix2 (0 : Fin 1) j)) :=
  (dat2 V c).arrAt_eq_of_cover 8 (G8 V c) (flushed2_8_eq V c) cover2_8

end Cert.KernelIdeal.HandValue

end
-- ==== Proof.KI.ValueAll.lean ====
import proofs.«425878_j39771397161472_2_alg».proof.Proof.KI.ValueHost
import proofs.«425878_j39771397161472_2_alg».proof.Proof.KI.Value0
import proofs.«425878_j39771397161472_2_alg».proof.Proof.KI.Value1
import proofs.«425878_j39771397161472_2_alg».proof.Proof.KI.Value2

set_option maxRecDepth 16384

noncomputable section

namespace Cert.KernelIdeal.HandValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand
open Cert.KernelIdeal.HandValue.V0 Cert.KernelIdeal.HandValue.V1

/-! # The result buffer of the idealized kernel program is the layer of its arguments

Kernel 0 scales the padded table; kernel 1 gathers its rows along both padded index vectors; kernel 2 sums the
gathered rows per node, adds the table, and applies the dense layer; the host cuts the padding rows off. With the
index words in range the padding is invisible. -/

variable (m : (ℓ : Loc nD τ sig) → Buf (Elt Ideal) ℓ)

theorem result_value (c : Dev nD)
    (ha : ∀ q : Fin 1600000, (((m ((c : Thread nD τ).loc main_arg2)) : S1600000.Idx → BitVec 32) (ix1 q)).toNat < 100000)
    (hb : ∀ q : Fin 1600000, (((m ((c : Thread nD τ).loc main_arg3)) : S1600000.Idx → BitVec 32) (ix1 q)).toNat < 100000) :
    (V14 m (outs m) c main_v12 : S100000x64.Idx → EReal)
      = Cert.Spec.layer ((m ((c : Thread nD τ).loc main_arg0)) : S100000x64.Idx → EReal) ((m ((c : Thread nD τ).loc main_arg1)) : S100000x1.Idx → EReal)
          (fun q : Fin 1600000 => ((m ((c : Thread nD τ).loc main_arg2)) : S1600000.Idx → BitVec 32) (ix1 q)) (fun q : Fin 1600000 => ((m ((c : Thread nD τ).loc main_arg3)) : S1600000.Idx → BitVec 32) (ix1 q)) ((m ((c : Thread nD τ).loc main_arg4)) : S64x64.Idx → EReal)
          (fun j : Fin 64 => ((m ((c : Thread nD τ).loc main_arg5)) : S64.Idx → EReal) (ix1 j)) := by
  rw [v14_v12, final2_8 (Vent2 m) c, vent2_v2_0, vent2_v9_0, vent2_v9_1, vent2_v1, vent2_arg4,
    final0_2 (Vent0 m) c, final1_3 (Vent1 m) c, final1_4 (Vent1 m) c, vent1_v2_1, final0_3 (Vent0 m) c, vent0_v0, vent0_v1]
  rw [show (fun q : Fin 1601280 => (Vent1 m c main_v5 : S1601280x1.Idx → BitVec 32) (ix2 q (0 : Fin 1))) = _ from funext fun q => vent1_v5 m c q,
    show (fun q : Fin 1601280 => (Vent1 m c main_v6 : S1601280x1.Idx → BitVec 32) (ix2 q (0 : Fin 1))) = _ from funext fun q => vent1_v6 m c q,
    show (fun q : Fin 1601280 => (Vent2 m c main_v7 : S1x1601280.Idx → BitVec 32) (ix2 (0 : Fin 1) q)) = _ from funext fun q => vent2_v7 m c q,
    show (fun q : Fin 1601280 => (Vent2 m c main_v8 : S1x1601280.Idx → BitVec 32) (ix2 (0 : Fin 1) q)) = _ from funext fun q => vent2_v8 m c q,
    show (fun j : Fin 64 => (Vent2 m c main_v10 : S1x64.Idx → EReal) (ix2 (0 : Fin 1) j)) = _ from funext fun j => vent2_v10 m c j]
  exact Cert.Spec.layer_pad (n := 100000) (n' := 101376) (e := 1600000) (e' := 1601280) (by decide) (by decide) _ _ _ _ _ _
    101376#32 (by decide) ha hb

end Cert.KernelIdeal.HandValue

end
-- ==== Proof.LibTake.lean ====
/-
  Reading rows of a table at in-range positions. A take along the first axis of a table with N rows prints, for a
  vector of 32-bit positions, as: the positions with N added where negative (w); w as a column (v); a mask that is set
  at a row exactly when 0 ≤ v ≤ N - 1 there, signed; the gather of the table's rows at v; and a select that keeps a
  gathered row where the mask is set and writes a constant (a NaN) where it is not. Plain indexing `x[idx]` prints the
  same w and v and then the gather alone.

  When every position, read unsigned, is below N and N ≤ 2³¹ — that is, every position read as a signed integer lies in
  [0, N) — no position is negative, so w is the positions themselves; every mask bit is set, so the select keeps every
  gathered row; and the two programs' results are the same gather. All of this is pointwise in the positions and does
  not depend on the shapes involved, on which axes the broadcasts and the reduction run along, or on what the gather
  reads, so it is stated once at arbitrary shapes and evidence.
-/
import Idealize.ShloMosaic.Lib.StableHlo.Predicate
import Idealize.ShloMosaic.Lib.ReduceAll

namespace LibTake

open Idealize.ShloMosaic

/-- Every entry of an array of 32-bit words, read unsigned, is below `N`. For `N ≤ 2³¹`: every entry, read as a signed
    integer, lies in `[0, N)`. -/
def InRange {s : Shape} (N : ℕ) (idx : IVec s 32) : Prop := ∀ i, (idx i).toNat < N

theorem InRange.mono {s : Shape} {N M : ℕ} {idx : IVec s 32} (h : InRange N idx) (hNM : N ≤ M) : InRange M idx :=
  fun i => Nat.lt_of_lt_of_le (h i) hNM

/-! ## Words -/

/-- A word below 2³¹ is not negative: the signed "less than zero" is not set. -/
theorem slt_zero_ne_one {a : BitVec 32} (ha : a.toNat < 2 ^ 31) : IntOp.cmpi .slt a 0#32 ≠ 1#1 := fun h => by
  have h' := (StableHlo.Predicate.slt_iff_toNat ha (by decide)).1 h
  simp at h'

/-- A word below 2³¹ is at least zero, signed. -/
theorem sge_zero_eq_one {a : BitVec 32} (ha : a.toNat < 2 ^ 31) : IntOp.cmpi .sge a 0#32 = 1#1 :=
  (StableHlo.Predicate.sge_iff_toNat ha (by decide)).2 (by simp)

/-- Two words below 2³¹ compare signed as they do unsigned. -/
theorem sle_eq_one {a hi : BitVec 32} (hhi : hi.toNat < 2 ^ 31) (h : a.toNat ≤ hi.toNat) : IntOp.cmpi .sle a hi = 1#1 :=
  (StableHlo.Predicate.sle_iff_toNat (Nat.lt_of_le_of_lt h hhi) hhi).2 h

/-- A word that is at least zero, signed, is below 2³¹. -/
theorem toNat_lt_of_sge_zero {w : BitVec 32} (h : IntOp.cmpi .sge w 0#32 = 1#1) : w.toNat < 2 ^ 31 := by
  unfold IntOp.cmpi at h
  rw [StableHlo.Predicate.ofBool_eq_one_iff] at h
  have h' : (0#32).toInt ≤ w.toInt := by simpa [BitVec.sle] using h
  have h0 : (0#32).toInt = 0 := by decide
  rw [h0] at h'
  have hw := BitVec.toInt_eq_toNat_cond w
  have := w.isLt
  split at hw <;> omega

/-- A word in `[0, b)` signed, for a bound `b` below 2³¹, is below `b` unsigned. -/
theorem toNat_lt_of_signed {w b : BitVec 32} (hb : b.toNat < 2 ^ 31) (h0 : IntOp.cmpi .sge w 0#32 = 1#1)
    (h1 : IntOp.cmpi .slt w b = 1#1) : w.toNat < b.toNat :=
  (StableHlo.Predicate.slt_iff_toNat (toNat_lt_of_sge_zero h0) hb).1 h1

/-- The range test read back: positions that pass "≥ 0" and "< b" at every index, signed, against constant arrays of
    zeros and of a bound `b` below 2³¹ with value `N`, are in range. -/
theorem InRange.of_compares {s : Shape} {N : ℕ} {idx lo hi : IVec s 32} {b : BitVec 32} (hb : b.toNat < 2 ^ 31)
    (hbN : b.toNat = N) (hlo : ∀ i, lo i = 0#32) (hhi : ∀ i, hi i = b)
    (h0 : ∀ i, cmpi .sge idx lo i = 1#1) (h1 : ∀ i, cmpi .slt idx hi i = 1#1) : InRange N idx := fun i => by
  have e0 : IntOp.cmpi .sge (idx i) 0#32 = 1#1 := by rw [← hlo i]; exact h0 i
  have e1 : IntOp.cmpi .slt (idx i) b = 1#1 := by rw [← hhi i]; exact h1 i
  rw [← hbN]
  exact toNat_lt_of_signed hb e0 e1

/-! ## A mask of ones -/

/-- A left fold by `and` from 1 over 1s is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- A reduction by `and` from 1 of an array of 1s is 1 at every result index, along whatever axes. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  rw [Host.reduce_eq_foldl, hinit]
  exact foldl_andi_ones x hx _

/-- A select whose condition is set everywhere is its first branch. -/
theorem select_ones {α : Type} {s : Shape} (c : IVec s 1) (hc : ∀ i, c i = 1#1) (a b : s.Idx → α) : select c a b = a := by
  funext i
  have h1 : c i = 1 := hc i
  show (if c i = 1 then a i else b i) = a i
  rw [if_pos h1]

/-- A select whose condition is set nowhere is its second branch. -/
theorem select_not_ones {α : Type} {s : Shape} (c : IVec s 1) (hc : ∀ i, c i ≠ 1#1) (a b : s.Idx → α) : select c a b = b := by
  funext i
  have h1 : ¬ c i = 1 := hc i
  show (if c i = 1 then a i else b i) = b i
  rw [if_neg h1]

/-! ## The printed take -/

section Take

variable {α : Type} {sx si sv sm so sc s1 s11 su : Shape}

/-- The wrapped positions: where every position is below 2³¹ (not negative), "add N where negative" changes nothing. -/
theorem wrap_eq (d0 : Fin sc.rank → Fin si.rank) (h0 : sc.BroadcastsInDim si d0) (idx add : IVec si 32)
    (hidx : InRange (2 ^ 31) idx) :
    select (cmpi .slt idx (broadcastInDim si d0 h0 (constantI sc 32 0#32))) (addi idx add) idx = idx :=
  select_not_ones _ (fun i => slt_zero_ne_one (hidx i)) _ _

/-- The bounds mask over a column `v` of positions all at most `hi` (itself below 2³¹): set everywhere. -/
theorem mask_eq_one (d6 : Fin sc.rank → Fin sv.rank) (h6 : sc.BroadcastsInDim sv d6)
    (d8 : Fin s1.rank → Fin s11.rank) (h8 : s1.BroadcastsInDim s11 d8)
    (d9 : Fin s11.rank → Fin sv.rank) (h9 : s11.BroadcastsInDim sv d9)
    {axes : List (Fin sv.rank)} (hr : sv.ReducesTo axes sm) (hu : 0 < su.numel)
    (v : IVec sv 32) (hi : BitVec 32) (hhi : hi.toNat < 2 ^ 31) (hv : ∀ i, (v i).toNat ≤ hi.toNat) (j : sm.Idx) :
    Host.reduce IntOp.andi
      (andi (cmpi .sge v (broadcastInDim sv d6 h6 (constantI sc 32 0#32)))
            (cmpi .sle v (broadcastInDim sv d9 h9 (broadcastInDim s11 d8 h8 (constantI s1 32 hi)))))
      (constantI su 1 1#1) hr hu j = 1#1 :=
  reduce_andi_ones _ _ hr hu
    (fun i => IntOp.andi_eq_one.2 ⟨sge_zero_eq_one (Nat.lt_of_le_of_lt (hv i) hhi), sle_eq_one hhi (hv i)⟩)
    (fun _ => rfl) j

/-- THE TAKE, the positions left as printed. With every position in `[0, N)` and `hi = N - 1` the masked gather is
    the gather: the same term with the mask, its broadcast, the constant and the select removed. -/
theorem take_eq_gather {N : ℕ} (G : GatherDims sx sv so) (x : sx.Idx → α) (nanv : so.Idx → α)
    (d0 : Fin sc.rank → Fin si.rank) (h0 : sc.BroadcastsInDim si d0)
    (d5 : Fin si.rank → Fin sv.rank) (h5 : si.BroadcastsInDim sv d5)
    (d6 : Fin sc.rank → Fin sv.rank) (h6 : sc.BroadcastsInDim sv d6)
    (d8 : Fin s1.rank → Fin s11.rank) (h8 : s1.BroadcastsInDim s11 d8)
    (d9 : Fin s11.rank → Fin sv.rank) (h9 : s11.BroadcastsInDim sv d9)
    {axes : List (Fin sv.rank)} (hr : sv.ReducesTo axes sm) (hu : 0 < su.numel)
    (dm : Fin sm.rank → Fin so.rank) (hm : sm.BroadcastsInDim so dm)
    (idx add : IVec si 32) (hi : BitVec 32) (hN : N ≤ 2 ^ 31) (hhi : hi.toNat + 1 = N) (hidx : InRange N idx) :
    select
      (broadcastInDim so dm hm (Host.reduce IntOp.andi
        (andi
          (cmpi .sge
            (broadcastInDim sv d5 h5 (select (cmpi .slt idx (broadcastInDim si d0 h0 (constantI sc 32 0#32))) (addi idx add) idx))
            (broadcastInDim sv d6 h6 (constantI sc 32 0#32)))
          (cmpi .sle
            (broadcastInDim sv d5 h5 (select (cmpi .slt idx (broadcastInDim si d0 h0 (constantI sc 32 0#32))) (addi idx add) idx))
            (broadcastInDim sv d9 h9 (broadcastInDim s11 d8 h8 (constantI s1 32 hi)))))
        (constantI su 1 1#1) hr hu))
      (Host.gather G x
        (broadcastInDim sv d5 h5 (select (cmpi .slt idx (broadcastInDim si d0 h0 (constantI sc 32 0#32))) (addi idx add) idx)))
      nanv
    = Host.gather G x
        (broadcastInDim sv d5 h5 (select (cmpi .slt idx (broadcastInDim si d0 h0 (constantI sc 32 0#32))) (addi idx add) idx)) := by
  have hle : ∀ k, (idx k).toNat ≤ hi.toNat := fun k => by have := hidx k; omega
  rw [wrap_eq d0 h0 idx add (hidx.mono hN)]
  exact select_ones _ (fun j => mask_eq_one d6 h6 d8 h8 d9 h9 hr hu _ hi (by omega) (fun i => hle _) _) _ _

/-- THE TAKE, read at the positions themselves: the masked gather at in-range positions is the gather of the table at the
    column of positions. -/
theorem take_eq_gather_idx {N : ℕ} (G : GatherDims sx sv so) (x : sx.Idx → α) (nanv : so.Idx → α)
    (d0 : Fin sc.rank → Fin si.rank) (h0 : sc.BroadcastsInDim si d0)
    (d5 : Fin si.rank → Fin sv.rank) (h5 : si.BroadcastsInDim sv d5)
    (d6 : Fin sc.rank → Fin sv.rank) (h6 : sc.BroadcastsInDim sv d6)
    (d8 : Fin s1.rank → Fin s11.rank) (h8 : s1.BroadcastsInDim s11 d8)
    (d9 : Fin s11.rank → Fin sv.rank) (h9 : s11.BroadcastsInDim sv d9)
    {axes : List (Fin sv.rank)} (hr : sv.ReducesTo axes sm) (hu : 0 < su.numel)
    (dm : Fin sm.rank → Fin so.rank) (hm : sm.BroadcastsInDim so dm)
    (idx add : IVec si 32) (hi : BitVec 32) (hN : N ≤ 2 ^ 31) (hhi : hi.toNat + 1 = N) (hidx : InRange N idx) :
    select
      (broadcastInDim so dm hm (Host.reduce IntOp.andi
        (andi
          (cmpi .sge
            (broadcastInDim sv d5 h5 (select (cmpi .slt idx (broadcastInDim si d0 h0 (constantI sc 32 0#32))) (addi idx add) idx))
            (broadcastInDim sv d6 h6 (constantI sc 32 0#32)))
          (cmpi .sle
            (broadcastInDim sv d5 h5 (select (cmpi .slt idx (broadcastInDim si d0 h0 (constantI sc 32 0#32))) (addi idx add) idx))
            (broadcastInDim sv d9 h9 (broadcastInDim s11 d8 h8 (constantI s1 32 hi)))))
        (constantI su 1 1#1) hr hu))
      (Host.gather G x
        (broadcastInDim sv d5 h5 (select (cmpi .slt idx (broadcastInDim si d0 h0 (constantI sc 32 0#32))) (addi idx add) idx)))
      nanv
    = Host.gather G x (broadcastInDim sv d5 h5 idx) := by
  rw [take_eq_gather G x nanv d0 h0 d5 h5 d6 h6 d8 h8 d9 h9 hr hu dm hm idx add hi hN hhi hidx,
    wrap_eq d0 h0 idx add (hidx.mono hN)]

/-- Plain indexing at in-range positions: the gather at the wrapped positions is the gather at the positions. -/
theorem index_eq_gather_idx {N : ℕ} (G : GatherDims sx sv so) (x : sx.Idx → α)
    (d0 : Fin sc.rank → Fin si.rank) (h0 : sc.BroadcastsInDim si d0)
    (d5 : Fin si.rank → Fin sv.rank) (h5 : si.BroadcastsInDim sv d5)
    (idx add : IVec si 32) (hN : N ≤ 2 ^ 31) (hidx : InRange N idx) :
    Host.gather G x
        (broadcastInDim sv d5 h5 (select (cmpi .slt idx (broadcastInDim si d0 h0 (constantI sc 32 0#32))) (addi idx add) idx))
    = Host.gather G x (broadcastInDim sv d5 h5 idx) := by
  rw [wrap_eq d0 h0 idx add (hidx.mono hN)]

end Take

end LibTake
-- ==== Proof.LibPoolScatter.lean ====
/-
  A row scatter-add is a sum per segment.

  A host scatter-add whose updates are the `N` rows of an `N × C` array, row `n` added into row `idx n` of a `G × C`
  operand (update axis 1 a window axis, operand axis 0 scattered and inserted, the index vector on axis 1 of the
  `N × 1` indices), leaves at `(g, j)`, at the exact values, the operand's entry plus the sum of `upd n j` over the rows
  `n` whose index word, read signed, is `g`. Update entry `(n, j')` lands at `(idx n read signed, j')` when that row lies
  in `[0, G)` and nowhere otherwise; the column is never moved. So the update entries landing at `(g, j)` are the entries
  `(n, j)` of the rows with index word `g`, and the filtered sum over the `N × C` update indices is a sum over rows.
-/
import Idealize.ShloMosaic.PureOps.Ideal
import Idealize.ShloMosaic.Lib.ValueIdx

noncomputable section

namespace Cert.LibPoolScatter

open Idealize.ShloMosaic Idealize.ShloMosaic.ValueIdx

/-- The dimension numbers of a row scatter: updates `N × C` into an operand `G × C`, indices `N × 1`; the update's
    axis 1 is a window axis, the operand's axis 0 is scattered and inserted, the index vector lies on axis 1. -/
abbrev rowDims (G N C : Nat) (wf : ScatterDims.WF ⟨2, ![G, C]⟩ ⟨2, ![N, 1]⟩ ⟨2, ![N, C]⟩ [1] [0] [0] 1) :
    ScatterDims ⟨2, ![G, C]⟩ ⟨2, ![N, 1]⟩ ⟨2, ![N, C]⟩ where
  updateWindowDims := [1]
  insertedWindowDims := [0]
  scatterDimsToOperandDims := [0]
  indexVectorDim := 1
  wf := wf

variable {G N C w : Nat} (wf : ScatterDims.WF ⟨2, ![G, C]⟩ ⟨2, ![N, 1]⟩ ⟨2, ![N, C]⟩ [1] [0] [0] 1)

/-- On the scattered axis the window starts at the index word of the update's row, read signed. -/
theorem rowDims_start0 (j : (⟨2, ![N, C]⟩ : Shape).Idx) (idx : IVec ⟨2, ![N, 1]⟩ w) :
    (rowDims G N C wf).start j idx (0 : Fin 2) = (idx (ix2 (j 0) 0)).toInt := by
  unfold ScatterDims.start
  have h : (0 : Fin 2) ∈ (rowDims G N C wf).scatterDimsToOperandDims := by
    show (0 : Fin 2) ∈ [(0 : Fin 2)]
    exact List.mem_singleton.2 rfl
  rw [dif_pos h]
  congr 2
  funext b
  match b with
  | ⟨0, _⟩ => rfl
  | ⟨1, _⟩ => rfl

/-- On the window axis the start is zero: the index map does not name it. -/
theorem rowDims_start1 (j : (⟨2, ![N, C]⟩ : Shape).Idx) (idx : IVec ⟨2, ![N, 1]⟩ w) :
    (rowDims G N C wf).start j idx (1 : Fin 2) = 0 := by
  unfold ScatterDims.start
  have h : ¬ (1 : Fin 2) ∈ (rowDims G N C wf).scatterDimsToOperandDims := by
    show ¬ (1 : Fin 2) ∈ [(0 : Fin 2)]
    decide
  rw [dif_neg h]

/-- The scattered axis is an inserted one: its window coordinate is zero. -/
theorem rowDims_window0 (j : (⟨2, ![N, C]⟩ : Shape).Idx) :
    (rowDims G N C wf).window j (0 : Fin 2) = 0 := by
  unfold ScatterDims.window
  have h : ¬ (0 : Fin 2) ∈ (rowDims G N C wf).sKept := by
    show ¬ (0 : Fin 2) ∈ [(1 : Fin 2)]
    decide
  rw [dif_neg h]

/-- On the window axis the window coordinate is the update's column. -/
theorem rowDims_window1 (j : (⟨2, ![N, C]⟩ : Shape).Idx) :
    (rowDims G N C wf).window j (1 : Fin 2) = (j 1).val := by
  unfold ScatterDims.window
  have h : (1 : Fin 2) ∈ (rowDims G N C wf).sKept := by
    show (1 : Fin 2) ∈ [(1 : Fin 2)]
    exact List.mem_singleton.2 rfl
  rw [dif_pos h]
  rfl

/-- WHERE AN UPDATE LANDS. Update entry `(n, j')` lands at `(g, j)` exactly when row `n`'s index word, read signed,
    is `g` and the columns agree: the landing row is the signed word itself (the start plus a zero window coordinate),
    kept only when it lies in `[0, G)`, and the landing column is `j'` (a zero start plus the column), always inside. -/
theorem rowDims_resultIdx (n : Fin N) (j' : Fin C) (idx : IVec ⟨2, ![N, 1]⟩ w) (g : Fin G) (j : Fin C) :
    (rowDims G N C wf).resultIdx? (ix2 n j') idx = some (ix2 g j)
      ↔ ((idx (ix2 n 0)).toInt = (g.val : Int) ∧ j' = j) := by
  have hs0 : (rowDims G N C wf).start (ix2 n j') idx (0 : Fin 2) = (idx (ix2 n 0)).toInt :=
    rowDims_start0 wf (ix2 n j') idx
  have hs1 : (rowDims G N C wf).start (ix2 n j') idx (1 : Fin 2) = 0 := rowDims_start1 wf (ix2 n j') idx
  have hw0 : (rowDims G N C wf).window (ix2 n j') (0 : Fin 2) = 0 := rowDims_window0 wf (ix2 n j')
  have hw1 : (rowDims G N C wf).window (ix2 n j') (1 : Fin 2) = j'.val := rowDims_window1 wf (ix2 n j')
  have hg : g.val < G := g.isLt
  have hj' : j'.val < C := j'.isLt
  generalize (idx (ix2 n 0)).toInt = t at hs0 ⊢
  unfold ScatterDims.resultIdx?
  split
  · rename_i h
    have h0 : 0 ≤ (rowDims G N C wf).start (ix2 n j') idx (0 : Fin 2) + (rowDims G N C wf).window (ix2 n j') (0 : Fin 2)
        ∧ (rowDims G N C wf).start (ix2 n j') idx (0 : Fin 2) + (rowDims G N C wf).window (ix2 n j') (0 : Fin 2)
            < ((G : ℕ) : Int) := h 0
    rw [hs0, hw0] at h0
    rw [Option.some.injEq]
    constructor
    · intro hf
      have e0 := congrArg Fin.val (congrFun hf (0 : Fin 2))
      have e1 := congrArg Fin.val (congrFun hf (1 : Fin 2))
      change ((rowDims G N C wf).start (ix2 n j') idx (0 : Fin 2)
        + (rowDims G N C wf).window (ix2 n j') (0 : Fin 2)).toNat = g.val at e0
      change ((rowDims G N C wf).start (ix2 n j') idx (1 : Fin 2)
        + (rowDims G N C wf).window (ix2 n j') (1 : Fin 2)).toNat = j.val at e1
      rw [hs0, hw0] at e0
      rw [hs1, hw1] at e1
      refine ⟨by omega, Fin.ext (by omega)⟩
    · rintro ⟨ht, rfl⟩
      funext a
      match a with
      | ⟨0, _⟩ =>
        apply Fin.ext
        show ((rowDims G N C wf).start (ix2 n j') idx (0 : Fin 2)
          + (rowDims G N C wf).window (ix2 n j') (0 : Fin 2)).toNat = g.val
        rw [hs0, hw0]; omega
      | ⟨1, _⟩ =>
        apply Fin.ext
        show ((rowDims G N C wf).start (ix2 n j') idx (1 : Fin 2)
          + (rowDims G N C wf).window (ix2 n j') (1 : Fin 2)).toNat = j'.val
        rw [hs1, hw1]; omega
  · rename_i h
    constructor
    · intro hf; cases hf
    · rintro ⟨ht, rfl⟩
      exfalso
      apply h
      intro a
      match a with
      | ⟨0, _⟩ =>
        show 0 ≤ (rowDims G N C wf).start (ix2 n j') idx (0 : Fin 2) + (rowDims G N C wf).window (ix2 n j') (0 : Fin 2)
          ∧ (rowDims G N C wf).start (ix2 n j') idx (0 : Fin 2) + (rowDims G N C wf).window (ix2 n j') (0 : Fin 2)
              < ((G : ℕ) : Int)
        rw [hs0, hw0]; omega
      | ⟨1, _⟩ =>
        show 0 ≤ (rowDims G N C wf).start (ix2 n j') idx (1 : Fin 2) + (rowDims G N C wf).window (ix2 n j') (1 : Fin 2)
          ∧ (rowDims G N C wf).start (ix2 n j') idx (1 : Fin 2) + (rowDims G N C wf).window (ix2 n j') (1 : Fin 2)
              < ((C : ℕ) : Int)
        rw [hs1, hw1]; omega

/-- A ROW SCATTER-ADD IS A SUM PER SEGMENT. At `(g, j)` the result is the operand's entry plus the sum of `upd (n, j)`
    over the rows `n` whose index word, read signed, is `g`: the sum over the update entries landing at `(g, j)`, split
    into rows and columns, keeps in row `n` only column `j`, and only when the row's word is `g`. -/
theorem hostScatterAdd_rowDims_apply (x : (⟨2, ![G, C]⟩ : Shape).Idx → EReal) (idx : IVec ⟨2, ![N, 1]⟩ w)
    (upd : (⟨2, ![N, C]⟩ : Shape).Idx → EReal) (g : Fin G) (j : Fin C) :
    Ideal.hostScatterAdd (rowDims G N C wf) x idx upd (ix2 g j)
      = x (ix2 g j) + ∑ n : Fin N, if (idx (ix2 n 0)).toInt = (g.val : Int) then upd (ix2 n j) else 0 := by
  unfold Ideal.hostScatterAdd
  congr 1
  rw [Finset.sum_filter, sum_idx2]
  refine Finset.sum_congr rfl fun n _ => ?_
  simp only [rowDims_resultIdx wf]
  by_cases ht : (idx (ix2 n 0)).toInt = (g.val : Int)
  · simp only [ht, true_and, if_true]
    rw [Finset.sum_ite_eq' Finset.univ j (fun j' => upd (ix2 n j'))]
    simp only [Finset.mem_univ, if_true]
  · simp only [ht, false_and, if_false]
    exact Finset.sum_const_zero

end Cert.LibPoolScatter

end
-- ==== Proof.Ref.lean ====
import proofs.«425878_j39771397161472_2_alg».proof.Proof.Gen.ReferenceIdeal.Run
import proofs.«425878_j39771397161472_2_alg».proof.Proof.Gen.ReferenceIdeal.Read
import proofs.«425878_j39771397161472_2_alg».proof.Proof.Spec
import proofs.«425878_j39771397161472_2_alg».proof.Proof.LibTake
import proofs.«425878_j39771397161472_2_alg».proof.Proof.LibPoolScatter
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

/-! # The reference program computes the layer

With every index word in range a wrapped index is the index, a row gather reads the named row, and a row
scatter-add into zeros is the per-node sum; the rest is read operation by operation. -/

namespace Cert.ReferenceIdeal.Hand

open Idealize.ShloMosaic Idealize.ShloMosaic.TcCoe Idealize.ShloMosaic.ValueIdx
open Idealize.SL Idealize.SL.Sem
open Cert.ReferenceIdeal Cert.ReferenceIdeal.Gen

/-! ## Row gathers and row scatter-adds, at any sizes -/

section Rows
variable {α : Type}

/-- The dimension numbers of a row gather: the operand `n × d`, the start indices an `e × 1` column, the result
    `e × d`; the operand's axis 0 is collapsed and indexed by the start index, the result's axis 1 is the offset axis
    running over a whole row (slice sizes `1 × d`), the index vector lies on axis 1. -/
abbrev rowGather (n e d : Nat) (wf : GatherDims.WF ⟨2, ![n, d]⟩ ⟨2, ![e, 1]⟩ ⟨2, ![e, d]⟩ [1] [0] [] [0] [] 1 ![1, d]) :
    GatherDims ⟨2, ![n, d]⟩ ⟨2, ![e, 1]⟩ ⟨2, ![e, d]⟩ where
  offsetDims := [1]
  collapsedSliceDims := [0]
  operandBatchingDims := []
  startIndicesBatchingDims := []
  startIndexMap := [0]
  indexVectorDim := 1
  sliceSizes := ![1, d]
  wf := wf

/-- THE ROW GATHER READ AT `(q, j)`: the operand at row "start index `q`, read signed and clamped into
    `[0, n − 1]`", column `j`. On axis 0 the operand index is the clamped start (no batching axis, the axis is
    collapsed so its offset is zero); on axis 1 the start is zero and the offset is the result's column. -/
theorem gather_rows_apply {n e d w : Nat} (hn : 0 < n)
    (wf : GatherDims.WF ⟨2, ![n, d]⟩ ⟨2, ![e, 1]⟩ ⟨2, ![e, d]⟩ [1] [0] [] [0] [] 1 ![1, d])
    (x : (⟨2, ![n, d]⟩ : Shape).Idx → α) (idx : IVec ⟨2, ![e, 1]⟩ w) (q : Fin e) (j : Fin d) :
    Host.gather (rowGather n e d wf) x idx (ix2 q j)
      = x (ix2 (⟨min (idx (ix2 q 0)).toInt.toNat (n - 1), by omega⟩ : Fin n) j) := by
  unfold Host.gather
  congr 1
  funext a
  refine Fin.ext ?_
  match a with
  | ⟨0, _⟩ =>
    show (rowGather n e d wf).start (ix2 q j) idx 0 + (rowGather n e d wf).batchCoord (ix2 q j) 0
      + (rowGather n e d wf).offCoord (ix2 q j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather n e d wf).startIndexMap from List.mem_singleton.mpr rfl)]
    have hsi : (rowGather n e d wf).siIdx (ix2 q j) ⟨List.idxOf (0 : Fin 2) (rowGather n e d wf).startIndexMap,
        List.idxOf_lt_length_iff.2 (List.mem_singleton.mpr rfl)⟩ = ix2 q 0 := by
      funext b; refine Fin.ext ?_
      match b with
      | ⟨0, _⟩ => rfl
      | ⟨1, _⟩ => rfl
    rw [hsi]
    rfl
  | ⟨1, _⟩ =>
    show (rowGather n e d wf).start (ix2 q j) idx 1 + (rowGather n e d wf).batchCoord (ix2 q j) 1
      + (rowGather n e d wf).offCoord (ix2 q j) 1 = j.val
    rw [GatherDims.batchCoord_eq_zero _ _ _ List.not_mem_nil]
    unfold GatherDims.start
    rw [dif_neg (show ¬ (1 : Fin 2) ∈ (rowGather n e d wf).startIndexMap from by
      show ¬ (1 : Fin 2) ∈ [(0 : Fin 2)]
      decide)]
    unfold GatherDims.offCoord
    rw [dif_pos (show (1 : Fin 2) ∈ (rowGather n e d wf).sKept from by
      show (1 : Fin 2) ∈ [(1 : Fin 2)]
      exact List.mem_singleton.2 rfl)]
    show 0 + 0 + j.val = j.val
    omega

/-- A word below `n ≤ 2³¹`, read signed and clamped into `[0, n − 1]`, is the word read unsigned. -/
theorem clamp_toNat {n : Nat} (hn : n ≤ 2 ^ 31) (w : BitVec 32) (hw : w.toNat < n) :
    min w.toInt.toNat (n - 1) = w.toNat := by
  rw [StableHlo.Predicate.toInt_eq_toNat_of_lt (Nat.lt_of_lt_of_le hw hn), Int.toNat_natCast]
  omega

/-- A vector as an `[e × 1]` column reads, at `(q, 0)`, the vector at `q`. -/
theorem bcast_col_apply {e : Nat} (he : e ≠ 1) (h : (⟨1, ![e]⟩ : Shape).BroadcastsInDim ⟨2, ![e, 1]⟩ ![0])
    (v : (⟨1, ![e]⟩ : Shape).Idx → α) (q : Fin e) :
    broadcastInDim ⟨2, ![e, 1]⟩ ![0] h v (ix2 q 0) = v (ix1 q) :=
  broadcastInDim_apply _ h v (ix2 q 0) (ix1 q) (fun a => match a with
    | ⟨0, _⟩ => by show q.val = if e = 1 then 0 else q.val; rw [if_neg he])

/-- THE ROW GATHER AT IN-RANGE WORDS: row `q` of the result is the table's row named by word `q`. -/
theorem gather_rows_eq {n e d : Nat} (hn : n ≤ 2 ^ 31) (he : e ≠ 1)
    (wf : GatherDims.WF ⟨2, ![n, d]⟩ ⟨2, ![e, 1]⟩ ⟨2, ![e, d]⟩ [1] [0] [] [0] [] 1 ![1, d])
    (h : (⟨1, ![e]⟩ : Shape).BroadcastsInDim ⟨2, ![e, 1]⟩ ![0])
    (tbl : (⟨2, ![n, d]⟩ : Shape).Idx → EReal) (idx : IVec ⟨1, ![e]⟩ 32) (hidx : ∀ q : Fin e, (idx (ix1 q)).toNat < n) :
    Host.gather (rowGather n e d wf) tbl (broadcastInDim ⟨2, ![e, 1]⟩ ![0] h idx)
      = Cert.Spec.gatherRows tbl (fun q : Fin e => idx (ix1 q)) := by
  funext i
  obtain ⟨q, j, rfl⟩ : ∃ (q : Fin e) (j : Fin d), i = ix2 q j := ⟨i 0, i 1, eq_ix2 i⟩
  have hq := hidx q
  rw [gather_rows_apply (Nat.lt_of_le_of_lt (Nat.zero_le _) hq) wf]
  show _ = if hh : (idx (ix1 q)).toNat < n then tbl (ix2 (⟨_, hh⟩ : Fin n) j) else 0
  rw [dif_pos hq]
  refine congrArg (fun r : Fin n => tbl (ix2 r j)) (Fin.ext ?_)
  show min (broadcastInDim ⟨2, ![e, 1]⟩ ![0] h idx (ix2 q 0)).toInt.toNat (n - 1) = (idx (ix1 q)).toNat
  rw [bcast_col_apply he h idx q]
  exact clamp_toNat hn _ hq

/-- THE ROW SCATTER-ADD INTO ZEROS AT IN-RANGE WORDS: row `r` of the result is the sum of the update rows whose word
    names `r`. -/
theorem scatter_rows_eq {n e d : Nat} (hn : n ≤ 2 ^ 31) (he : e ≠ 1)
    (wf : ScatterDims.WF ⟨2, ![n, d]⟩ ⟨2, ![e, 1]⟩ ⟨2, ![e, d]⟩ [1] [0] [0] 1)
    (h : (⟨1, ![e]⟩ : Shape).BroadcastsInDim ⟨2, ![e, 1]⟩ ![0])
    (z : (⟨2, ![n, d]⟩ : Shape).Idx → EReal) (hz : ∀ i, z i = 0)
    (idx : IVec ⟨1, ![e]⟩ 32) (hidx : ∀ q : Fin e, (idx (ix1 q)).toNat < n)
    (upd : (⟨2, ![e, d]⟩ : Shape).Idx → EReal) :
    Ideal.hostScatterAdd (Cert.LibPoolScatter.rowDims n e d wf) z (broadcastInDim ⟨2, ![e, 1]⟩ ![0] h idx) upd
      = Cert.Spec.segSum (fun q : Fin e => idx (ix1 q)) upd := by
  funext i
  obtain ⟨g, j, rfl⟩ : ∃ (g : Fin n) (j : Fin d), i = ix2 g j := ⟨i 0, i 1, eq_ix2 i⟩
  rw [Cert.LibPoolScatter.hostScatterAdd_rowDims_apply wf, hz, zero_add]
  show _ = ∑ q : Fin e, if (idx (ix1 q)).toNat = g.val then upd (ix2 q j) else 0
  refine Finset.sum_congr rfl fun q _ => ?_
  rw [bcast_col_apply he h idx q,
    StableHlo.Predicate.toInt_eq_toNat_of_lt (Nat.lt_of_lt_of_le (hidx q) hn)]
  simp only [Nat.cast_inj]

end Rows

/-! ## The reference's operations, read as the layer's pieces -/

section Term

open Cert.ReferenceIdeal.Read

variable (x0 : S100000x64.Idx → EReal) (x1 : S100000x1.Idx → EReal) (a b : S1600000.Idx → BitVec 32)
  (w : S64x64.Idx → EReal) (bias : S64.Idx → EReal)

/-- The scaled table. -/
theorem v1_eq : val_main_v1 (F := Ideal) x0 x1 = Cert.Spec.scaleRows x0 x1 := by
  funext i
  rw [val_main_v1_apply, val_main_v0_apply]
  show x0 i * x1 (idx_main_v0 i) = x0 i * x1 (ix2 (⟨(i 0).val, idx2_lt0 i⟩ : Fin 100000) (0 : Fin 1))
  exact congrArg (fun k => x0 i * x1 k) (funext fun c => match c with | ⟨0, _⟩ => rfl | ⟨1, _⟩ => rfl)

/-- In-range words are not negative: "add 100000 where negative" changes nothing. -/
theorem v6_eq (ha : ∀ q : Fin 1600000, (a (ix1 q)).toNat < 100000) : val_main_v6 (F := Ideal) a = a := by
  have hr : LibTake.InRange (2 ^ 31) a := fun i => by
    rw [eq_ix1 i]; exact Nat.lt_of_lt_of_le (ha _) (by decide)
  unfold val_main_v6 val_main_v3 val_main_v5 val_main_v2 val_main_c
  exact LibTake.wrap_eq _ _ a _ hr

theorem v17_eq (hb : ∀ q : Fin 1600000, (b (ix1 q)).toNat < 100000) : val_main_v17 (F := Ideal) b = b := by
  have hr : LibTake.InRange (2 ^ 31) b := fun i => by
    rw [eq_ix1 i]; exact Nat.lt_of_lt_of_le (hb _) (by decide)
  unfold val_main_v17 val_main_v14 val_main_v16 val_main_v13 val_main_c_1
  exact LibTake.wrap_eq _ _ b _ hr

/-- The zero splat the sums start from. -/
theorem v9_zero (i : S100000x64.Idx) : val_main_v9 (F := Ideal) i = 0 := by
  rw [val_main_v9_apply, val_main_cst_apply]
  exact Ideal.ofBits_zero_f32

theorem v20_zero (i : S100000x64.Idx) : val_main_v20 (F := Ideal) i = 0 := by
  rw [val_main_v20_apply, val_main_cst_3_apply]
  exact Ideal.ofBits_zero_f32

/-- The rows gathered at the first index array. -/
theorem v8_eq (ha : ∀ q : Fin 1600000, (a (ix1 q)).toNat < 100000) :
    val_main_v8 (F := Ideal) x0 x1 a
      = Cert.Spec.gatherRows (Cert.Spec.scaleRows x0 x1) (fun q : Fin 1600000 => a (ix1 q)) := by
  unfold val_main_v8 val_main_v7
  rw [v6_eq a ha, v1_eq]
  exact gather_rows_eq (by decide) (by decide) _ _ _ a ha

/-- The rows gathered at the second index array. -/
theorem v19_eq (hb : ∀ q : Fin 1600000, (b (ix1 q)).toNat < 100000) :
    val_main_v19 (F := Ideal) x0 x1 b
      = Cert.Spec.gatherRows (Cert.Spec.scaleRows x0 x1) (fun q : Fin 1600000 => b (ix1 q)) := by
  unfold val_main_v19 val_main_v18
  rw [v17_eq b hb, v1_eq]
  exact gather_rows_eq (by decide) (by decide) _ _ _ b hb

/-- The first neighbour sum: the rows gathered at `a`, summed per word of `b`. -/
theorem v11_eq (ha : ∀ q : Fin 1600000, (a (ix1 q)).toNat < 100000) (hb : ∀ q : Fin 1600000, (b (ix1 q)).toNat < 100000) :
    val_main_v11 (F := Ideal) x0 x1 a b
      = Cert.Spec.segSum (fun q : Fin 1600000 => b (ix1 q))
          (Cert.Spec.gatherRows (Cert.Spec.scaleRows x0 x1) (fun q : Fin 1600000 => a (ix1 q))) := by
  unfold val_main_v11 val_main_v10
  rw [v8_eq x0 x1 a ha]
  exact scatter_rows_eq (by decide) (by decide) _ _ _ v9_zero b hb _

/-- The second neighbour sum: the rows gathered at `b`, summed per word of `a`. -/
theorem v22_eq (ha : ∀ q : Fin 1600000, (a (ix1 q)).toNat < 100000) (hb : ∀ q : Fin 1600000, (b (ix1 q)).toNat < 100000) :
    val_main_v22 (F := Ideal) x0 x1 a b
      = Cert.Spec.segSum (fun q : Fin 1600000 => a (ix1 q))
          (Cert.Spec.gatherRows (Cert.Spec.scaleRows x0 x1) (fun q : Fin 1600000 => b (ix1 q))) := by
  unfold val_main_v22 val_main_v21
  rw [v19_eq x0 x1 b hb]
  exact scatter_rows_eq (by decide) (by decide) _ _ _ v20_zero a ha _

/-- The aggregate. -/
theorem v23_eq (ha : ∀ q : Fin 1600000, (a (ix1 q)).toNat < 100000) (hb : ∀ q : Fin 1600000, (b (ix1 q)).toNat < 100000) :
    val_main_v23 (F := Ideal) x0 x1 a b
      = Cert.Spec.aggregate (Cert.Spec.scaleRows x0 x1) (fun q : Fin 1600000 => a (ix1 q)) (fun q : Fin 1600000 => b (ix1 q))
          (Cert.Spec.gatherRows (Cert.Spec.scaleRows x0 x1) (fun q : Fin 1600000 => a (ix1 q)))
          (Cert.Spec.gatherRows (Cert.Spec.scaleRows x0 x1) (fun q : Fin 1600000 => b (ix1 q))) := by
  funext i
  rw [val_main_v23_apply, val_main_v12_apply, v1_eq, v11_eq x0 x1 a b ha hb, v22_eq x0 x1 a b ha hb]
  rfl

/-- THE COMPOSED TERM IS THE LAYER. -/
theorem term_eq (ha : ∀ q : Fin 1600000, (a (ix1 q)).toNat < 100000) (hb : ∀ q : Fin 1600000, (b (ix1 q)).toNat < 100000) :
    val_main_v30 (F := Ideal) x0 x1 a b w bias
      = Cert.Spec.layer x0 x1 (fun q : Fin 1600000 => a (ix1 q)) (fun q : Fin 1600000 => b (ix1 q)) w
          (fun j : Fin 64 => bias (ix1 j)) := by
  funext i
  rw [val_main_v30_apply, val_main_v29_apply, val_main_v26_apply, val_main_call0_v0_apply, val_main_call0_cst_apply,
    val_main_v28_apply, val_main_v27_apply]
  unfold Cert.Spec.layer Cert.Spec.dense
  refine congrArg₂ max (congrArg₂ (· + ·) (Finset.sum_congr rfl fun k _ => ?_) ?_) Ideal.ofBits_zero_f32
  · have e1 : lidx_main_v26 i k = ix2 (⟨(i 0).val, idx2_lt0 i⟩ : Fin 100000) k :=
      funext fun c => match c with | ⟨0, _⟩ => rfl | ⟨1, _⟩ => rfl
    have e2 : ridx_main_v26 i k = ix2 k (⟨(i 1).val, idx2_lt1 i⟩ : Fin 64) :=
      funext fun c => match c with | ⟨0, _⟩ => rfl | ⟨1, _⟩ => rfl
    have e3 : idx_main_v24 (ix2 (⟨(i 0).val, idx2_lt0 i⟩ : Fin 100000) k)
        = ix2 (⟨(i 0).val, idx2_lt0 i⟩ : Fin 100000) (0 : Fin 1) :=
      funext fun c => match c with | ⟨0, _⟩ => rfl | ⟨1, _⟩ => rfl
    rw [e1, e2, val_main_v25_apply, val_main_v24_apply, e3, v23_eq x0 x1 a b ha hb]
    rfl
  · exact congrArg bias (funext fun c => match c with | ⟨0, _⟩ => rfl)

end Term

/-- THE REFERENCE'S RUN, AS THE LAYER. From any memory whose two index arrays hold words below 100000, every weakly
    fair execution of the reference terminates with the result buffer at the layer of the arguments and the
    arguments unchanged. -/
theorem run_spec (m : (ℓ : Loc nD τ sig) → Buf (Elt Ideal) ℓ) (ρ : Dev nD → PrngReg)
    (ha : ∀ (c : Dev nD) (q : Fin 1600000), (((m ((c.tc : Thread nD τ).loc main_arg2)) : S1600000.Idx → BitVec 32) (ix1 q)).toNat < 100000)
    (hb : ∀ (c : Dev nD) (q : Fin 1600000), (((m ((c.tc : Thread nD τ).loc main_arg3)) : S1600000.Idx → BitVec 32) (ix1 q)).toNat < 100000) :
    θ_run defs (onTc (τ := τ) (main (F := Ideal))) ⟨m, fun _ => 0, ρ⟩ fun r => ∀ c : Dev nD,
      (r.2.mem ((c.tc : Thread nD τ).loc main_v30) : S100000x64.Idx → EReal)
        = Cert.Spec.layer ((m ((c.tc : Thread nD τ).loc main_arg0)) : S100000x64.Idx → EReal) ((m ((c.tc : Thread nD τ).loc main_arg1)) : S100000x1.Idx → EReal)
            (fun q : Fin 1600000 => ((m ((c.tc : Thread nD τ).loc main_arg2)) : S1600000.Idx → BitVec 32) (ix1 q))
            (fun q : Fin 1600000 => ((m ((c.tc : Thread nD τ).loc main_arg3)) : S1600000.Idx → BitVec 32) (ix1 q))
            ((m ((c.tc : Thread nD τ).loc main_arg4)) : S64x64.Idx → EReal)
            (fun j : Fin 64 => ((m ((c.tc : Thread nD τ).loc main_arg5)) : S64.Idx → EReal) (ix1 j))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨(h c).1.trans (term_eq (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) (ha c) (hb c)),
        (h c).2⟩)
    (Cert.ReferenceIdeal.Value.run (F := Ideal) m ρ)

end Cert.ReferenceIdeal.Hand

end
-- ==== Proof.PreDecode.lean ====
import proofs.«425878_j39771397161472_2_alg».proof.Pre_finite_inputs
import proofs.«425878_j39771397161472_2_alg».proof.Proof.Gen.Pre_finite_inputs
import proofs.«425878_j39771397161472_2_alg».proof.Proof.LibTake
import Idealize.ShloMosaic.Lib.ValueIdx
import Idealize.ShloMosaic.Lib.ReduceAll
import Idealize.ShloMosaic.Lib.StableHlo.Predicate

noncomputable section

/-! # The precondition bounds the index words

The precondition is a conjunction of eight whole-array tests; the last four say every word of the two index arrays
is at least zero and below 100000, read signed — so, read unsigned, below 100000. -/

namespace Cert.PreDecode

open Idealize.ShloMosaic Idealize.ShloMosaic.ValueIdx Cert.Pre_finite_inputs

variable {F : FTy → Type} [FloatOps F]

theorem range_of_pre (x0 : FVec F S100000x64 .f32) (x1 : FVec F S100000x1 .f32) (a b : IVec S1600000 32)
    (w : FVec F S64x64 .f32) (bias : FVec F S64 .f32)
    (h : Cert.Pre_finite_inputs.fn (F := F) x0 x1 a b w bias = (fun _ => 1#1)) :
    (∀ q : Fin 1600000, (a (ix1 q)).toNat < 100000) ∧ (∀ q : Fin 1600000, (b (ix1 q)).toNat < 100000) := by
  -- the scalar shape has one index
  haveI : Subsingleton S_.Idx := ⟨fun a b => funext fun d => d.elim0⟩
  have e := congrFun h ix0
  dsimp only [Cert.Pre_finite_inputs.fn, Cert.Pre_finite_inputs.fn_part1, Cert.Pre_finite_inputs.fn_part2] at e
  -- the conjunction of the eight tests, split from the outside in
  obtain ⟨e7, hb1⟩ := IntOp.andi_eq_one.1 e
  obtain ⟨e6, hb0⟩ := IntOp.andi_eq_one.1 e7
  obtain ⟨e5, ha1⟩ := IntOp.andi_eq_one.1 e6
  obtain ⟨e4, ha0⟩ := IntOp.andi_eq_one.1 e5
  have hb : (100000#32 : BitVec 32).toNat < 2 ^ 31 := by decide
  have hbN : (100000#32 : BitVec 32).toNat = 100000 := by decide
  have ra : LibTake.InRange 100000 a :=
    LibTake.InRange.of_compares (b := 100000#32) hb hbN (fun _ => rfl) (fun _ => rfl)
      (Host.reduce_andi_all _ _ _ _ _ ha0) (Host.reduce_andi_all _ _ _ _ _ ha1)
  have rb : LibTake.InRange 100000 b :=
    LibTake.InRange.of_compares (b := 100000#32) hb hbN (fun _ => rfl) (fun _ => rfl)
      (Host.reduce_andi_all _ _ _ _ _ hb0) (Host.reduce_andi_all _ _ _ _ _ hb1)
  exact ⟨fun q => ra (ix1 q), fun q => rb (ix1 q)⟩

end Cert.PreDecode

end
-- ==== Proof.lean ====
import proofs.«425878_j39771397161472_2_alg».proof.Defs
import proofs.«425878_j39771397161472_2_alg».proof.Proof.Gen.Kernel
import proofs.«425878_j39771397161472_2_alg».proof.Proof.Gen.KernelIdeal
import proofs.«425878_j39771397161472_2_alg».proof.Proof.Gen.ReferenceIdeal
import proofs.«425878_j39771397161472_2_alg».proof.Proof.Gen.Pre_finite_inputs
import proofs.«425878_j39771397161472_2_alg».proof.Proof.K.Run
import proofs.«425878_j39771397161472_2_alg».proof.Proof.KI.Run
import proofs.«425878_j39771397161472_2_alg».proof.Proof.KI.ValueAll
import proofs.«425878_j39771397161472_2_alg».proof.Proof.Ref
import proofs.«425878_j39771397161472_2_alg».proof.Proof.PreDecode
import Idealize.ShloMosaic.Adequacy
import Idealize.ShloMosaic.Init

/-! # The certificate

The kernel program pads the node table, its scaling column and the two edge-index vectors, and runs three kernels:
one scales the table's rows; one gathers the scaled rows along both index vectors as products with 0/1 matrices,
accumulated block by block; one sums the gathered rows per node the same way, adds the node's own row, scales,
and applies the dense layer. Read at the exact values, with every index word naming a node, that is the layer the
reference computes with a gather and a scatter-add. The frames hold for any index words: the words are only compared. -/

noncomputable section

namespace Cert.Proof

open Idealize.ShloMosaic Idealize.ShloMosaic.TcCoe Idealize.SL.Sem Idealize.ShloMosaic.ValueIdx

theorem frame_k : @Cert.frame_Kernel Cert.Kernel.Gen.facts Cert.Pre_finite_inputs.Gen.facts :=
  fun m ρ _ => Cert.Kernel.Hand.frame m ρ

theorem frame_ki : @Cert.frame_KernelIdeal Cert.KernelIdeal.Gen.facts Cert.Pre_finite_inputs.Gen.facts :=
  fun m ρ _ => Cert.KernelIdeal.Hand.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

theorem algebraic : @Cert.algebraic_KernelIdeal_ReferenceIdeal Cert.KernelIdeal.Gen.facts Cert.ReferenceIdeal.Gen.facts Cert.Pre_finite_inputs.Gen.facts := by
  intro m ρ m' ρ' hpre hagree
  -- the precondition bounds the index words, on every core
  have hr : ∀ c : Dev Cert.KernelIdeal.nD,
      (∀ q : Fin 1600000, (((m ((c.tc : Thread Cert.KernelIdeal.nD Cert.KernelIdeal.τ).loc Cert.KernelIdeal.main_arg2)) : Cert.KernelIdeal.S1600000.Idx → BitVec 32) (ix1 q)).toNat < 100000)
      ∧ (∀ q : Fin 1600000, (((m ((c.tc : Thread Cert.KernelIdeal.nD Cert.KernelIdeal.τ).loc Cert.KernelIdeal.main_arg3)) : Cert.KernelIdeal.S1600000.Idx → BitVec 32) (ix1 q)).toNat < 100000) :=
    fun c => Cert.PreDecode.range_of_pre (F := Ideal) _ _ _ _ _ _ (hpre c)
  refine ⟨fun c => Cert.Spec.layer ((m ((c.tc : Thread Cert.KernelIdeal.nD Cert.KernelIdeal.τ).loc Cert.KernelIdeal.main_arg0)) : Cert.KernelIdeal.S100000x64.Idx → EReal)
      ((m ((c.tc : Thread Cert.KernelIdeal.nD Cert.KernelIdeal.τ).loc Cert.KernelIdeal.main_arg1)) : Cert.KernelIdeal.S100000x1.Idx → EReal)
      (fun q : Fin 1600000 => ((m ((c.tc : Thread Cert.KernelIdeal.nD Cert.KernelIdeal.τ).loc Cert.KernelIdeal.main_arg2)) : Cert.KernelIdeal.S1600000.Idx → BitVec 32) (ix1 q))
      (fun q : Fin 1600000 => ((m ((c.tc : Thread Cert.KernelIdeal.nD Cert.KernelIdeal.τ).loc Cert.KernelIdeal.main_arg3)) : Cert.KernelIdeal.S1600000.Idx → BitVec 32) (ix1 q))
      ((m ((c.tc : Thread Cert.KernelIdeal.nD Cert.KernelIdeal.τ).loc Cert.KernelIdeal.main_arg4)) : Cert.KernelIdeal.S64x64.Idx → EReal)
      (fun j : Fin 64 => ((m ((c.tc : Thread Cert.KernelIdeal.nD Cert.KernelIdeal.τ).loc Cert.KernelIdeal.main_arg5)) : Cert.KernelIdeal.S64.Idx → EReal) (ix1 j)), ?_, ?_⟩
  · -- the kernel program: its named run, the result buffer read as the layer
    exact (θ_run Cert.KernelIdeal.defs _ _).mono
      (fun _ h c => ⟨(h c).1.trans (Cert.KernelIdeal.HandValue.result_value m c (hr c).1 (hr c).2), (h c).2⟩)
      (Cert.KernelIdeal.Hand.run_named m ρ)
  · -- the reference: its run as the layer of ITS arguments, which agree with the kernel program's
    refine (θ_run Cert.ReferenceIdeal.defs _ _).mono (fun _ h c => ⟨(h c).1.trans ?_, (h c).2⟩)
      (Cert.ReferenceIdeal.Hand.run_spec m' ρ'
        (fun c q => by rw [(hagree c).2.2.1]; exact (hr c).1 q)
        (fun c q => by rw [(hagree c).2.2.2.1]; exact (hr c).2 q))
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
